-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v476)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v476) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v419) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x3x16x32 : Shape := ⟨4, ![3, 3, 16, 32]⟩
abbrev S3x32 : Shape := ⟨2, ![3, 32]⟩
abbrev S32x16 : Shape := ⟨2, ![32, 16]⟩
abbrev S128x1 : Shape := ⟨2, ![128, 1]⟩
abbrev S256x128x16x16 : Shape := ⟨4, ![256, 128, 16, 16]⟩
abbrev S128x128 : Shape := ⟨2, ![128, 128]⟩
abbrev S_ : Shape := ⟨0, ![]⟩

class Facts : Prop where
  bcast_S_S3x3x16x32 : S_.BroadcastsInDim S3x3x16x32 (![] : Fin 0 → Fin S3x3x16x32.rank)
  reducesTo_S3x3x16x32_S_d0_1_2_3 : S3x3x16x32.ReducesTo [0, 1, 2, 3] S_
  h_S_ : 0 < S_.numel
  bcast_S_S3x32 : S_.BroadcastsInDim S3x32 (![] : Fin 0 → Fin S3x32.rank)
  reducesTo_S3x32_S_d0_1 : S3x32.ReducesTo [0, 1] S_
  bcast_S_S32x16 : S_.BroadcastsInDim S32x16 (![] : Fin 0 → Fin S32x16.rank)
  reducesTo_S32x16_S_d0_1 : S32x16.ReducesTo [0, 1] S_
  bcast_S_S128x1 : S_.BroadcastsInDim S128x1 (![] : Fin 0 → Fin S128x1.rank)
  reducesTo_S128x1_S_d0_1 : S128x1.ReducesTo [0, 1] S_
  bcast_S_S256x128x16x16 : S_.BroadcastsInDim S256x128x16x16 (![] : Fin 0 → Fin S256x128x16x16.rank)
  reducesTo_S256x128x16x16_S_d0_1_2_3 : S256x128x16x16.ReducesTo [0, 1, 2, 3] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S256x128x16x16 .f32) (main_arg8 : FVec F S128x128 .f32) (main_v33 : IVec S_ 1) : IVec S_ 1 :=
  let main_v34 : FVec F S256x128x16x16 .f32 := Host.absf main_arg7
  let main_cst_12 : FVec F S_ .f32 := constant S_ .f32 0x7F800000#32
  let main_v35 : FVec F S256x128x16x16 .f32 := broadcastInDim S256x128x16x16 ![] bcast_S_S256x128x16x16 main_cst_12
  let main_v36 : IVec S256x128x16x16 1 := cmpf .olt main_v34 main_v35
  let main_c_13 : IVec S_ 1 := constantI S_ 1 1#1
  let main_v37 : IVec S_ 1 := (fun x v => Host.reduce IntOp.andi x v reducesTo_S256x128x16x16_S_d0_1_2_3 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg4 : FVec F S3x32 .f32) (main_arg5 : FVec F S128x1 .f32) (main_arg6 : FVec F S128x1 .f32) (main_arg7 : FVec F S256x128x16x16 .f32) (main_arg8 : FVec F S128x128 .f32) (main_v13 : IVec S_ 1) (main_v16 : IVec S3x3x16x32 1) : IVec S_ 1 :=
  let main_c_5 : IVec S_ 1 := constantI S_ 1 1#1
  let main_v17 : IVec S_ 1 := (fun x v => Host.reduce IntOp.andi x v reducesTo_S3x3x16x32_S_d0_1_2_3 h_S_) main_v16 main_c_5
  let main_v18 : IVec S_ 1 := andi main_v13 main_v17
  let main_v19 : FVec F S3x32 .f32 := Host.absf main_arg4
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_v33

def fn {F : FTy → Type} [FloatOps F] (main_arg0 : FVec F S3x3x16x32 .f32) (main_arg1 : FVec F S3x32 .f32) (main_arg2 : FVec F S32x16 .f32) (main_arg3 : FVec F S3x3x16x32 .f32) (main_arg4 : FVec F S3x32 .f32) (main_arg5 : FVec F S128x1 .f32) (main_arg6 : FVec F S128x1 .f32) (main_arg7 : FVec F S256x128x16x16 .f32) (main_arg8 : FVec F S128x128 .f32) : IVec S_ 1 :=
  let main_v0 : FVec F S3x3x16x32 .f32 := Host.absf main_arg0
  let main_cst : FVec F S_ .f32 := constant S_ .f32 0x7F800000#32
  let main_v1 : FVec F S3x3x16x32 .f32 := broadcastInDim S3x3x16x32 ![] bcast_S_S3x3x16x32 main_cst
  let main_v2 : IVec S3x3x16x32 1 := cmpf .olt main_v0 main_v1
  let main_c : IVec S_ 1 := constantI S_ 1 1#1
  let main_v3 : IVec S_ 1 := (fun x v => Host.reduce IntOp.andi x v reducesTo_S3x3x16x32_S_d0_1_2_3 h_S_) main_v2 main_c
  let main_v4 : FVec F S3x32 .f32 := Host.absf main_arg1
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S3x3x16x32 .f32 := Host.absf main_arg3
  let main_cst_4 : FVec F S_ .f32 := constant S_ .f32 0x7F800000#32
  let main_v15 : FVec F S3x3x16x32 .f32 := broadcastInDim S3x3x16x32 ![] bcast_S_S3x3x16x32 main_cst_4
  let main_v16 : IVec S3x3x16x32 1 := cmpf .olt main_v14 main_v15
  fn_part1 (F := F) main_arg4 main_arg5 main_arg6 main_arg7 main_arg8 main_v13 main_v16
-- ==== Kernel.lean ====
abbrev S3x3x16x32 : Shape := ⟨4, ![3, 3, 16, 32]⟩
abbrev S3x32 : Shape := ⟨2, ![3, 32]⟩
abbrev S32x16 : Shape := ⟨2, ![32, 16]⟩
abbrev S128x1 : Shape := ⟨2, ![128, 1]⟩
abbrev S256x128x16x16 : Shape := ⟨4, ![256, 128, 16, 16]⟩
abbrev S128x128 : Shape := ⟨2, ![128, 128]⟩
abbrev S1x3x16x32 : Shape := ⟨4, ![1, 3, 16, 32]⟩
abbrev S3x16x32 : Shape := ⟨3, ![3, 16, 32]⟩
abbrev S1x32 : Shape := ⟨2, ![1, 32]⟩
abbrev S32 : Shape := ⟨1, ![32]⟩
abbrev S14 : Shape := ⟨1, ![14]⟩
abbrev S_ : Shape := ⟨0, ![]⟩
abbrev S16x16x14x32 : Shape := ⟨4, ![16, 16, 14, 32]⟩
abbrev S1x16x32 : Shape := ⟨3, ![1, 16, 32]⟩
abbrev S16x32 : Shape := ⟨2, ![16, 32]⟩
abbrev S14x16x32 : Shape := ⟨3, ![14, 16, 32]⟩
abbrev S14x1 : Shape := ⟨2, ![14, 1]⟩
abbrev S14x2 : Shape := ⟨2, ![14, 2]⟩
abbrev S256x448 : Shape := ⟨2, ![256, 448]⟩
abbrev S14x32 : Shape := ⟨2, ![14, 32]⟩
abbrev S448 : Shape := ⟨1, ![448]⟩
abbrev S256x512 : Shape := ⟨2, ![256, 512]⟩
abbrev S512 : Shape := ⟨1, ![512]⟩
abbrev S12 : Shape := ⟨1, ![12]⟩
abbrev S14x16x12x32 : Shape := ⟨4, ![14, 16, 12, 32]⟩
abbrev S12x16x32 : Shape := ⟨3, ![12, 16, 32]⟩
abbrev S12x1 : Shape := ⟨2, ![12, 1]⟩
abbrev S12x2 : Shape := ⟨2, ![12, 2]⟩
abbrev S224x384 : Shape := ⟨2, ![224, 384]⟩
abbrev S12x32 : Shape := ⟨2, ![12, 32]⟩
abbrev S384 : Shape := ⟨1, ![384]⟩
abbrev S256x1536 : Shape := ⟨2, ![256, 1536]⟩
abbrev S1536 : Shape := ⟨1, ![1536]⟩
abbrev S1x1536 : Shape := ⟨2, ![1, 1536]⟩
abbrev S224x1152 : Shape := ⟨2, ![224, 1152]⟩
abbrev S1152 : Shape := ⟨1, ![1152]⟩
abbrev S1x1152 : Shape := ⟨2, ![1, 1152]⟩
abbrev S14x14 : Shape := ⟨2, ![14, 14]⟩
abbrev S14x1x14x1 : Shape := ⟨4, ![14, 1, 14, 1]⟩
abbrev S1x32x1x16 : Shape := ⟨4, ![1, 32, 1, 16]⟩
abbrev S14x32x14x16 : Shape := ⟨4, ![14, 32, 14, 16]⟩
abbrev S448x224 : Shape := ⟨2, ![448, 224]⟩
abbrev S512x224 : Shape := ⟨2, ![512, 224]⟩
abbrev S256x128x256 : Shape := ⟨3, ![256, 128, 256]⟩
abbrev S256x128x384 : Shape := ⟨3, ![256, 128, 384]⟩
abbrev S256x128x1 : Shape := ⟨3, ![256, 128, 1]⟩
abbrev S8x128x256 : Shape := ⟨3, ![8, 128, 256]⟩
abbrev S8x128x384 : Shape := ⟨3, ![8, 128, 384]⟩
abbrev S8x128x1 : Shape := ⟨3, ![8, 128, 1]⟩
abbrev S1024x256 : Shape := ⟨2, ![1024, 256]⟩
abbrev S1024x1536 : Shape := ⟨2, ![1024, 1536]⟩
abbrev S1024x512 : Shape := ⟨2, ![1024, 512]⟩
abbrev S1024x224 : Shape := ⟨2, ![1024, 224]⟩
abbrev S128x224 : Shape := ⟨2, ![128, 224]⟩
abbrev S1024x1152 : Shape := ⟨2, ![1024, 1152]⟩
abbrev S1024x384 : Shape := ⟨2, ![1024, 384]⟩
abbrev S1024 : Shape := ⟨1, ![1024]⟩
abbrev S1024x1 : Shape := ⟨2, ![1024, 1]⟩
abbrev S256x128 : Shape := ⟨2, ![256, 128]⟩
abbrev S128 : Shape := ⟨1, ![128]⟩
abbrev S16x128x384 : Shape := ⟨3, ![16, 128, 384]⟩
abbrev S1x128x1 : Shape := ⟨3, ![1, 128, 1]⟩
abbrev S256x128x12x32 : Shape := ⟨4, ![256, 128, 12, 32]⟩

abbrev nBuf : Space → Nat
  | .hbm => 622
  | .vmem => 20
  | .smem => 0
  | _ => 0

abbrev hbmTy0_0 (i : Nat) : BufTy := match i % 128 with
  | 0 => ⟨S3x3x16x32, .f32⟩
  | 1 => ⟨S3x32, .f32⟩
  | 2 => ⟨S32x16, .f32⟩
  | 3 => ⟨S3x3x16x32, .f32⟩
  | 4 => ⟨S3x32, .f32⟩
  | 5 => ⟨S128x1, .f32⟩
  | 6 => ⟨S128x1, .f32⟩
  | 7 => ⟨S256x128x16x16, .f32⟩
  | 8 => ⟨S128x128, .f32⟩
  | 9 => ⟨S1x3x16x32, .f32⟩
  | 10 => ⟨S3x16x32, .f32⟩
  | 11 => ⟨S1x32, .f32⟩
  | 12 => ⟨S32, .f32⟩
  | 13 => ⟨S14, .i32⟩
  | 14 => ⟨S_, .f32⟩
  | 15 => ⟨S16x16x14x32, .f32⟩
  | 16 => ⟨S_, .i32⟩
  | 17 => ⟨S14, .i32⟩
  | 18 => ⟨S14, .i32⟩
  | 19 => ⟨S1x16x32, .f32⟩
  | 20 => ⟨S16x32, .f32⟩
  | 21 => ⟨S1x16x32, .f32⟩
  | 22 => ⟨S14x16x32, .f32⟩
  | 23 => ⟨S_, .i32⟩
  | 24 => ⟨S14, .i32⟩
  | 25 => ⟨S14, .i1⟩
  | 26 => ⟨S_, .i32⟩
  | 27 => ⟨S14, .i32⟩
  | 28 => ⟨S14, .i32⟩
  | 29 => ⟨S14, .i32⟩
  | 30 => ⟨S_, .i32⟩
  | 31 => ⟨S14, .i32⟩
  | 32 => ⟨S14, .i1⟩
  | 33 => ⟨S_, .i32⟩
  | 34 => ⟨S14, .i32⟩
  | 35 => ⟨S14, .i32⟩
  | 36 => ⟨S14, .i32⟩
  | 37 => ⟨S14x1, .i32⟩
  | 38 => ⟨S14x1, .i32⟩
  | 39 => ⟨S14x2, .i32⟩
  | 40 => ⟨S16x16x14x32, .f32⟩
  | 41 => ⟨S_, .i32⟩
  | 42 => ⟨S14, .i32⟩
  | 43 => ⟨S14, .i32⟩
  | 44 => ⟨S1x16x32, .f32⟩
  | 45 => ⟨S16x32, .f32⟩
  | 46 => ⟨S1x16x32, .f32⟩
  | 47 => ⟨S14x16x32, .f32⟩
  | 48 => ⟨S_, .i32⟩
  | 49 => ⟨S14, .i32⟩
  | 50 => ⟨S14, .i1⟩
  | 51 => ⟨S_, .i32⟩
  | 52 => ⟨S14, .i32⟩
  | 53 => ⟨S14, .i32⟩
  | 54 => ⟨S14, .i32⟩
  | 55 => ⟨S_, .i32⟩
  | 56 => ⟨S14, .i32⟩
  | 57 => ⟨S14, .i1⟩
  | 58 => ⟨S_, .i32⟩
  | 59 => ⟨S14, .i32⟩
  | 60 => ⟨S14, .i32⟩
  | 61 => ⟨S14, .i32⟩
  | 62 => ⟨S14x1, .i32⟩
  | 63 => ⟨S14x1, .i32⟩
  | 64 => ⟨S14x2, .i32⟩
  | 65 => ⟨S16x16x14x32, .f32⟩
  | 66 => ⟨S_, .i32⟩
  | 67 => ⟨S14, .i32⟩
  | 68 => ⟨S14, .i32⟩
  | 69 => ⟨S1x16x32, .f32⟩
  | 70 => ⟨S16x32, .f32⟩
  | 71 => ⟨S1x16x32, .f32⟩
  | 72 => ⟨S14x16x32, .f32⟩
  | 73 => ⟨S_, .i32⟩
  | 74 => ⟨S14, .i32⟩
  | 75 => ⟨S14, .i1⟩
  | 76 => ⟨S_, .i32⟩
  | 77 => ⟨S14, .i32⟩
  | 78 => ⟨S14, .i32⟩
  | 79 => ⟨S14, .i32⟩
  | 80 => ⟨S_, .i32⟩
  | 81 => ⟨S14, .i32⟩
  | 82 => ⟨S14, .i1⟩
  | 83 => ⟨S_, .i32⟩
  | 84 => ⟨S14, .i32⟩
  | 85 => ⟨S14, .i32⟩
  | 86 => ⟨S14, .i32⟩
  | 87 => ⟨S14x1, .i32⟩
  | 88 => ⟨S14x1, .i32⟩
  | 89 => ⟨S14x2, .i32⟩
  | 90 => ⟨S16x16x14x32, .f32⟩
  | 91 => ⟨S256x448, .f32⟩
  | 92 => ⟨S1x32, .f32⟩
  | 93 => ⟨S14x32, .f32⟩
  | 94 => ⟨S448, .f32⟩
  | 95 => ⟨S_, .i32⟩
  | 96 => ⟨S_, .f32⟩
  | 97 => ⟨S256x512, .f32⟩
  | 98 => ⟨S_, .i32⟩
  | 99 => ⟨S_, .f32⟩
  | 100 => ⟨S512, .f32⟩
  | 101 => ⟨S1x3x16x32, .f32⟩
  | 102 => ⟨S3x16x32, .f32⟩
  | 103 => ⟨S1x32, .f32⟩
  | 104 => ⟨S32, .f32⟩
  | 105 => ⟨S14, .i32⟩
  | 106 => ⟨S_, .f32⟩
  | 107 => ⟨S16x16x14x32, .f32⟩
  | 108 => ⟨S_, .i32⟩
  | 109 => ⟨S14, .i32⟩
  | 110 => ⟨S14, .i32⟩
  | 111 => ⟨S1x16x32, .f32⟩
  | 112 => ⟨S16x32, .f32⟩
  | 113 => ⟨S1x16x32, .f32⟩
  | 114 => ⟨S14x16x32, .f32⟩
  | 115 => ⟨S_, .i32⟩
  | 116 => ⟨S14, .i32⟩
  | 117 => ⟨S14, .i1⟩
  | 118 => ⟨S_, .i32⟩
  | 119 => ⟨S14, .i32⟩
  | 120 => ⟨S14, .i32⟩
  | 121 => ⟨S14, .i32⟩
  | 122 => ⟨S_, .i32⟩
  | 123 => ⟨S14, .i32⟩
  | 124 => ⟨S14, .i1⟩
  | 125 => ⟨S_, .i32⟩
  | 126 => ⟨S14, .i32⟩
  | 127 => ⟨S14, .i32⟩
  | _ => ⟨S3x3x16x32, .f32⟩

abbrev hbmTy0_1 (i : Nat) : BufTy := match i % 128 with
  | 0 => ⟨S14, .i32⟩
  | 1 => ⟨S14x1, .i32⟩
  | 2 => ⟨S14x1, .i32⟩
  | 3 => ⟨S14x2, .i32⟩
  | 4 => ⟨S16x16x14x32, .f32⟩
  | 5 => ⟨S_, .i32⟩
  | 6 => ⟨S14, .i32⟩
  | 7 => ⟨S14, .i32⟩
  | 8 => ⟨S1x16x32, .f32⟩
  | 9 => ⟨S16x32, .f32⟩
  | 10 => ⟨S1x16x32, .f32⟩
  | 11 => ⟨S14x16x32, .f32⟩
  | 12 => ⟨S_, .i32⟩
  | 13 => ⟨S14, .i32⟩
  | 14 => ⟨S14, .i1⟩
  | 15 => ⟨S_, .i32⟩
  | 16 => ⟨S14, .i32⟩
  | 17 => ⟨S14, .i32⟩
  | 18 => ⟨S14, .i32⟩
  | 19 => ⟨S_, .i32⟩
  | 20 => ⟨S14, .i32⟩
  | 21 => ⟨S14, .i1⟩
  | 22 => ⟨S_, .i32⟩
  | 23 => ⟨S14, .i32⟩
  | 24 => ⟨S14, .i32⟩
  | 25 => ⟨S14, .i32⟩
  | 26 => ⟨S14x1, .i32⟩
  | 27 => ⟨S14x1, .i32⟩
  | 28 => ⟨S14x2, .i32⟩
  | 29 => ⟨S16x16x14x32, .f32⟩
  | 30 => ⟨S_, .i32⟩
  | 31 => ⟨S14, .i32⟩
  | 32 => ⟨S14, .i32⟩
  | 33 => ⟨S1x16x32, .f32⟩
  | 34 => ⟨S16x32, .f32⟩
  | 35 => ⟨S1x16x32, .f32⟩
  | 36 => ⟨S14x16x32, .f32⟩
  | 37 => ⟨S_, .i32⟩
  | 38 => ⟨S14, .i32⟩
  | 39 => ⟨S14, .i1⟩
  | 40 => ⟨S_, .i32⟩
  | 41 => ⟨S14, .i32⟩
  | 42 => ⟨S14, .i32⟩
  | 43 => ⟨S14, .i32⟩
  | 44 => ⟨S_, .i32⟩
  | 45 => ⟨S14, .i32⟩
  | 46 => ⟨S14, .i1⟩
  | 47 => ⟨S_, .i32⟩
  | 48 => ⟨S14, .i32⟩
  | 49 => ⟨S14, .i32⟩
  | 50 => ⟨S14, .i32⟩
  | 51 => ⟨S14x1, .i32⟩
  | 52 => ⟨S14x1, .i32⟩
  | 53 => ⟨S14x2, .i32⟩
  | 54 => ⟨S16x16x14x32, .f32⟩
  | 55 => ⟨S256x448, .f32⟩
  | 56 => ⟨S1x32, .f32⟩
  | 57 => ⟨S14x32, .f32⟩
  | 58 => ⟨S448, .f32⟩
  | 59 => ⟨S_, .i32⟩
  | 60 => ⟨S_, .f32⟩
  | 61 => ⟨S256x512, .f32⟩
  | 62 => ⟨S_, .i32⟩
  | 63 => ⟨S_, .f32⟩
  | 64 => ⟨S512, .f32⟩
  | 65 => ⟨S1x3x16x32, .f32⟩
  | 66 => ⟨S3x16x32, .f32⟩
  | 67 => ⟨S1x32, .f32⟩
  | 68 => ⟨S32, .f32⟩
  | 69 => ⟨S14, .i32⟩
  | 70 => ⟨S_, .f32⟩
  | 71 => ⟨S16x16x14x32, .f32⟩
  | 72 => ⟨S_, .i32⟩
  | 73 => ⟨S14, .i32⟩
  | 74 => ⟨S14, .i32⟩
  | 75 => ⟨S1x16x32, .f32⟩
  | 76 => ⟨S16x32, .f32⟩
  | 77 => ⟨S1x16x32, .f32⟩
  | 78 => ⟨S14x16x32, .f32⟩
  | 79 => ⟨S_, .i32⟩
  | 80 => ⟨S14, .i32⟩
  | 81 => ⟨S14, .i1⟩
  | 82 => ⟨S_, .i32⟩
  | 83 => ⟨S14, .i32⟩
  | 84 => ⟨S14, .i32⟩
  | 85 => ⟨S14, .i32⟩
  | 86 => ⟨S_, .i32⟩
  | 87 => ⟨S14, .i32⟩
  | 88 => ⟨S14, .i1⟩
  | 89 => ⟨S_, .i32⟩
  | 90 => ⟨S14, .i32⟩
  | 91 => ⟨S14, .i32⟩
  | 92 => ⟨S14, .i32⟩
  | 93 => ⟨S14x1, .i32⟩
  | 94 => ⟨S14x1, .i32⟩
  | 95 => ⟨S14x2, .i32⟩
  | 96 => ⟨S16x16x14x32, .f32⟩
  | 97 => ⟨S_, .i32⟩
  | 98 => ⟨S14, .i32⟩
  | 99 => ⟨S14, .i32⟩
  | 100 => ⟨S1x16x32, .f32⟩
  | 101 => ⟨S16x32, .f32⟩
  | 102 => ⟨S1x16x32, .f32⟩
  | 103 => ⟨S14x16x32, .f32⟩
  | 104 => ⟨S_, .i32⟩
  | 105 => ⟨S14, .i32⟩
  | 106 => ⟨S14, .i1⟩
  | 107 => ⟨S_, .i32⟩
  | 108 => ⟨S14, .i32⟩
  | 109 => ⟨S14, .i32⟩
  | 110 => ⟨S14, .i32⟩
  | 111 => ⟨S_, .i32⟩
  | 112 => ⟨S14, .i32⟩
  | 113 => ⟨S14, .i1⟩
  | 114 => ⟨S_, .i32⟩
  | 115 => ⟨S14, .i32⟩
  | 116 => ⟨S14, .i32⟩
  | 117 => ⟨S14, .i32⟩
  | 118 => ⟨S14x1, .i32⟩
  | 119 => ⟨S14x1, .i32⟩
  | 120 => ⟨S14x2, .i32⟩
  | 121 => ⟨S16x16x14x32, .f32⟩
  | 122 => ⟨S_, .i32⟩
  | 123 => ⟨S14, .i32⟩
  | 124 => ⟨S14, .i32⟩
  | 125 => ⟨S1x16x32, .f32⟩
  | 126 => ⟨S16x32, .f32⟩
  | 127 => ⟨S1x16x32, .f32⟩
  | _ => ⟨S3x3x16x32, .f32⟩

abbrev hbmTy0_2 (i : Nat) : BufTy := match i % 128 with
  | 0 => ⟨S14x16x32, .f32⟩
  | 1 => ⟨S_, .i32⟩
  | 2 => ⟨S14, .i32⟩
  | 3 => ⟨S14, .i1⟩
  | 4 => ⟨S_, .i32⟩
  | 5 => ⟨S14, .i32⟩
  | 6 => ⟨S14, .i32⟩
  | 7 => ⟨S14, .i32⟩
  | 8 => ⟨S_, .i32⟩
  | 9 => ⟨S14, .i32⟩
  | 10 => ⟨S14, .i1⟩
  | 11 => ⟨S_, .i32⟩
  | 12 => ⟨S14, .i32⟩
  | 13 => ⟨S14, .i32⟩
  | 14 => ⟨S14, .i32⟩
  | 15 => ⟨S14x1, .i32⟩
  | 16 => ⟨S14x1, .i32⟩
  | 17 => ⟨S14x2, .i32⟩
  | 18 => ⟨S16x16x14x32, .f32⟩
  | 19 => ⟨S256x448, .f32⟩
  | 20 => ⟨S1x32, .f32⟩
  | 21 => ⟨S14x32, .f32⟩
  | 22 => ⟨S448, .f32⟩
  | 23 => ⟨S_, .i32⟩
  | 24 => ⟨S_, .f32⟩
  | 25 => ⟨S256x512, .f32⟩
  | 26 => ⟨S_, .i32⟩
  | 27 => ⟨S_, .f32⟩
  | 28 => ⟨S512, .f32⟩
  | 29 => ⟨S1x3x16x32, .f32⟩
  | 30 => ⟨S3x16x32, .f32⟩
  | 31 => ⟨S1x32, .f32⟩
  | 32 => ⟨S32, .f32⟩
  | 33 => ⟨S12, .i32⟩
  | 34 => ⟨S_, .f32⟩
  | 35 => ⟨S14x16x12x32, .f32⟩
  | 36 => ⟨S_, .i32⟩
  | 37 => ⟨S12, .i32⟩
  | 38 => ⟨S12, .i32⟩
  | 39 => ⟨S1x16x32, .f32⟩
  | 40 => ⟨S16x32, .f32⟩
  | 41 => ⟨S1x16x32, .f32⟩
  | 42 => ⟨S12x16x32, .f32⟩
  | 43 => ⟨S_, .i32⟩
  | 44 => ⟨S12, .i32⟩
  | 45 => ⟨S12, .i1⟩
  | 46 => ⟨S_, .i32⟩
  | 47 => ⟨S12, .i32⟩
  | 48 => ⟨S12, .i32⟩
  | 49 => ⟨S12, .i32⟩
  | 50 => ⟨S_, .i32⟩
  | 51 => ⟨S12, .i32⟩
  | 52 => ⟨S12, .i1⟩
  | 53 => ⟨S_, .i32⟩
  | 54 => ⟨S12, .i32⟩
  | 55 => ⟨S12, .i32⟩
  | 56 => ⟨S12, .i32⟩
  | 57 => ⟨S12x1, .i32⟩
  | 58 => ⟨S12x1, .i32⟩
  | 59 => ⟨S12x2, .i32⟩
  | 60 => ⟨S14x16x12x32, .f32⟩
  | 61 => ⟨S_, .i32⟩
  | 62 => ⟨S12, .i32⟩
  | 63 => ⟨S12, .i32⟩
  | 64 => ⟨S1x16x32, .f32⟩
  | 65 => ⟨S16x32, .f32⟩
  | 66 => ⟨S1x16x32, .f32⟩
  | 67 => ⟨S12x16x32, .f32⟩
  | 68 => ⟨S_, .i32⟩
  | 69 => ⟨S12, .i32⟩
  | 70 => ⟨S12, .i1⟩
  | 71 => ⟨S_, .i32⟩
  | 72 => ⟨S12, .i32⟩
  | 73 => ⟨S12, .i32⟩
  | 74 => ⟨S12, .i32⟩
  | 75 => ⟨S_, .i32⟩
  | 76 => ⟨S12, .i32⟩
  | 77 => ⟨S12, .i1⟩
  | 78 => ⟨S_, .i32⟩
  | 79 => ⟨S12, .i32⟩
  | 80 => ⟨S12, .i32⟩
  | 81 => ⟨S12, .i32⟩
  | 82 => ⟨S12x1, .i32⟩
  | 83 => ⟨S12x1, .i32⟩
  | 84 => ⟨S12x2, .i32⟩
  | 85 => ⟨S14x16x12x32, .f32⟩
  | 86 => ⟨S_, .i32⟩
  | 87 => ⟨S12, .i32⟩
  | 88 => ⟨S12, .i32⟩
  | 89 => ⟨S1x16x32, .f32⟩
  | 90 => ⟨S16x32, .f32⟩
  | 91 => ⟨S1x16x32, .f32⟩
  | 92 => ⟨S12x16x32, .f32⟩
  | 93 => ⟨S_, .i32⟩
  | 94 => ⟨S12, .i32⟩
  | 95 => ⟨S12, .i1⟩
  | 96 => ⟨S_, .i32⟩
  | 97 => ⟨S12, .i32⟩
  | 98 => ⟨S12, .i32⟩
  | 99 => ⟨S12, .i32⟩
  | 100 => ⟨S_, .i32⟩
  | 101 => ⟨S12, .i32⟩
  | 102 => ⟨S12, .i1⟩
  | 103 => ⟨S_, .i32⟩
  | 104 => ⟨S12, .i32⟩
  | 105 => ⟨S12, .i32⟩
  | 106 => ⟨S12, .i32⟩
  | 107 => ⟨S12x1, .i32⟩
  | 108 => ⟨S12x1, .i32⟩
  | 109 => ⟨S12x2, .i32⟩
  | 110 => ⟨S14x16x12x32, .f32⟩
  | 111 => ⟨S224x384, .f32⟩
  | 112 => ⟨S1x32, .f32⟩
  | 113 => ⟨S12x32, .f32⟩
  | 114 => ⟨S384, .f32⟩
  | 115 => ⟨S_, .i32⟩
  | 116 => ⟨S_, .f32⟩
  | 117 => ⟨S224x384, .f32⟩
  | 118 => ⟨S_, .i32⟩
  | 119 => ⟨S_, .f32⟩
  | 120 => ⟨S384, .f32⟩
  | 121 => ⟨S1x3x16x32, .f32⟩
  | 122 => ⟨S3x16x32, .f32⟩
  | 123 => ⟨S1x32, .f32⟩
  | 124 => ⟨S32, .f32⟩
  | 125 => ⟨S12, .i32⟩
  | 126 => ⟨S_, .f32⟩
  | 127 => ⟨S14x16x12x32, .f32⟩
  | _ => ⟨S3x3x16x32, .f32⟩

abbrev hbmTy0_3 (i : Nat) : BufTy := match i % 128 with
  | 0 => ⟨S_, .i32⟩
  | 1 => ⟨S12, .i32⟩
  | 2 => ⟨S12, .i32⟩
  | 3 => ⟨S1x16x32, .f32⟩
  | 4 => ⟨S16x32, .f32⟩
  | 5 => ⟨S1x16x32, .f32⟩
  | 6 => ⟨S12x16x32, .f32⟩
  | 7 => ⟨S_, .i32⟩
  | 8 => ⟨S12, .i32⟩
  | 9 => ⟨S12, .i1⟩
  | 10 => ⟨S_, .i32⟩
  | 11 => ⟨S12, .i32⟩
  | 12 => ⟨S12, .i32⟩
  | 13 => ⟨S12, .i32⟩
  | 14 => ⟨S_, .i32⟩
  | 15 => ⟨S12, .i32⟩
  | 16 => ⟨S12, .i1⟩
  | 17 => ⟨S_, .i32⟩
  | 18 => ⟨S12, .i32⟩
  | 19 => ⟨S12, .i32⟩
  | 20 => ⟨S12, .i32⟩
  | 21 => ⟨S12x1, .i32⟩
  | 22 => ⟨S12x1, .i32⟩
  | 23 => ⟨S12x2, .i32⟩
  | 24 => ⟨S14x16x12x32, .f32⟩
  | 25 => ⟨S_, .i32⟩
  | 26 => ⟨S12, .i32⟩
  | 27 => ⟨S12, .i32⟩
  | 28 => ⟨S1x16x32, .f32⟩
  | 29 => ⟨S16x32, .f32⟩
  | 30 => ⟨S1x16x32, .f32⟩
  | 31 => ⟨S12x16x32, .f32⟩
  | 32 => ⟨S_, .i32⟩
  | 33 => ⟨S12, .i32⟩
  | 34 => ⟨S12, .i1⟩
  | 35 => ⟨S_, .i32⟩
  | 36 => ⟨S12, .i32⟩
  | 37 => ⟨S12, .i32⟩
  | 38 => ⟨S12, .i32⟩
  | 39 => ⟨S_, .i32⟩
  | 40 => ⟨S12, .i32⟩
  | 41 => ⟨S12, .i1⟩
  | 42 => ⟨S_, .i32⟩
  | 43 => ⟨S12, .i32⟩
  | 44 => ⟨S12, .i32⟩
  | 45 => ⟨S12, .i32⟩
  | 46 => ⟨S12x1, .i32⟩
  | 47 => ⟨S12x1, .i32⟩
  | 48 => ⟨S12x2, .i32⟩
  | 49 => ⟨S14x16x12x32, .f32⟩
  | 50 => ⟨S_, .i32⟩
  | 51 => ⟨S12, .i32⟩
  | 52 => ⟨S12, .i32⟩
  | 53 => ⟨S1x16x32, .f32⟩
  | 54 => ⟨S16x32, .f32⟩
  | 55 => ⟨S1x16x32, .f32⟩
  | 56 => ⟨S12x16x32, .f32⟩
  | 57 => ⟨S_, .i32⟩
  | 58 => ⟨S12, .i32⟩
  | 59 => ⟨S12, .i1⟩
  | 60 => ⟨S_, .i32⟩
  | 61 => ⟨S12, .i32⟩
  | 62 => ⟨S12, .i32⟩
  | 63 => ⟨S12, .i32⟩
  | 64 => ⟨S_, .i32⟩
  | 65 => ⟨S12, .i32⟩
  | 66 => ⟨S12, .i1⟩
  | 67 => ⟨S_, .i32⟩
  | 68 => ⟨S12, .i32⟩
  | 69 => ⟨S12, .i32⟩
  | 70 => ⟨S12, .i32⟩
  | 71 => ⟨S12x1, .i32⟩
  | 72 => ⟨S12x1, .i32⟩
  | 73 => ⟨S12x2, .i32⟩
  | 74 => ⟨S14x16x12x32, .f32⟩
  | 75 => ⟨S224x384, .f32⟩
  | 76 => ⟨S1x32, .f32⟩
  | 77 => ⟨S12x32, .f32⟩
  | 78 => ⟨S384, .f32⟩
  | 79 => ⟨S_, .i32⟩
  | 80 => ⟨S_, .f32⟩
  | 81 => ⟨S224x384, .f32⟩
  | 82 => ⟨S_, .i32⟩
  | 83 => ⟨S_, .f32⟩
  | 84 => ⟨S384, .f32⟩
  | 85 => ⟨S1x3x16x32, .f32⟩
  | 86 => ⟨S3x16x32, .f32⟩
  | 87 => ⟨S1x32, .f32⟩
  | 88 => ⟨S32, .f32⟩
  | 89 => ⟨S12, .i32⟩
  | 90 => ⟨S_, .f32⟩
  | 91 => ⟨S14x16x12x32, .f32⟩
  | 92 => ⟨S_, .i32⟩
  | 93 => ⟨S12, .i32⟩
  | 94 => ⟨S12, .i32⟩
  | 95 => ⟨S1x16x32, .f32⟩
  | 96 => ⟨S16x32, .f32⟩
  | 97 => ⟨S1x16x32, .f32⟩
  | 98 => ⟨S12x16x32, .f32⟩
  | 99 => ⟨S_, .i32⟩
  | 100 => ⟨S12, .i32⟩
  | 101 => ⟨S12, .i1⟩
  | 102 => ⟨S_, .i32⟩
  | 103 => ⟨S12, .i32⟩
  | 104 => ⟨S12, .i32⟩
  | 105 => ⟨S12, .i32⟩
  | 106 => ⟨S_, .i32⟩
  | 107 => ⟨S12, .i32⟩
  | 108 => ⟨S12, .i1⟩
  | 109 => ⟨S_, .i32⟩
  | 110 => ⟨S12, .i32⟩
  | 111 => ⟨S12, .i32⟩
  | 112 => ⟨S12, .i32⟩
  | 113 => ⟨S12x1, .i32⟩
  | 114 => ⟨S12x1, .i32⟩
  | 115 => ⟨S12x2, .i32⟩
  | 116 => ⟨S14x16x12x32, .f32⟩
  | 117 => ⟨S_, .i32⟩
  | 118 => ⟨S12, .i32⟩
  | 119 => ⟨S12, .i32⟩
  | 120 => ⟨S1x16x32, .f32⟩
  | 121 => ⟨S16x32, .f32⟩
  | 122 => ⟨S1x16x32, .f32⟩
  | 123 => ⟨S12x16x32, .f32⟩
  | 124 => ⟨S_, .i32⟩
  | 125 => ⟨S12, .i32⟩
  | 126 => ⟨S12, .i1⟩
  | 127 => ⟨S_, .i32⟩
  | _ => ⟨S3x3x16x32, .f32⟩

abbrev hbmTy0_4 (i : Nat) : BufTy := match i % 128 with
  | 0 => ⟨S12, .i32⟩
  | 1 => ⟨S12, .i32⟩
  | 2 => ⟨S12, .i32⟩
  | 3 => ⟨S_, .i32⟩
  | 4 => ⟨S12, .i32⟩
  | 5 => ⟨S12, .i1⟩
  | 6 => ⟨S_, .i32⟩
  | 7 => ⟨S12, .i32⟩
  | 8 => ⟨S12, .i32⟩
  | 9 => ⟨S12, .i32⟩
  | 10 => ⟨S12x1, .i32⟩
  | 11 => ⟨S12x1, .i32⟩
  | 12 => ⟨S12x2, .i32⟩
  | 13 => ⟨S14x16x12x32, .f32⟩
  | 14 => ⟨S_, .i32⟩
  | 15 => ⟨S12, .i32⟩
  | 16 => ⟨S12, .i32⟩
  | 17 => ⟨S1x16x32, .f32⟩
  | 18 => ⟨S16x32, .f32⟩
  | 19 => ⟨S1x16x32, .f32⟩
  | 20 => ⟨S12x16x32, .f32⟩
  | 21 => ⟨S_, .i32⟩
  | 22 => ⟨S12, .i32⟩
  | 23 => ⟨S12, .i1⟩
  | 24 => ⟨S_, .i32⟩
  | 25 => ⟨S12, .i32⟩
  | 26 => ⟨S12, .i32⟩
  | 27 => ⟨S12, .i32⟩
  | 28 => ⟨S_, .i32⟩
  | 29 => ⟨S12, .i32⟩
  | 30 => ⟨S12, .i1⟩
  | 31 => ⟨S_, .i32⟩
  | 32 => ⟨S12, .i32⟩
  | 33 => ⟨S12, .i32⟩
  | 34 => ⟨S12, .i32⟩
  | 35 => ⟨S12x1, .i32⟩
  | 36 => ⟨S12x1, .i32⟩
  | 37 => ⟨S12x2, .i32⟩
  | 38 => ⟨S14x16x12x32, .f32⟩
  | 39 => ⟨S224x384, .f32⟩
  | 40 => ⟨S1x32, .f32⟩
  | 41 => ⟨S12x32, .f32⟩
  | 42 => ⟨S384, .f32⟩
  | 43 => ⟨S_, .i32⟩
  | 44 => ⟨S_, .f32⟩
  | 45 => ⟨S224x384, .f32⟩
  | 46 => ⟨S_, .i32⟩
  | 47 => ⟨S_, .f32⟩
  | 48 => ⟨S384, .f32⟩
  | 49 => ⟨S256x1536, .f32⟩
  | 50 => ⟨S256x1536, .bf16⟩
  | 51 => ⟨S1536, .f32⟩
  | 52 => ⟨S1x1536, .f32⟩
  | 53 => ⟨S224x1152, .f32⟩
  | 54 => ⟨S224x1152, .bf16⟩
  | 55 => ⟨S1152, .f32⟩
  | 56 => ⟨S1x1152, .f32⟩
  | 57 => ⟨S14x14, .i32⟩
  | 58 => ⟨S14x14, .i32⟩
  | 59 => ⟨S_, .i32⟩
  | 60 => ⟨S14x14, .i32⟩
  | 61 => ⟨S14x14, .i32⟩
  | 62 => ⟨S14x14, .i1⟩
  | 63 => ⟨S14x14, .f32⟩
  | 64 => ⟨S14x1x14x1, .f32⟩
  | 65 => ⟨S1x32x1x16, .f32⟩
  | 66 => ⟨S14x32x14x16, .f32⟩
  | 67 => ⟨S14x32x14x16, .f32⟩
  | 68 => ⟨S14x32x14x16, .f32⟩
  | 69 => ⟨S448x224, .f32⟩
  | 70 => ⟨S_, .i32⟩
  | 71 => ⟨S_, .f32⟩
  | 72 => ⟨S512x224, .f32⟩
  | 73 => ⟨S512x224, .bf16⟩
  | 74 => ⟨S128x128, .bf16⟩
  | 75 => ⟨S256x128x256, .f32⟩
  | 76 => ⟨S256x128x384, .bf16⟩
  | 77 => ⟨S256x128x1, .f32⟩
  | 78 => ⟨S256x128x1, .f32⟩
  | 79 => ⟨S256x128, .f32⟩
  | 80 => ⟨S_, .f32⟩
  | 81 => ⟨S128, .f32⟩
  | 82 => ⟨S_, .f32⟩
  | 83 => ⟨S128, .f32⟩
  | 84 => ⟨S128, .f32⟩
  | 85 => ⟨S256x128, .f32⟩
  | 86 => ⟨S_, .f32⟩
  | 87 => ⟨S128, .f32⟩
  | 88 => ⟨S_, .f32⟩
  | 89 => ⟨S128, .f32⟩
  | 90 => ⟨S128, .f32⟩
  | 91 => ⟨S128, .f32⟩
  | 92 => ⟨S128, .f32⟩
  | 93 => ⟨S_, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S128, .f32⟩
  | 102 => ⟨S128x1, .f32⟩
  | 103 => ⟨S128, .f32⟩
  | 104 => ⟨S128, .f32⟩
  | 105 => ⟨S128, .f32⟩
  | 106 => ⟨S128, .f32⟩
  | 107 => ⟨S128x1, .f32⟩
  | 108 => ⟨S256x128x384, .f32⟩
  | 109 => ⟨S256x128x12x32, .f32⟩
  | _ => ⟨S3x3x16x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x3x16x32, .f32⟩

abbrev bufTy : (tb : Table) → Fin (tcTables nBuf tb) → BufTy
  | .hbm, ⟨i, _⟩ => hbmTy i
  | .local _ .vmem, ⟨0, _⟩ => ⟨S8x128x256, .f32⟩
  | .local _ .vmem, ⟨1, _⟩ => ⟨S8x128x256, .f32⟩
  | .local _ .vmem, ⟨2, _⟩ => ⟨S128x128, .bf16⟩
  | .local _ .vmem, ⟨3, _⟩ => ⟨S256x1536, .bf16⟩
  | .local _ .vmem, ⟨4, _⟩ => ⟨S1x1536, .f32⟩
  | .local _ .vmem, ⟨5, _⟩ => ⟨S512x224, .bf16⟩
  | .local _ .vmem, ⟨6, _⟩ => ⟨S224x1152, .bf16⟩
  | .local _ .vmem, ⟨7, _⟩ => ⟨S1x1152, .f32⟩
  | .local _ .vmem, ⟨8, _⟩ => ⟨S8x128x384, .bf16⟩
  | .local _ .vmem, ⟨9, _⟩ => ⟨S8x128x384, .bf16⟩
  | .local _ .vmem, ⟨10, _⟩ => ⟨S8x128x1, .f32⟩
  | .local _ .vmem, ⟨11, _⟩ => ⟨S8x128x1, .f32⟩
  | .local _ .vmem, ⟨12, _⟩ => ⟨S8x128x1, .f32⟩
  | .local _ .vmem, ⟨13, _⟩ => ⟨S8x128x1, .f32⟩
  | .local _ .vmem, ⟨14, _⟩ => ⟨S16x128x384, .bf16⟩
  | .local _ .vmem, ⟨15, _⟩ => ⟨S16x128x384, .bf16⟩
  | .local _ .vmem, ⟨16, _⟩ => ⟨S128x1, .f32⟩
  | .local _ .vmem, ⟨17, _⟩ => ⟨S128x1, .f32⟩
  | .local _ .vmem, ⟨18, _⟩ => ⟨S16x128x384, .f32⟩
  | .local _ .vmem, ⟨19, _⟩ => ⟨S16x128x384, .f32⟩
  | _, _ => ⟨S3x3x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_call0_v0 : Ref sig .tc := ⟨.hbm, 96, rfl⟩
abbrev main_v70 : Ref sig .tc := ⟨.hbm, 97, rfl⟩
abbrev main_c_15 : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_20 : Ref sig .tc := ⟨.hbm, 122, rfl⟩
abbrev main_v89 : Ref sig .tc := ⟨.hbm, 123, rfl⟩
abbrev main_v90 : Ref sig .tc := ⟨.hbm, 124, rfl⟩
abbrev main_c_21 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_22 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_23 : Ref sig .tc := ⟨.hbm, 140, rfl⟩
abbrev main_v104 : Ref sig .tc := ⟨.hbm, 141, rfl⟩
abbrev main_v105 : Ref sig .tc := ⟨.hbm, 142, rfl⟩
abbrev main_c_24 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_25 : Ref sig .tc := ⟨.hbm, 147, rfl⟩
abbrev main_v109 : Ref sig .tc := ⟨.hbm, 148, rfl⟩
abbrev main_v110 : Ref sig .tc := ⟨.hbm, 149, rfl⟩
abbrev main_c_26 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_27 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_28 : Ref sig .tc := ⟨.hbm, 165, rfl⟩
abbrev main_v124 : Ref sig .tc := ⟨.hbm, 166, rfl⟩
abbrev main_v125 : Ref sig .tc := ⟨.hbm, 167, rfl⟩
abbrev main_c_29 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_30 : Ref sig .tc := ⟨.hbm, 172, rfl⟩
abbrev main_v129 : Ref sig .tc := ⟨.hbm, 173, rfl⟩
abbrev main_v130 : Ref sig .tc := ⟨.hbm, 174, rfl⟩
abbrev main_c_31 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_32 : Ref sig .tc := ⟨.hbm, 187, rfl⟩
abbrev main_call2_v0 : Ref sig .tc := ⟨.hbm, 188, rfl⟩
abbrev main_v142 : Ref sig .tc := ⟨.hbm, 189, rfl⟩
abbrev main_c_33 : Ref sig .tc := ⟨.hbm, 190, rfl⟩
abbrev main_call3_v0 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_34 : Ref sig .tc := ⟨.hbm, 198, rfl⟩
abbrev main_v149 : Ref sig .tc := ⟨.hbm, 199, rfl⟩
abbrev main_c_35 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_36 : Ref sig .tc := ⟨.hbm, 207, rfl⟩
abbrev main_v156 : Ref sig .tc := ⟨.hbm, 208, rfl⟩
abbrev main_v157 : Ref sig .tc := ⟨.hbm, 209, rfl⟩
abbrev main_c_37 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_38 : Ref sig .tc := ⟨.hbm, 214, rfl⟩
abbrev main_v161 : Ref sig .tc := ⟨.hbm, 215, rfl⟩
abbrev main_v162 : Ref sig .tc := ⟨.hbm, 216, rfl⟩
abbrev main_c_39 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_40 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_c_41 : Ref sig .tc := ⟨.hbm, 232, rfl⟩
abbrev main_v176 : Ref sig .tc := ⟨.hbm, 233, rfl⟩
abbrev main_v177 : Ref sig .tc := ⟨.hbm, 234, rfl⟩
abbrev main_c_42 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_c_43 : Ref sig .tc := ⟨.hbm, 239, rfl⟩
abbrev main_v181 : Ref sig .tc := ⟨.hbm, 240, rfl⟩
abbrev main_v182 : Ref sig .tc := ⟨.hbm, 241, rfl⟩
abbrev main_c_44 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_c_45 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_46 : Ref sig .tc := ⟨.hbm, 257, rfl⟩
abbrev main_v196 : Ref sig .tc := ⟨.hbm, 258, rfl⟩
abbrev main_v197 : Ref sig .tc := ⟨.hbm, 259, rfl⟩
abbrev main_c_47 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_c_48 : Ref sig .tc := ⟨.hbm, 264, rfl⟩
abbrev main_v201 : Ref sig .tc := ⟨.hbm, 265, rfl⟩
abbrev main_v202 : Ref sig .tc := ⟨.hbm, 266, rfl⟩
abbrev main_c_49 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_c_50 : Ref sig .tc := ⟨.hbm, 279, rfl⟩
abbrev main_call4_v0 : Ref sig .tc := ⟨.hbm, 280, rfl⟩
abbrev main_v214 : Ref sig .tc := ⟨.hbm, 281, rfl⟩
abbrev main_c_51 : Ref sig .tc := ⟨.hbm, 282, rfl⟩
abbrev main_call5_v0 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_52 : Ref sig .tc := ⟨.hbm, 290, rfl⟩
abbrev main_v221 : Ref sig .tc := ⟨.hbm, 291, rfl⟩
abbrev main_c_53 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_c_54 : Ref sig .tc := ⟨.hbm, 299, rfl⟩
abbrev main_v228 : Ref sig .tc := ⟨.hbm, 300, rfl⟩
abbrev main_v229 : Ref sig .tc := ⟨.hbm, 301, rfl⟩
abbrev main_c_55 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_c_56 : Ref sig .tc := ⟨.hbm, 306, rfl⟩
abbrev main_v233 : Ref sig .tc := ⟨.hbm, 307, rfl⟩
abbrev main_v234 : Ref sig .tc := ⟨.hbm, 308, rfl⟩
abbrev main_c_57 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_c_58 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_c_59 : Ref sig .tc := ⟨.hbm, 324, rfl⟩
abbrev main_v248 : Ref sig .tc := ⟨.hbm, 325, rfl⟩
abbrev main_v249 : Ref sig .tc := ⟨.hbm, 326, rfl⟩
abbrev main_c_60 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_c_61 : Ref sig .tc := ⟨.hbm, 331, rfl⟩
abbrev main_v253 : Ref sig .tc := ⟨.hbm, 332, rfl⟩
abbrev main_v254 : Ref sig .tc := ⟨.hbm, 333, rfl⟩
abbrev main_c_62 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_c_63 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_c_64 : Ref sig .tc := ⟨.hbm, 349, rfl⟩
abbrev main_v268 : Ref sig .tc := ⟨.hbm, 350, rfl⟩
abbrev main_v269 : Ref sig .tc := ⟨.hbm, 351, rfl⟩
abbrev main_c_65 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_c_66 : Ref sig .tc := ⟨.hbm, 356, rfl⟩
abbrev main_v273 : Ref sig .tc := ⟨.hbm, 357, rfl⟩
abbrev main_v274 : Ref sig .tc := ⟨.hbm, 358, rfl⟩
abbrev main_c_67 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_c_68 : Ref sig .tc := ⟨.hbm, 371, rfl⟩
abbrev main_call6_v0 : Ref sig .tc := ⟨.hbm, 372, rfl⟩
abbrev main_v286 : Ref sig .tc := ⟨.hbm, 373, rfl⟩
abbrev main_c_69 : Ref sig .tc := ⟨.hbm, 374, rfl⟩
abbrev main_call7_v0 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_cst_70 : Ref sig .tc := ⟨.hbm, 382, rfl⟩
abbrev main_v293 : Ref sig .tc := ⟨.hbm, 383, rfl⟩
abbrev main_c_71 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_c_72 : Ref sig .tc := ⟨.hbm, 391, rfl⟩
abbrev main_v300 : Ref sig .tc := ⟨.hbm, 392, rfl⟩
abbrev main_v301 : Ref sig .tc := ⟨.hbm, 393, rfl⟩
abbrev main_c_73 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_c_74 : Ref sig .tc := ⟨.hbm, 398, rfl⟩
abbrev main_v305 : Ref sig .tc := ⟨.hbm, 399, rfl⟩
abbrev main_v306 : Ref sig .tc := ⟨.hbm, 400, rfl⟩
abbrev main_c_75 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_c_76 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_c_77 : Ref sig .tc := ⟨.hbm, 416, rfl⟩
abbrev main_v320 : Ref sig .tc := ⟨.hbm, 417, rfl⟩
abbrev main_v321 : Ref sig .tc := ⟨.hbm, 418, rfl⟩
abbrev main_c_78 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_c_79 : Ref sig .tc := ⟨.hbm, 423, rfl⟩
abbrev main_v325 : Ref sig .tc := ⟨.hbm, 424, rfl⟩
abbrev main_v326 : Ref sig .tc := ⟨.hbm, 425, rfl⟩
abbrev main_c_80 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_v331 : Ref sig .tc := ⟨.hbm, 431, rfl⟩
abbrev main_v332 : Ref sig .tc := ⟨.hbm, 432, rfl⟩
abbrev main_v333 : Ref sig .tc := ⟨.hbm, 433, rfl⟩
abbrev main_c_81 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_v339 : Ref sig .tc := ⟨.hbm, 440, rfl⟩
abbrev main_c_82 : Ref sig .tc := ⟨.hbm, 441, rfl⟩
abbrev main_v340 : Ref sig .tc := ⟨.hbm, 442, rfl⟩
abbrev main_v341 : Ref sig .tc := ⟨.hbm, 443, rfl⟩
abbrev main_c_83 : Ref sig .tc := ⟨.hbm, 444, rfl⟩
abbrev main_v342 : Ref sig .tc := ⟨.hbm, 445, rfl⟩
abbrev main_v343 : Ref sig .tc := ⟨.hbm, 446, rfl⟩
abbrev main_v344 : Ref sig .tc := ⟨.hbm, 447, rfl⟩
abbrev main_c_84 : Ref sig .tc := ⟨.hbm, 448, rfl⟩
abbrev main_v345 : Ref sig .tc := ⟨.hbm, 449, rfl⟩
abbrev main_v346 : Ref sig .tc := ⟨.hbm, 450, rfl⟩
abbrev main_c_85 : Ref sig .tc := ⟨.hbm, 451, rfl⟩
abbrev main_v347 : Ref sig .tc := ⟨.hbm, 452, rfl⟩
abbrev main_v348 : Ref sig .tc := ⟨.hbm, 453, rfl⟩
abbrev main_v349 : Ref sig .tc := ⟨.hbm, 454, rfl⟩
abbrev main_v350 : Ref sig .tc := ⟨.hbm, 455, rfl⟩
abbrev main_v351 : Ref sig .tc := ⟨.hbm, 456, rfl⟩
abbrev main_v352 : Ref sig .tc := ⟨.hbm, 457, rfl⟩
abbrev main_v353 : Ref sig .tc := ⟨.hbm, 458, rfl⟩
abbrev main_v354 : Ref sig .tc := ⟨.hbm, 459, rfl⟩
abbrev main_v355 : Ref sig .tc := ⟨.hbm, 460, rfl⟩
abbrev main_v356 : Ref sig .tc := ⟨.hbm, 461, rfl⟩
abbrev main_v357 : Ref sig .tc := ⟨.hbm, 462, rfl⟩
abbrev main_c_86 : Ref sig .tc := ⟨.hbm, 463, rfl⟩
abbrev main_call8_v0 : Ref sig .tc := ⟨.hbm, 464, rfl⟩
abbrev main_v358 : Ref sig .tc := ⟨.hbm, 465, rfl⟩
abbrev main_c_87 : Ref sig .tc := ⟨.hbm, 466, rfl⟩
abbrev main_call9_v0 : Ref sig .tc := ⟨.hbm, 467, rfl⟩
abbrev main_v359 : Ref sig .tc := ⟨.hbm, 468, rfl⟩
abbrev main_v360 : Ref sig .tc := ⟨.hbm, 469, rfl⟩
abbrev main_v361 : Ref sig .tc := ⟨.hbm, 470, rfl⟩
abbrev main_v362 : Ref sig .tc := ⟨.hbm, 471, rfl⟩
abbrev main_v363 : Ref sig .tc := ⟨.hbm, 472, rfl⟩
abbrev main_v364 : Ref sig .tc := ⟨.hbm, 473, rfl⟩
abbrev main_cst_88 : Ref sig .tc := ⟨.hbm, 474, rfl⟩
abbrev main_v365 : Ref sig .tc := ⟨.hbm, 475, rfl⟩
abbrev main_c_89 : Ref sig .tc := ⟨.hbm, 476, rfl⟩
abbrev main_v366 : Ref sig .tc := ⟨.hbm, 477, rfl⟩
abbrev main_v367 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_v371 : Ref sig .tc := ⟨.hbm, 482, rfl⟩
abbrev main_c_90 : Ref sig .tc := ⟨.hbm, 483, rfl⟩
abbrev main_v372 : Ref sig .tc := ⟨.hbm, 484, rfl⟩
abbrev main_v373 : Ref sig .tc := ⟨.hbm, 485, rfl⟩
abbrev main_c_91 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_c_92 : Ref sig .tc := ⟨.hbm, 490, rfl⟩
abbrev main_v377 : Ref sig .tc := ⟨.hbm, 491, rfl⟩
abbrev main_v378 : Ref sig .tc := ⟨.hbm, 492, rfl⟩
abbrev main_c_93 : Ref sig .tc := ⟨.hbm, 493, rfl⟩
abbrev main_v379 : Ref sig .tc := ⟨.hbm, 494, rfl⟩
abbrev main_v380 : Ref sig .tc := ⟨.hbm, 495, rfl⟩
abbrev main_v381 : Ref sig .tc := ⟨.hbm, 496, rfl⟩
abbrev main_v382 : Ref sig .tc := ⟨.hbm, 497, rfl⟩
abbrev main_v383 : Ref sig .tc := ⟨.hbm, 498, rfl⟩
abbrev main_v384 : Ref sig .tc := ⟨.hbm, 499, rfl⟩
abbrev main_v385 : Ref sig .tc := ⟨.hbm, 500, rfl⟩
abbrev main_c_94 : Ref sig .tc := ⟨.hbm, 501, rfl⟩
abbrev main_v386 : Ref sig .tc := ⟨.hbm, 502, rfl⟩
abbrev main_v387 : Ref sig .tc := ⟨.hbm, 503, rfl⟩
abbrev main_v388 : Ref sig .tc := ⟨.hbm, 504, rfl⟩
abbrev main_v389 : Ref sig .tc := ⟨.hbm, 505, rfl⟩
abbrev main_v390 : Ref sig .tc := ⟨.hbm, 506, rfl⟩
abbrev main_v391 : Ref sig .tc := ⟨.hbm, 507, rfl⟩
abbrev main_c_95 : Ref sig .tc := ⟨.hbm, 508, rfl⟩
abbrev main_v392 : Ref sig .tc := ⟨.hbm, 509, rfl⟩
abbrev main_v393 : Ref sig .tc := ⟨.hbm, 510, rfl⟩
abbrev main_c_96 : Ref sig .tc := ⟨.hbm, 511, rfl⟩
abbrev main_v394 : Ref sig .tc := ⟨.hbm, 512, rfl⟩
abbrev main_v395 : Ref sig .tc := ⟨.hbm, 513, rfl⟩
abbrev main_v396 : Ref sig .tc := ⟨.hbm, 514, rfl⟩
abbrev main_c_97 : Ref sig .tc := ⟨.hbm, 515, rfl⟩
abbrev main_v397 : Ref sig .tc := ⟨.hbm, 516, rfl⟩
abbrev main_v398 : Ref sig .tc := ⟨.hbm, 517, rfl⟩
abbrev main_c_98 : Ref sig .tc := ⟨.hbm, 518, rfl⟩
abbrev main_v399 : Ref sig .tc := ⟨.hbm, 519, rfl⟩
abbrev main_v400 : Ref sig .tc := ⟨.hbm, 520, rfl⟩
abbrev main_v401 : Ref sig .tc := ⟨.hbm, 521, rfl⟩
abbrev main_v402 : Ref sig .tc := ⟨.hbm, 522, rfl⟩
abbrev main_v403 : Ref sig .tc := ⟨.hbm, 523, rfl⟩
abbrev main_v404 : Ref sig .tc := ⟨.hbm, 524, rfl⟩
abbrev main_v405 : Ref sig .tc := ⟨.hbm, 525, rfl⟩
abbrev main_c_99 : Ref sig .tc := ⟨.hbm, 526, rfl⟩
abbrev main_v406 : Ref sig .tc := ⟨.hbm, 527, rfl⟩
abbrev main_v407 : Ref sig .tc := ⟨.hbm, 528, rfl⟩
abbrev main_v408 : Ref sig .tc := ⟨.hbm, 529, rfl⟩
abbrev main_v409 : Ref sig .tc := ⟨.hbm, 530, rfl⟩
abbrev main_v410 : Ref sig .tc := ⟨.hbm, 531, rfl⟩
abbrev main_v411 : Ref sig .tc := ⟨.hbm, 532, rfl⟩
abbrev main_c_100 : Ref sig .tc := ⟨.hbm, 533, rfl⟩
abbrev main_v412 : Ref sig .tc := ⟨.hbm, 534, rfl⟩
abbrev main_v413 : Ref sig .tc := ⟨.hbm, 535, rfl⟩
abbrev main_c_101 : Ref sig .tc := ⟨.hbm, 536, rfl⟩
abbrev main_v414 : Ref sig .tc := ⟨.hbm, 537, rfl⟩
abbrev main_v415 : Ref sig .tc := ⟨.hbm, 538, rfl⟩
abbrev main_v416 : Ref sig .tc := ⟨.hbm, 539, rfl⟩
abbrev main_c_102 : Ref sig .tc := ⟨.hbm, 540, rfl⟩
abbrev main_v417 : Ref sig .tc := ⟨.hbm, 541, rfl⟩
abbrev main_v418 : Ref sig .tc := ⟨.hbm, 542, rfl⟩
abbrev main_c_103 : Ref sig .tc := ⟨.hbm, 543, rfl⟩
abbrev main_v419 : Ref sig .tc := ⟨.hbm, 544, rfl⟩
abbrev main_v420 : Ref sig .tc := ⟨.hbm, 545, rfl⟩
abbrev main_v421 : Ref sig .tc := ⟨.hbm, 546, rfl⟩
abbrev main_v422 : Ref sig .tc := ⟨.hbm, 547, rfl⟩
abbrev main_v423 : Ref sig .tc := ⟨.hbm, 548, rfl⟩
abbrev main_v424 : Ref sig .tc := ⟨.hbm, 549, rfl⟩
abbrev main_v425 : Ref sig .tc := ⟨.hbm, 550, rfl⟩
abbrev main_v426 : Ref sig .tc := ⟨.hbm, 551, rfl⟩
abbrev main_v427 : Ref sig .tc := ⟨.hbm, 552, rfl⟩
abbrev main_v428 : Ref sig .tc := ⟨.hbm, 553, rfl⟩
abbrev main_v429 : Ref sig .tc := ⟨.hbm, 554, rfl⟩
abbrev main_c_104 : Ref sig .tc := ⟨.hbm, 555, rfl⟩
abbrev main_call10_v0 : Ref sig .tc := ⟨.hbm, 556, rfl⟩
abbrev main_v430 : Ref sig .tc := ⟨.hbm, 557, rfl⟩
abbrev main_c_105 : Ref sig .tc := ⟨.hbm, 558, rfl⟩
abbrev main_call11_v0 : Ref sig .tc := ⟨.hbm, 559, rfl⟩
abbrev main_v431 : Ref sig .tc := ⟨.hbm, 560, rfl⟩
abbrev main_v432 : Ref sig .tc := ⟨.hbm, 561, rfl⟩
abbrev main_v433 : Ref sig .tc := ⟨.hbm, 562, rfl⟩
abbrev main_v434 : Ref sig .tc := ⟨.hbm, 563, rfl⟩
abbrev main_v435 : Ref sig .tc := ⟨.hbm, 564, rfl⟩
abbrev main_v436 : Ref sig .tc := ⟨.hbm, 565, rfl⟩
abbrev main_v437 : Ref sig .tc := ⟨.hbm, 566, rfl⟩
abbrev main_v438 : Ref sig .tc := ⟨.hbm, 567, rfl⟩
abbrev main_v439 : Ref sig .tc := ⟨.hbm, 568, rfl⟩
abbrev main_v440 : Ref sig .tc := ⟨.hbm, 569, rfl⟩
abbrev main_v441 : Ref sig .tc := ⟨.hbm, 570, rfl⟩
abbrev main_c_106 : Ref sig .tc := ⟨.hbm, 571, rfl⟩
abbrev main_v442 : Ref sig .tc := ⟨.hbm, 572, rfl⟩
abbrev main_v443 : Ref sig .tc := ⟨.hbm, 573, rfl⟩
abbrev main_v444 : Ref sig .tc := ⟨.hbm, 574, rfl⟩
abbrev main_v445 : Ref sig .tc := ⟨.hbm, 575, rfl⟩
abbrev main_call12_v0 : Ref sig .tc := ⟨.hbm, 576, rfl⟩
abbrev main_call12_v1 : Ref sig .tc := ⟨.hbm, 577, rfl⟩
abbrev main_call12_v2 : Ref sig .tc := ⟨.hbm, 578, rfl⟩
abbrev main_call12_v3 : Ref sig .tc := ⟨.hbm, 579, rfl⟩
abbrev main_call12_v4 : Ref sig .tc := ⟨.hbm, 580, rfl⟩
abbrev main_v446 : Ref sig .tc := ⟨.hbm, 581, rfl⟩
abbrev main_c_107 : Ref sig .tc := ⟨.hbm, 582, rfl⟩
abbrev main_call13_v0 : Ref sig .tc := ⟨.hbm, 583, rfl⟩
abbrev main_v447 : Ref sig .tc := ⟨.hbm, 584, rfl⟩
abbrev main_v448 : Ref sig .tc := ⟨.hbm, 585, rfl⟩
abbrev main_v449 : Ref sig .tc := ⟨.hbm, 586, rfl⟩
abbrev main_v450 : Ref sig .tc := ⟨.hbm, 587, rfl⟩
abbrev main_v451_0 : Ref sig .tc := ⟨.hbm, 588, rfl⟩
abbrev main_v451_1 : Ref sig .tc := ⟨.hbm, 589, rfl⟩
abbrev main_v451_2 : Ref sig .tc := ⟨.hbm, 590, rfl⟩
abbrev main_v452 : Ref sig .tc := ⟨.hbm, 591, rfl⟩
abbrev main_cst_108 : Ref sig .tc := ⟨.hbm, 592, rfl⟩
abbrev main_v453 : Ref sig .tc := ⟨.hbm, 593, rfl⟩
abbrev main_cst_109 : Ref sig .tc := ⟨.hbm, 594, rfl⟩
abbrev main_v454 : Ref sig .tc := ⟨.hbm, 595, rfl⟩
abbrev main_v455 : Ref sig .tc := ⟨.hbm, 596, rfl⟩
abbrev main_v456 : Ref sig .tc := ⟨.hbm, 597, rfl⟩
abbrev main_cst_110 : Ref sig .tc := ⟨.hbm, 598, rfl⟩
abbrev main_v457 : Ref sig .tc := ⟨.hbm, 599, rfl⟩
abbrev main_cst_111 : Ref sig .tc := ⟨.hbm, 600, rfl⟩
abbrev main_v458 : Ref sig .tc := ⟨.hbm, 601, rfl⟩
abbrev main_v459 : Ref sig .tc := ⟨.hbm, 602, rfl⟩
abbrev main_v460 : Ref sig .tc := ⟨.hbm, 603, rfl⟩
abbrev main_v461 : Ref sig .tc := ⟨.hbm, 604, rfl⟩
abbrev main_cst_112 : Ref sig .tc := ⟨.hbm, 605, rfl⟩
abbrev main_v462 : Ref sig .tc := ⟨.hbm, 606, rfl⟩
abbrev main_v463 : Ref sig .tc := ⟨.hbm, 607, rfl⟩
abbrev main_cst_113 : Ref sig .tc := ⟨.hbm, 608, rfl⟩
abbrev main_v464 : Ref sig .tc := ⟨.hbm, 609, rfl⟩
abbrev main_v465 : Ref sig .tc := ⟨.hbm, 610, rfl⟩
abbrev main_v466 : Ref sig .tc := ⟨.hbm, 611, rfl⟩
abbrev main_v467 : Ref sig .tc := ⟨.hbm, 612, rfl⟩
abbrev main_v468 : Ref sig .tc := ⟨.hbm, 613, rfl⟩
abbrev main_v469 : Ref sig .tc := ⟨.hbm, 614, rfl⟩
abbrev main_v470 : Ref sig .tc := ⟨.hbm, 615, rfl⟩
abbrev main_v471 : Ref sig .tc := ⟨.hbm, 616, rfl⟩
abbrev main_v472 : Ref sig .tc := ⟨.hbm, 617, rfl⟩
abbrev main_v473 : Ref sig .tc := ⟨.hbm, 618, rfl⟩
abbrev main_v474 : Ref sig .tc := ⟨.hbm, 619, rfl⟩
abbrev main_v475 : Ref sig .tc := ⟨.hbm, 620, rfl⟩
abbrev main_v476 : Ref sig .tc := ⟨.hbm, 621, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x128x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S3x3x16x32_S1x3x16x32_0_0_0_0 : S3x3x16x32.Slices ![0, 0, 0, 0] S1x3x16x32
  shapeCasts_S1x3x16x32_S3x16x32 : S1x3x16x32.ShapeCasts S3x16x32
  slices_S3x32_S1x32_0_0 : S3x32.Slices ![0, 0] S1x32
  shapeCasts_S1x32_S32 : S1x32.ShapeCasts S32
  bcast_S_S16x16x14x32 : S_.BroadcastsInDim S16x16x14x32 (![] : Fin 0 → Fin S16x16x14x32.rank)
  bcast_S_S14 : S_.BroadcastsInDim S14 (![] : Fin 0 → Fin S14.rank)
  slices_S3x16x32_S1x16x32_0_0_0 : S3x16x32.Slices ![0, 0, 0] S1x16x32
  shapeCasts_S1x16x32_S16x32 : S1x16x32.ShapeCasts S16x32
  bcast_S16x32_S1x16x32_1_2 : S16x32.BroadcastsInDim S1x16x32 (![1, 2] : Fin 2 → Fin S1x16x32.rank)
  bcast_S1x16x32_S14x16x32_0_1_2 : S1x16x32.BroadcastsInDim S14x16x32 (![0, 1, 2] : Fin 3 → Fin S14x16x32.rank)
  bcast_S14_S14x1_0 : S14.BroadcastsInDim S14x1 (![0] : Fin 1 → Fin S14x1.rank)
  concatenates_S14x1_S14x1_S14x2_d1 : Shape.Concatenates [S14x1, S14x1] S14x2 1
  slices_S3x16x32_S1x16x32_1_0_0 : S3x16x32.Slices ![1, 0, 0] S1x16x32
  slices_S3x16x32_S1x16x32_2_0_0 : S3x16x32.Slices ![2, 0, 0] S1x16x32
  shapeCasts_S16x16x14x32_S256x448 : S16x16x14x32.ShapeCasts S256x448
  shapeCasts_S32_S1x32 : S32.ShapeCasts S1x32
  bcast_S1x32_S14x32_0_1 : S1x32.BroadcastsInDim S14x32 (![0, 1] : Fin 2 → Fin S14x32.rank)
  shapeCasts_S14x32_S448 : S14x32.ShapeCasts S448
  pads_S256x448_S256x512_000_0640 : S256x448.Pads (![0, 0] : Fin 2 → Nat) ![0, 64] ![0, 0] S256x512
  h_S_ : 0 < S_.numel
  pads_S448_S512_0640 : S448.Pads (![0] : Fin 1 → Nat) ![64] ![0] S512
  slices_S3x3x16x32_S1x3x16x32_1_0_0_0 : S3x3x16x32.Slices ![1, 0, 0, 0] S1x3x16x32
  slices_S3x32_S1x32_1_0 : S3x32.Slices ![1, 0] S1x32
  slices_S3x3x16x32_S1x3x16x32_2_0_0_0 : S3x3x16x32.Slices ![2, 0, 0, 0] S1x3x16x32
  slices_S3x32_S1x32_2_0 : S3x32.Slices ![2, 0] S1x32
  bcast_S_S14x16x12x32 : S_.BroadcastsInDim S14x16x12x32 (![] : Fin 0 → Fin S14x16x12x32.rank)
  bcast_S_S12 : S_.BroadcastsInDim S12 (![] : Fin 0 → Fin S12.rank)
  bcast_S1x16x32_S12x16x32_0_1_2 : S1x16x32.BroadcastsInDim S12x16x32 (![0, 1, 2] : Fin 3 → Fin S12x16x32.rank)
  bcast_S12_S12x1_0 : S12.BroadcastsInDim S12x1 (![0] : Fin 1 → Fin S12x1.rank)
  concatenates_S12x1_S12x1_S12x2_d1 : Shape.Concatenates [S12x1, S12x1] S12x2 1
  shapeCasts_S14x16x12x32_S224x384 : S14x16x12x32.ShapeCasts S224x384
  bcast_S1x32_S12x32_0_1 : S1x32.BroadcastsInDim S12x32 (![0, 1] : Fin 2 → Fin S12x32.rank)
  shapeCasts_S12x32_S384 : S12x32.ShapeCasts S384
  pads_S224x384_S224x384_000_000 : S224x384.Pads (![0, 0] : Fin 2 → Nat) ![0, 0] ![0, 0] S224x384
  pads_S384_S384_000 : S384.Pads (![0] : Fin 1 → Nat) ![0] ![0] S384
  concatenates_S256x512_S256x512_S256x512_S256x1536_d1 : Shape.Concatenates [S256x512, S256x512, S256x512] S256x1536 1
  bitsLt_bf16_f32 : FTy.bits .bf16 < FTy.bits .f32
  concatenates_S512_S512_S512_S1536_d0 : Shape.Concatenates [S512, S512, S512] S1536 0
  bcast_S1536_S1x1536_1 : S1536.BroadcastsInDim S1x1536 (![1] : Fin 1 → Fin S1x1536.rank)
  concatenates_S224x384_S224x384_S224x384_S224x1152_d1 : Shape.Concatenates [S224x384, S224x384, S224x384] S224x1152 1
  concatenates_S384_S384_S384_S1152_d0 : Shape.Concatenates [S384, S384, S384] S1152 0
  bcast_S1152_S1x1152_1 : S1152.BroadcastsInDim S1x1152 (![1] : Fin 1 → Fin S1x1152.rank)
  bcast_S_S14x14 : S_.BroadcastsInDim S14x14 (![] : Fin 0 → Fin S14x14.rank)
  bcast_S14x14_S14x1x14x1_0_2 : S14x14.BroadcastsInDim S14x1x14x1 (![0, 2] : Fin 2 → Fin S14x1x14x1.rank)
  bcast_S32x16_S1x32x1x16_1_3 : S32x16.BroadcastsInDim S1x32x1x16 (![1, 3] : Fin 2 → Fin S1x32x1x16.rank)
  bcast_S14x1x14x1_S14x32x14x16_0_1_2_3 : S14x1x14x1.BroadcastsInDim S14x32x14x16 (![0, 1, 2, 3] : Fin 4 → Fin S14x32x14x16.rank)
  bcast_S1x32x1x16_S14x32x14x16_0_1_2_3 : S1x32x1x16.BroadcastsInDim S14x32x14x16 (![0, 1, 2, 3] : Fin 4 → Fin S14x32x14x16.rank)
  shapeCasts_S14x32x14x16_S448x224 : S14x32x14x16.ShapeCasts S448x224
  pads_S448x224_S512x224_0640_000 : S448x224.Pads (![0, 0] : Fin 2 → Nat) ![64, 0] ![0, 0] S512x224
  shapeCasts_S256x128x16x16_S256x128x256 : S256x128x16x16.ShapeCasts S256x128x256
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  shapeCasts_S8x128x256_S1024x256 : S8x128x256.ShapeCasts S1024x256
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  inb_S512x224_S512x224_0_0 : ∀ a, (![0, 0] : Fin 2 → Nat) a + S512x224.size a ≤ S512x224.size a
  h_S512x224 : 0 < S512x224.numel
  shapeCasts_S512x224_S512x224 : S512x224.ShapeCasts S512x224
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S1024x224_o0_0_S128x224 : S1024x224.Slices ![0, 0] S128x224
  slices_S1024x224_o128_0_S128x224 : S1024x224.Slices ![128, 0] S128x224
  slices_S1024x224_o256_0_S128x224 : S1024x224.Slices ![256, 0] S128x224
  slices_S1024x224_o384_0_S128x224 : S1024x224.Slices ![384, 0] S128x224
  slices_S1024x224_o512_0_S128x224 : S1024x224.Slices ![512, 0] S128x224
  slices_S1024x224_o640_0_S128x224 : S1024x224.Slices ![640, 0] S128x224
  slices_S1024x224_o768_0_S128x224 : S1024x224.Slices ![768, 0] S128x224
  slices_S1024x224_o896_0_S128x224 : S1024x224.Slices ![896, 0] S128x224
  concatenates_S128x224_S128x224_S128x224_S128x224_S128x224_S128x224_S128x224_S128x224_S1024x224_d0 : Shape.Concatenates [S128x224, S128x224, S128x224, S128x224, S128x224, S128x224, S128x224, S128x224] S1024x224 0
  inb_S224x1152_S224x1152_0_0 : ∀ a, (![0, 0] : Fin 2 → Nat) a + S224x1152.size a ≤ S224x1152.size a
  h_S224x1152 : 0 < S224x1152.numel
  shapeCasts_S224x1152_S224x1152 : S224x1152.ShapeCasts S224x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1024x1152 : S1x1152.Broadcasts S1024x1152
  slices_S1024x1152_o0_0_S1024x384 : S1024x1152.Slices ![0, 0] S1024x384
  slices_S1024x1152_o0_384_S1024x384 : S1024x1152.Slices ![0, 384] S1024x384
  slices_S1024x1152_o0_768_S1024x384 : S1024x1152.Slices ![0, 768] S1024x384
  shapeCasts_S1024x384_S8x128x384 : S1024x384.ShapeCasts S8x128x384
  inb_S8x128x384_S8x128x384_0_0_0 : ∀ a, (![0, 0, 0] : Fin 3 → Nat) a + S8x128x384.size a ≤ S8x128x384.size a
  h_S8x128x384 : 0 < S8x128x384.numel
  packedbf16_S8x128x384_S8x128x384_0_0_0 : (Rect.unit (s := S8x128x384) ![0, 0, 0] S8x128x384.size inb_S8x128x384_S8x128x384_0_0_0).PackedRows (EltTy.packing .bf16)
  reduces_S1024x384_S1024 : S1024x384.Reduces [1] S1024
  shapeCasts_S1024_S1024x1 : S1024.ShapeCasts S1024x1
  shapeCasts_S1024x1_S8x128x1 : S1024x1.ShapeCasts S8x128x1
  inb_S8x128x1_S8x128x1_0_0_0 : ∀ a, (![0, 0, 0] : Fin 3 → Nat) a + S8x128x1.size a ≤ S8x128x1.size a
  h_S8x128x1 : 0 < S8x128x1.numel
  shapeCasts_S256x128x1_S256x128 : S256x128x1.ShapeCasts S256x128
  reducesTo_S256x128_S128_d0 : S256x128.ReducesTo [0] S128
  bcast_S_S128 : S_.BroadcastsInDim S128 (![] : Fin 0 → Fin S128.rank)
  shapeCasts_S128x1_S128 : S128x1.ShapeCasts S128
  bcast_S128_S128x1_0 : S128.BroadcastsInDim S128x1 (![0] : Fin 1 → Fin S128x1.rank)
  inb_S16x128x384_S16x128x384_0_0_0 : ∀ a, (![0, 0, 0] : Fin 3 → Nat) a + S16x128x384.size a ≤ S16x128x384.size a
  h_S16x128x384 : 0 < S16x128x384.numel
  shapeCasts_S16x128x384_S16x128x384 : S16x128x384.ShapeCasts S16x128x384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  broadcasts_S1x128x1_S16x128x384 : S1x128x1.Broadcasts S16x128x384
  shapeCasts_S256x128x384_S256x128x12x32 : S256x128x384.ShapeCasts S256x128x12x32
  scatter_S16x16x14x32_S14x2_S14x16x32_12_02_02_1_wf : ScatterDims.WF S16x16x14x32 S14x2 S14x16x32 [1, 2] [0, 2] [0, 2] 1
  scatter_S14x16x12x32_S12x2_S12x16x32_12_02_02_1_wf : ScatterDims.WF S14x16x12x32 S12x2 S12x16x32 [1, 2] [0, 2] [0, 2] 1
  dot_S1024x256_S256x1536_S1024x1536_1_0_0_1_n_n_wf : DotDims.WF S1024x256 S256x1536 S1024x1536 [1] [0] [0] [1] [] []
  dot_S1024x512_S512x224_S1024x224_1_0_0_1_n_n_wf : DotDims.WF S1024x512 S512x224 S1024x224 [1] [0] [0] [1] [] []
  dot_S128x128_S128x224_S128x224_1_0_0_1_n_n_wf : DotDims.WF S128x128 S128x224 S128x224 [1] [0] [0] [1] [] []
  dot_S1024x224_S224x1152_S1024x1152_1_0_0_1_n_n_wf : DotDims.WF S1024x224 S224x1152 S1024x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S256x128x256.size a
  hwx0_0 : ∀ i : grid0.Coords, EltTy.bits .f32 = 32 ∨ (Rect.block (s := S256x128x256) S8x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1536.size a ≤ S256x1536.size a
  hwx0_2 : ∀ i : grid0.Coords, EltTy.bits .bf16 = 32 ∨ (Rect.block (s := S256x1536) S256x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x224.size a ≤ S512x224.size a
  hwx0_4 : ∀ i : grid0.Coords, EltTy.bits .bf16 = 32 ∨ (Rect.block (s := S512x224) S512x224.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S224x1152.size a ≤ S224x1152.size a
  hwx0_5 : ∀ i : grid0.Coords, EltTy.bits .bf16 = 32 ∨ (Rect.block (s := S224x1152) S224x1152.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1152.size a ≤ S1x1152.size a
  hwx0_6 : ∀ i : grid0.Coords, EltTy.bits .f32 = 32 ∨ (Rect.block (s := S1x1152) S1x1152.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x384.size a ≤ S256x128x384.size a
  hwx0_7 : ∀ i : grid0.Coords, EltTy.bits .bf16 = 32 ∨ (Rect.block (s := S256x128x384) S8x128x384.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128x1.size a ≤ S256x128x1.size a
  hwx0_8 : ∀ i : grid0.Coords, EltTy.bits .f32 = 32 ∨ (Rect.block (s := S256x128x1) S8x128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128x1.size a ≤ S256x128x1.size a
  hwx0_9 : ∀ i : grid0.Coords, EltTy.bits .f32 = 32 ∨ (Rect.block (s := S256x128x1) S8x128x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x384.size a ≤ S256x128x384.size a
  hwx1_0 : ∀ i : grid1.Coords, EltTy.bits .bf16 = 32 ∨ (Rect.block (s := S256x128x384) S16x128x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x128x384.size a ≤ S256x128x384.size a
  hwx1_3 : ∀ i : grid1.Coords, EltTy.bits .f32 = 32 ∨ (Rect.block (s := S256x128x384) S16x128x384.size (cc1_transform_3 i) (hinb1_3 i)).WholeWords (EltTy.packing .f32)

variable [Facts₀]

def scatter_S16x16x14x32_S14x2_S14x16x32_12_02_02_1 : ScatterDims S16x16x14x32 S14x2 S14x16x32 where
  updateWindowDims := [1, 2]
  insertedWindowDims := [0, 2]
  scatterDimsToOperandDims := [0, 2]
  indexVectorDim := 1
  wf := scatter_S16x16x14x32_S14x2_S14x16x32_12_02_02_1_wf
def scatter_S14x16x12x32_S12x2_S12x16x32_12_02_02_1 : ScatterDims S14x16x12x32 S12x2 S12x16x32 where
  updateWindowDims := [1, 2]
  insertedWindowDims := [0, 2]
  scatterDimsToOperandDims := [0, 2]
  indexVectorDim := 1
  wf := scatter_S14x16x12x32_S12x2_S12x16x32_12_02_02_1_wf
def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S1024x512_S512x224_S1024x224_1_0_0_1_n_n : DotDims S1024x512 S512x224 S1024x224 where
  lhsContracting := [1]
  rhsContracting := [0]
  lhsNonContracting := [0]
  rhsNonContracting := [1]
  lhsBatch := []
  rhsBatch := []
  wf := dot_S1024x512_S512x224_S1024x224_1_0_0_1_n_n_wf
def dot_S128x128_S128x224_S128x224_1_0_0_1_n_n : DotDims S128x128 S128x224 S128x224 where
  lhsContracting := [1]
  rhsContracting := [0]
  lhsNonContracting := [0]
  rhsNonContracting := [1]
  lhsBatch := []
  rhsBatch := []
  wf := dot_S128x128_S128x224_S128x224_1_0_0_1_n_n_wf
def dot_S1024x224_S224x1152_S1024x1152_1_0_0_1_n_n : DotDims S1024x224 S224x1152 S1024x1152 where
  lhsContracting := [1]
  rhsContracting := [0]
  lhsNonContracting := [0]
  rhsNonContracting := [1]
  lhsBatch := []
  rhsBatch := []
  wf := dot_S1024x224_S224x1152_S1024x1152_1_0_0_1_n_n_wf

abbrev win0_0 : Pipeline.Window sig grid0 :=
  Pipeline.Window.ofSpec (Memref.whole main_v450) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v449) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v433) S256x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v435) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v448) S512x224.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v437) S224x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v439) S1x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v451_0) S8x128x384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v451_1) S8x128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v451_2) S8x128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v451_0) S16x128x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v469) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v474) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v475) S16x128x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S3x3x16x32 : Shape := ⟨4, ![3, 3, 16, 32]⟩
abbrev S3x32 : Shape := ⟨2, ![3, 32]⟩
abbrev S32x16 : Shape := ⟨2, ![32, 16]⟩
abbrev S128x1 : Shape := ⟨2, ![128, 1]⟩
abbrev S256x128x16x16 : Shape := ⟨4, ![256, 128, 16, 16]⟩
abbrev S128x128 : Shape := ⟨2, ![128, 128]⟩
abbrev S1x3x16x32 : Shape := ⟨4, ![1, 3, 16, 32]⟩
abbrev S3x16x32 : Shape := ⟨3, ![3, 16, 32]⟩
abbrev S1x32 : Shape := ⟨2, ![1, 32]⟩
abbrev S32 : Shape := ⟨1, ![32]⟩
abbrev S_ : Shape := ⟨0, ![]⟩
abbrev S16x16x32 : Shape := ⟨3, ![16, 16, 32]⟩
abbrev S1 : Shape := ⟨1, ![1]⟩
abbrev S256x32 : Shape := ⟨2, ![256, 32]⟩
abbrev S256x448 : Shape := ⟨2, ![256, 448]⟩
abbrev S14x32 : Shape := ⟨2, ![14, 32]⟩
abbrev S448 : Shape := ⟨1, ![448]⟩
abbrev S256x512 : Shape := ⟨2, ![256, 512]⟩
abbrev S512 : Shape := ⟨1, ![512]⟩
abbrev S256x1536 : Shape := ⟨2, ![256, 1536]⟩
abbrev S1536 : Shape := ⟨1, ![1536]⟩
abbrev S1x1536 : Shape := ⟨2, ![1, 1536]⟩
abbrev S14x16x32 : Shape := ⟨3, ![14, 16, 32]⟩
abbrev S224x32 : Shape := ⟨2, ![224, 32]⟩
abbrev S224x384 : Shape := ⟨2, ![224, 384]⟩
abbrev S12x32 : Shape := ⟨2, ![12, 32]⟩
abbrev S384 : Shape := ⟨1, ![384]⟩
abbrev S224x1152 : Shape := ⟨2, ![224, 1152]⟩
abbrev S1152 : Shape := ⟨1, ![1152]⟩
abbrev S1x1152 : Shape := ⟨2, ![1, 1152]⟩
abbrev S14x14 : Shape := ⟨2, ![14, 14]⟩
abbrev S14x1x14x1 : Shape := ⟨4, ![14, 1, 14, 1]⟩
abbrev S1x32x1x16 : Shape := ⟨4, ![1, 32, 1, 16]⟩
abbrev S14x32x14x16 : Shape := ⟨4, ![14, 32, 14, 16]⟩
abbrev S448x224 : Shape := ⟨2, ![448, 224]⟩
abbrev S512x224 : Shape := ⟨2, ![512, 224]⟩
abbrev S8x8 : Shape := ⟨2, ![8, 8]⟩
abbrev S8x1x8x1 : Shape := ⟨4, ![8, 1, 8, 1]⟩
abbrev S1x128x1x128 : Shape := ⟨4, ![1, 128, 1, 128]⟩
abbrev S8x128x8x128 : Shape := ⟨4, ![8, 128, 8, 128]⟩
abbrev S1024x1024 : Shape := ⟨2, ![1024, 1024]⟩
abbrev S256x128x256 : Shape := ⟨3, ![256, 128, 256]⟩
abbrev S256x128x384 : Shape := ⟨3, ![256, 128, 384]⟩
abbrev S256x128x1 : Shape := ⟨3, ![256, 128, 1]⟩
abbrev S8x128x256 : Shape := ⟨3, ![8, 128, 256]⟩
abbrev S8x128x384 : Shape := ⟨3, ![8, 128, 384]⟩
abbrev S8x128x1 : Shape := ⟨3, ![8, 128, 1]⟩
abbrev S1024x256 : Shape := ⟨2, ![1024, 256]⟩
abbrev S1024x1536 : Shape := ⟨2, ![1024, 1536]⟩
abbrev S1024x512 : Shape := ⟨2, ![1024, 512]⟩
abbrev S1024x224 : Shape := ⟨2, ![1024, 224]⟩
abbrev S1024x1152 : Shape := ⟨2, ![1024, 1152]⟩
abbrev S1024x384 : Shape := ⟨2, ![1024, 384]⟩
abbrev S1024 : Shape := ⟨1, ![1024]⟩
abbrev S1024x1 : Shape := ⟨2, ![1024, 1]⟩
abbrev S256x128 : Shape := ⟨2, ![256, 128]⟩
abbrev S128 : Shape := ⟨1, ![128]⟩
abbrev S1x128x1 : Shape := ⟨3, ![1, 128, 1]⟩
abbrev S256x128x12x32 : Shape := ⟨4, ![256, 128, 12, 32]⟩

abbrev nBuf : Space → Nat
  | .hbm => 631
  | .vmem => 20
  | .smem => 0
  | _ => 0

abbrev hbmTy0_0 (i : Nat) : BufTy := match i % 128 with
  | 0 => ⟨S3x3x16x32, .f32⟩
  | 1 => ⟨S3x32, .f32⟩
  | 2 => ⟨S32x16, .f32⟩
  | 3 => ⟨S3x3x16x32, .f32⟩
  | 4 => ⟨S3x32, .f32⟩
  | 5 => ⟨S128x1, .f32⟩
  | 6 => ⟨S128x1, .f32⟩
  | 7 => ⟨S256x128x16x16, .f32⟩
  | 8 => ⟨S128x128, .f32⟩
  | 9 => ⟨S1x3x16x32, .f32⟩
  | 10 => ⟨S3x16x32, .f32⟩
  | 11 => ⟨S1x32, .f32⟩
  | 12 => ⟨S32, .f32⟩
  | 13 => ⟨S_, .f32⟩
  | 14 => ⟨S16x16x32, .f32⟩
  | 15 => ⟨S_, .i32⟩
  | 16 => ⟨S1, .i32⟩
  | 17 => ⟨S16x16x32, .f32⟩
  | 18 => ⟨S256x32, .f32⟩
  | 19 => ⟨S_, .f32⟩
  | 20 => ⟨S16x16x32, .f32⟩
  | 21 => ⟨S_, .i32⟩
  | 22 => ⟨S1, .i32⟩
  | 23 => ⟨S16x16x32, .f32⟩
  | 24 => ⟨S256x32, .f32⟩
  | 25 => ⟨S_, .f32⟩
  | 26 => ⟨S16x16x32, .f32⟩
  | 27 => ⟨S_, .i32⟩
  | 28 => ⟨S1, .i32⟩
  | 29 => ⟨S16x16x32, .f32⟩
  | 30 => ⟨S256x32, .f32⟩
  | 31 => ⟨S_, .f32⟩
  | 32 => ⟨S16x16x32, .f32⟩
  | 33 => ⟨S_, .i32⟩
  | 34 => ⟨S1, .i32⟩
  | 35 => ⟨S16x16x32, .f32⟩
  | 36 => ⟨S256x32, .f32⟩
  | 37 => ⟨S_, .f32⟩
  | 38 => ⟨S16x16x32, .f32⟩
  | 39 => ⟨S_, .i32⟩
  | 40 => ⟨S1, .i32⟩
  | 41 => ⟨S16x16x32, .f32⟩
  | 42 => ⟨S256x32, .f32⟩
  | 43 => ⟨S_, .f32⟩
  | 44 => ⟨S16x16x32, .f32⟩
  | 45 => ⟨S_, .i32⟩
  | 46 => ⟨S1, .i32⟩
  | 47 => ⟨S16x16x32, .f32⟩
  | 48 => ⟨S256x32, .f32⟩
  | 49 => ⟨S_, .f32⟩
  | 50 => ⟨S16x16x32, .f32⟩
  | 51 => ⟨S_, .i32⟩
  | 52 => ⟨S1, .i32⟩
  | 53 => ⟨S16x16x32, .f32⟩
  | 54 => ⟨S256x32, .f32⟩
  | 55 => ⟨S_, .f32⟩
  | 56 => ⟨S16x16x32, .f32⟩
  | 57 => ⟨S_, .i32⟩
  | 58 => ⟨S1, .i32⟩
  | 59 => ⟨S16x16x32, .f32⟩
  | 60 => ⟨S256x32, .f32⟩
  | 61 => ⟨S_, .f32⟩
  | 62 => ⟨S16x16x32, .f32⟩
  | 63 => ⟨S_, .i32⟩
  | 64 => ⟨S1, .i32⟩
  | 65 => ⟨S16x16x32, .f32⟩
  | 66 => ⟨S256x32, .f32⟩
  | 67 => ⟨S_, .f32⟩
  | 68 => ⟨S16x16x32, .f32⟩
  | 69 => ⟨S_, .i32⟩
  | 70 => ⟨S1, .i32⟩
  | 71 => ⟨S16x16x32, .f32⟩
  | 72 => ⟨S256x32, .f32⟩
  | 73 => ⟨S_, .f32⟩
  | 74 => ⟨S16x16x32, .f32⟩
  | 75 => ⟨S_, .i32⟩
  | 76 => ⟨S1, .i32⟩
  | 77 => ⟨S16x16x32, .f32⟩
  | 78 => ⟨S256x32, .f32⟩
  | 79 => ⟨S_, .f32⟩
  | 80 => ⟨S16x16x32, .f32⟩
  | 81 => ⟨S_, .i32⟩
  | 82 => ⟨S1, .i32⟩
  | 83 => ⟨S16x16x32, .f32⟩
  | 84 => ⟨S256x32, .f32⟩
  | 85 => ⟨S_, .f32⟩
  | 86 => ⟨S16x16x32, .f32⟩
  | 87 => ⟨S_, .i32⟩
  | 88 => ⟨S1, .i32⟩
  | 89 => ⟨S16x16x32, .f32⟩
  | 90 => ⟨S256x32, .f32⟩
  | 91 => ⟨S_, .f32⟩
  | 92 => ⟨S16x16x32, .f32⟩
  | 93 => ⟨S_, .i32⟩
  | 94 => ⟨S1, .i32⟩
  | 95 => ⟨S16x16x32, .f32⟩
  | 96 => ⟨S256x32, .f32⟩
  | 97 => ⟨S256x448, .f32⟩
  | 98 => ⟨S1x32, .f32⟩
  | 99 => ⟨S14x32, .f32⟩
  | 100 => ⟨S448, .f32⟩
  | 101 => ⟨S_, .i32⟩
  | 102 => ⟨S_, .f32⟩
  | 103 => ⟨S256x512, .f32⟩
  | 104 => ⟨S_, .i32⟩
  | 105 => ⟨S_, .f32⟩
  | 106 => ⟨S512, .f32⟩
  | 107 => ⟨S1x3x16x32, .f32⟩
  | 108 => ⟨S3x16x32, .f32⟩
  | 109 => ⟨S1x32, .f32⟩
  | 110 => ⟨S32, .f32⟩
  | 111 => ⟨S_, .f32⟩
  | 112 => ⟨S16x16x32, .f32⟩
  | 113 => ⟨S_, .i32⟩
  | 114 => ⟨S1, .i32⟩
  | 115 => ⟨S16x16x32, .f32⟩
  | 116 => ⟨S256x32, .f32⟩
  | 117 => ⟨S_, .f32⟩
  | 118 => ⟨S16x16x32, .f32⟩
  | 119 => ⟨S_, .i32⟩
  | 120 => ⟨S1, .i32⟩
  | 121 => ⟨S16x16x32, .f32⟩
  | 122 => ⟨S256x32, .f32⟩
  | 123 => ⟨S_, .f32⟩
  | 124 => ⟨S16x16x32, .f32⟩
  | 125 => ⟨S_, .i32⟩
  | 126 => ⟨S1, .i32⟩
  | 127 => ⟨S16x16x32, .f32⟩
  | _ => ⟨S3x3x16x32, .f32⟩

abbrev hbmTy0_1 (i : Nat) : BufTy := match i % 128 with
  | 0 => ⟨S256x32, .f32⟩
  | 1 => ⟨S_, .f32⟩
  | 2 => ⟨S16x16x32, .f32⟩
  | 3 => ⟨S_, .i32⟩
  | 4 => ⟨S1, .i32⟩
  | 5 => ⟨S16x16x32, .f32⟩
  | 6 => ⟨S256x32, .f32⟩
  | 7 => ⟨S_, .f32⟩
  | 8 => ⟨S16x16x32, .f32⟩
  | 9 => ⟨S_, .i32⟩
  | 10 => ⟨S1, .i32⟩
  | 11 => ⟨S16x16x32, .f32⟩
  | 12 => ⟨S256x32, .f32⟩
  | 13 => ⟨S_, .f32⟩
  | 14 => ⟨S16x16x32, .f32⟩
  | 15 => ⟨S_, .i32⟩
  | 16 => ⟨S1, .i32⟩
  | 17 => ⟨S16x16x32, .f32⟩
  | 18 => ⟨S256x32, .f32⟩
  | 19 => ⟨S_, .f32⟩
  | 20 => ⟨S16x16x32, .f32⟩
  | 21 => ⟨S_, .i32⟩
  | 22 => ⟨S1, .i32⟩
  | 23 => ⟨S16x16x32, .f32⟩
  | 24 => ⟨S256x32, .f32⟩
  | 25 => ⟨S_, .f32⟩
  | 26 => ⟨S16x16x32, .f32⟩
  | 27 => ⟨S_, .i32⟩
  | 28 => ⟨S1, .i32⟩
  | 29 => ⟨S16x16x32, .f32⟩
  | 30 => ⟨S256x32, .f32⟩
  | 31 => ⟨S_, .f32⟩
  | 32 => ⟨S16x16x32, .f32⟩
  | 33 => ⟨S_, .i32⟩
  | 34 => ⟨S1, .i32⟩
  | 35 => ⟨S16x16x32, .f32⟩
  | 36 => ⟨S256x32, .f32⟩
  | 37 => ⟨S_, .f32⟩
  | 38 => ⟨S16x16x32, .f32⟩
  | 39 => ⟨S_, .i32⟩
  | 40 => ⟨S1, .i32⟩
  | 41 => ⟨S16x16x32, .f32⟩
  | 42 => ⟨S256x32, .f32⟩
  | 43 => ⟨S_, .f32⟩
  | 44 => ⟨S16x16x32, .f32⟩
  | 45 => ⟨S_, .i32⟩
  | 46 => ⟨S1, .i32⟩
  | 47 => ⟨S16x16x32, .f32⟩
  | 48 => ⟨S256x32, .f32⟩
  | 49 => ⟨S_, .f32⟩
  | 50 => ⟨S16x16x32, .f32⟩
  | 51 => ⟨S_, .i32⟩
  | 52 => ⟨S1, .i32⟩
  | 53 => ⟨S16x16x32, .f32⟩
  | 54 => ⟨S256x32, .f32⟩
  | 55 => ⟨S_, .f32⟩
  | 56 => ⟨S16x16x32, .f32⟩
  | 57 => ⟨S_, .i32⟩
  | 58 => ⟨S1, .i32⟩
  | 59 => ⟨S16x16x32, .f32⟩
  | 60 => ⟨S256x32, .f32⟩
  | 61 => ⟨S_, .f32⟩
  | 62 => ⟨S16x16x32, .f32⟩
  | 63 => ⟨S_, .i32⟩
  | 64 => ⟨S1, .i32⟩
  | 65 => ⟨S16x16x32, .f32⟩
  | 66 => ⟨S256x32, .f32⟩
  | 67 => ⟨S256x448, .f32⟩
  | 68 => ⟨S1x32, .f32⟩
  | 69 => ⟨S14x32, .f32⟩
  | 70 => ⟨S448, .f32⟩
  | 71 => ⟨S_, .i32⟩
  | 72 => ⟨S_, .f32⟩
  | 73 => ⟨S256x512, .f32⟩
  | 74 => ⟨S_, .i32⟩
  | 75 => ⟨S_, .f32⟩
  | 76 => ⟨S512, .f32⟩
  | 77 => ⟨S1x3x16x32, .f32⟩
  | 78 => ⟨S3x16x32, .f32⟩
  | 79 => ⟨S1x32, .f32⟩
  | 80 => ⟨S32, .f32⟩
  | 81 => ⟨S_, .f32⟩
  | 82 => ⟨S16x16x32, .f32⟩
  | 83 => ⟨S_, .i32⟩
  | 84 => ⟨S1, .i32⟩
  | 85 => ⟨S16x16x32, .f32⟩
  | 86 => ⟨S256x32, .f32⟩
  | 87 => ⟨S_, .f32⟩
  | 88 => ⟨S16x16x32, .f32⟩
  | 89 => ⟨S_, .i32⟩
  | 90 => ⟨S1, .i32⟩
  | 91 => ⟨S16x16x32, .f32⟩
  | 92 => ⟨S256x32, .f32⟩
  | 93 => ⟨S_, .f32⟩
  | 94 => ⟨S16x16x32, .f32⟩
  | 95 => ⟨S_, .i32⟩
  | 96 => ⟨S1, .i32⟩
  | 97 => ⟨S16x16x32, .f32⟩
  | 98 => ⟨S256x32, .f32⟩
  | 99 => ⟨S_, .f32⟩
  | 100 => ⟨S16x16x32, .f32⟩
  | 101 => ⟨S_, .i32⟩
  | 102 => ⟨S1, .i32⟩
  | 103 => ⟨S16x16x32, .f32⟩
  | 104 => ⟨S256x32, .f32⟩
  | 105 => ⟨S_, .f32⟩
  | 106 => ⟨S16x16x32, .f32⟩
  | 107 => ⟨S_, .i32⟩
  | 108 => ⟨S1, .i32⟩
  | 109 => ⟨S16x16x32, .f32⟩
  | 110 => ⟨S256x32, .f32⟩
  | 111 => ⟨S_, .f32⟩
  | 112 => ⟨S16x16x32, .f32⟩
  | 113 => ⟨S_, .i32⟩
  | 114 => ⟨S1, .i32⟩
  | 115 => ⟨S16x16x32, .f32⟩
  | 116 => ⟨S256x32, .f32⟩
  | 117 => ⟨S_, .f32⟩
  | 118 => ⟨S16x16x32, .f32⟩
  | 119 => ⟨S_, .i32⟩
  | 120 => ⟨S1, .i32⟩
  | 121 => ⟨S16x16x32, .f32⟩
  | 122 => ⟨S256x32, .f32⟩
  | 123 => ⟨S_, .f32⟩
  | 124 => ⟨S16x16x32, .f32⟩
  | 125 => ⟨S_, .i32⟩
  | 126 => ⟨S1, .i32⟩
  | 127 => ⟨S16x16x32, .f32⟩
  | _ => ⟨S3x3x16x32, .f32⟩

abbrev hbmTy0_2 (i : Nat) : BufTy := match i % 128 with
  | 0 => ⟨S256x32, .f32⟩
  | 1 => ⟨S_, .f32⟩
  | 2 => ⟨S16x16x32, .f32⟩
  | 3 => ⟨S_, .i32⟩
  | 4 => ⟨S1, .i32⟩
  | 5 => ⟨S16x16x32, .f32⟩
  | 6 => ⟨S256x32, .f32⟩
  | 7 => ⟨S_, .f32⟩
  | 8 => ⟨S16x16x32, .f32⟩
  | 9 => ⟨S_, .i32⟩
  | 10 => ⟨S1, .i32⟩
  | 11 => ⟨S16x16x32, .f32⟩
  | 12 => ⟨S256x32, .f32⟩
  | 13 => ⟨S_, .f32⟩
  | 14 => ⟨S16x16x32, .f32⟩
  | 15 => ⟨S_, .i32⟩
  | 16 => ⟨S1, .i32⟩
  | 17 => ⟨S16x16x32, .f32⟩
  | 18 => ⟨S256x32, .f32⟩
  | 19 => ⟨S_, .f32⟩
  | 20 => ⟨S16x16x32, .f32⟩
  | 21 => ⟨S_, .i32⟩
  | 22 => ⟨S1, .i32⟩
  | 23 => ⟨S16x16x32, .f32⟩
  | 24 => ⟨S256x32, .f32⟩
  | 25 => ⟨S_, .f32⟩
  | 26 => ⟨S16x16x32, .f32⟩
  | 27 => ⟨S_, .i32⟩
  | 28 => ⟨S1, .i32⟩
  | 29 => ⟨S16x16x32, .f32⟩
  | 30 => ⟨S256x32, .f32⟩
  | 31 => ⟨S_, .f32⟩
  | 32 => ⟨S16x16x32, .f32⟩
  | 33 => ⟨S_, .i32⟩
  | 34 => ⟨S1, .i32⟩
  | 35 => ⟨S16x16x32, .f32⟩
  | 36 => ⟨S256x32, .f32⟩
  | 37 => ⟨S256x448, .f32⟩
  | 38 => ⟨S1x32, .f32⟩
  | 39 => ⟨S14x32, .f32⟩
  | 40 => ⟨S448, .f32⟩
  | 41 => ⟨S_, .i32⟩
  | 42 => ⟨S_, .f32⟩
  | 43 => ⟨S256x512, .f32⟩
  | 44 => ⟨S_, .i32⟩
  | 45 => ⟨S_, .f32⟩
  | 46 => ⟨S512, .f32⟩
  | 47 => ⟨S256x1536, .f32⟩
  | 48 => ⟨S1536, .f32⟩
  | 49 => ⟨S1x1536, .f32⟩
  | 50 => ⟨S1x3x16x32, .f32⟩
  | 51 => ⟨S3x16x32, .f32⟩
  | 52 => ⟨S1x32, .f32⟩
  | 53 => ⟨S32, .f32⟩
  | 54 => ⟨S_, .f32⟩
  | 55 => ⟨S14x16x32, .f32⟩
  | 56 => ⟨S_, .i32⟩
  | 57 => ⟨S1, .i32⟩
  | 58 => ⟨S14x16x32, .f32⟩
  | 59 => ⟨S224x32, .f32⟩
  | 60 => ⟨S_, .f32⟩
  | 61 => ⟨S14x16x32, .f32⟩
  | 62 => ⟨S_, .i32⟩
  | 63 => ⟨S1, .i32⟩
  | 64 => ⟨S14x16x32, .f32⟩
  | 65 => ⟨S224x32, .f32⟩
  | 66 => ⟨S_, .f32⟩
  | 67 => ⟨S14x16x32, .f32⟩
  | 68 => ⟨S_, .i32⟩
  | 69 => ⟨S1, .i32⟩
  | 70 => ⟨S14x16x32, .f32⟩
  | 71 => ⟨S224x32, .f32⟩
  | 72 => ⟨S_, .f32⟩
  | 73 => ⟨S14x16x32, .f32⟩
  | 74 => ⟨S_, .i32⟩
  | 75 => ⟨S1, .i32⟩
  | 76 => ⟨S14x16x32, .f32⟩
  | 77 => ⟨S224x32, .f32⟩
  | 78 => ⟨S_, .f32⟩
  | 79 => ⟨S14x16x32, .f32⟩
  | 80 => ⟨S_, .i32⟩
  | 81 => ⟨S1, .i32⟩
  | 82 => ⟨S14x16x32, .f32⟩
  | 83 => ⟨S224x32, .f32⟩
  | 84 => ⟨S_, .f32⟩
  | 85 => ⟨S14x16x32, .f32⟩
  | 86 => ⟨S_, .i32⟩
  | 87 => ⟨S1, .i32⟩
  | 88 => ⟨S14x16x32, .f32⟩
  | 89 => ⟨S224x32, .f32⟩
  | 90 => ⟨S_, .f32⟩
  | 91 => ⟨S14x16x32, .f32⟩
  | 92 => ⟨S_, .i32⟩
  | 93 => ⟨S1, .i32⟩
  | 94 => ⟨S14x16x32, .f32⟩
  | 95 => ⟨S224x32, .f32⟩
  | 96 => ⟨S_, .f32⟩
  | 97 => ⟨S14x16x32, .f32⟩
  | 98 => ⟨S_, .i32⟩
  | 99 => ⟨S1, .i32⟩
  | 100 => ⟨S14x16x32, .f32⟩
  | 101 => ⟨S224x32, .f32⟩
  | 102 => ⟨S_, .f32⟩
  | 103 => ⟨S14x16x32, .f32⟩
  | 104 => ⟨S_, .i32⟩
  | 105 => ⟨S1, .i32⟩
  | 106 => ⟨S14x16x32, .f32⟩
  | 107 => ⟨S224x32, .f32⟩
  | 108 => ⟨S_, .f32⟩
  | 109 => ⟨S14x16x32, .f32⟩
  | 110 => ⟨S_, .i32⟩
  | 111 => ⟨S1, .i32⟩
  | 112 => ⟨S14x16x32, .f32⟩
  | 113 => ⟨S224x32, .f32⟩
  | 114 => ⟨S_, .f32⟩
  | 115 => ⟨S14x16x32, .f32⟩
  | 116 => ⟨S_, .i32⟩
  | 117 => ⟨S1, .i32⟩
  | 118 => ⟨S14x16x32, .f32⟩
  | 119 => ⟨S224x32, .f32⟩
  | 120 => ⟨S_, .f32⟩
  | 121 => ⟨S14x16x32, .f32⟩
  | 122 => ⟨S_, .i32⟩
  | 123 => ⟨S1, .i32⟩
  | 124 => ⟨S14x16x32, .f32⟩
  | 125 => ⟨S224x32, .f32⟩
  | 126 => ⟨S224x384, .f32⟩
  | 127 => ⟨S1x32, .f32⟩
  | _ => ⟨S3x3x16x32, .f32⟩

abbrev hbmTy0_3 (i : Nat) : BufTy := match i % 128 with
  | 0 => ⟨S12x32, .f32⟩
  | 1 => ⟨S384, .f32⟩
  | 2 => ⟨S_, .i32⟩
  | 3 => ⟨S_, .f32⟩
  | 4 => ⟨S224x384, .f32⟩
  | 5 => ⟨S_, .i32⟩
  | 6 => ⟨S_, .f32⟩
  | 7 => ⟨S384, .f32⟩
  | 8 => ⟨S1x3x16x32, .f32⟩
  | 9 => ⟨S3x16x32, .f32⟩
  | 10 => ⟨S1x32, .f32⟩
  | 11 => ⟨S32, .f32⟩
  | 12 => ⟨S_, .f32⟩
  | 13 => ⟨S14x16x32, .f32⟩
  | 14 => ⟨S_, .i32⟩
  | 15 => ⟨S1, .i32⟩
  | 16 => ⟨S14x16x32, .f32⟩
  | 17 => ⟨S224x32, .f32⟩
  | 18 => ⟨S_, .f32⟩
  | 19 => ⟨S14x16x32, .f32⟩
  | 20 => ⟨S_, .i32⟩
  | 21 => ⟨S1, .i32⟩
  | 22 => ⟨S14x16x32, .f32⟩
  | 23 => ⟨S224x32, .f32⟩
  | 24 => ⟨S_, .f32⟩
  | 25 => ⟨S14x16x32, .f32⟩
  | 26 => ⟨S_, .i32⟩
  | 27 => ⟨S1, .i32⟩
  | 28 => ⟨S14x16x32, .f32⟩
  | 29 => ⟨S224x32, .f32⟩
  | 30 => ⟨S_, .f32⟩
  | 31 => ⟨S14x16x32, .f32⟩
  | 32 => ⟨S_, .i32⟩
  | 33 => ⟨S1, .i32⟩
  | 34 => ⟨S14x16x32, .f32⟩
  | 35 => ⟨S224x32, .f32⟩
  | 36 => ⟨S_, .f32⟩
  | 37 => ⟨S14x16x32, .f32⟩
  | 38 => ⟨S_, .i32⟩
  | 39 => ⟨S1, .i32⟩
  | 40 => ⟨S14x16x32, .f32⟩
  | 41 => ⟨S224x32, .f32⟩
  | 42 => ⟨S_, .f32⟩
  | 43 => ⟨S14x16x32, .f32⟩
  | 44 => ⟨S_, .i32⟩
  | 45 => ⟨S1, .i32⟩
  | 46 => ⟨S14x16x32, .f32⟩
  | 47 => ⟨S224x32, .f32⟩
  | 48 => ⟨S_, .f32⟩
  | 49 => ⟨S14x16x32, .f32⟩
  | 50 => ⟨S_, .i32⟩
  | 51 => ⟨S1, .i32⟩
  | 52 => ⟨S14x16x32, .f32⟩
  | 53 => ⟨S224x32, .f32⟩
  | 54 => ⟨S_, .f32⟩
  | 55 => ⟨S14x16x32, .f32⟩
  | 56 => ⟨S_, .i32⟩
  | 57 => ⟨S1, .i32⟩
  | 58 => ⟨S14x16x32, .f32⟩
  | 59 => ⟨S224x32, .f32⟩
  | 60 => ⟨S_, .f32⟩
  | 61 => ⟨S14x16x32, .f32⟩
  | 62 => ⟨S_, .i32⟩
  | 63 => ⟨S1, .i32⟩
  | 64 => ⟨S14x16x32, .f32⟩
  | 65 => ⟨S224x32, .f32⟩
  | 66 => ⟨S_, .f32⟩
  | 67 => ⟨S14x16x32, .f32⟩
  | 68 => ⟨S_, .i32⟩
  | 69 => ⟨S1, .i32⟩
  | 70 => ⟨S14x16x32, .f32⟩
  | 71 => ⟨S224x32, .f32⟩
  | 72 => ⟨S_, .f32⟩
  | 73 => ⟨S14x16x32, .f32⟩
  | 74 => ⟨S_, .i32⟩
  | 75 => ⟨S1, .i32⟩
  | 76 => ⟨S14x16x32, .f32⟩
  | 77 => ⟨S224x32, .f32⟩
  | 78 => ⟨S_, .f32⟩
  | 79 => ⟨S14x16x32, .f32⟩
  | 80 => ⟨S_, .i32⟩
  | 81 => ⟨S1, .i32⟩
  | 82 => ⟨S14x16x32, .f32⟩
  | 83 => ⟨S224x32, .f32⟩
  | 84 => ⟨S224x384, .f32⟩
  | 85 => ⟨S1x32, .f32⟩
  | 86 => ⟨S12x32, .f32⟩
  | 87 => ⟨S384, .f32⟩
  | 88 => ⟨S_, .i32⟩
  | 89 => ⟨S_, .f32⟩
  | 90 => ⟨S224x384, .f32⟩
  | 91 => ⟨S_, .i32⟩
  | 92 => ⟨S_, .f32⟩
  | 93 => ⟨S384, .f32⟩
  | 94 => ⟨S1x3x16x32, .f32⟩
  | 95 => ⟨S3x16x32, .f32⟩
  | 96 => ⟨S1x32, .f32⟩
  | 97 => ⟨S32, .f32⟩
  | 98 => ⟨S_, .f32⟩
  | 99 => ⟨S14x16x32, .f32⟩
  | 100 => ⟨S_, .i32⟩
  | 101 => ⟨S1, .i32⟩
  | 102 => ⟨S14x16x32, .f32⟩
  | 103 => ⟨S224x32, .f32⟩
  | 104 => ⟨S_, .f32⟩
  | 105 => ⟨S14x16x32, .f32⟩
  | 106 => ⟨S_, .i32⟩
  | 107 => ⟨S1, .i32⟩
  | 108 => ⟨S14x16x32, .f32⟩
  | 109 => ⟨S224x32, .f32⟩
  | 110 => ⟨S_, .f32⟩
  | 111 => ⟨S14x16x32, .f32⟩
  | 112 => ⟨S_, .i32⟩
  | 113 => ⟨S1, .i32⟩
  | 114 => ⟨S14x16x32, .f32⟩
  | 115 => ⟨S224x32, .f32⟩
  | 116 => ⟨S_, .f32⟩
  | 117 => ⟨S14x16x32, .f32⟩
  | 118 => ⟨S_, .i32⟩
  | 119 => ⟨S1, .i32⟩
  | 120 => ⟨S14x16x32, .f32⟩
  | 121 => ⟨S224x32, .f32⟩
  | 122 => ⟨S_, .f32⟩
  | 123 => ⟨S14x16x32, .f32⟩
  | 124 => ⟨S_, .i32⟩
  | 125 => ⟨S1, .i32⟩
  | 126 => ⟨S14x16x32, .f32⟩
  | 127 => ⟨S224x32, .f32⟩
  | _ => ⟨S3x3x16x32, .f32⟩

abbrev hbmTy0_4 (i : Nat) : BufTy := match i % 128 with
  | 0 => ⟨S_, .f32⟩
  | 1 => ⟨S14x16x32, .f32⟩
  | 2 => ⟨S_, .i32⟩
  | 3 => ⟨S1, .i32⟩
  | 4 => ⟨S14x16x32, .f32⟩
  | 5 => ⟨S224x32, .f32⟩
  | 6 => ⟨S_, .f32⟩
  | 7 => ⟨S14x16x32, .f32⟩
  | 8 => ⟨S_, .i32⟩
  | 9 => ⟨S1, .i32⟩
  | 10 => ⟨S14x16x32, .f32⟩
  | 11 => ⟨S224x32, .f32⟩
  | 12 => ⟨S_, .f32⟩
  | 13 => ⟨S14x16x32, .f32⟩
  | 14 => ⟨S_, .i32⟩
  | 15 => ⟨S1, .i32⟩
  | 16 => ⟨S14x16x32, .f32⟩
  | 17 => ⟨S224x32, .f32⟩
  | 18 => ⟨S_, .f32⟩
  | 19 => ⟨S14x16x32, .f32⟩
  | 20 => ⟨S_, .i32⟩
  | 21 => ⟨S1, .i32⟩
  | 22 => ⟨S14x16x32, .f32⟩
  | 23 => ⟨S224x32, .f32⟩
  | 24 => ⟨S_, .f32⟩
  | 25 => ⟨S14x16x32, .f32⟩
  | 26 => ⟨S_, .i32⟩
  | 27 => ⟨S1, .i32⟩
  | 28 => ⟨S14x16x32, .f32⟩
  | 29 => ⟨S224x32, .f32⟩
  | 30 => ⟨S_, .f32⟩
  | 31 => ⟨S14x16x32, .f32⟩
  | 32 => ⟨S_, .i32⟩
  | 33 => ⟨S1, .i32⟩
  | 34 => ⟨S14x16x32, .f32⟩
  | 35 => ⟨S224x32, .f32⟩
  | 36 => ⟨S_, .f32⟩
  | 37 => ⟨S14x16x32, .f32⟩
  | 38 => ⟨S_, .i32⟩
  | 39 => ⟨S1, .i32⟩
  | 40 => ⟨S14x16x32, .f32⟩
  | 41 => ⟨S224x32, .f32⟩
  | 42 => ⟨S224x384, .f32⟩
  | 43 => ⟨S1x32, .f32⟩
  | 44 => ⟨S12x32, .f32⟩
  | 45 => ⟨S384, .f32⟩
  | 46 => ⟨S_, .i32⟩
  | 47 => ⟨S_, .f32⟩
  | 48 => ⟨S224x384, .f32⟩
  | 49 => ⟨S_, .i32⟩
  | 50 => ⟨S_, .f32⟩
  | 51 => ⟨S384, .f32⟩
  | 52 => ⟨S224x1152, .f32⟩
  | 53 => ⟨S1152, .f32⟩
  | 54 => ⟨S1x1152, .f32⟩
  | 55 => ⟨S14x14, .i32⟩
  | 56 => ⟨S14x14, .i32⟩
  | 57 => ⟨S_, .i32⟩
  | 58 => ⟨S14x14, .i32⟩
  | 59 => ⟨S14x14, .i32⟩
  | 60 => ⟨S14x14, .i1⟩
  | 61 => ⟨S14x14, .f32⟩
  | 62 => ⟨S14x1x14x1, .f32⟩
  | 63 => ⟨S1x32x1x16, .f32⟩
  | 64 => ⟨S14x32x14x16, .f32⟩
  | 65 => ⟨S14x32x14x16, .f32⟩
  | 66 => ⟨S14x32x14x16, .f32⟩
  | 67 => ⟨S448x224, .f32⟩
  | 68 => ⟨S_, .i32⟩
  | 69 => ⟨S_, .f32⟩
  | 70 => ⟨S512x224, .f32⟩
  | 71 => ⟨S8x8, .i32⟩
  | 72 => ⟨S8x8, .i32⟩
  | 73 => ⟨S_, .i32⟩
  | 74 => ⟨S8x8, .i32⟩
  | 75 => ⟨S8x8, .i32⟩
  | 76 => ⟨S8x8, .i1⟩
  | 77 => ⟨S8x8, .f32⟩
  | 78 => ⟨S8x1x8x1, .f32⟩
  | 79 => ⟨S1x128x1x128, .f32⟩
  | 80 => ⟨S8x128x8x128, .f32⟩
  | 81 => ⟨S8x128x8x128, .f32⟩
  | 82 => ⟨S8x128x8x128, .f32⟩
  | 83 => ⟨S1024x1024, .f32⟩
  | 84 => ⟨S256x128x256, .f32⟩
  | 85 => ⟨S256x128x384, .f32⟩
  | 86 => ⟨S256x128x1, .f32⟩
  | 87 => ⟨S256x128x1, .f32⟩
  | 88 => ⟨S256x128, .f32⟩
  | 89 => ⟨S_, .f32⟩
  | 90 => ⟨S128, .f32⟩
  | 91 => ⟨S_, .f32⟩
  | 92 => ⟨S128, .f32⟩
  | 93 => ⟨S128, .f32⟩
  | 94 => ⟨S256x128, .f32⟩
  | 95 => ⟨S_, .f32⟩
  | 96 => ⟨S128, .f32⟩
  | 97 => ⟨S_, .f32⟩
  | 98 => ⟨S128, .f32⟩
  | 99 => ⟨S128, .f32⟩
  | 100 => ⟨S128, .f32⟩
  | 101 => ⟨S128, .f32⟩
  | 102 => ⟨S_, .f32⟩
  | 103 => ⟨S128, .f32⟩
  | 104 => ⟨S128, .f32⟩
  | 105 => ⟨S_, .f32⟩
  | 106 => ⟨S128, .f32⟩
  | 107 => ⟨S128, .f32⟩
  | 108 => ⟨S128, .f32⟩
  | 109 => ⟨S128, .f32⟩
  | 110 => ⟨S128, .f32⟩
  | 111 => ⟨S128x1, .f32⟩
  | 112 => ⟨S128, .f32⟩
  | 113 => ⟨S128, .f32⟩
  | 114 => ⟨S128, .f32⟩
  | 115 => ⟨S128, .f32⟩
  | 116 => ⟨S128x1, .f32⟩
  | 117 => ⟨S256x128x384, .f32⟩
  | 118 => ⟨S256x128x12x32, .f32⟩
  | _ => ⟨S3x3x16x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x3x16x32, .f32⟩

abbrev bufTy : (tb : Table) → Fin (tcTables nBuf tb) → BufTy
  | .hbm, ⟨i, _⟩ => hbmTy i
  | .local _ .vmem, ⟨0, _⟩ => ⟨S8x128x256, .f32⟩
  | .local _ .vmem, ⟨1, _⟩ => ⟨S8x128x256, .f32⟩
  | .local _ .vmem, ⟨2, _⟩ => ⟨S1024x1024, .f32⟩
  | .local _ .vmem, ⟨3, _⟩ => ⟨S256x1536, .f32⟩
  | .local _ .vmem, ⟨4, _⟩ => ⟨S1x1536, .f32⟩
  | .local _ .vmem, ⟨5, _⟩ => ⟨S512x224, .f32⟩
  | .local _ .vmem, ⟨6, _⟩ => ⟨S224x1152, .f32⟩
  | .local _ .vmem, ⟨7, _⟩ => ⟨S1x1152, .f32⟩
  | .local _ .vmem, ⟨8, _⟩ => ⟨S8x128x384, .f32⟩
  | .local _ .vmem, ⟨9, _⟩ => ⟨S8x128x384, .f32⟩
  | .local _ .vmem, ⟨10, _⟩ => ⟨S8x128x1, .f32⟩
  | .local _ .vmem, ⟨11, _⟩ => ⟨S8x128x1, .f32⟩
  | .local _ .vmem, ⟨12, _⟩ => ⟨S8x128x1, .f32⟩
  | .local _ .vmem, ⟨13, _⟩ => ⟨S8x128x1, .f32⟩
  | .local _ .vmem, ⟨14, _⟩ => ⟨S8x128x384, .f32⟩
  | .local _ .vmem, ⟨15, _⟩ => ⟨S8x128x384, .f32⟩
  | .local _ .vmem, ⟨16, _⟩ => ⟨S128x1, .f32⟩
  | .local _ .vmem, ⟨17, _⟩ => ⟨S128x1, .f32⟩
  | .local _ .vmem, ⟨18, _⟩ => ⟨S8x128x384, .f32⟩
  | .local _ .vmem, ⟨19, _⟩ => ⟨S8x128x384, .f32⟩
  | _, _ => ⟨S3x3x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_c_11 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_12 : Ref sig .tc := ⟨.hbm, 55, rfl⟩
abbrev main_v32 : Ref sig .tc := ⟨.hbm, 56, rfl⟩
abbrev main_c_13 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩
abbrev main_c_15 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_16 : Ref sig .tc := ⟨.hbm, 67, rfl⟩
abbrev main_v40 : Ref sig .tc := ⟨.hbm, 68, rfl⟩
abbrev main_c_17 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_18 : Ref sig .tc := ⟨.hbm, 73, rfl⟩
abbrev main_v44 : Ref sig .tc := ⟨.hbm, 74, rfl⟩
abbrev main_c_19 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_20 : Ref sig .tc := ⟨.hbm, 79, rfl⟩
abbrev main_v48 : Ref sig .tc := ⟨.hbm, 80, rfl⟩
abbrev main_c_21 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_22 : Ref sig .tc := ⟨.hbm, 85, rfl⟩
abbrev main_v52 : Ref sig .tc := ⟨.hbm, 86, rfl⟩
abbrev main_c_23 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_24 : Ref sig .tc := ⟨.hbm, 91, rfl⟩
abbrev main_v56 : Ref sig .tc := ⟨.hbm, 92, rfl⟩
abbrev main_c_25 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_26 : Ref sig .tc := ⟨.hbm, 101, rfl⟩
abbrev main_call0_v0 : Ref sig .tc := ⟨.hbm, 102, rfl⟩
abbrev main_v64 : Ref sig .tc := ⟨.hbm, 103, rfl⟩
abbrev main_c_27 : Ref sig .tc := ⟨.hbm, 104, rfl⟩
abbrev main_call1_v0 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_28 : Ref sig .tc := ⟨.hbm, 111, rfl⟩
abbrev main_v70 : Ref sig .tc := ⟨.hbm, 112, rfl⟩
abbrev main_c_29 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_30 : Ref sig .tc := ⟨.hbm, 117, rfl⟩
abbrev main_v74 : Ref sig .tc := ⟨.hbm, 118, rfl⟩
abbrev main_c_31 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_32 : Ref sig .tc := ⟨.hbm, 123, rfl⟩
abbrev main_v78 : Ref sig .tc := ⟨.hbm, 124, rfl⟩
abbrev main_c_33 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_34 : Ref sig .tc := ⟨.hbm, 129, rfl⟩
abbrev main_v82 : Ref sig .tc := ⟨.hbm, 130, rfl⟩
abbrev main_c_35 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_36 : Ref sig .tc := ⟨.hbm, 135, rfl⟩
abbrev main_v86 : Ref sig .tc := ⟨.hbm, 136, rfl⟩
abbrev main_c_37 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_38 : Ref sig .tc := ⟨.hbm, 141, rfl⟩
abbrev main_v90 : Ref sig .tc := ⟨.hbm, 142, rfl⟩
abbrev main_c_39 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_40 : Ref sig .tc := ⟨.hbm, 147, rfl⟩
abbrev main_v94 : Ref sig .tc := ⟨.hbm, 148, rfl⟩
abbrev main_c_41 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_42 : Ref sig .tc := ⟨.hbm, 153, rfl⟩
abbrev main_v98 : Ref sig .tc := ⟨.hbm, 154, rfl⟩
abbrev main_c_43 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_44 : Ref sig .tc := ⟨.hbm, 159, rfl⟩
abbrev main_v102 : Ref sig .tc := ⟨.hbm, 160, rfl⟩
abbrev main_c_45 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_46 : Ref sig .tc := ⟨.hbm, 165, rfl⟩
abbrev main_v106 : Ref sig .tc := ⟨.hbm, 166, rfl⟩
abbrev main_c_47 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_48 : Ref sig .tc := ⟨.hbm, 171, rfl⟩
abbrev main_v110 : Ref sig .tc := ⟨.hbm, 172, rfl⟩
abbrev main_c_49 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_50 : Ref sig .tc := ⟨.hbm, 177, rfl⟩
abbrev main_v114 : Ref sig .tc := ⟨.hbm, 178, rfl⟩
abbrev main_c_51 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_52 : Ref sig .tc := ⟨.hbm, 183, rfl⟩
abbrev main_v118 : Ref sig .tc := ⟨.hbm, 184, rfl⟩
abbrev main_c_53 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_54 : Ref sig .tc := ⟨.hbm, 189, rfl⟩
abbrev main_v122 : Ref sig .tc := ⟨.hbm, 190, rfl⟩
abbrev main_c_55 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_56 : Ref sig .tc := ⟨.hbm, 199, rfl⟩
abbrev main_call2_v0 : Ref sig .tc := ⟨.hbm, 200, rfl⟩
abbrev main_v130 : Ref sig .tc := ⟨.hbm, 201, rfl⟩
abbrev main_c_57 : Ref sig .tc := ⟨.hbm, 202, rfl⟩
abbrev main_call3_v0 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_58 : Ref sig .tc := ⟨.hbm, 209, rfl⟩
abbrev main_v136 : Ref sig .tc := ⟨.hbm, 210, rfl⟩
abbrev main_c_59 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_60 : Ref sig .tc := ⟨.hbm, 215, rfl⟩
abbrev main_v140 : Ref sig .tc := ⟨.hbm, 216, rfl⟩
abbrev main_c_61 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_62 : Ref sig .tc := ⟨.hbm, 221, rfl⟩
abbrev main_v144 : Ref sig .tc := ⟨.hbm, 222, rfl⟩
abbrev main_c_63 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_cst_64 : Ref sig .tc := ⟨.hbm, 227, rfl⟩
abbrev main_v148 : Ref sig .tc := ⟨.hbm, 228, rfl⟩
abbrev main_c_65 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_66 : Ref sig .tc := ⟨.hbm, 233, rfl⟩
abbrev main_v152 : Ref sig .tc := ⟨.hbm, 234, rfl⟩
abbrev main_c_67 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_cst_68 : Ref sig .tc := ⟨.hbm, 239, rfl⟩
abbrev main_v156 : Ref sig .tc := ⟨.hbm, 240, rfl⟩
abbrev main_c_69 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_cst_70 : Ref sig .tc := ⟨.hbm, 245, rfl⟩
abbrev main_v160 : Ref sig .tc := ⟨.hbm, 246, rfl⟩
abbrev main_c_71 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_72 : Ref sig .tc := ⟨.hbm, 251, rfl⟩
abbrev main_v164 : Ref sig .tc := ⟨.hbm, 252, rfl⟩
abbrev main_c_73 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_cst_74 : Ref sig .tc := ⟨.hbm, 257, rfl⟩
abbrev main_v168 : Ref sig .tc := ⟨.hbm, 258, rfl⟩
abbrev main_c_75 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_cst_76 : Ref sig .tc := ⟨.hbm, 263, rfl⟩
abbrev main_v172 : Ref sig .tc := ⟨.hbm, 264, rfl⟩
abbrev main_c_77 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_cst_78 : Ref sig .tc := ⟨.hbm, 269, rfl⟩
abbrev main_v176 : Ref sig .tc := ⟨.hbm, 270, rfl⟩
abbrev main_c_79 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_cst_80 : Ref sig .tc := ⟨.hbm, 275, rfl⟩
abbrev main_v180 : Ref sig .tc := ⟨.hbm, 276, rfl⟩
abbrev main_c_81 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_cst_82 : Ref sig .tc := ⟨.hbm, 281, rfl⟩
abbrev main_v184 : Ref sig .tc := ⟨.hbm, 282, rfl⟩
abbrev main_c_83 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_cst_84 : Ref sig .tc := ⟨.hbm, 287, rfl⟩
abbrev main_v188 : Ref sig .tc := ⟨.hbm, 288, rfl⟩
abbrev main_c_85 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_c_86 : Ref sig .tc := ⟨.hbm, 297, rfl⟩
abbrev main_call4_v0 : Ref sig .tc := ⟨.hbm, 298, rfl⟩
abbrev main_v196 : Ref sig .tc := ⟨.hbm, 299, rfl⟩
abbrev main_c_87 : Ref sig .tc := ⟨.hbm, 300, rfl⟩
abbrev main_call5_v0 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_cst_88 : Ref sig .tc := ⟨.hbm, 310, rfl⟩
abbrev main_v205 : Ref sig .tc := ⟨.hbm, 311, rfl⟩
abbrev main_c_89 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_cst_90 : Ref sig .tc := ⟨.hbm, 316, rfl⟩
abbrev main_v209 : Ref sig .tc := ⟨.hbm, 317, rfl⟩
abbrev main_c_91 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_cst_92 : Ref sig .tc := ⟨.hbm, 322, rfl⟩
abbrev main_v213 : Ref sig .tc := ⟨.hbm, 323, rfl⟩
abbrev main_c_93 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_cst_94 : Ref sig .tc := ⟨.hbm, 328, rfl⟩
abbrev main_v217 : Ref sig .tc := ⟨.hbm, 329, rfl⟩
abbrev main_c_95 : Ref sig .tc := ⟨.hbm, 330, rfl⟩
abbrev main_v218 : Ref sig .tc := ⟨.hbm, 331, rfl⟩
abbrev main_v219 : Ref sig .tc := ⟨.hbm, 332, rfl⟩
abbrev main_v220 : Ref sig .tc := ⟨.hbm, 333, rfl⟩
abbrev main_cst_96 : Ref sig .tc := ⟨.hbm, 334, rfl⟩
abbrev main_v221 : Ref sig .tc := ⟨.hbm, 335, rfl⟩
abbrev main_c_97 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_cst_98 : Ref sig .tc := ⟨.hbm, 340, rfl⟩
abbrev main_v225 : Ref sig .tc := ⟨.hbm, 341, rfl⟩
abbrev main_c_99 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_cst_100 : Ref sig .tc := ⟨.hbm, 346, rfl⟩
abbrev main_v229 : Ref sig .tc := ⟨.hbm, 347, rfl⟩
abbrev main_c_101 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_cst_102 : Ref sig .tc := ⟨.hbm, 352, rfl⟩
abbrev main_v233 : Ref sig .tc := ⟨.hbm, 353, rfl⟩
abbrev main_c_103 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_cst_104 : Ref sig .tc := ⟨.hbm, 358, rfl⟩
abbrev main_v237 : Ref sig .tc := ⟨.hbm, 359, rfl⟩
abbrev main_c_105 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_cst_106 : Ref sig .tc := ⟨.hbm, 364, rfl⟩
abbrev main_v241 : Ref sig .tc := ⟨.hbm, 365, rfl⟩
abbrev main_c_107 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_cst_108 : Ref sig .tc := ⟨.hbm, 370, rfl⟩
abbrev main_v245 : Ref sig .tc := ⟨.hbm, 371, rfl⟩
abbrev main_c_109 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_cst_110 : Ref sig .tc := ⟨.hbm, 376, rfl⟩
abbrev main_v249 : Ref sig .tc := ⟨.hbm, 377, rfl⟩
abbrev main_c_111 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_c_112 : Ref sig .tc := ⟨.hbm, 386, rfl⟩
abbrev main_call6_v0 : Ref sig .tc := ⟨.hbm, 387, rfl⟩
abbrev main_v257 : Ref sig .tc := ⟨.hbm, 388, rfl⟩
abbrev main_c_113 : Ref sig .tc := ⟨.hbm, 389, rfl⟩
abbrev main_call7_v0 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_cst_114 : Ref sig .tc := ⟨.hbm, 396, rfl⟩
abbrev main_v263 : Ref sig .tc := ⟨.hbm, 397, rfl⟩
abbrev main_c_115 : Ref sig .tc := ⟨.hbm, 398, rfl⟩
abbrev main_v264 : Ref sig .tc := ⟨.hbm, 399, rfl⟩
abbrev main_v265 : Ref sig .tc := ⟨.hbm, 400, rfl⟩
abbrev main_v266 : Ref sig .tc := ⟨.hbm, 401, rfl⟩
abbrev main_cst_116 : Ref sig .tc := ⟨.hbm, 402, rfl⟩
abbrev main_v267 : Ref sig .tc := ⟨.hbm, 403, rfl⟩
abbrev main_c_117 : Ref sig .tc := ⟨.hbm, 404, rfl⟩
abbrev main_v268 : Ref sig .tc := ⟨.hbm, 405, rfl⟩
abbrev main_v269 : Ref sig .tc := ⟨.hbm, 406, rfl⟩
abbrev main_v270 : Ref sig .tc := ⟨.hbm, 407, rfl⟩
abbrev main_cst_118 : Ref sig .tc := ⟨.hbm, 408, rfl⟩
abbrev main_v271 : Ref sig .tc := ⟨.hbm, 409, rfl⟩
abbrev main_c_119 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_cst_120 : Ref sig .tc := ⟨.hbm, 414, rfl⟩
abbrev main_v275 : Ref sig .tc := ⟨.hbm, 415, rfl⟩
abbrev main_c_121 : Ref sig .tc := ⟨.hbm, 416, rfl⟩
abbrev main_v276 : Ref sig .tc := ⟨.hbm, 417, rfl⟩
abbrev main_v277 : Ref sig .tc := ⟨.hbm, 418, rfl⟩
abbrev main_v278 : Ref sig .tc := ⟨.hbm, 419, rfl⟩
abbrev main_cst_122 : Ref sig .tc := ⟨.hbm, 420, rfl⟩
abbrev main_v279 : Ref sig .tc := ⟨.hbm, 421, rfl⟩
abbrev main_c_123 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_cst_124 : Ref sig .tc := ⟨.hbm, 426, rfl⟩
abbrev main_v283 : Ref sig .tc := ⟨.hbm, 427, rfl⟩
abbrev main_c_125 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_cst_126 : Ref sig .tc := ⟨.hbm, 432, rfl⟩
abbrev main_v287 : Ref sig .tc := ⟨.hbm, 433, rfl⟩
abbrev main_c_127 : Ref sig .tc := ⟨.hbm, 434, rfl⟩
abbrev main_v288 : Ref sig .tc := ⟨.hbm, 435, rfl⟩
abbrev main_v289 : Ref sig .tc := ⟨.hbm, 436, rfl⟩
abbrev main_v290 : Ref sig .tc := ⟨.hbm, 437, rfl⟩
abbrev main_cst_128 : Ref sig .tc := ⟨.hbm, 438, rfl⟩
abbrev main_v291 : Ref sig .tc := ⟨.hbm, 439, rfl⟩
abbrev main_c_129 : Ref sig .tc := ⟨.hbm, 440, rfl⟩
abbrev main_v292 : Ref sig .tc := ⟨.hbm, 441, rfl⟩
abbrev main_v293 : Ref sig .tc := ⟨.hbm, 442, rfl⟩
abbrev main_v294 : Ref sig .tc := ⟨.hbm, 443, rfl⟩
abbrev main_cst_130 : Ref sig .tc := ⟨.hbm, 444, rfl⟩
abbrev main_v295 : Ref sig .tc := ⟨.hbm, 445, rfl⟩
abbrev main_c_131 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_cst_132 : Ref sig .tc := ⟨.hbm, 450, rfl⟩
abbrev main_v299 : Ref sig .tc := ⟨.hbm, 451, rfl⟩
abbrev main_c_133 : Ref sig .tc := ⟨.hbm, 452, rfl⟩
abbrev main_v300 : Ref sig .tc := ⟨.hbm, 453, rfl⟩
abbrev main_v301 : Ref sig .tc := ⟨.hbm, 454, rfl⟩
abbrev main_v302 : Ref sig .tc := ⟨.hbm, 455, rfl⟩
abbrev main_cst_134 : Ref sig .tc := ⟨.hbm, 456, rfl⟩
abbrev main_v303 : Ref sig .tc := ⟨.hbm, 457, rfl⟩
abbrev main_c_135 : Ref sig .tc := ⟨.hbm, 458, rfl⟩
abbrev main_v304 : Ref sig .tc := ⟨.hbm, 459, rfl⟩
abbrev main_v305 : Ref sig .tc := ⟨.hbm, 460, rfl⟩
abbrev main_v306 : Ref sig .tc := ⟨.hbm, 461, rfl⟩
abbrev main_cst_136 : Ref sig .tc := ⟨.hbm, 462, rfl⟩
abbrev main_v307 : Ref sig .tc := ⟨.hbm, 463, rfl⟩
abbrev main_c_137 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_v312 : Ref sig .tc := ⟨.hbm, 469, rfl⟩
abbrev main_v313 : Ref sig .tc := ⟨.hbm, 470, rfl⟩
abbrev main_v314 : Ref sig .tc := ⟨.hbm, 471, rfl⟩
abbrev main_c_138 : Ref sig .tc := ⟨.hbm, 472, rfl⟩
abbrev main_call8_v0 : Ref sig .tc := ⟨.hbm, 473, rfl⟩
abbrev main_v315 : Ref sig .tc := ⟨.hbm, 474, rfl⟩
abbrev main_c_139 : Ref sig .tc := ⟨.hbm, 475, rfl⟩
abbrev main_call9_v0 : Ref sig .tc := ⟨.hbm, 476, rfl⟩
abbrev main_v316 : Ref sig .tc := ⟨.hbm, 477, rfl⟩
abbrev main_v317 : Ref sig .tc := ⟨.hbm, 478, rfl⟩
abbrev main_v318 : Ref sig .tc := ⟨.hbm, 479, rfl⟩
abbrev main_v319 : Ref sig .tc := ⟨.hbm, 480, rfl⟩
abbrev main_v320 : Ref sig .tc := ⟨.hbm, 481, rfl⟩
abbrev main_cst_140 : Ref sig .tc := ⟨.hbm, 482, rfl⟩
abbrev main_v321 : Ref sig .tc := ⟨.hbm, 483, rfl⟩
abbrev main_c_141 : Ref sig .tc := ⟨.hbm, 484, rfl⟩
abbrev main_v322 : Ref sig .tc := ⟨.hbm, 485, rfl⟩
abbrev main_v323 : Ref sig .tc := ⟨.hbm, 486, rfl⟩
abbrev main_v324 : Ref sig .tc := ⟨.hbm, 487, rfl⟩
abbrev main_cst_142 : Ref sig .tc := ⟨.hbm, 488, rfl⟩
abbrev main_v325 : Ref sig .tc := ⟨.hbm, 489, rfl⟩
abbrev main_c_143 : Ref sig .tc := ⟨.hbm, 490, rfl⟩
abbrev main_v326 : Ref sig .tc := ⟨.hbm, 491, rfl⟩
abbrev main_v327 : Ref sig .tc := ⟨.hbm, 492, rfl⟩
abbrev main_v328 : Ref sig .tc := ⟨.hbm, 493, rfl⟩
abbrev main_cst_144 : Ref sig .tc := ⟨.hbm, 494, rfl⟩
abbrev main_v329 : Ref sig .tc := ⟨.hbm, 495, rfl⟩
abbrev main_c_145 : Ref sig .tc := ⟨.hbm, 496, rfl⟩
abbrev main_v330 : Ref sig .tc := ⟨.hbm, 497, rfl⟩
abbrev main_v331 : Ref sig .tc := ⟨.hbm, 498, rfl⟩
abbrev main_v332 : Ref sig .tc := ⟨.hbm, 499, rfl⟩
abbrev main_cst_146 : Ref sig .tc := ⟨.hbm, 500, rfl⟩
abbrev main_v333 : Ref sig .tc := ⟨.hbm, 501, rfl⟩
abbrev main_c_147 : Ref sig .tc := ⟨.hbm, 502, rfl⟩
abbrev main_v334 : Ref sig .tc := ⟨.hbm, 503, rfl⟩
abbrev main_v335 : Ref sig .tc := ⟨.hbm, 504, rfl⟩
abbrev main_v336 : Ref sig .tc := ⟨.hbm, 505, rfl⟩
abbrev main_cst_148 : Ref sig .tc := ⟨.hbm, 506, rfl⟩
abbrev main_v337 : Ref sig .tc := ⟨.hbm, 507, rfl⟩
abbrev main_c_149 : Ref sig .tc := ⟨.hbm, 508, rfl⟩
abbrev main_v338 : Ref sig .tc := ⟨.hbm, 509, rfl⟩
abbrev main_v339 : Ref sig .tc := ⟨.hbm, 510, rfl⟩
abbrev main_v340 : Ref sig .tc := ⟨.hbm, 511, rfl⟩
abbrev main_cst_150 : Ref sig .tc := ⟨.hbm, 512, rfl⟩
abbrev main_v341 : Ref sig .tc := ⟨.hbm, 513, rfl⟩
abbrev main_c_151 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_cst_152 : Ref sig .tc := ⟨.hbm, 518, rfl⟩
abbrev main_v345 : Ref sig .tc := ⟨.hbm, 519, rfl⟩
abbrev main_c_153 : Ref sig .tc := ⟨.hbm, 520, rfl⟩
abbrev main_v346 : Ref sig .tc := ⟨.hbm, 521, rfl⟩
abbrev main_v347 : Ref sig .tc := ⟨.hbm, 522, rfl⟩
abbrev main_v348 : Ref sig .tc := ⟨.hbm, 523, rfl⟩
abbrev main_cst_154 : Ref sig .tc := ⟨.hbm, 524, rfl⟩
abbrev main_v349 : Ref sig .tc := ⟨.hbm, 525, rfl⟩
abbrev main_c_155 : Ref sig .tc := ⟨.hbm, 526, rfl⟩
abbrev main_v350 : Ref sig .tc := ⟨.hbm, 527, rfl⟩
abbrev main_v351 : Ref sig .tc := ⟨.hbm, 528, rfl⟩
abbrev main_v352 : Ref sig .tc := ⟨.hbm, 529, rfl⟩
abbrev main_cst_156 : Ref sig .tc := ⟨.hbm, 530, rfl⟩
abbrev main_v353 : Ref sig .tc := ⟨.hbm, 531, rfl⟩
abbrev main_c_157 : Ref sig .tc := ⟨.hbm, 532, rfl⟩
abbrev main_v354 : Ref sig .tc := ⟨.hbm, 533, rfl⟩
abbrev main_v355 : Ref sig .tc := ⟨.hbm, 534, rfl⟩
abbrev main_v356 : Ref sig .tc := ⟨.hbm, 535, rfl⟩
abbrev main_cst_158 : Ref sig .tc := ⟨.hbm, 536, rfl⟩
abbrev main_v357 : Ref sig .tc := ⟨.hbm, 537, rfl⟩
abbrev main_c_159 : Ref sig .tc := ⟨.hbm, 538, rfl⟩
abbrev main_v358 : Ref sig .tc := ⟨.hbm, 539, rfl⟩
abbrev main_v359 : Ref sig .tc := ⟨.hbm, 540, rfl⟩
abbrev main_v360 : Ref sig .tc := ⟨.hbm, 541, rfl⟩
abbrev main_cst_160 : Ref sig .tc := ⟨.hbm, 542, rfl⟩
abbrev main_v361 : Ref sig .tc := ⟨.hbm, 543, rfl⟩
abbrev main_c_161 : Ref sig .tc := ⟨.hbm, 544, rfl⟩
abbrev main_v362 : Ref sig .tc := ⟨.hbm, 545, rfl⟩
abbrev main_v363 : Ref sig .tc := ⟨.hbm, 546, rfl⟩
abbrev main_v364 : Ref sig .tc := ⟨.hbm, 547, rfl⟩
abbrev main_cst_162 : Ref sig .tc := ⟨.hbm, 548, rfl⟩
abbrev main_v365 : Ref sig .tc := ⟨.hbm, 549, rfl⟩
abbrev main_c_163 : Ref sig .tc := ⟨.hbm, 550, rfl⟩
abbrev main_v366 : Ref sig .tc := ⟨.hbm, 551, rfl⟩
abbrev main_v367 : Ref sig .tc := ⟨.hbm, 552, rfl⟩
abbrev main_v368 : Ref sig .tc := ⟨.hbm, 553, rfl⟩
abbrev main_v369 : Ref sig .tc := ⟨.hbm, 554, rfl⟩
abbrev main_v370 : Ref sig .tc := ⟨.hbm, 555, rfl⟩
abbrev main_v371 : Ref sig .tc := ⟨.hbm, 556, rfl⟩
abbrev main_v372 : Ref sig .tc := ⟨.hbm, 557, rfl⟩
abbrev main_c_164 : Ref sig .tc := ⟨.hbm, 558, rfl⟩
abbrev main_call10_v0 : Ref sig .tc := ⟨.hbm, 559, rfl⟩
abbrev main_v373 : Ref sig .tc := ⟨.hbm, 560, rfl⟩
abbrev main_c_165 : Ref sig .tc := ⟨.hbm, 561, rfl⟩
abbrev main_call11_v0 : Ref sig .tc := ⟨.hbm, 562, rfl⟩
abbrev main_v374 : Ref sig .tc := ⟨.hbm, 563, rfl⟩
abbrev main_v375 : Ref sig .tc := ⟨.hbm, 564, rfl⟩
abbrev main_v376 : Ref sig .tc := ⟨.hbm, 565, rfl⟩
abbrev main_v377 : Ref sig .tc := ⟨.hbm, 566, rfl⟩
abbrev main_v378 : Ref sig .tc := ⟨.hbm, 567, rfl⟩
abbrev main_v379 : Ref sig .tc := ⟨.hbm, 568, rfl⟩
abbrev main_c_166 : Ref sig .tc := ⟨.hbm, 569, rfl⟩
abbrev main_v380 : Ref sig .tc := ⟨.hbm, 570, rfl⟩
abbrev main_v381 : Ref sig .tc := ⟨.hbm, 571, rfl⟩
abbrev main_v382 : Ref sig .tc := ⟨.hbm, 572, rfl⟩
abbrev main_v383 : Ref sig .tc := ⟨.hbm, 573, rfl⟩
abbrev main_call12_v0 : Ref sig .tc := ⟨.hbm, 574, rfl⟩
abbrev main_call12_v1 : Ref sig .tc := ⟨.hbm, 575, rfl⟩
abbrev main_call12_v2 : Ref sig .tc := ⟨.hbm, 576, rfl⟩
abbrev main_call12_v3 : Ref sig .tc := ⟨.hbm, 577, rfl⟩
abbrev main_call12_v4 : Ref sig .tc := ⟨.hbm, 578, rfl⟩
abbrev main_v384 : Ref sig .tc := ⟨.hbm, 579, rfl⟩
abbrev main_c_167 : Ref sig .tc := ⟨.hbm, 580, rfl⟩
abbrev main_call13_v0 : Ref sig .tc := ⟨.hbm, 581, rfl⟩
abbrev main_v385 : Ref sig .tc := ⟨.hbm, 582, rfl⟩
abbrev main_v386 : Ref sig .tc := ⟨.hbm, 583, rfl⟩
abbrev main_v387 : Ref sig .tc := ⟨.hbm, 584, rfl⟩
abbrev main_c_168 : Ref sig .tc := ⟨.hbm, 585, rfl⟩
abbrev main_v388 : Ref sig .tc := ⟨.hbm, 586, rfl⟩
abbrev main_v389 : Ref sig .tc := ⟨.hbm, 587, rfl⟩
abbrev main_v390 : Ref sig .tc := ⟨.hbm, 588, rfl⟩
abbrev main_v391 : Ref sig .tc := ⟨.hbm, 589, rfl⟩
abbrev main_call14_v0 : Ref sig .tc := ⟨.hbm, 590, rfl⟩
abbrev main_call14_v1 : Ref sig .tc := ⟨.hbm, 591, rfl⟩
abbrev main_call14_v2 : Ref sig .tc := ⟨.hbm, 592, rfl⟩
abbrev main_call14_v3 : Ref sig .tc := ⟨.hbm, 593, rfl⟩
abbrev main_call14_v4 : Ref sig .tc := ⟨.hbm, 594, rfl⟩
abbrev main_v392 : Ref sig .tc := ⟨.hbm, 595, rfl⟩
abbrev main_v393 : Ref sig .tc := ⟨.hbm, 596, rfl⟩
abbrev main_v394_0 : Ref sig .tc := ⟨.hbm, 597, rfl⟩
abbrev main_v394_1 : Ref sig .tc := ⟨.hbm, 598, rfl⟩
abbrev main_v394_2 : Ref sig .tc := ⟨.hbm, 599, rfl⟩
abbrev main_v395 : Ref sig .tc := ⟨.hbm, 600, rfl⟩
abbrev main_cst_169 : Ref sig .tc := ⟨.hbm, 601, rfl⟩
abbrev main_v396 : Ref sig .tc := ⟨.hbm, 602, rfl⟩
abbrev main_cst_170 : Ref sig .tc := ⟨.hbm, 603, rfl⟩
abbrev main_v397 : Ref sig .tc := ⟨.hbm, 604, rfl⟩
abbrev main_v398 : Ref sig .tc := ⟨.hbm, 605, rfl⟩
abbrev main_v399 : Ref sig .tc := ⟨.hbm, 606, rfl⟩
abbrev main_cst_171 : Ref sig .tc := ⟨.hbm, 607, rfl⟩
abbrev main_v400 : Ref sig .tc := ⟨.hbm, 608, rfl⟩
abbrev main_cst_172 : Ref sig .tc := ⟨.hbm, 609, rfl⟩
abbrev main_v401 : Ref sig .tc := ⟨.hbm, 610, rfl⟩
abbrev main_v402 : Ref sig .tc := ⟨.hbm, 611, rfl⟩
abbrev main_v403 : Ref sig .tc := ⟨.hbm, 612, rfl⟩
abbrev main_v404 : Ref sig .tc := ⟨.hbm, 613, rfl⟩
abbrev main_cst_173 : Ref sig .tc := ⟨.hbm, 614, rfl⟩
abbrev main_v405 : Ref sig .tc := ⟨.hbm, 615, rfl⟩
abbrev main_v406 : Ref sig .tc := ⟨.hbm, 616, rfl⟩
abbrev main_cst_174 : Ref sig .tc := ⟨.hbm, 617, rfl⟩
abbrev main_v407 : Ref sig .tc := ⟨.hbm, 618, rfl⟩
abbrev main_v408 : Ref sig .tc := ⟨.hbm, 619, rfl⟩
abbrev main_v409 : Ref sig .tc := ⟨.hbm, 620, rfl⟩
abbrev main_v410 : Ref sig .tc := ⟨.hbm, 621, rfl⟩
abbrev main_v411 : Ref sig .tc := ⟨.hbm, 622, rfl⟩
abbrev main_v412 : Ref sig .tc := ⟨.hbm, 623, rfl⟩
abbrev main_v413 : Ref sig .tc := ⟨.hbm, 624, rfl⟩
abbrev main_v414 : Ref sig .tc := ⟨.hbm, 625, rfl⟩
abbrev main_v415 : Ref sig .tc := ⟨.hbm, 626, rfl⟩
abbrev main_v416 : Ref sig .tc := ⟨.hbm, 627, rfl⟩
abbrev main_v417 : Ref sig .tc := ⟨.hbm, 628, rfl⟩
abbrev main_v418 : Ref sig .tc := ⟨.hbm, 629, rfl⟩
abbrev main_v419 : Ref sig .tc := ⟨.hbm, 630, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S8x128x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S3x3x16x32_S1x3x16x32_0_0_0_0 : S3x3x16x32.Slices ![0, 0, 0, 0] S1x3x16x32
  shapeCasts_S1x3x16x32_S3x16x32 : S1x3x16x32.ShapeCasts S3x16x32
  slices_S3x32_S1x32_0_0 : S3x32.Slices ![0, 0] S1x32
  shapeCasts_S1x32_S32 : S1x32.ShapeCasts S32
  bcast_S_S16x16x32 : S_.BroadcastsInDim S16x16x32 (![] : Fin 0 → Fin S16x16x32.rank)
  bcast_S_S1 : S_.BroadcastsInDim S1 (![] : Fin 0 → Fin S1.rank)
  shapeCasts_S16x16x32_S256x32 : S16x16x32.ShapeCasts S256x32
  concatenates_S256x32_S256x32_S256x32_S256x32_S256x32_S256x32_S256x32_S256x32_S256x32_S256x32_S256x32_S256x32_S256x32_S256x32_S256x448_d1 : Shape.Concatenates [S256x32, S256x32, S256x32, S256x32, S256x32, S256x32, S256x32, S256x32, S256x32, S256x32, S256x32, S256x32, S256x32, S256x32] S256x448 1
  shapeCasts_S32_S1x32 : S32.ShapeCasts S1x32
  bcast_S1x32_S14x32_0_1 : S1x32.BroadcastsInDim S14x32 (![0, 1] : Fin 2 → Fin S14x32.rank)
  shapeCasts_S14x32_S448 : S14x32.ShapeCasts S448
  pads_S256x448_S256x512_000_0640 : S256x448.Pads (![0, 0] : Fin 2 → Nat) ![0, 64] ![0, 0] S256x512
  h_S_ : 0 < S_.numel
  pads_S448_S512_0640 : S448.Pads (![0] : Fin 1 → Nat) ![64] ![0] S512
  slices_S3x3x16x32_S1x3x16x32_1_0_0_0 : S3x3x16x32.Slices ![1, 0, 0, 0] S1x3x16x32
  slices_S3x32_S1x32_1_0 : S3x32.Slices ![1, 0] S1x32
  slices_S3x3x16x32_S1x3x16x32_2_0_0_0 : S3x3x16x32.Slices ![2, 0, 0, 0] S1x3x16x32
  slices_S3x32_S1x32_2_0 : S3x32.Slices ![2, 0] S1x32
  concatenates_S256x512_S256x512_S256x512_S256x1536_d1 : Shape.Concatenates [S256x512, S256x512, S256x512] S256x1536 1
  concatenates_S512_S512_S512_S1536_d0 : Shape.Concatenates [S512, S512, S512] S1536 0
  bcast_S1536_S1x1536_1 : S1536.BroadcastsInDim S1x1536 (![1] : Fin 1 → Fin S1x1536.rank)
  bcast_S_S14x16x32 : S_.BroadcastsInDim S14x16x32 (![] : Fin 0 → Fin S14x16x32.rank)
  shapeCasts_S14x16x32_S224x32 : S14x16x32.ShapeCasts S224x32
  concatenates_S224x32_S224x32_S224x32_S224x32_S224x32_S224x32_S224x32_S224x32_S224x32_S224x32_S224x32_S224x32_S224x384_d1 : Shape.Concatenates [S224x32, S224x32, S224x32, S224x32, S224x32, S224x32, S224x32, S224x32, S224x32, S224x32, S224x32, S224x32] S224x384 1
  bcast_S1x32_S12x32_0_1 : S1x32.BroadcastsInDim S12x32 (![0, 1] : Fin 2 → Fin S12x32.rank)
  shapeCasts_S12x32_S384 : S12x32.ShapeCasts S384
  pads_S224x384_S224x384_000_000 : S224x384.Pads (![0, 0] : Fin 2 → Nat) ![0, 0] ![0, 0] S224x384
  pads_S384_S384_000 : S384.Pads (![0] : Fin 1 → Nat) ![0] ![0] S384
  concatenates_S224x384_S224x384_S224x384_S224x1152_d1 : Shape.Concatenates [S224x384, S224x384, S224x384] S224x1152 1
  concatenates_S384_S384_S384_S1152_d0 : Shape.Concatenates [S384, S384, S384] S1152 0
  bcast_S1152_S1x1152_1 : S1152.BroadcastsInDim S1x1152 (![1] : Fin 1 → Fin S1x1152.rank)
  bcast_S_S14x14 : S_.BroadcastsInDim S14x14 (![] : Fin 0 → Fin S14x14.rank)
  bcast_S14x14_S14x1x14x1_0_2 : S14x14.BroadcastsInDim S14x1x14x1 (![0, 2] : Fin 2 → Fin S14x1x14x1.rank)
  bcast_S32x16_S1x32x1x16_1_3 : S32x16.BroadcastsInDim S1x32x1x16 (![1, 3] : Fin 2 → Fin S1x32x1x16.rank)
  bcast_S14x1x14x1_S14x32x14x16_0_1_2_3 : S14x1x14x1.BroadcastsInDim S14x32x14x16 (![0, 1, 2, 3] : Fin 4 → Fin S14x32x14x16.rank)
  bcast_S1x32x1x16_S14x32x14x16_0_1_2_3 : S1x32x1x16.BroadcastsInDim S14x32x14x16 (![0, 1, 2, 3] : Fin 4 → Fin S14x32x14x16.rank)
  shapeCasts_S14x32x14x16_S448x224 : S14x32x14x16.ShapeCasts S448x224
  pads_S448x224_S512x224_0640_000 : S448x224.Pads (![0, 0] : Fin 2 → Nat) ![64, 0] ![0, 0] S512x224
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x128_S1x128x1x128_1_3 : S128x128.BroadcastsInDim S1x128x1x128 (![1, 3] : Fin 2 → Fin S1x128x1x128.rank)
  bcast_S8x1x8x1_S8x128x8x128_0_1_2_3 : S8x1x8x1.BroadcastsInDim S8x128x8x128 (![0, 1, 2, 3] : Fin 4 → Fin S8x128x8x128.rank)
  bcast_S1x128x1x128_S8x128x8x128_0_1_2_3 : S1x128x1x128.BroadcastsInDim S8x128x8x128 (![0, 1, 2, 3] : Fin 4 → Fin S8x128x8x128.rank)
  shapeCasts_S8x128x8x128_S1024x1024 : S8x128x8x128.ShapeCasts S1024x1024
  shapeCasts_S256x128x16x16_S256x128x256 : S256x128x16x16.ShapeCasts S256x128x256
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  shapeCasts_S8x128x256_S1024x256 : S8x128x256.ShapeCasts S1024x256
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  inb_S512x224_S512x224_0_0 : ∀ a, (![0, 0] : Fin 2 → Nat) a + S512x224.size a ≤ S512x224.size a
  h_S512x224 : 0 < S512x224.numel
  shapeCasts_S512x224_S512x224 : S512x224.ShapeCasts S512x224
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S224x1152_S224x1152_0_0 : ∀ a, (![0, 0] : Fin 2 → Nat) a + S224x1152.size a ≤ S224x1152.size a
  h_S224x1152 : 0 < S224x1152.numel
  shapeCasts_S224x1152_S224x1152 : S224x1152.ShapeCasts S224x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1024x1152 : S1x1152.Broadcasts S1024x1152
  slices_S1024x1152_o0_0_S1024x384 : S1024x1152.Slices ![0, 0] S1024x384
  slices_S1024x1152_o0_384_S1024x384 : S1024x1152.Slices ![0, 384] S1024x384
  slices_S1024x1152_o0_768_S1024x384 : S1024x1152.Slices ![0, 768] S1024x384
  shapeCasts_S1024x384_S8x128x384 : S1024x384.ShapeCasts S8x128x384
  inb_S8x128x384_S8x128x384_0_0_0 : ∀ a, (![0, 0, 0] : Fin 3 → Nat) a + S8x128x384.size a ≤ S8x128x384.size a
  h_S8x128x384 : 0 < S8x128x384.numel
  reduces_S1024x384_S1024 : S1024x384.Reduces [1] S1024
  shapeCasts_S1024_S1024x1 : S1024.ShapeCasts S1024x1
  shapeCasts_S1024x1_S8x128x1 : S1024x1.ShapeCasts S8x128x1
  inb_S8x128x1_S8x128x1_0_0_0 : ∀ a, (![0, 0, 0] : Fin 3 → Nat) a + S8x128x1.size a ≤ S8x128x1.size a
  h_S8x128x1 : 0 < S8x128x1.numel
  shapeCasts_S256x128x1_S256x128 : S256x128x1.ShapeCasts S256x128
  reducesTo_S256x128_S128_d0 : S256x128.ReducesTo [0] S128
  bcast_S_S128 : S_.BroadcastsInDim S128 (![] : Fin 0 → Fin S128.rank)
  shapeCasts_S128x1_S128 : S128x1.ShapeCasts S128
  bcast_S128_S128x1_0 : S128.BroadcastsInDim S128x1 (![0] : Fin 1 → Fin S128x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  shapeCasts_S8x128x384_S8x128x384 : S8x128x384.ShapeCasts S8x128x384
  broadcasts_S1x128x1_S8x128x384 : S1x128x1.Broadcasts S8x128x384
  shapeCasts_S256x128x384_S256x128x12x32 : S256x128x384.ShapeCasts S256x128x12x32
  scatter_S16x16x32_S1_S3x16x32_012_n_0_0_wf : ScatterDims.WF S16x16x32 S1 S3x16x32 [0, 1, 2] [] [0] 0
  scatter_S14x16x32_S1_S3x16x32_012_n_0_0_wf : ScatterDims.WF S14x16x32 S1 S3x16x32 [0, 1, 2] [] [0] 0
  dot_S1024x256_S256x1536_S1024x1536_1_0_0_1_n_n_wf : DotDims.WF S1024x256 S256x1536 S1024x1536 [1] [0] [0] [1] [] []
  dot_S1024x512_S512x224_S1024x224_1_0_0_1_n_n_wf : DotDims.WF S1024x512 S512x224 S1024x224 [1] [0] [0] [1] [] []
  dot_S1024x1024_S1024x224_S1024x224_1_0_0_1_n_n_wf : DotDims.WF S1024x1024 S1024x224 S1024x224 [1] [0] [0] [1] [] []
  dot_S1024x224_S224x1152_S1024x1152_1_0_0_1_n_n_wf : DotDims.WF S1024x224 S224x1152 S1024x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S256x128x256.size a
  hwx0_0 : ∀ i : grid0.Coords, EltTy.bits .f32 = 32 ∨ (Rect.block (s := S256x128x256) S8x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1536.size a ≤ S256x1536.size a
  hwx0_2 : ∀ i : grid0.Coords, EltTy.bits .f32 = 32 ∨ (Rect.block (s := S256x1536) S256x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x224.size a ≤ S512x224.size a
  hwx0_4 : ∀ i : grid0.Coords, EltTy.bits .f32 = 32 ∨ (Rect.block (s := S512x224) S512x224.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S224x1152.size a ≤ S224x1152.size a
  hwx0_5 : ∀ i : grid0.Coords, EltTy.bits .f32 = 32 ∨ (Rect.block (s := S224x1152) S224x1152.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1152.size a ≤ S1x1152.size a
  hwx0_6 : ∀ i : grid0.Coords, EltTy.bits .f32 = 32 ∨ (Rect.block (s := S1x1152) S1x1152.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x384.size a ≤ S256x128x384.size a
  hwx0_7 : ∀ i : grid0.Coords, EltTy.bits .f32 = 32 ∨ (Rect.block (s := S256x128x384) S8x128x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128x1.size a ≤ S256x128x1.size a
  hwx0_8 : ∀ i : grid0.Coords, EltTy.bits .f32 = 32 ∨ (Rect.block (s := S256x128x1) S8x128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128x1.size a ≤ S256x128x1.size a
  hwx0_9 : ∀ i : grid0.Coords, EltTy.bits .f32 = 32 ∨ (Rect.block (s := S256x128x1) S8x128x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x384.size a ≤ S256x128x384.size a
  hwx1_0 : ∀ i : grid1.Coords, EltTy.bits .f32 = 32 ∨ (Rect.block (s := S256x128x384) S8x128x384.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x384.size a ≤ S256x128x384.size a
  hwx1_3 : ∀ i : grid1.Coords, EltTy.bits .f32 = 32 ∨ (Rect.block (s := S256x128x384) S8x128x384.size (cc1_transform_3 i) (hinb1_3 i)).WholeWords (EltTy.packing .f32)

variable [Facts₀]

def scatter_S16x16x32_S1_S3x16x32_012_n_0_0 : ScatterDims S16x16x32 S1 S3x16x32 where
  updateWindowDims := [0, 1, 2]
  insertedWindowDims := []
  scatterDimsToOperandDims := [0]
  indexVectorDim := 0
  wf := scatter_S16x16x32_S1_S3x16x32_012_n_0_0_wf
def scatter_S14x16x32_S1_S3x16x32_012_n_0_0 : ScatterDims S14x16x32 S1 S3x16x32 where
  updateWindowDims := [0, 1, 2]
  insertedWindowDims := []
  scatterDimsToOperandDims := [0]
  indexVectorDim := 0
  wf := scatter_S14x16x32_S1_S3x16x32_012_n_0_0_wf
def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S1024x512_S512x224_S1024x224_1_0_0_1_n_n : DotDims S1024x512 S512x224 S1024x224 where
  lhsContracting := [1]
  rhsContracting := [0]
  lhsNonContracting := [0]
  rhsNonContracting := [1]
  lhsBatch := []
  rhsBatch := []
  wf := dot_S1024x512_S512x224_S1024x224_1_0_0_1_n_n_wf
def dot_S1024x1024_S1024x224_S1024x224_1_0_0_1_n_n : DotDims S1024x1024 S1024x224 S1024x224 where
  lhsContracting := [1]
  rhsContracting := [0]
  lhsNonContracting := [0]
  rhsNonContracting := [1]
  lhsBatch := []
  rhsBatch := []
  wf := dot_S1024x1024_S1024x224_S1024x224_1_0_0_1_n_n_wf
def dot_S1024x224_S224x1152_S1024x1152_1_0_0_1_n_n : DotDims S1024x224 S224x1152 S1024x1152 where
  lhsContracting := [1]
  rhsContracting := [0]
  lhsNonContracting := [0]
  rhsNonContracting := [1]
  lhsBatch := []
  rhsBatch := []
  wf := dot_S1024x224_S224x1152_S1024x1152_1_0_0_1_n_n_wf

abbrev win0_0 : Pipeline.Window sig grid0 :=
  Pipeline.Window.ofSpec (Memref.whole main_v393) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v392) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v198) S256x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v200) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v385) S512x224.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v375) S224x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v377) S1x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v394_0) S8x128x384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v394_1) S8x128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v394_2) S8x128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v394_0) S8x128x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v412) S128x1.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v417) S128x1.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v418) S8x128x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.BitsBody0.lean ====
/-
  Region 0 of the kernel program (the fused pass: gated temporal convolution as one banded matmul, projection,
  per-batch mixing by the adjacency matrix, second gated convolution, and the per-(batch, node) sums for the
  normalisation), at any float instance and at a parameter V, the contents of the core's buffers when the
  region is entered.  Each of the 32 grid points reads a block of 8 batches of the input and the six weight
  arrays whole, and writes three blocks: the activation and its two row sums.  This module states what each
  window's staging buffer holds after the body (an input its block; an output the body's one store, over the
  whole block, of the body's arithmetic on the loaded blocks), proves the body's triple by symbolic execution
  through its part, and packages the pipeline's proof data and its body obligation.
-/
import proofs.«142292_g2000406351686535_pallasbulk_564_2_alg».proof.Proof.Gen.Kernel.Launch
import proofs.«142292_g2000406351686535_pallasbulk_564_2_alg».proof.Proof.Gen.Kernel.Skeleton
import proofs.«142292_g2000406351686535_pallasbulk_564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev q0_x : Rect S8x128x256 := Rect.unit (s := S8x128x256) ![0, 0, 0] S8x128x256.size inb_S8x128x256_S8x128x256_0_0_0
abbrev q0_a : Rect S128x128 := Rect.unit (s := S128x128) ![0, 0] S128x128.size inb_S128x128_S128x128_0_0
abbrev q0_w1 : Rect S256x1536 := Rect.unit (s := S256x1536) ![0, 0] S256x1536.size inb_S256x1536_S256x1536_0_0
abbrev q0_b1 : Rect S1x1536 := Rect.unit (s := S1x1536) ![0, 0] S1x1536.size inb_S1x1536_S1x1536_0_0
abbrev q0_th : Rect S512x224 := Rect.unit (s := S512x224) ![0, 0] S512x224.size inb_S512x224_S512x224_0_0
abbrev q0_w2 : Rect S224x1152 := Rect.unit (s := S224x1152) ![0, 0] S224x1152.size inb_S224x1152_S224x1152_0_0
abbrev q0_b2 : Rect S1x1152 := Rect.unit (s := S1x1152) ![0, 0] S1x1152.size inb_S1x1152_S1x1152_0_0
abbrev q0_o : Rect S8x128x384 := Rect.unit (s := S8x128x384) ![0, 0, 0] S8x128x384.size inb_S8x128x384_S8x128x384_0_0_0
abbrev q0_s : Rect S8x128x1 := Rect.unit (s := S8x128x1) ![0, 0, 0] S8x128x1.size inb_S8x128x1_S8x128x1_0_0_0

/-- The activation block after the body: one store over the whole block. -/
def out0_7 (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) : Vec F S8x128x384 .bf16 :=
  View.canon [⟨q0_o, k0_pay2 (k0_pay5 (View.ld x0 q0_x) (View.ld x2 q0_w1) (View.ld x3 q0_b1) (View.ld x4 q0_th)) (k0_pay6 (View.ld x1 q0_a)) (k0_pay7 (View.ld x0 q0_x) (View.ld x2 q0_w1) (View.ld x3 q0_b1) (View.ld x4 q0_th) (View.ld x1 q0_a)) (k0_pay8 (View.ld x0 q0_x) (View.ld x2 q0_w1) (View.ld x3 q0_b1) (View.ld x4 q0_th) (View.ld x1 q0_a)) (k0_pay9 (View.ld x0 q0_x) (View.ld x2 q0_w1) (View.ld x3 q0_b1) (View.ld x4 q0_th) (View.ld x1 q0_a)) (k0_pay10 (View.ld x0 q0_x) (View.ld x2 q0_w1) (View.ld x3 q0_b1) (View.ld x4 q0_th) (View.ld x1 q0_a)) (k0_pay11 (View.ld x0 q0_x) (View.ld x2 q0_w1) (View.ld x3 q0_b1) (View.ld x4 q0_th) (View.ld x1 q0_a)) (k0_pay12 (View.ld x0 q0_x) (View.ld x2 q0_w1) (View.ld x3 q0_b1) (View.ld x4 q0_th) (View.ld x1 q0_a)) (k0_pay13 (View.ld x0 q0_x) (View.ld x2 q0_w1) (View.ld x3 q0_b1) (View.ld x4 q0_th)) (View.ld x5 q0_w2) (View.ld x6 q0_b2)⟩]
/-- The block of row sums after the body. -/
def out0_8 (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) : Vec F S8x128x1 .f32 :=
  View.canon [⟨q0_s, k0_pay3 (k0_pay5 (View.ld x0 q0_x) (View.ld x2 q0_w1) (View.ld x3 q0_b1) (View.ld x4 q0_th)) (k0_pay6 (View.ld x1 q0_a)) (k0_pay7 (View.ld x0 q0_x) (View.ld x2 q0_w1) (View.ld x3 q0_b1) (View.ld x4 q0_th) (View.ld x1 q0_a)) (k0_pay8 (View.ld x0 q0_x) (View.ld x2 q0_w1) (View.ld x3 q0_b1) (View.ld x4 q0_th) (View.ld x1 q0_a)) (k0_pay9 (View.ld x0 q0_x) (View.ld x2 q0_w1) (View.ld x3 q0_b1) (View.ld x4 q0_th) (View.ld x1 q0_a)) (k0_pay10 (View.ld x0 q0_x) (View.ld x2 q0_w1) (View.ld x3 q0_b1) (View.ld x4 q0_th) (View.ld x1 q0_a)) (k0_pay11 (View.ld x0 q0_x) (View.ld x2 q0_w1) (View.ld x3 q0_b1) (View.ld x4 q0_th) (View.ld x1 q0_a)) (k0_pay12 (View.ld x0 q0_x) (View.ld x2 q0_w1) (View.ld x3 q0_b1) (View.ld x4 q0_th) (View.ld x1 q0_a)) (k0_pay13 (View.ld x0 q0_x) (View.ld x2 q0_w1) (View.ld x3 q0_b1) (View.ld x4 q0_th)) (View.ld x5 q0_w2) (View.ld x6 q0_b2)⟩]
/-- The block of row sums of squares after the body. -/
def out0_9 (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) : Vec F S8x128x1 .f32 :=
  View.canon [⟨q0_s, k0_pay4 (k0_pay5 (View.ld x0 q0_x) (View.ld x2 q0_w1) (View.ld x3 q0_b1) (View.ld x4 q0_th)) (k0_pay6 (View.ld x1 q0_a)) (k0_pay7 (View.ld x0 q0_x) (View.ld x2 q0_w1) (View.ld x3 q0_b1) (View.ld x4 q0_th) (View.ld x1 q0_a)) (k0_pay8 (View.ld x0 q0_x) (View.ld x2 q0_w1) (View.ld x3 q0_b1) (View.ld x4 q0_th) (View.ld x1 q0_a)) (k0_pay9 (View.ld x0 q0_x) (View.ld x2 q0_w1) (View.ld x3 q0_b1) (View.ld x4 q0_th) (View.ld x1 q0_a)) (k0_pay10 (View.ld x0 q0_x) (View.ld x2 q0_w1) (View.ld x3 q0_b1) (View.ld x4 q0_th) (View.ld x1 q0_a)) (k0_pay11 (View.ld x0 q0_x) (View.ld x2 q0_w1) (View.ld x3 q0_b1) (View.ld x4 q0_th) (View.ld x1 q0_a)) (k0_pay12 (View.ld x0 q0_x) (View.ld x2 q0_w1) (View.ld x3 q0_b1) (View.ld x4 q0_th) (View.ld x1 q0_a)) (k0_pay13 (View.ld x0 q0_x) (View.ld x2 q0_w1) (View.ld x3 q0_b1) (View.ld x4 q0_th)) (View.ld x5 q0_w2) (View.ld x6 q0_b2)⟩]

theorem cover0_7 (p0 : Vec F S8x128x384 .bf16) (y : S8x128x384.Idx) :
    ∃ pc ∈ ([⟨q0_o, p0⟩] : List (View.Piece (Elt F) S8x128x384 .bf16)), y ∈ pc.1.set :=
  View.cover_of_tiled [⟨q0_o, p0⟩] S8x128x384.size (by rfl) y
theorem cover0_8 (p0 : Vec F S8x128x1 .f32) (y : S8x128x1.Idx) :
    ∃ pc ∈ ([⟨q0_s, p0⟩] : List (View.Piece (Elt F) S8x128x1 .f32)), y ∈ pc.1.set :=
  View.cover_of_tiled [⟨q0_s, p0⟩] S8x128x1.size (by rfl) y

set_option maxHeartbeats 8000000 in
/-- The body on whole staging memrefs: the inputs keep their contents, each output ends at out0_W of them. -/
theorem sound_kernel0 (c : Dev nD) (E : Set ℕ) (i : grid0.Coords) (arg1 : Memref sig .tc .vmem S8x128x256 .f32) (harg1 : arg1.IsWhole) (arg2 : Memref sig .tc .vmem S128x128 .bf16) (harg2 : arg2.IsWhole) (arg3 : Memref sig .tc .vmem S256x1536 .bf16) (harg3 : arg3.IsWhole) (arg4 : Memref sig .tc .vmem S1x1536 .f32) (harg4 : arg4.IsWhole) (arg5 : Memref sig .tc .vmem S512x224 .bf16) (harg5 : arg5.IsWhole) (arg6 : Memref sig .tc .vmem S224x1152 .bf16) (harg6 : arg6.IsWhole) (arg7 : Memref sig .tc .vmem S1x1152 .f32) (harg7 : arg7.IsWhole) (arg8 : Memref sig .tc .vmem S8x128x384 .bf16) (harg8 : arg8.IsWhole) (arg9 : Memref sig .tc .vmem S8x128x1 .f32) (harg9 : arg9.IsWhole) (arg10 : Memref sig .tc .vmem S8x128x1 .f32) (harg10 : arg10.IsWhole)
    (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)
            ∗ owns (c : Thread nD τ) arg9 fullShare (out0_8 x0 x1 x2 x3 x4 x5 x6)
            ∗ owns (c : Thread nD τ) arg10 fullShare (out0_9 x0 x1 x2 x3 x4 x5 x6)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_8 _)

/-- The proof data of pipeline 0 on core c: the arrays as the region finds them; after the body each input's
    buffer at its block and each output's at out0_W of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.BitsBody1.lean ====
/-
  Region 1 of the kernel program (the affine normalisation pass), at any float instance and at a parameter V,
  the contents of the core's buffers when the region is entered.  Each of the 16 grid points reads a block of
  16 batches of the activation and the two per-node columns (scale, shift), and writes the block
  t * scale + shift.  This module states what each window's staging buffer holds after the body (the inputs
  their blocks, the output the body's one store over the whole block), proves the body's triple by symbolic
  execution, and packages the pipeline's proof data and its body obligation.
-/
import proofs.«142292_g2000406351686535_pallasbulk_564_2_alg».proof.Proof.Gen.Kernel.Launch
import proofs.«142292_g2000406351686535_pallasbulk_564_2_alg».proof.Proof.Gen.Kernel.Skeleton
import proofs.«142292_g2000406351686535_pallasbulk_564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev q1_t : Rect S16x128x384 := Rect.unit (s := S16x128x384) ![0, 0, 0] S16x128x384.size inb_S16x128x384_S16x128x384_0_0_0
abbrev q1_c : Rect S128x1 := Rect.unit (s := S128x1) ![0, 0] S128x1.size inb_S128x1_S128x1_0_0

/-- The output block after the body: its one store, over the whole block, of the affine map of the loaded blocks. -/
def out1_3 (x0 : Vec F S16x128x384 .bf16) (x1 : Vec F S128x1 .f32) (x2 : Vec F S128x1 .f32) : Vec F S16x128x384 .f32 :=
  View.canon [⟨q1_t, k1_pay1 (View.ld x0 q1_t) (View.ld x1 q1_c) (View.ld x2 q1_c)⟩]

theorem cover1_3 (p0 : Vec F S16x128x384 .f32) (y : S16x128x384.Idx) :
    ∃ pc ∈ ([⟨q1_t, p0⟩] : List (View.Piece (Elt F) S16x128x384 .f32)), y ∈ pc.1.set :=
  View.cover_of_tiled [⟨q1_t, p0⟩] S16x128x384.size (by rfl) y

set_option maxHeartbeats 4000000 in
/-- The body on whole staging memrefs: the inputs keep their contents, the output ends at out1_3 of them. -/
theorem sound_kernel1 (c : Dev nD) (E : Set ℕ) (i : grid1.Coords)
    (arg1 : Memref sig .tc .vmem S16x128x384 .bf16) (harg1 : arg1.IsWhole) (arg2 : Memref sig .tc .vmem S128x1 .f32) (harg2 : arg2.IsWhole)
    (arg3 : Memref sig .tc .vmem S128x1 .f32) (harg3 : arg3.IsWhole) (arg4 : Memref sig .tc .vmem S16x128x384 .f32) (harg4 : arg4.IsWhole)
    (x0 : Vec F S16x128x384 .bf16) (x1 : Vec F S128x1 .f32) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_body i arg1 harg1 arg2 harg2 arg3 harg3 arg4 harg4) K := by
  simp only [cc1__bn_body_eq_skeleton]; unfold cc1__bn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of pipeline 1 on core c: the arrays as the region finds them; after the body each input's
    buffer at its block and the output's at out1_3 of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.BitsWrites.lean ====
/- A table: for every stretch of host operations of the program's entry function, the references its operations write,
   that none of them allocates, and that each writes only a listed reference. -/
import proofs.«142292_g2000406351686535_pallasbulk_564_2_alg».proof.Proof.Gen.Kernel.Launch
import Idealize.ShloMosaic.Lib.StableHlo.Run

set_option maxRecDepth 16384

noncomputable section

namespace Cert.Kernel.Writes

open Idealize.ShloMosaic Idealize.ShloMosaic.TcCoe Idealize.SL.Sem
open Cert.Kernel Cert.Kernel.Gen

variable {F : FTy → Type} [FloatOps F]

abbrev hostOps0_W : List (Ref sig .tc) := [main_v0, main_v1, main_v2, main_v3, main_v4, main_cst, main_v5, main_c, main_v6, main_v7, main_v8, main_v9, main_v10, main_v11, main_c_0, main_v12, main_v13, main_c_1, main_v14, main_v15, main_v16, main_c_2, main_v17, main_v18, main_c_3, main_v19, main_v20, main_v21, main_v22, main_v23, main_v24, main_v25, main_c_4, main_v26, main_v27, main_v28, main_v29, main_v30, main_v31, main_c_5, main_v32, main_v33, main_c_6, main_v34, main_v35, main_v36, main_c_7, main_v37, main_v38, main_c_8, main_v39, main_v40, main_v41, main_v42, main_v43, main_v44, main_v45, main_c_9, main_v46, main_v47, main_v48, main_v49, main_v50, main_v51, main_c_10, main_v52, main_v53, main_c_11, main_v54, main_v55, main_v56, main_c_12, main_v57, main_v58, main_c_13, main_v59, main_v60, main_v61, main_v62, main_v63, main_v64, main_v65, main_v66, main_v67, main_v68, main_v69, main_c_14]
set_option maxHeartbeats 40000000 in
theorem hostOps0_fresh : (hostOps0 : List (HloOp τ sig (Elt F))).Forall fun op => op.fresh = ∅ := by
  simp only [List.Forall]; repeat' constructor
set_option maxHeartbeats 40000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_1_W : List (Ref sig .tc) := [main_call0_v0, main_v70]
set_option maxHeartbeats 40000000 in
theorem hostOps0_1_fresh : (hostOps0_1 : List (HloOp τ sig (Elt F))).Forall fun op => op.fresh = ∅ := by
  simp only [List.Forall]; repeat' constructor
set_option maxHeartbeats 40000000 in
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_2_W : List (Ref sig .tc) := [main_c_15]
set_option maxHeartbeats 40000000 in
theorem hostOps0_2_fresh : (hostOps0_2 : List (HloOp τ sig (Elt F))).Forall fun op => op.fresh = ∅ := by
  simp only [List.Forall]; repeat' constructor
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_3_W : List (Ref sig .tc) := [main_call1_v0, main_v71]
set_option maxHeartbeats 40000000 in
theorem hostOps0_3_fresh : (hostOps0_3 : List (HloOp τ sig (Elt F))).Forall fun op => op.fresh = ∅ := by
  simp only [List.Forall]; repeat' constructor
set_option maxHeartbeats 40000000 in
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_4_W : List (Ref sig .tc) := [main_v72, main_v73, main_v74, main_v75, main_v76, main_cst_16, main_v77, main_c_17, main_v78, main_v79, main_v80, main_v81, main_v82, main_v83, main_c_18, main_v84, main_v85, main_c_19, main_v86, main_v87, main_v88, main_c_20, main_v89, main_v90, main_c_21, main_v91, main_v92, main_v93, main_v94, main_v95, main_v96, main_v97, main_c_22, main_v98, main_v99, main_v100, main_v101, main_v102, main_v103, main_c_23, main_v104, main_v105, main_c_24, main_v106, main_v107, main_v108, main_c_25, main_v109, main_v110, main_c_26, main_v111, main_v112, main_v113, main_v114, main_v115, main_v116, main_v117, main_c_27, main_v118, main_v119, main_v120, main_v121, main_v122, main_v123, main_c_28, main_v124, main_v125, main_c_29, main_v126, main_v127, main_v128, main_c_30, main_v129, main_v130, main_c_31, main_v131, main_v132, main_v133, main_v134, main_v135, main_v136, main_v137, main_v138, main_v139, main_v140, main_v141, main_c_32]
set_option maxHeartbeats 40000000 in
theorem hostOps0_4_fresh : (hostOps0_4 : List (HloOp τ sig (Elt F))).Forall fun op => op.fresh = ∅ := by
  simp only [List.Forall]; repeat' constructor
set_option maxHeartbeats 40000000 in
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_5_W : List (Ref sig .tc) := [main_call2_v0, main_v142]
set_option maxHeartbeats 40000000 in
theorem hostOps0_5_fresh : (hostOps0_5 : List (HloOp τ sig (Elt F))).Forall fun op => op.fresh = ∅ := by
  simp only [List.Forall]; repeat' constructor
set_option maxHeartbeats 40000000 in
theorem hostOps0_5_writes : (hostOps0_5 : List (HloOp τ sig (Elt F))).Forall fun op => op.writes ⊆ (hostOps0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_6_W : List (Ref sig .tc) := [main_c_33]
set_option maxHeartbeats 40000000 in
theorem hostOps0_6_fresh : (hostOps0_6 : List (HloOp τ sig (Elt F))).Forall fun op => op.fresh = ∅ := by
  simp only [List.Forall]; repeat' constructor
set_option maxHeartbeats 40000000 in
theorem hostOps0_6_writes : (hostOps0_6 : List (HloOp τ sig (Elt F))).Forall fun op => op.writes ⊆ (hostOps0_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_7_W : List (Ref sig .tc) := [main_call3_v0, main_v143]
set_option maxHeartbeats 40000000 in
theorem hostOps0_7_fresh : (hostOps0_7 : List (HloOp τ sig (Elt F))).Forall fun op => op.fresh = ∅ := by
  simp only [List.Forall]; repeat' constructor
set_option maxHeartbeats 40000000 in
theorem hostOps0_7_writes : (hostOps0_7 : List (HloOp τ sig (Elt F))).Forall fun op => op.writes ⊆ (hostOps0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_8_W : List (Ref sig .tc) := [main_v144, main_v145, main_v146, main_v147, main_v148, main_cst_34, main_v149, main_c_35, main_v150, main_v151, main_v152, main_v153, main_v154, main_v155, main_c_36, main_v156, main_v157, main_c_37, main_v158, main_v159, main_v160, main_c_38, main_v161, main_v162, main_c_39, main_v163, main_v164, main_v165, main_v166, main_v167, main_v168, main_v169, main_c_40, main_v170, main_v171, main_v172, main_v173, main_v174, main_v175, main_c_41, main_v176, main_v177, main_c_42, main_v178, main_v179, main_v180, main_c_43, main_v181, main_v182, main_c_44, main_v183, main_v184, main_v185, main_v186, main_v187, main_v188, main_v189, main_c_45, main_v190, main_v191, main_v192, main_v193, main_v194, main_v195, main_c_46, main_v196, main_v197, main_c_47, main_v198, main_v199, main_v200, main_c_48, main_v201, main_v202, main_c_49, main_v203, main_v204, main_v205, main_v206, main_v207, main_v208, main_v209, main_v210, main_v211, main_v212, main_v213, main_c_50]
set_option maxHeartbeats 40000000 in
theorem hostOps0_8_fresh : (hostOps0_8 : List (HloOp τ sig (Elt F))).Forall fun op => op.fresh = ∅ := by
  simp only [List.Forall]; repeat' constructor
set_option maxHeartbeats 40000000 in
theorem hostOps0_8_writes : (hostOps0_8 : List (HloOp τ sig (Elt F))).Forall fun op => op.writes ⊆ (hostOps0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_9_W : List (Ref sig .tc) := [main_call4_v0, main_v214]
set_option maxHeartbeats 40000000 in
theorem hostOps0_9_fresh : (hostOps0_9 : List (HloOp τ sig (Elt F))).Forall fun op => op.fresh = ∅ := by
  simp only [List.Forall]; repeat' constructor
set_option maxHeartbeats 40000000 in
theorem hostOps0_9_writes : (hostOps0_9 : List (HloOp τ sig (Elt F))).Forall fun op => op.writes ⊆ (hostOps0_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_10_W : List (Ref sig .tc) := [main_c_51]
set_option maxHeartbeats 40000000 in
theorem hostOps0_10_fresh : (hostOps0_10 : List (HloOp τ sig (Elt F))).Forall fun op => op.fresh = ∅ := by
  simp only [List.Forall]; repeat' constructor
set_option maxHeartbeats 40000000 in
theorem hostOps0_10_writes : (hostOps0_10 : List (HloOp τ sig (Elt F))).Forall fun op => op.writes ⊆ (hostOps0_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_11_W : List (Ref sig .tc) := [main_call5_v0, main_v215]
set_option maxHeartbeats 40000000 in
theorem hostOps0_11_fresh : (hostOps0_11 : List (HloOp τ sig (Elt F))).Forall fun op => op.fresh = ∅ := by
  simp only [List.Forall]; repeat' constructor
set_option maxHeartbeats 40000000 in
theorem hostOps0_11_writes : (hostOps0_11 : List (HloOp τ sig (Elt F))).Forall fun op => op.writes ⊆ (hostOps0_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_12_W : List (Ref sig .tc) := [main_v216, main_v217, main_v218, main_v219, main_v220, main_cst_52, main_v221, main_c_53, main_v222, main_v223, main_v224, main_v225, main_v226, main_v227, main_c_54, main_v228, main_v229, main_c_55, main_v230, main_v231, main_v232, main_c_56, main_v233, main_v234, main_c_57, main_v235, main_v236, main_v237, main_v238, main_v239, main_v240, main_v241, main_c_58, main_v242, main_v243, main_v244, main_v245, main_v246, main_v247, main_c_59, main_v248, main_v249, main_c_60, main_v250, main_v251, main_v252, main_c_61, main_v253, main_v254, main_c_62, main_v255, main_v256, main_v257, main_v258, main_v259, main_v260, main_v261, main_c_63, main_v262, main_v263, main_v264, main_v265, main_v266, main_v267, main_c_64, main_v268, main_v269, main_c_65, main_v270, main_v271, main_v272, main_c_66, main_v273, main_v274, main_c_67, main_v275, main_v276, main_v277, main_v278, main_v279, main_v280, main_v281, main_v282, main_v283, main_v284, main_v285, main_c_68]
set_option maxHeartbeats 40000000 in
theorem hostOps0_12_fresh : (hostOps0_12 : List (HloOp τ sig (Elt F))).Forall fun op => op.fresh = ∅ := by
  simp only [List.Forall]; repeat' constructor
set_option maxHeartbeats 40000000 in
theorem hostOps0_12_writes : (hostOps0_12 : List (HloOp τ sig (Elt F))).Forall fun op => op.writes ⊆ (hostOps0_12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_13_W : List (Ref sig .tc) := [main_call6_v0, main_v286]
set_option maxHeartbeats 40000000 in
theorem hostOps0_13_fresh : (hostOps0_13 : List (HloOp τ sig (Elt F))).Forall fun op => op.fresh = ∅ := by
  simp only [List.Forall]; repeat' constructor
set_option maxHeartbeats 40000000 in
theorem hostOps0_13_writes : (hostOps0_13 : List (HloOp τ sig (Elt F))).Forall fun op => op.writes ⊆ (hostOps0_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_14_W : List (Ref sig .tc) := [main_c_69]
set_option maxHeartbeats 40000000 in
theorem hostOps0_14_fresh : (hostOps0_14 : List (HloOp τ sig (Elt F))).Forall fun op => op.fresh = ∅ := by
  simp only [List.Forall]; repeat' constructor
set_option maxHeartbeats 40000000 in
theorem hostOps0_14_writes : (hostOps0_14 : List (HloOp τ sig (Elt F))).Forall fun op => op.writes ⊆ (hostOps0_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_15_W : List (Ref sig .tc) := [main_call7_v0, main_v287]
set_option maxHeartbeats 40000000 in
theorem hostOps0_15_fresh : (hostOps0_15 : List (HloOp τ sig (Elt F))).Forall fun op => op.fresh = ∅ := by
  simp only [List.Forall]; repeat' constructor
set_option maxHeartbeats 40000000 in
theorem hostOps0_15_writes : (hostOps0_15 : List (HloOp τ sig (Elt F))).Forall fun op => op.writes ⊆ (hostOps0_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_16_W : List (Ref sig .tc) := [main_v288, main_v289, main_v290, main_v291, main_v292, main_cst_70, main_v293, main_c_71, main_v294, main_v295, main_v296, main_v297, main_v298, main_v299, main_c_72, main_v300, main_v301, main_c_73, main_v302, main_v303, main_v304, main_c_74, main_v305, main_v306, main_c_75, main_v307, main_v308, main_v309, main_v310, main_v311, main_v312, main_v313, main_c_76, main_v314, main_v315, main_v316, main_v317, main_v318, main_v319, main_c_77, main_v320, main_v321, main_c_78, main_v322, main_v323, main_v324, main_c_79, main_v325, main_v326, main_c_80, main_v327, main_v328, main_v329, main_v330, main_v331, main_v332, main_v333, main_c_81, main_v334, main_v335, main_v336, main_v337, main_v338, main_v339, main_c_82, main_v340, main_v341, main_c_83, main_v342, main_v343, main_v344, main_c_84, main_v345, main_v346, main_c_85, main_v347, main_v348, main_v349, main_v350, main_v351, main_v352, main_v353, main_v354, main_v355, main_v356, main_v357, main_c_86]
set_option maxHeartbeats 40000000 in
theorem hostOps0_16_fresh : (hostOps0_16 : List (HloOp τ sig (Elt F))).Forall fun op => op.fresh = ∅ := by
  simp only [List.Forall]; repeat' constructor
set_option maxHeartbeats 40000000 in
theorem hostOps0_16_writes : (hostOps0_16 : List (HloOp τ sig (Elt F))).Forall fun op => op.writes ⊆ (hostOps0_16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_17_W : List (Ref sig .tc) := [main_call8_v0, main_v358]
set_option maxHeartbeats 40000000 in
theorem hostOps0_17_fresh : (hostOps0_17 : List (HloOp τ sig (Elt F))).Forall fun op => op.fresh = ∅ := by
  simp only [List.Forall]; repeat' constructor
set_option maxHeartbeats 40000000 in
theorem hostOps0_17_writes : (hostOps0_17 : List (HloOp τ sig (Elt F))).Forall fun op => op.writes ⊆ (hostOps0_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_18_W : List (Ref sig .tc) := [main_c_87]
set_option maxHeartbeats 40000000 in
theorem hostOps0_18_fresh : (hostOps0_18 : List (HloOp τ sig (Elt F))).Forall fun op => op.fresh = ∅ := by
  simp only [List.Forall]; repeat' constructor
set_option maxHeartbeats 40000000 in
theorem hostOps0_18_writes : (hostOps0_18 : List (HloOp τ sig (Elt F))).Forall fun op => op.writes ⊆ (hostOps0_18_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_19_W : List (Ref sig .tc) := [main_call9_v0, main_v359]
set_option maxHeartbeats 40000000 in
theorem hostOps0_19_fresh : (hostOps0_19 : List (HloOp τ sig (Elt F))).Forall fun op => op.fresh = ∅ := by
  simp only [List.Forall]; repeat' constructor
set_option maxHeartbeats 40000000 in
theorem hostOps0_19_writes : (hostOps0_19 : List (HloOp τ sig (Elt F))).Forall fun op => op.writes ⊆ (hostOps0_19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_20_W : List (Ref sig .tc) := [main_v360, main_v361, main_v362, main_v363, main_v364, main_cst_88, main_v365, main_c_89, main_v366, main_v367, main_v368, main_v369, main_v370, main_v371, main_c_90, main_v372, main_v373, main_c_91, main_v374, main_v375, main_v376, main_c_92, main_v377, main_v378, main_c_93, main_v379, main_v380, main_v381, main_v382, main_v383, main_v384, main_v385, main_c_94, main_v386, main_v387, main_v388, main_v389, main_v390, main_v391, main_c_95, main_v392, main_v393, main_c_96, main_v394, main_v395, main_v396, main_c_97, main_v397, main_v398, main_c_98, main_v399, main_v400, main_v401, main_v402, main_v403, main_v404, main_v405, main_c_99, main_v406, main_v407, main_v408, main_v409, main_v410, main_v411, main_c_100, main_v412, main_v413, main_c_101, main_v414, main_v415, main_v416, main_c_102, main_v417, main_v418, main_c_103, main_v419, main_v420, main_v421, main_v422, main_v423, main_v424, main_v425, main_v426, main_v427, main_v428, main_v429, main_c_104]
set_option maxHeartbeats 40000000 in
theorem hostOps0_20_fresh : (hostOps0_20 : List (HloOp τ sig (Elt F))).Forall fun op => op.fresh = ∅ := by
  simp only [List.Forall]; repeat' constructor
set_option maxHeartbeats 40000000 in
theorem hostOps0_20_writes : (hostOps0_20 : List (HloOp τ sig (Elt F))).Forall fun op => op.writes ⊆ (hostOps0_20_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_21_W : List (Ref sig .tc) := [main_call10_v0, main_v430]
set_option maxHeartbeats 40000000 in
theorem hostOps0_21_fresh : (hostOps0_21 : List (HloOp τ sig (Elt F))).Forall fun op => op.fresh = ∅ := by
  simp only [List.Forall]; repeat' constructor
set_option maxHeartbeats 40000000 in
theorem hostOps0_21_writes : (hostOps0_21 : List (HloOp τ sig (Elt F))).Forall fun op => op.writes ⊆ (hostOps0_21_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_22_W : List (Ref sig .tc) := [main_c_105]
set_option maxHeartbeats 40000000 in
theorem hostOps0_22_fresh : (hostOps0_22 : List (HloOp τ sig (Elt F))).Forall fun op => op.fresh = ∅ := by
  simp only [List.Forall]; repeat' constructor
set_option maxHeartbeats 40000000 in
theorem hostOps0_22_writes : (hostOps0_22 : List (HloOp τ sig (Elt F))).Forall fun op => op.writes ⊆ (hostOps0_22_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_23_W : List (Ref sig .tc) := [main_call11_v0, main_v431]
set_option maxHeartbeats 40000000 in
theorem hostOps0_23_fresh : (hostOps0_23 : List (HloOp τ sig (Elt F))).Forall fun op => op.fresh = ∅ := by
  simp only [List.Forall]; repeat' constructor
set_option maxHeartbeats 40000000 in
theorem hostOps0_23_writes : (hostOps0_23 : List (HloOp τ sig (Elt F))).Forall fun op => op.writes ⊆ (hostOps0_23_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_24_W : List (Ref sig .tc) := [main_v432, main_v433, main_v434, main_v435, main_v436, main_v437, main_v438, main_v439, main_v440, main_v441, main_c_106, main_v442, main_v443, main_v444, main_v445]
set_option maxHeartbeats 40000000 in
theorem hostOps0_24_fresh : (hostOps0_24 : List (HloOp τ sig (Elt F))).Forall fun op => op.fresh = ∅ := by
  simp only [List.Forall]; repeat' constructor
set_option maxHeartbeats 40000000 in
theorem hostOps0_24_writes : (hostOps0_24 : List (HloOp τ sig (Elt F))).Forall fun op => op.writes ⊆ (hostOps0_24_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_25_W : List (Ref sig .tc) := [main_call12_v0, main_call12_v1, main_call12_v2, main_call12_v3, main_call12_v4, main_v446]
set_option maxHeartbeats 40000000 in
theorem hostOps0_25_fresh : (hostOps0_25 : List (HloOp τ sig (Elt F))).Forall fun op => op.fresh = ∅ := by
  simp only [List.Forall]; repeat' constructor
set_option maxHeartbeats 40000000 in
theorem hostOps0_25_writes : (hostOps0_25 : List (HloOp τ sig (Elt F))).Forall fun op => op.writes ⊆ (hostOps0_25_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_26_W : List (Ref sig .tc) := [main_c_107]
set_option maxHeartbeats 40000000 in
theorem hostOps0_26_fresh : (hostOps0_26 : List (HloOp τ sig (Elt F))).Forall fun op => op.fresh = ∅ := by
  simp only [List.Forall]; repeat' constructor
set_option maxHeartbeats 40000000 in
theorem hostOps0_26_writes : (hostOps0_26 : List (HloOp τ sig (Elt F))).Forall fun op => op.writes ⊆ (hostOps0_26_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_27_W : List (Ref sig .tc) := [main_call13_v0, main_v447]
set_option maxHeartbeats 40000000 in
theorem hostOps0_27_fresh : (hostOps0_27 : List (HloOp τ sig (Elt F))).Forall fun op => op.fresh = ∅ := by
  simp only [List.Forall]; repeat' constructor
set_option maxHeartbeats 40000000 in
theorem hostOps0_27_writes : (hostOps0_27 : List (HloOp τ sig (Elt F))).Forall fun op => op.writes ⊆ (hostOps0_27_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_28_W : List (Ref sig .tc) := [main_v448, main_v449, main_v450]
set_option maxHeartbeats 40000000 in
theorem hostOps0_28_fresh : (hostOps0_28 : List (HloOp τ sig (Elt F))).Forall fun op => op.fresh = ∅ := by
  simp only [List.Forall]; repeat' constructor
set_option maxHeartbeats 40000000 in
theorem hostOps0_28_writes : (hostOps0_28 : List (HloOp τ sig (Elt F))).Forall fun op => op.writes ⊆ (hostOps0_28_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps1_W : List (Ref sig .tc) := [main_v452, main_cst_108, main_v453, main_cst_109, main_v454, main_v455, main_v456, main_cst_110, main_v457, main_cst_111, main_v458, main_v459, main_v460, main_v461, main_cst_112, main_v462, main_v463, main_cst_113, main_v464, main_v465, main_v466, main_v467, main_v468, main_v469, main_v470, main_v471, main_v472, main_v473, main_v474]
set_option maxHeartbeats 40000000 in
theorem hostOps1_fresh : (hostOps1 : List (HloOp τ sig (Elt F))).Forall fun op => op.fresh = ∅ := by
  simp only [List.Forall]; repeat' constructor
set_option maxHeartbeats 40000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps2_W : List (Ref sig .tc) := [main_v476]
set_option maxHeartbeats 40000000 in
theorem hostOps2_fresh : (hostOps2 : List (HloOp τ sig (Elt F))).Forall fun op => op.fresh = ∅ := by
  simp only [List.Forall]; repeat' constructor
set_option maxHeartbeats 40000000 in
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.Writes

end
-- ==== Proof.BitsFold.lean ====
/- The boundaries' contents, laid out from a hand-written template over the program's list of stretches. -/
/-
  The contents of the core's buffers at every boundary between two items of the program's entry function:
  the launch memory, then the result of each stretch of host operations in turn, then what region 0 leaves — its
  output arrays at the fold of the blocks its grid points write back, everything else as entered —, the stretch
  between the regions, what region 1 leaves, and the last stretch.  Then: a reference no stretch writes and no region
  stages holds its launch contents at the end; in particular every argument array does.
-/
import proofs.«142292_g2000406351686535_pallasbulk_564_2_alg».proof.Proof.BitsBody0
import proofs.«142292_g2000406351686535_pallasbulk_564_2_alg».proof.Proof.BitsBody1
import proofs.«142292_g2000406351686535_pallasbulk_564_2_alg».proof.Proof.BitsWrites

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body Cert.Kernel.Writes

variable {F : FTy → Type} [FloatOps F]

variable (m : (ℓ : Loc nD τ sig) → Buf (Elt F) ℓ) (ρ : Dev nD → PrngReg)

/-- Core c's buffers at launch. -/
def W0 : Dev nD → Valuation τ sig (Elt F) := fun c b => (s₀ m ρ).mem ((c : Dev nD), b)
/-- After the stretch hostOps0. -/
def W1 : Dev nD → Valuation τ sig (Elt F) := fun c => StableHlo.after hostOps0 (W0 m ρ c)
/-- After the stretch hostOps0_1. -/
def W2 : Dev nD → Valuation τ sig (Elt F) := fun c => StableHlo.after hostOps0_1 (W1 m ρ c)
/-- After the stretch hostOps0_2. -/
def W3 : Dev nD → Valuation τ sig (Elt F) := fun c => StableHlo.after hostOps0_2 (W2 m ρ c)
/-- After the stretch hostOps0_3. -/
def W4 : Dev nD → Valuation τ sig (Elt F) := fun c => StableHlo.after hostOps0_3 (W3 m ρ c)
/-- After the stretch hostOps0_4. -/
def W5 : Dev nD → Valuation τ sig (Elt F) := fun c => StableHlo.after hostOps0_4 (W4 m ρ c)
/-- After the stretch hostOps0_5. -/
def W6 : Dev nD → Valuation τ sig (Elt F) := fun c => StableHlo.after hostOps0_5 (W5 m ρ c)
/-- After the stretch hostOps0_6. -/
def W7 : Dev nD → Valuation τ sig (Elt F) := fun c => StableHlo.after hostOps0_6 (W6 m ρ c)
/-- After the stretch hostOps0_7. -/
def W8 : Dev nD → Valuation τ sig (Elt F) := fun c => StableHlo.after hostOps0_7 (W7 m ρ c)
/-- After the stretch hostOps0_8. -/
def W9 : Dev nD → Valuation τ sig (Elt F) := fun c => StableHlo.after hostOps0_8 (W8 m ρ c)
/-- After the stretch hostOps0_9. -/
def W10 : Dev nD → Valuation τ sig (Elt F) := fun c => StableHlo.after hostOps0_9 (W9 m ρ c)
/-- After the stretch hostOps0_10. -/
def W11 : Dev nD → Valuation τ sig (Elt F) := fun c => StableHlo.after hostOps0_10 (W10 m ρ c)
/-- After the stretch hostOps0_11. -/
def W12 : Dev nD → Valuation τ sig (Elt F) := fun c => StableHlo.after hostOps0_11 (W11 m ρ c)
/-- After the stretch hostOps0_12. -/
def W13 : Dev nD → Valuation τ sig (Elt F) := fun c => StableHlo.after hostOps0_12 (W12 m ρ c)
/-- After the stretch hostOps0_13. -/
def W14 : Dev nD → Valuation τ sig (Elt F) := fun c => StableHlo.after hostOps0_13 (W13 m ρ c)
/-- After the stretch hostOps0_14. -/
def W15 : Dev nD → Valuation τ sig (Elt F) := fun c => StableHlo.after hostOps0_14 (W14 m ρ c)
/-- After the stretch hostOps0_15. -/
def W16 : Dev nD → Valuation τ sig (Elt F) := fun c => StableHlo.after hostOps0_15 (W15 m ρ c)
/-- After the stretch hostOps0_16. -/
def W17 : Dev nD → Valuation τ sig (Elt F) := fun c => StableHlo.after hostOps0_16 (W16 m ρ c)
/-- After the stretch hostOps0_17. -/
def W18 : Dev nD → Valuation τ sig (Elt F) := fun c => StableHlo.after hostOps0_17 (W17 m ρ c)
/-- After the stretch hostOps0_18. -/
def W19 : Dev nD → Valuation τ sig (Elt F) := fun c => StableHlo.after hostOps0_18 (W18 m ρ c)
/-- After the stretch hostOps0_19. -/
def W20 : Dev nD → Valuation τ sig (Elt F) := fun c => StableHlo.after hostOps0_19 (W19 m ρ c)
/-- After the stretch hostOps0_20. -/
def W21 : Dev nD → Valuation τ sig (Elt F) := fun c => StableHlo.after hostOps0_20 (W20 m ρ c)
/-- After the stretch hostOps0_21. -/
def W22 : Dev nD → Valuation τ sig (Elt F) := fun c => StableHlo.after hostOps0_21 (W21 m ρ c)
/-- After the stretch hostOps0_22. -/
def W23 : Dev nD → Valuation τ sig (Elt F) := fun c => StableHlo.after hostOps0_22 (W22 m ρ c)
/-- After the stretch hostOps0_23. -/
def W24 : Dev nD → Valuation τ sig (Elt F) := fun c => StableHlo.after hostOps0_23 (W23 m ρ c)
/-- After the stretch hostOps0_24. -/
def W25 : Dev nD → Valuation τ sig (Elt F) := fun c => StableHlo.after hostOps0_24 (W24 m ρ c)
/-- After the stretch hostOps0_25. -/
def W26 : Dev nD → Valuation τ sig (Elt F) := fun c => StableHlo.after hostOps0_25 (W25 m ρ c)
/-- After the stretch hostOps0_26. -/
def W27 : Dev nD → Valuation τ sig (Elt F) := fun c => StableHlo.after hostOps0_26 (W26 m ρ c)
/-- After the stretch hostOps0_27. -/
def W28 : Dev nD → Valuation τ sig (Elt F) := fun c => StableHlo.after hostOps0_27 (W27 m ρ c)
/-- After the stretch hostOps0_28. -/
def W29 : Dev nD → Valuation τ sig (Elt F) := fun c => StableHlo.after hostOps0_28 (W28 m ρ c)
/-- The contents region 0 is entered with, read at the TensorCore's references. -/
abbrev V29 : (c : Dev nD) → (b : Ref sig .tc) → Buf (Elt F) ((c : Thread nD τ).loc b) := fun c b => W29 m ρ c b
/-- At region 0's exit: its arrays at what the pipeline leaves (each output's write-backs folded), every other buffer as entered. -/
def W30 (c : Dev nD) : Valuation τ sig (Elt F) :=
  Pipeline.withArrays spec0 c (W29 m ρ c) fun w => (dat0 (V29 m ρ) c).arrAt w cfg0.N
theorem W30_arr (c : Dev nD) (w : Fin cfg0.W) :
    W30 m ρ c (Proc.devRef .tc (Pipeline.arrRef spec0 w)) = (dat0 (V29 m ρ) c).arrAt w cfg0.N := by
  unfold W30; exact Pipeline.withArrays_arr spec0 launch0.win.arr_inj c _ _ w
theorem W30_of_ne (c : Dev nD) (b : Ref sig .tc) (hb : ∀ w, Pipeline.arrRef spec0 w ≠ b) :
    W30 m ρ c (Proc.devRef .tc b) = W29 m ρ c (Proc.devRef .tc b) := by
  unfold W30; exact Pipeline.withArrays_of_ne spec0 c _ _ b hb
abbrev V30 : (c : Dev nD) → (b : Ref sig .tc) → Buf (Elt F) ((c : Thread nD τ).loc b) := fun c b => W30 m ρ c b
theorem hF0 (c : Dev nD) (w : Fin cfg0.W) : (dat0 (V29 m ρ) c).arrAt w cfg0.N = V30 m ρ c (Pipeline.arrRef spec0 w) :=
  (W30_arr m ρ c w).symm
theorem hrest0 (c : Dev nD) : ∀ b, b ∉ Finset.univ.image (Pipeline.arrRef spec0) → V30 m ρ c b = V29 m ρ c b :=
  fun b hb => W30_of_ne m ρ c b fun w e => hb (Finset.mem_image.mpr ⟨w, Finset.mem_univ _, e⟩)

/-- After the stretch hostOps1 (region 1's entry). -/
def W31 : Dev nD → Valuation τ sig (Elt F) := fun c => StableHlo.after hostOps1 (W30 m ρ c)
abbrev V31 : (c : Dev nD) → (b : Ref sig .tc) → Buf (Elt F) ((c : Thread nD τ).loc b) := fun c b => W31 m ρ c b
/-- At region 1's exit. -/
def W32 (c : Dev nD) : Valuation τ sig (Elt F) :=
  Pipeline.withArrays spec1 c (W31 m ρ c) fun w => (dat1 (V31 m ρ) c).arrAt w cfg1.N
theorem W32_arr (c : Dev nD) (w : Fin cfg1.W) :
    W32 m ρ c (Proc.devRef .tc (Pipeline.arrRef spec1 w)) = (dat1 (V31 m ρ) c).arrAt w cfg1.N := by
  unfold W32; exact Pipeline.withArrays_arr spec1 launch1.win.arr_inj c _ _ w
theorem W32_of_ne (c : Dev nD) (b : Ref sig .tc) (hb : ∀ w, Pipeline.arrRef spec1 w ≠ b) :
    W32 m ρ c (Proc.devRef .tc b) = W31 m ρ c (Proc.devRef .tc b) := by
  unfold W32; exact Pipeline.withArrays_of_ne spec1 c _ _ b hb
abbrev V32 : (c : Dev nD) → (b : Ref sig .tc) → Buf (Elt F) ((c : Thread nD τ).loc b) := fun c b => W32 m ρ c b
theorem hF1 (c : Dev nD) (w : Fin cfg1.W) : (dat1 (V31 m ρ) c).arrAt w cfg1.N = V32 m ρ c (Pipeline.arrRef spec1 w) :=
  (W32_arr m ρ c w).symm
theorem hrest1 (c : Dev nD) : ∀ b, b ∉ Finset.univ.image (Pipeline.arrRef spec1) → V32 m ρ c b = V31 m ρ c b :=
  fun b hb => W32_of_ne m ρ c b fun w e => hb (Finset.mem_image.mpr ⟨w, Finset.mem_univ _, e⟩)

/-- After the last stretch hostOps2: the contents @main returns with. -/
def W33 : Dev nD → Valuation τ sig (Elt F) := fun c => StableHlo.after hostOps2 (W32 m ρ c)

/-! ## What each stretch leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W20_of (c : Dev nD) (r : Ref sig .tc) (h : r ∉ hostOps0_19_W) : W20 m ρ c (Proc.devRef .tc r) = W19 m ρ c (Proc.devRef .tc r) :=
  StableHlo.after_of_writes_sub hostOps0_19 _ hostOps0_19_writes h
theorem W21_of (c : Dev nD) (r : Ref sig .tc) (h : r ∉ hostOps0_20_W) : W21 m ρ c (Proc.devRef .tc r) = W20 m ρ c (Proc.devRef .tc r) :=
  StableHlo.after_of_writes_sub hostOps0_20 _ hostOps0_20_writes h
theorem W22_of (c : Dev nD) (r : Ref sig .tc) (h : r ∉ hostOps0_21_W) : W22 m ρ c (Proc.devRef .tc r) = W21 m ρ c (Proc.devRef .tc r) :=
  StableHlo.after_of_writes_sub hostOps0_21 _ hostOps0_21_writes h
theorem W23_of (c : Dev nD) (r : Ref sig .tc) (h : r ∉ hostOps0_22_W) : W23 m ρ c (Proc.devRef .tc r) = W22 m ρ c (Proc.devRef .tc r) :=
  StableHlo.after_of_writes_sub hostOps0_22 _ hostOps0_22_writes h
theorem W24_of (c : Dev nD) (r : Ref sig .tc) (h : r ∉ hostOps0_23_W) : W24 m ρ c (Proc.devRef .tc r) = W23 m ρ c (Proc.devRef .tc r) :=
  StableHlo.after_of_writes_sub hostOps0_23 _ hostOps0_23_writes h
theorem W25_of (c : Dev nD) (r : Ref sig .tc) (h : r ∉ hostOps0_24_W) : W25 m ρ c (Proc.devRef .tc r) = W24 m ρ c (Proc.devRef .tc r) :=
  StableHlo.after_of_writes_sub hostOps0_24 _ hostOps0_24_writes h
theorem W26_of (c : Dev nD) (r : Ref sig .tc) (h : r ∉ hostOps0_25_W) : W26 m ρ c (Proc.devRef .tc r) = W25 m ρ c (Proc.devRef .tc r) :=
  StableHlo.after_of_writes_sub hostOps0_25 _ hostOps0_25_writes h
theorem W27_of (c : Dev nD) (r : Ref sig .tc) (h : r ∉ hostOps0_26_W) : W27 m ρ c (Proc.devRef .tc r) = W26 m ρ c (Proc.devRef .tc r) :=
  StableHlo.after_of_writes_sub hostOps0_26 _ hostOps0_26_writes h
theorem W28_of (c : Dev nD) (r : Ref sig .tc) (h : r ∉ hostOps0_27_W) : W28 m ρ c (Proc.devRef .tc r) = W27 m ρ c (Proc.devRef .tc r) :=
  StableHlo.after_of_writes_sub hostOps0_27 _ hostOps0_27_writes h
theorem W29_of (c : Dev nD) (r : Ref sig .tc) (h : r ∉ hostOps0_28_W) : W29 m ρ c (Proc.devRef .tc r) = W28 m ρ c (Proc.devRef .tc r) :=
  StableHlo.after_of_writes_sub hostOps0_28 _ hostOps0_28_writes h
theorem W31_of (c : Dev nD) (r : Ref sig .tc) (h : r ∉ hostOps1_W) : W31 m ρ c (Proc.devRef .tc r) = W30 m ρ c (Proc.devRef .tc r) :=
  StableHlo.after_of_writes_sub hostOps1 _ hostOps1_writes h
theorem W33_of (c : Dev nD) (r : Ref sig .tc) (h : r ∉ hostOps2_W) : W33 m ρ c (Proc.devRef .tc r) = W32 m ρ c (Proc.devRef .tc r) :=
  StableHlo.after_of_writes_sub hostOps2 _ hostOps2_writes h

/-- A reference no stretch before region 0 writes holds its launch contents when region 0 is entered, -/
theorem kept_E0 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W) :
    W29 m ρ c (Proc.devRef .tc r) = m ((c : Thread nD τ).loc r) :=
    (W29_of m ρ c r h28).trans <|
    (W28_of m ρ c r h27).trans <|
    (W27_of m ρ c r h26).trans <|
    (W26_of m ρ c r h25).trans <|
    (W25_of m ρ c r h24).trans <|
    (W24_of m ρ c r h23).trans <|
    (W23_of m ρ c r h22).trans <|
    (W22_of m ρ c r h21).trans <|
    (W21_of m ρ c r h20).trans <|
    (W20_of m ρ c r h19).trans <|
    (W19_of m ρ c r h18).trans <|
    (W18_of m ρ c r h17).trans <|
    (W17_of m ρ c r h16).trans <|
    (W16_of m ρ c r h15).trans <|
    (W15_of m ρ c r h14).trans <|
    (W14_of m ρ c r h13).trans <|
    (W13_of m ρ c r h12).trans <|
    (W12_of m ρ c r h11).trans <|
    (W11_of m ρ c r h10).trans <|
    (W10_of m ρ c r h9).trans <|
    (W9_of m ρ c r h8).trans <|
    (W8_of m ρ c r h7).trans <|
    (W7_of m ρ c r h6).trans <|
    (W6_of m ρ c r h5).trans <|
    (W5_of m ρ c r h4).trans <|
    (W4_of m ρ c r h3).trans <|
    (W3_of m ρ c r h2).trans <|
    (W2_of m ρ c r h1).trans <|
    (W1_of m ρ c r h0).trans <|
    rfl
/-- when region 0 is left, if region 0 does not stage it, -/
theorem kept_X0 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (hs0 : ∀ w, Pipeline.arrRef spec0 w ≠ r) :
    W30 m ρ c (Proc.devRef .tc r) = m ((c : Thread nD τ).loc r) :=
  (W30_of_ne m ρ c r hs0).trans (kept_E0 m ρ c r h0 h1 h2 h3 h4 h5 h6 h7 h8 h9 h10 h11 h12 h13 h14 h15 h16 h17 h18 h19 h20 h21 h22 h23 h24 h25 h26 h27 h28)
/-- when region 1 is entered, if the stretch between the regions does not write it either, -/
theorem kept_E1 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (hs0 : ∀ w, Pipeline.arrRef spec0 w ≠ r) (hm : r ∉ hostOps1_W) :
    W31 m ρ c (Proc.devRef .tc r) = m ((c : Thread nD τ).loc r) :=
  (W31_of m ρ c r hm).trans (kept_X0 m ρ c r h0 h1 h2 h3 h4 h5 h6 h7 h8 h9 h10 h11 h12 h13 h14 h15 h16 h17 h18 h19 h20 h21 h22 h23 h24 h25 h26 h27 h28 hs0)
/-- and to the end, if neither region 1 nor the last stretch touches it. -/
theorem kept (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (hm : r ∉ hostOps1_W) (ht : r ∉ hostOps2_W) (hs0 : ∀ w, Pipeline.arrRef spec0 w ≠ r) (hs1 : ∀ w, Pipeline.arrRef spec1 w ≠ r) :
    W33 m ρ c (Proc.devRef .tc r) = m ((c : Thread nD τ).loc r) :=
  (W33_of m ρ c r ht).trans <| (W32_of_ne m ρ c r hs1).trans <|
    kept_E1 m ρ c r h0 h1 h2 h3 h4 h5 h6 h7 h8 h9 h10 h11 h12 h13 h14 h15 h16 h17 h18 h19 h20 h21 h22 h23 h24 h25 h26 h27 h28 hs0 hm

/-! ## The arguments end as launched -/

theorem end_main_arg0 (c : Dev nD) : W33 m ρ c (Proc.devRef .tc main_arg0) = m ((c : Thread nD τ).loc main_arg0) :=
  kept m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg1 (c : Dev nD) : W33 m ρ c (Proc.devRef .tc main_arg1) = m ((c : Thread nD τ).loc main_arg1) :=
  kept m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg2 (c : Dev nD) : W33 m ρ c (Proc.devRef .tc main_arg2) = m ((c : Thread nD τ).loc main_arg2) :=
  kept m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg3 (c : Dev nD) : W33 m ρ c (Proc.devRef .tc main_arg3) = m ((c : Thread nD τ).loc main_arg3) :=
  kept m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg4 (c : Dev nD) : W33 m ρ c (Proc.devRef .tc main_arg4) = m ((c : Thread nD τ).loc main_arg4) :=
  kept m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg5 (c : Dev nD) : W33 m ρ c (Proc.devRef .tc main_arg5) = m ((c : Thread nD τ).loc main_arg5) :=
  kept m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg6 (c : Dev nD) : W33 m ρ c (Proc.devRef .tc main_arg6) = m ((c : Thread nD τ).loc main_arg6) :=
  kept m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg7 (c : Dev nD) : W33 m ρ c (Proc.devRef .tc main_arg7) = m ((c : Thread nD τ).loc main_arg7) :=
  kept m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg8 (c : Dev nD) : W33 m ρ c (Proc.devRef .tc main_arg8) = m ((c : Thread nD τ).loc main_arg8) :=
  kept m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

end Cert.Kernel.Fold

end
-- ==== Proof.BitsRun.lean ====
/- The segments and the launch, laid out from a hand-written template over the program's list of stretches. -/
/-
  The program's entry function run as a list of segments: one per stretch of host operations, from the contents
  of the boundary before it, and one per Pallas region, whose record takes the pipeline's layout from the generated
  launch facts and the body obligation from the region's module, enters from "every unscoped buffer at the entry
  contents" and leaves at "every unscoped buffer at the exit contents".  The launch theorem for a list of segments then
  gives: every weakly fair execution terminates without a fault, and the final memory holds every unscoped buffer at
  the last boundary's contents.
-/
import proofs.«142292_g2000406351686535_pallasbulk_564_2_alg».proof.Proof.BitsFold

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body Cert.Kernel.Writes Cert.Kernel.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V29 m ρ) c
  | ⟨1, _⟩ => fun c => dat1 (V31 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the boundary contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W33 m ρ c) ∗ ∃ r, prngReg c r)

set_option backward.isDefEq.respectTransparency.types false in
/-- Region 0 over the thread state: entered with every unscoped buffer at the contents of boundary 29, left at
    those of boundary 30.  Its arrays are split out of the unscoped buffers and put back at the exit contents; the
    generator register goes into the pipeline's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V29 m ρ) c).loose
  hwaits := Pipeline.hwaits_of_owed_zero _ _ _ _ L lv 0 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec0 c (V29 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V29 m ρ c) (V30 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of boundary 31, left at
    those of boundary 32.  Its arrays are split out of the unscoped buffers and put back at the exit contents; the
    generator register goes into the pipeline's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V31 m ρ) c).loose
  hwaits := Pipeline.hwaits_of_owed_zero _ _ _ _ L lv 1 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec1 c (V31 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V31 m ρ c) (V32 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The entry function's 33 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .host (hseg hostOps0_25 hostOps0_25_sub hostOps0_25_fresh (W25 m ρ)),
    .host (hseg hostOps0_26 hostOps0_26_sub hostOps0_26_fresh (W26 m ρ)),
    .host (hseg hostOps0_27 hostOps0_27_sub hostOps0_27_fresh (W27 m ρ)),
    .host (hseg hostOps0_28 hostOps0_28_sub hostOps0_28_fresh (W28 m ρ)),
    .region (reg0 m ρ),
    .host (hseg hostOps1 hostOps1_sub hostOps1_fresh (W30 m ρ)),
    .region (reg1 m ρ),
    .host (hseg hostOps2 hostOps2_sub hostOps2_fresh (W32 m ρ)) ]

set_option maxHeartbeats 4000000 in
/-- The entry function is the run of the segments. -/
theorem main_run (c : Dev nD) : main (F := F) c = Pipeline.Seg.run (segs m ρ) := by
  rw [main_chain c, Pipeline.Seg.run_eq_chain,
    show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          Prog.lift (.customCall (Pipeline.entry 0) ()),
          StableHlo.seq hostOps1,
          Prog.lift (.customCall (Pipeline.entry 1) ()),
          StableHlo.seq hostOps2 ] from rfl]

set_option backward.isDefEq.respectTransparency.types false in
set_option maxHeartbeats 4000000 in
/-- THE RUN: from any memory with zero counters every weakly fair execution of the entry function terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W33 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c => h c)

end Cert.Kernel.Run

end
-- ==== Proof.KerBody0.lean ====
/-
  Region 0 of the kernel program (the fused pass: gated temporal convolution as one banded matmul, projection,
  per-batch mixing by the adjacency matrix, second gated convolution, and the per-(batch, node) sums for the
  normalisation), at any float instance and at a parameter V, the contents of the core's buffers when the
  region is entered.  Each of the 32 grid points reads a block of 8 batches of the input and the six weight
  arrays whole, and writes three blocks: the activation and its two row sums.  This module states what each
  window's staging buffer holds after the body (an input its block; an output the body's one store, over the
  whole block, of the body's arithmetic on the loaded blocks), proves the body's triple by symbolic execution
  through its part, and packages the pipeline's proof data and its body obligation.
-/
import proofs.«142292_g2000406351686535_pallasbulk_564_2_alg».proof.Proof.Gen.KernelIdeal.Launch
import proofs.«142292_g2000406351686535_pallasbulk_564_2_alg».proof.Proof.Gen.KernelIdeal.Skeleton
import proofs.«142292_g2000406351686535_pallasbulk_564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev q0_x : Rect S8x128x256 := Rect.unit (s := S8x128x256) ![0, 0, 0] S8x128x256.size inb_S8x128x256_S8x128x256_0_0_0
abbrev q0_a : Rect S128x128 := Rect.unit (s := S128x128) ![0, 0] S128x128.size inb_S128x128_S128x128_0_0
abbrev q0_w1 : Rect S256x1536 := Rect.unit (s := S256x1536) ![0, 0] S256x1536.size inb_S256x1536_S256x1536_0_0
abbrev q0_b1 : Rect S1x1536 := Rect.unit (s := S1x1536) ![0, 0] S1x1536.size inb_S1x1536_S1x1536_0_0
abbrev q0_th : Rect S512x224 := Rect.unit (s := S512x224) ![0, 0] S512x224.size inb_S512x224_S512x224_0_0
abbrev q0_w2 : Rect S224x1152 := Rect.unit (s := S224x1152) ![0, 0] S224x1152.size inb_S224x1152_S224x1152_0_0
abbrev q0_b2 : Rect S1x1152 := Rect.unit (s := S1x1152) ![0, 0] S1x1152.size inb_S1x1152_S1x1152_0_0
abbrev q0_o : Rect S8x128x384 := Rect.unit (s := S8x128x384) ![0, 0, 0] S8x128x384.size inb_S8x128x384_S8x128x384_0_0_0
abbrev q0_s : Rect S8x128x1 := Rect.unit (s := S8x128x1) ![0, 0, 0] S8x128x1.size inb_S8x128x1_S8x128x1_0_0_0

/-- The activation block after the body: one store over the whole block. -/
def out0_7 (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) : Vec F S8x128x384 .bf16 :=
  View.canon [⟨q0_o, k0_pay2 (k0_pay5 (View.ld x0 q0_x) (View.ld x2 q0_w1) (View.ld x3 q0_b1) (View.ld x4 q0_th)) (k0_pay6 (View.ld x1 q0_a)) (k0_pay7 (View.ld x0 q0_x) (View.ld x2 q0_w1) (View.ld x3 q0_b1) (View.ld x4 q0_th) (View.ld x1 q0_a)) (k0_pay8 (View.ld x0 q0_x) (View.ld x2 q0_w1) (View.ld x3 q0_b1) (View.ld x4 q0_th) (View.ld x1 q0_a)) (k0_pay9 (View.ld x0 q0_x) (View.ld x2 q0_w1) (View.ld x3 q0_b1) (View.ld x4 q0_th) (View.ld x1 q0_a)) (k0_pay10 (View.ld x0 q0_x) (View.ld x2 q0_w1) (View.ld x3 q0_b1) (View.ld x4 q0_th) (View.ld x1 q0_a)) (k0_pay11 (View.ld x0 q0_x) (View.ld x2 q0_w1) (View.ld x3 q0_b1) (View.ld x4 q0_th) (View.ld x1 q0_a)) (k0_pay12 (View.ld x0 q0_x) (View.ld x2 q0_w1) (View.ld x3 q0_b1) (View.ld x4 q0_th) (View.ld x1 q0_a)) (k0_pay13 (View.ld x0 q0_x) (View.ld x2 q0_w1) (View.ld x3 q0_b1) (View.ld x4 q0_th)) (View.ld x5 q0_w2) (View.ld x6 q0_b2)⟩]
/-- The block of row sums after the body. -/
def out0_8 (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) : Vec F S8x128x1 .f32 :=
  View.canon [⟨q0_s, k0_pay3 (k0_pay5 (View.ld x0 q0_x) (View.ld x2 q0_w1) (View.ld x3 q0_b1) (View.ld x4 q0_th)) (k0_pay6 (View.ld x1 q0_a)) (k0_pay7 (View.ld x0 q0_x) (View.ld x2 q0_w1) (View.ld x3 q0_b1) (View.ld x4 q0_th) (View.ld x1 q0_a)) (k0_pay8 (View.ld x0 q0_x) (View.ld x2 q0_w1) (View.ld x3 q0_b1) (View.ld x4 q0_th) (View.ld x1 q0_a)) (k0_pay9 (View.ld x0 q0_x) (View.ld x2 q0_w1) (View.ld x3 q0_b1) (View.ld x4 q0_th) (View.ld x1 q0_a)) (k0_pay10 (View.ld x0 q0_x) (View.ld x2 q0_w1) (View.ld x3 q0_b1) (View.ld x4 q0_th) (View.ld x1 q0_a)) (k0_pay11 (View.ld x0 q0_x) (View.ld x2 q0_w1) (View.ld x3 q0_b1) (View.ld x4 q0_th) (View.ld x1 q0_a)) (k0_pay12 (View.ld x0 q0_x) (View.ld x2 q0_w1) (View.ld x3 q0_b1) (View.ld x4 q0_th) (View.ld x1 q0_a)) (k0_pay13 (View.ld x0 q0_x) (View.ld x2 q0_w1) (View.ld x3 q0_b1) (View.ld x4 q0_th)) (View.ld x5 q0_w2) (View.ld x6 q0_b2)⟩]
/-- The block of row sums of squares after the body. -/
def out0_9 (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) : Vec F S8x128x1 .f32 :=
  View.canon [⟨q0_s, k0_pay4 (k0_pay5 (View.ld x0 q0_x) (View.ld x2 q0_w1) (View.ld x3 q0_b1) (View.ld x4 q0_th)) (k0_pay6 (View.ld x1 q0_a)) (k0_pay7 (View.ld x0 q0_x) (View.ld x2 q0_w1) (View.ld x3 q0_b1) (View.ld x4 q0_th) (View.ld x1 q0_a)) (k0_pay8 (View.ld x0 q0_x) (View.ld x2 q0_w1) (View.ld x3 q0_b1) (View.ld x4 q0_th) (View.ld x1 q0_a)) (k0_pay9 (View.ld x0 q0_x) (View.ld x2 q0_w1) (View.ld x3 q0_b1) (View.ld x4 q0_th) (View.ld x1 q0_a)) (k0_pay10 (View.ld x0 q0_x) (View.ld x2 q0_w1) (View.ld x3 q0_b1) (View.ld x4 q0_th) (View.ld x1 q0_a)) (k0_pay11 (View.ld x0 q0_x) (View.ld x2 q0_w1) (View.ld x3 q0_b1) (View.ld x4 q0_th) (View.ld x1 q0_a)) (k0_pay12 (View.ld x0 q0_x) (View.ld x2 q0_w1) (View.ld x3 q0_b1) (View.ld x4 q0_th) (View.ld x1 q0_a)) (k0_pay13 (View.ld x0 q0_x) (View.ld x2 q0_w1) (View.ld x3 q0_b1) (View.ld x4 q0_th)) (View.ld x5 q0_w2) (View.ld x6 q0_b2)⟩]

theorem cover0_7 (p0 : Vec F S8x128x384 .bf16) (y : S8x128x384.Idx) :
    ∃ pc ∈ ([⟨q0_o, p0⟩] : List (View.Piece (Elt F) S8x128x384 .bf16)), y ∈ pc.1.set :=
  View.cover_of_tiled [⟨q0_o, p0⟩] S8x128x384.size (by rfl) y
theorem cover0_8 (p0 : Vec F S8x128x1 .f32) (y : S8x128x1.Idx) :
    ∃ pc ∈ ([⟨q0_s, p0⟩] : List (View.Piece (Elt F) S8x128x1 .f32)), y ∈ pc.1.set :=
  View.cover_of_tiled [⟨q0_s, p0⟩] S8x128x1.size (by rfl) y

set_option maxHeartbeats 8000000 in
/-- The body on whole staging memrefs: the inputs keep their contents, each output ends at out0_W of them. -/
theorem sound_kernel0 (c : Dev nD) (E : Set ℕ) (i : grid0.Coords) (arg1 : Memref sig .tc .vmem S8x128x256 .f32) (harg1 : arg1.IsWhole) (arg2 : Memref sig .tc .vmem S128x128 .bf16) (harg2 : arg2.IsWhole) (arg3 : Memref sig .tc .vmem S256x1536 .bf16) (harg3 : arg3.IsWhole) (arg4 : Memref sig .tc .vmem S1x1536 .f32) (harg4 : arg4.IsWhole) (arg5 : Memref sig .tc .vmem S512x224 .bf16) (harg5 : arg5.IsWhole) (arg6 : Memref sig .tc .vmem S224x1152 .bf16) (harg6 : arg6.IsWhole) (arg7 : Memref sig .tc .vmem S1x1152 .f32) (harg7 : arg7.IsWhole) (arg8 : Memref sig .tc .vmem S8x128x384 .bf16) (harg8 : arg8.IsWhole) (arg9 : Memref sig .tc .vmem S8x128x1 .f32) (harg9 : arg9.IsWhole) (arg10 : Memref sig .tc .vmem S8x128x1 .f32) (harg10 : arg10.IsWhole)
    (x0 : Vec F S8x128x256 .f32) (x1 : Vec F S128x128 .bf16) (x2 : Vec F S256x1536 .bf16) (x3 : Vec F S1x1536 .f32) (x4 : Vec F S512x224 .bf16) (x5 : Vec F S224x1152 .bf16) (x6 : Vec F S1x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)
            ∗ owns (c : Thread nD τ) arg9 fullShare (out0_8 x0 x1 x2 x3 x4 x5 x6)
            ∗ owns (c : Thread nD τ) arg10 fullShare (out0_9 x0 x1 x2 x3 x4 x5 x6)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_8 _)

/-- The proof data of pipeline 0 on core c: the arrays as the region finds them; after the body each input's
    buffer at its block and each output's at out0_W of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KerBody1.lean ====
/-
  Region 1 of the kernel program (the affine normalisation pass), at any float instance and at a parameter V,
  the contents of the core's buffers when the region is entered.  Each of the 16 grid points reads a block of
  16 batches of the activation and the two per-node columns (scale, shift), and writes the block
  t * scale + shift.  This module states what each window's staging buffer holds after the body (the inputs
  their blocks, the output the body's one store over the whole block), proves the body's triple by symbolic
  execution, and packages the pipeline's proof data and its body obligation.
-/
import proofs.«142292_g2000406351686535_pallasbulk_564_2_alg».proof.Proof.Gen.KernelIdeal.Launch
import proofs.«142292_g2000406351686535_pallasbulk_564_2_alg».proof.Proof.Gen.KernelIdeal.Skeleton
import proofs.«142292_g2000406351686535_pallasbulk_564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev q1_t : Rect S16x128x384 := Rect.unit (s := S16x128x384) ![0, 0, 0] S16x128x384.size inb_S16x128x384_S16x128x384_0_0_0
abbrev q1_c : Rect S128x1 := Rect.unit (s := S128x1) ![0, 0] S128x1.size inb_S128x1_S128x1_0_0

/-- The output block after the body: its one store, over the whole block, of the affine map of the loaded blocks. -/
def out1_3 (x0 : Vec F S16x128x384 .bf16) (x1 : Vec F S128x1 .f32) (x2 : Vec F S128x1 .f32) : Vec F S16x128x384 .f32 :=
  View.canon [⟨q1_t, k1_pay1 (View.ld x0 q1_t) (View.ld x1 q1_c) (View.ld x2 q1_c)⟩]

theorem cover1_3 (p0 : Vec F S16x128x384 .f32) (y : S16x128x384.Idx) :
    ∃ pc ∈ ([⟨q1_t, p0⟩] : List (View.Piece (Elt F) S16x128x384 .f32)), y ∈ pc.1.set :=
  View.cover_of_tiled [⟨q1_t, p0⟩] S16x128x384.size (by rfl) y

set_option maxHeartbeats 4000000 in
/-- The body on whole staging memrefs: the inputs keep their contents, the output ends at out1_3 of them. -/
theorem sound_kernel1 (c : Dev nD) (E : Set ℕ) (i : grid1.Coords)
    (arg1 : Memref sig .tc .vmem S16x128x384 .bf16) (harg1 : arg1.IsWhole) (arg2 : Memref sig .tc .vmem S128x1 .f32) (harg2 : arg2.IsWhole)
    (arg3 : Memref sig .tc .vmem S128x1 .f32) (harg3 : arg3.IsWhole) (arg4 : Memref sig .tc .vmem S16x128x384 .f32) (harg4 : arg4.IsWhole)
    (x0 : Vec F S16x128x384 .bf16) (x1 : Vec F S128x1 .f32) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_body i arg1 harg1 arg2 harg2 arg3 harg3 arg4 harg4) K := by
  simp only [cc1__bn_body_eq_skeleton]; unfold cc1__bn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of pipeline 1 on core c: the arrays as the region finds them; after the body each input's
    buffer at its block and the output's at out1_3 of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KerWrites.lean ====
/- A table: for every stretch of host operations of the program's entry function, the references its operations write,
   that none of them allocates, and that each writes only a listed reference. -/
import proofs.«142292_g2000406351686535_pallasbulk_564_2_alg».proof.Proof.Gen.KernelIdeal.Launch
import Idealize.ShloMosaic.Lib.StableHlo.Run

set_option maxRecDepth 16384

noncomputable section

namespace Cert.KernelIdeal.Writes

open Idealize.ShloMosaic Idealize.ShloMosaic.TcCoe Idealize.SL.Sem
open Cert.KernelIdeal Cert.KernelIdeal.Gen

variable {F : FTy → Type} [FloatOps F]

abbrev hostOps0_W : List (Ref sig .tc) := [main_v0, main_v1, main_v2, main_v3, main_v4, main_cst, main_v5, main_c, main_v6, main_v7, main_v8, main_v9, main_v10, main_v11, main_c_0, main_v12, main_v13, main_c_1, main_v14, main_v15, main_v16, main_c_2, main_v17, main_v18, main_c_3, main_v19, main_v20, main_v21, main_v22, main_v23, main_v24, main_v25, main_c_4, main_v26, main_v27, main_v28, main_v29, main_v30, main_v31, main_c_5, main_v32, main_v33, main_c_6, main_v34, main_v35, main_v36, main_c_7, main_v37, main_v38, main_c_8, main_v39, main_v40, main_v41, main_v42, main_v43, main_v44, main_v45, main_c_9, main_v46, main_v47, main_v48, main_v49, main_v50, main_v51, main_c_10, main_v52, main_v53, main_c_11, main_v54, main_v55, main_v56, main_c_12, main_v57, main_v58, main_c_13, main_v59, main_v60, main_v61, main_v62, main_v63, main_v64, main_v65, main_v66, main_v67, main_v68, main_v69, main_c_14]
set_option maxHeartbeats 40000000 in
theorem hostOps0_fresh : (hostOps0 : List (HloOp τ sig (Elt F))).Forall fun op => op.fresh = ∅ := by
  simp only [List.Forall]; repeat' constructor
set_option maxHeartbeats 40000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_1_W : List (Ref sig .tc) := [main_call0_v0, main_v70]
set_option maxHeartbeats 40000000 in
theorem hostOps0_1_fresh : (hostOps0_1 : List (HloOp τ sig (Elt F))).Forall fun op => op.fresh = ∅ := by
  simp only [List.Forall]; repeat' constructor
set_option maxHeartbeats 40000000 in
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_2_W : List (Ref sig .tc) := [main_c_15]
set_option maxHeartbeats 40000000 in
theorem hostOps0_2_fresh : (hostOps0_2 : List (HloOp τ sig (Elt F))).Forall fun op => op.fresh = ∅ := by
  simp only [List.Forall]; repeat' constructor
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_3_W : List (Ref sig .tc) := [main_call1_v0, main_v71]
set_option maxHeartbeats 40000000 in
theorem hostOps0_3_fresh : (hostOps0_3 : List (HloOp τ sig (Elt F))).Forall fun op => op.fresh = ∅ := by
  simp only [List.Forall]; repeat' constructor
set_option maxHeartbeats 40000000 in
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_4_W : List (Ref sig .tc) := [main_v72, main_v73, main_v74, main_v75, main_v76, main_cst_16, main_v77, main_c_17, main_v78, main_v79, main_v80, main_v81, main_v82, main_v83, main_c_18, main_v84, main_v85, main_c_19, main_v86, main_v87, main_v88, main_c_20, main_v89, main_v90, main_c_21, main_v91, main_v92, main_v93, main_v94, main_v95, main_v96, main_v97, main_c_22, main_v98, main_v99, main_v100, main_v101, main_v102, main_v103, main_c_23, main_v104, main_v105, main_c_24, main_v106, main_v107, main_v108, main_c_25, main_v109, main_v110, main_c_26, main_v111, main_v112, main_v113, main_v114, main_v115, main_v116, main_v117, main_c_27, main_v118, main_v119, main_v120, main_v121, main_v122, main_v123, main_c_28, main_v124, main_v125, main_c_29, main_v126, main_v127, main_v128, main_c_30, main_v129, main_v130, main_c_31, main_v131, main_v132, main_v133, main_v134, main_v135, main_v136, main_v137, main_v138, main_v139, main_v140, main_v141, main_c_32]
set_option maxHeartbeats 40000000 in
theorem hostOps0_4_fresh : (hostOps0_4 : List (HloOp τ sig (Elt F))).Forall fun op => op.fresh = ∅ := by
  simp only [List.Forall]; repeat' constructor
set_option maxHeartbeats 40000000 in
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_5_W : List (Ref sig .tc) := [main_call2_v0, main_v142]
set_option maxHeartbeats 40000000 in
theorem hostOps0_5_fresh : (hostOps0_5 : List (HloOp τ sig (Elt F))).Forall fun op => op.fresh = ∅ := by
  simp only [List.Forall]; repeat' constructor
set_option maxHeartbeats 40000000 in
theorem hostOps0_5_writes : (hostOps0_5 : List (HloOp τ sig (Elt F))).Forall fun op => op.writes ⊆ (hostOps0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_6_W : List (Ref sig .tc) := [main_c_33]
set_option maxHeartbeats 40000000 in
theorem hostOps0_6_fresh : (hostOps0_6 : List (HloOp τ sig (Elt F))).Forall fun op => op.fresh = ∅ := by
  simp only [List.Forall]; repeat' constructor
set_option maxHeartbeats 40000000 in
theorem hostOps0_6_writes : (hostOps0_6 : List (HloOp τ sig (Elt F))).Forall fun op => op.writes ⊆ (hostOps0_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_7_W : List (Ref sig .tc) := [main_call3_v0, main_v143]
set_option maxHeartbeats 40000000 in
theorem hostOps0_7_fresh : (hostOps0_7 : List (HloOp τ sig (Elt F))).Forall fun op => op.fresh = ∅ := by
  simp only [List.Forall]; repeat' constructor
set_option maxHeartbeats 40000000 in
theorem hostOps0_7_writes : (hostOps0_7 : List (HloOp τ sig (Elt F))).Forall fun op => op.writes ⊆ (hostOps0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_8_W : List (Ref sig .tc) := [main_v144, main_v145, main_v146, main_v147, main_v148, main_cst_34, main_v149, main_c_35, main_v150, main_v151, main_v152, main_v153, main_v154, main_v155, main_c_36, main_v156, main_v157, main_c_37, main_v158, main_v159, main_v160, main_c_38, main_v161, main_v162, main_c_39, main_v163, main_v164, main_v165, main_v166, main_v167, main_v168, main_v169, main_c_40, main_v170, main_v171, main_v172, main_v173, main_v174, main_v175, main_c_41, main_v176, main_v177, main_c_42, main_v178, main_v179, main_v180, main_c_43, main_v181, main_v182, main_c_44, main_v183, main_v184, main_v185, main_v186, main_v187, main_v188, main_v189, main_c_45, main_v190, main_v191, main_v192, main_v193, main_v194, main_v195, main_c_46, main_v196, main_v197, main_c_47, main_v198, main_v199, main_v200, main_c_48, main_v201, main_v202, main_c_49, main_v203, main_v204, main_v205, main_v206, main_v207, main_v208, main_v209, main_v210, main_v211, main_v212, main_v213, main_c_50]
set_option maxHeartbeats 40000000 in
theorem hostOps0_8_fresh : (hostOps0_8 : List (HloOp τ sig (Elt F))).Forall fun op => op.fresh = ∅ := by
  simp only [List.Forall]; repeat' constructor
set_option maxHeartbeats 40000000 in
theorem hostOps0_8_writes : (hostOps0_8 : List (HloOp τ sig (Elt F))).Forall fun op => op.writes ⊆ (hostOps0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_9_W : List (Ref sig .tc) := [main_call4_v0, main_v214]
set_option maxHeartbeats 40000000 in
theorem hostOps0_9_fresh : (hostOps0_9 : List (HloOp τ sig (Elt F))).Forall fun op => op.fresh = ∅ := by
  simp only [List.Forall]; repeat' constructor
set_option maxHeartbeats 40000000 in
theorem hostOps0_9_writes : (hostOps0_9 : List (HloOp τ sig (Elt F))).Forall fun op => op.writes ⊆ (hostOps0_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_10_W : List (Ref sig .tc) := [main_c_51]
set_option maxHeartbeats 40000000 in
theorem hostOps0_10_fresh : (hostOps0_10 : List (HloOp τ sig (Elt F))).Forall fun op => op.fresh = ∅ := by
  simp only [List.Forall]; repeat' constructor
set_option maxHeartbeats 40000000 in
theorem hostOps0_10_writes : (hostOps0_10 : List (HloOp τ sig (Elt F))).Forall fun op => op.writes ⊆ (hostOps0_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_11_W : List (Ref sig .tc) := [main_call5_v0, main_v215]
set_option maxHeartbeats 40000000 in
theorem hostOps0_11_fresh : (hostOps0_11 : List (HloOp τ sig (Elt F))).Forall fun op => op.fresh = ∅ := by
  simp only [List.Forall]; repeat' constructor
set_option maxHeartbeats 40000000 in
theorem hostOps0_11_writes : (hostOps0_11 : List (HloOp τ sig (Elt F))).Forall fun op => op.writes ⊆ (hostOps0_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_12_W : List (Ref sig .tc) := [main_v216, main_v217, main_v218, main_v219, main_v220, main_cst_52, main_v221, main_c_53, main_v222, main_v223, main_v224, main_v225, main_v226, main_v227, main_c_54, main_v228, main_v229, main_c_55, main_v230, main_v231, main_v232, main_c_56, main_v233, main_v234, main_c_57, main_v235, main_v236, main_v237, main_v238, main_v239, main_v240, main_v241, main_c_58, main_v242, main_v243, main_v244, main_v245, main_v246, main_v247, main_c_59, main_v248, main_v249, main_c_60, main_v250, main_v251, main_v252, main_c_61, main_v253, main_v254, main_c_62, main_v255, main_v256, main_v257, main_v258, main_v259, main_v260, main_v261, main_c_63, main_v262, main_v263, main_v264, main_v265, main_v266, main_v267, main_c_64, main_v268, main_v269, main_c_65, main_v270, main_v271, main_v272, main_c_66, main_v273, main_v274, main_c_67, main_v275, main_v276, main_v277, main_v278, main_v279, main_v280, main_v281, main_v282, main_v283, main_v284, main_v285, main_c_68]
set_option maxHeartbeats 40000000 in
theorem hostOps0_12_fresh : (hostOps0_12 : List (HloOp τ sig (Elt F))).Forall fun op => op.fresh = ∅ := by
  simp only [List.Forall]; repeat' constructor
set_option maxHeartbeats 40000000 in
theorem hostOps0_12_writes : (hostOps0_12 : List (HloOp τ sig (Elt F))).Forall fun op => op.writes ⊆ (hostOps0_12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_13_W : List (Ref sig .tc) := [main_call6_v0, main_v286]
set_option maxHeartbeats 40000000 in
theorem hostOps0_13_fresh : (hostOps0_13 : List (HloOp τ sig (Elt F))).Forall fun op => op.fresh = ∅ := by
  simp only [List.Forall]; repeat' constructor
set_option maxHeartbeats 40000000 in
theorem hostOps0_13_writes : (hostOps0_13 : List (HloOp τ sig (Elt F))).Forall fun op => op.writes ⊆ (hostOps0_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_14_W : List (Ref sig .tc) := [main_c_69]
set_option maxHeartbeats 40000000 in
theorem hostOps0_14_fresh : (hostOps0_14 : List (HloOp τ sig (Elt F))).Forall fun op => op.fresh = ∅ := by
  simp only [List.Forall]; repeat' constructor
set_option maxHeartbeats 40000000 in
theorem hostOps0_14_writes : (hostOps0_14 : List (HloOp τ sig (Elt F))).Forall fun op => op.writes ⊆ (hostOps0_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_15_W : List (Ref sig .tc) := [main_call7_v0, main_v287]
set_option maxHeartbeats 40000000 in
theorem hostOps0_15_fresh : (hostOps0_15 : List (HloOp τ sig (Elt F))).Forall fun op => op.fresh = ∅ := by
  simp only [List.Forall]; repeat' constructor
set_option maxHeartbeats 40000000 in
theorem hostOps0_15_writes : (hostOps0_15 : List (HloOp τ sig (Elt F))).Forall fun op => op.writes ⊆ (hostOps0_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_16_W : List (Ref sig .tc) := [main_v288, main_v289, main_v290, main_v291, main_v292, main_cst_70, main_v293, main_c_71, main_v294, main_v295, main_v296, main_v297, main_v298, main_v299, main_c_72, main_v300, main_v301, main_c_73, main_v302, main_v303, main_v304, main_c_74, main_v305, main_v306, main_c_75, main_v307, main_v308, main_v309, main_v310, main_v311, main_v312, main_v313, main_c_76, main_v314, main_v315, main_v316, main_v317, main_v318, main_v319, main_c_77, main_v320, main_v321, main_c_78, main_v322, main_v323, main_v324, main_c_79, main_v325, main_v326, main_c_80, main_v327, main_v328, main_v329, main_v330, main_v331, main_v332, main_v333, main_c_81, main_v334, main_v335, main_v336, main_v337, main_v338, main_v339, main_c_82, main_v340, main_v341, main_c_83, main_v342, main_v343, main_v344, main_c_84, main_v345, main_v346, main_c_85, main_v347, main_v348, main_v349, main_v350, main_v351, main_v352, main_v353, main_v354, main_v355, main_v356, main_v357, main_c_86]
set_option maxHeartbeats 40000000 in
theorem hostOps0_16_fresh : (hostOps0_16 : List (HloOp τ sig (Elt F))).Forall fun op => op.fresh = ∅ := by
  simp only [List.Forall]; repeat' constructor
set_option maxHeartbeats 40000000 in
theorem hostOps0_16_writes : (hostOps0_16 : List (HloOp τ sig (Elt F))).Forall fun op => op.writes ⊆ (hostOps0_16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_17_W : List (Ref sig .tc) := [main_call8_v0, main_v358]
set_option maxHeartbeats 40000000 in
theorem hostOps0_17_fresh : (hostOps0_17 : List (HloOp τ sig (Elt F))).Forall fun op => op.fresh = ∅ := by
  simp only [List.Forall]; repeat' constructor
set_option maxHeartbeats 40000000 in
theorem hostOps0_17_writes : (hostOps0_17 : List (HloOp τ sig (Elt F))).Forall fun op => op.writes ⊆ (hostOps0_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_18_W : List (Ref sig .tc) := [main_c_87]
set_option maxHeartbeats 40000000 in
theorem hostOps0_18_fresh : (hostOps0_18 : List (HloOp τ sig (Elt F))).Forall fun op => op.fresh = ∅ := by
  simp only [List.Forall]; repeat' constructor
set_option maxHeartbeats 40000000 in
theorem hostOps0_18_writes : (hostOps0_18 : List (HloOp τ sig (Elt F))).Forall fun op => op.writes ⊆ (hostOps0_18_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_19_W : List (Ref sig .tc) := [main_call9_v0, main_v359]
set_option maxHeartbeats 40000000 in
theorem hostOps0_19_fresh : (hostOps0_19 : List (HloOp τ sig (Elt F))).Forall fun op => op.fresh = ∅ := by
  simp only [List.Forall]; repeat' constructor
set_option maxHeartbeats 40000000 in
theorem hostOps0_19_writes : (hostOps0_19 : List (HloOp τ sig (Elt F))).Forall fun op => op.writes ⊆ (hostOps0_19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_20_W : List (Ref sig .tc) := [main_v360, main_v361, main_v362, main_v363, main_v364, main_cst_88, main_v365, main_c_89, main_v366, main_v367, main_v368, main_v369, main_v370, main_v371, main_c_90, main_v372, main_v373, main_c_91, main_v374, main_v375, main_v376, main_c_92, main_v377, main_v378, main_c_93, main_v379, main_v380, main_v381, main_v382, main_v383, main_v384, main_v385, main_c_94, main_v386, main_v387, main_v388, main_v389, main_v390, main_v391, main_c_95, main_v392, main_v393, main_c_96, main_v394, main_v395, main_v396, main_c_97, main_v397, main_v398, main_c_98, main_v399, main_v400, main_v401, main_v402, main_v403, main_v404, main_v405, main_c_99, main_v406, main_v407, main_v408, main_v409, main_v410, main_v411, main_c_100, main_v412, main_v413, main_c_101, main_v414, main_v415, main_v416, main_c_102, main_v417, main_v418, main_c_103, main_v419, main_v420, main_v421, main_v422, main_v423, main_v424, main_v425, main_v426, main_v427, main_v428, main_v429, main_c_104]
set_option maxHeartbeats 40000000 in
theorem hostOps0_20_fresh : (hostOps0_20 : List (HloOp τ sig (Elt F))).Forall fun op => op.fresh = ∅ := by
  simp only [List.Forall]; repeat' constructor
set_option maxHeartbeats 40000000 in
theorem hostOps0_20_writes : (hostOps0_20 : List (HloOp τ sig (Elt F))).Forall fun op => op.writes ⊆ (hostOps0_20_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_21_W : List (Ref sig .tc) := [main_call10_v0, main_v430]
set_option maxHeartbeats 40000000 in
theorem hostOps0_21_fresh : (hostOps0_21 : List (HloOp τ sig (Elt F))).Forall fun op => op.fresh = ∅ := by
  simp only [List.Forall]; repeat' constructor
set_option maxHeartbeats 40000000 in
theorem hostOps0_21_writes : (hostOps0_21 : List (HloOp τ sig (Elt F))).Forall fun op => op.writes ⊆ (hostOps0_21_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_22_W : List (Ref sig .tc) := [main_c_105]
set_option maxHeartbeats 40000000 in
theorem hostOps0_22_fresh : (hostOps0_22 : List (HloOp τ sig (Elt F))).Forall fun op => op.fresh = ∅ := by
  simp only [List.Forall]; repeat' constructor
set_option maxHeartbeats 40000000 in
theorem hostOps0_22_writes : (hostOps0_22 : List (HloOp τ sig (Elt F))).Forall fun op => op.writes ⊆ (hostOps0_22_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_23_W : List (Ref sig .tc) := [main_call11_v0, main_v431]
set_option maxHeartbeats 40000000 in
theorem hostOps0_23_fresh : (hostOps0_23 : List (HloOp τ sig (Elt F))).Forall fun op => op.fresh = ∅ := by
  simp only [List.Forall]; repeat' constructor
set_option maxHeartbeats 40000000 in
theorem hostOps0_23_writes : (hostOps0_23 : List (HloOp τ sig (Elt F))).Forall fun op => op.writes ⊆ (hostOps0_23_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_24_W : List (Ref sig .tc) := [main_v432, main_v433, main_v434, main_v435, main_v436, main_v437, main_v438, main_v439, main_v440, main_v441, main_c_106, main_v442, main_v443, main_v444, main_v445]
set_option maxHeartbeats 40000000 in
theorem hostOps0_24_fresh : (hostOps0_24 : List (HloOp τ sig (Elt F))).Forall fun op => op.fresh = ∅ := by
  simp only [List.Forall]; repeat' constructor
set_option maxHeartbeats 40000000 in
theorem hostOps0_24_writes : (hostOps0_24 : List (HloOp τ sig (Elt F))).Forall fun op => op.writes ⊆ (hostOps0_24_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_25_W : List (Ref sig .tc) := [main_call12_v0, main_call12_v1, main_call12_v2, main_call12_v3, main_call12_v4, main_v446]
set_option maxHeartbeats 40000000 in
theorem hostOps0_25_fresh : (hostOps0_25 : List (HloOp τ sig (Elt F))).Forall fun op => op.fresh = ∅ := by
  simp only [List.Forall]; repeat' constructor
set_option maxHeartbeats 40000000 in
theorem hostOps0_25_writes : (hostOps0_25 : List (HloOp τ sig (Elt F))).Forall fun op => op.writes ⊆ (hostOps0_25_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_26_W : List (Ref sig .tc) := [main_c_107]
set_option maxHeartbeats 40000000 in
theorem hostOps0_26_fresh : (hostOps0_26 : List (HloOp τ sig (Elt F))).Forall fun op => op.fresh = ∅ := by
  simp only [List.Forall]; repeat' constructor
set_option maxHeartbeats 40000000 in
theorem hostOps0_26_writes : (hostOps0_26 : List (HloOp τ sig (Elt F))).Forall fun op => op.writes ⊆ (hostOps0_26_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_27_W : List (Ref sig .tc) := [main_call13_v0, main_v447]
set_option maxHeartbeats 40000000 in
theorem hostOps0_27_fresh : (hostOps0_27 : List (HloOp τ sig (Elt F))).Forall fun op => op.fresh = ∅ := by
  simp only [List.Forall]; repeat' constructor
set_option maxHeartbeats 40000000 in
theorem hostOps0_27_writes : (hostOps0_27 : List (HloOp τ sig (Elt F))).Forall fun op => op.writes ⊆ (hostOps0_27_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_28_W : List (Ref sig .tc) := [main_v448, main_v449, main_v450]
set_option maxHeartbeats 40000000 in
theorem hostOps0_28_fresh : (hostOps0_28 : List (HloOp τ sig (Elt F))).Forall fun op => op.fresh = ∅ := by
  simp only [List.Forall]; repeat' constructor
set_option maxHeartbeats 40000000 in
theorem hostOps0_28_writes : (hostOps0_28 : List (HloOp τ sig (Elt F))).Forall fun op => op.writes ⊆ (hostOps0_28_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps1_W : List (Ref sig .tc) := [main_v452, main_cst_108, main_v453, main_cst_109, main_v454, main_v455, main_v456, main_cst_110, main_v457, main_cst_111, main_v458, main_v459, main_v460, main_v461, main_cst_112, main_v462, main_v463, main_cst_113, main_v464, main_v465, main_v466, main_v467, main_v468, main_v469, main_v470, main_v471, main_v472, main_v473, main_v474]
set_option maxHeartbeats 40000000 in
theorem hostOps1_fresh : (hostOps1 : List (HloOp τ sig (Elt F))).Forall fun op => op.fresh = ∅ := by
  simp only [List.Forall]; repeat' constructor
set_option maxHeartbeats 40000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps2_W : List (Ref sig .tc) := [main_v476]
set_option maxHeartbeats 40000000 in
theorem hostOps2_fresh : (hostOps2 : List (HloOp τ sig (Elt F))).Forall fun op => op.fresh = ∅ := by
  simp only [List.Forall]; repeat' constructor
set_option maxHeartbeats 40000000 in
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.Writes

end
-- ==== Proof.KerFold.lean ====
/- The boundaries' contents, laid out from a hand-written template over the program's list of stretches. -/
/-
  The contents of the core's buffers at every boundary between two items of the program's entry function:
  the launch memory, then the result of each stretch of host operations in turn, then what region 0 leaves — its
  output arrays at the fold of the blocks its grid points write back, everything else as entered —, the stretch
  between the regions, what region 1 leaves, and the last stretch.  Then: a reference no stretch writes and no region
  stages holds its launch contents at the end; in particular every argument array does.
-/
import proofs.«142292_g2000406351686535_pallasbulk_564_2_alg».proof.Proof.KerBody0
import proofs.«142292_g2000406351686535_pallasbulk_564_2_alg».proof.Proof.KerBody1
import proofs.«142292_g2000406351686535_pallasbulk_564_2_alg».proof.Proof.KerWrites

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.Writes

variable {F : FTy → Type} [FloatOps F]

variable (m : (ℓ : Loc nD τ sig) → Buf (Elt F) ℓ) (ρ : Dev nD → PrngReg)

/-- Core c's buffers at launch. -/
def W0 : Dev nD → Valuation τ sig (Elt F) := fun c b => (s₀ m ρ).mem ((c : Dev nD), b)
/-- After the stretch hostOps0. -/
def W1 : Dev nD → Valuation τ sig (Elt F) := fun c => StableHlo.after hostOps0 (W0 m ρ c)
/-- After the stretch hostOps0_1. -/
def W2 : Dev nD → Valuation τ sig (Elt F) := fun c => StableHlo.after hostOps0_1 (W1 m ρ c)
/-- After the stretch hostOps0_2. -/
def W3 : Dev nD → Valuation τ sig (Elt F) := fun c => StableHlo.after hostOps0_2 (W2 m ρ c)
/-- After the stretch hostOps0_3. -/
def W4 : Dev nD → Valuation τ sig (Elt F) := fun c => StableHlo.after hostOps0_3 (W3 m ρ c)
/-- After the stretch hostOps0_4. -/
def W5 : Dev nD → Valuation τ sig (Elt F) := fun c => StableHlo.after hostOps0_4 (W4 m ρ c)
/-- After the stretch hostOps0_5. -/
def W6 : Dev nD → Valuation τ sig (Elt F) := fun c => StableHlo.after hostOps0_5 (W5 m ρ c)
/-- After the stretch hostOps0_6. -/
def W7 : Dev nD → Valuation τ sig (Elt F) := fun c => StableHlo.after hostOps0_6 (W6 m ρ c)
/-- After the stretch hostOps0_7. -/
def W8 : Dev nD → Valuation τ sig (Elt F) := fun c => StableHlo.after hostOps0_7 (W7 m ρ c)
/-- After the stretch hostOps0_8. -/
def W9 : Dev nD → Valuation τ sig (Elt F) := fun c => StableHlo.after hostOps0_8 (W8 m ρ c)
/-- After the stretch hostOps0_9. -/
def W10 : Dev nD → Valuation τ sig (Elt F) := fun c => StableHlo.after hostOps0_9 (W9 m ρ c)
/-- After the stretch hostOps0_10. -/
def W11 : Dev nD → Valuation τ sig (Elt F) := fun c => StableHlo.after hostOps0_10 (W10 m ρ c)
/-- After the stretch hostOps0_11. -/
def W12 : Dev nD → Valuation τ sig (Elt F) := fun c => StableHlo.after hostOps0_11 (W11 m ρ c)
/-- After the stretch hostOps0_12. -/
def W13 : Dev nD → Valuation τ sig (Elt F) := fun c => StableHlo.after hostOps0_12 (W12 m ρ c)
/-- After the stretch hostOps0_13. -/
def W14 : Dev nD → Valuation τ sig (Elt F) := fun c => StableHlo.after hostOps0_13 (W13 m ρ c)
/-- After the stretch hostOps0_14. -/
def W15 : Dev nD → Valuation τ sig (Elt F) := fun c => StableHlo.after hostOps0_14 (W14 m ρ c)
/-- After the stretch hostOps0_15. -/
def W16 : Dev nD → Valuation τ sig (Elt F) := fun c => StableHlo.after hostOps0_15 (W15 m ρ c)
/-- After the stretch hostOps0_16. -/
def W17 : Dev nD → Valuation τ sig (Elt F) := fun c => StableHlo.after hostOps0_16 (W16 m ρ c)
/-- After the stretch hostOps0_17. -/
def W18 : Dev nD → Valuation τ sig (Elt F) := fun c => StableHlo.after hostOps0_17 (W17 m ρ c)
/-- After the stretch hostOps0_18. -/
def W19 : Dev nD → Valuation τ sig (Elt F) := fun c => StableHlo.after hostOps0_18 (W18 m ρ c)
/-- After the stretch hostOps0_19. -/
def W20 : Dev nD → Valuation τ sig (Elt F) := fun c => StableHlo.after hostOps0_19 (W19 m ρ c)
/-- After the stretch hostOps0_20. -/
def W21 : Dev nD → Valuation τ sig (Elt F) := fun c => StableHlo.after hostOps0_20 (W20 m ρ c)
/-- After the stretch hostOps0_21. -/
def W22 : Dev nD → Valuation τ sig (Elt F) := fun c => StableHlo.after hostOps0_21 (W21 m ρ c)
/-- After the stretch hostOps0_22. -/
def W23 : Dev nD → Valuation τ sig (Elt F) := fun c => StableHlo.after hostOps0_22 (W22 m ρ c)
/-- After the stretch hostOps0_23. -/
def W24 : Dev nD → Valuation τ sig (Elt F) := fun c => StableHlo.after hostOps0_23 (W23 m ρ c)
/-- After the stretch hostOps0_24. -/
def W25 : Dev nD → Valuation τ sig (Elt F) := fun c => StableHlo.after hostOps0_24 (W24 m ρ c)
/-- After the stretch hostOps0_25. -/
def W26 : Dev nD → Valuation τ sig (Elt F) := fun c => StableHlo.after hostOps0_25 (W25 m ρ c)
/-- After the stretch hostOps0_26. -/
def W27 : Dev nD → Valuation τ sig (Elt F) := fun c => StableHlo.after hostOps0_26 (W26 m ρ c)
/-- After the stretch hostOps0_27. -/
def W28 : Dev nD → Valuation τ sig (Elt F) := fun c => StableHlo.after hostOps0_27 (W27 m ρ c)
/-- After the stretch hostOps0_28. -/
def W29 : Dev nD → Valuation τ sig (Elt F) := fun c => StableHlo.after hostOps0_28 (W28 m ρ c)
/-- The contents region 0 is entered with, read at the TensorCore's references. -/
abbrev V29 : (c : Dev nD) → (b : Ref sig .tc) → Buf (Elt F) ((c : Thread nD τ).loc b) := fun c b => W29 m ρ c b
/-- At region 0's exit: its arrays at what the pipeline leaves (each output's write-backs folded), every other buffer as entered. -/
def W30 (c : Dev nD) : Valuation τ sig (Elt F) :=
  Pipeline.withArrays spec0 c (W29 m ρ c) fun w => (dat0 (V29 m ρ) c).arrAt w cfg0.N
theorem W30_arr (c : Dev nD) (w : Fin cfg0.W) :
    W30 m ρ c (Proc.devRef .tc (Pipeline.arrRef spec0 w)) = (dat0 (V29 m ρ) c).arrAt w cfg0.N := by
  unfold W30; exact Pipeline.withArrays_arr spec0 launch0.win.arr_inj c _ _ w
theorem W30_of_ne (c : Dev nD) (b : Ref sig .tc) (hb : ∀ w, Pipeline.arrRef spec0 w ≠ b) :
    W30 m ρ c (Proc.devRef .tc b) = W29 m ρ c (Proc.devRef .tc b) := by
  unfold W30; exact Pipeline.withArrays_of_ne spec0 c _ _ b hb
abbrev V30 : (c : Dev nD) → (b : Ref sig .tc) → Buf (Elt F) ((c : Thread nD τ).loc b) := fun c b => W30 m ρ c b
theorem hF0 (c : Dev nD) (w : Fin cfg0.W) : (dat0 (V29 m ρ) c).arrAt w cfg0.N = V30 m ρ c (Pipeline.arrRef spec0 w) :=
  (W30_arr m ρ c w).symm
theorem hrest0 (c : Dev nD) : ∀ b, b ∉ Finset.univ.image (Pipeline.arrRef spec0) → V30 m ρ c b = V29 m ρ c b :=
  fun b hb => W30_of_ne m ρ c b fun w e => hb (Finset.mem_image.mpr ⟨w, Finset.mem_univ _, e⟩)

/-- After the stretch hostOps1 (region 1's entry). -/
def W31 : Dev nD → Valuation τ sig (Elt F) := fun c => StableHlo.after hostOps1 (W30 m ρ c)
abbrev V31 : (c : Dev nD) → (b : Ref sig .tc) → Buf (Elt F) ((c : Thread nD τ).loc b) := fun c b => W31 m ρ c b
/-- At region 1's exit. -/
def W32 (c : Dev nD) : Valuation τ sig (Elt F) :=
  Pipeline.withArrays spec1 c (W31 m ρ c) fun w => (dat1 (V31 m ρ) c).arrAt w cfg1.N
theorem W32_arr (c : Dev nD) (w : Fin cfg1.W) :
    W32 m ρ c (Proc.devRef .tc (Pipeline.arrRef spec1 w)) = (dat1 (V31 m ρ) c).arrAt w cfg1.N := by
  unfold W32; exact Pipeline.withArrays_arr spec1 launch1.win.arr_inj c _ _ w
theorem W32_of_ne (c : Dev nD) (b : Ref sig .tc) (hb : ∀ w, Pipeline.arrRef spec1 w ≠ b) :
    W32 m ρ c (Proc.devRef .tc b) = W31 m ρ c (Proc.devRef .tc b) := by
  unfold W32; exact Pipeline.withArrays_of_ne spec1 c _ _ b hb
abbrev V32 : (c : Dev nD) → (b : Ref sig .tc) → Buf (Elt F) ((c : Thread nD τ).loc b) := fun c b => W32 m ρ c b
theorem hF1 (c : Dev nD) (w : Fin cfg1.W) : (dat1 (V31 m ρ) c).arrAt w cfg1.N = V32 m ρ c (Pipeline.arrRef spec1 w) :=
  (W32_arr m ρ c w).symm
theorem hrest1 (c : Dev nD) : ∀ b, b ∉ Finset.univ.image (Pipeline.arrRef spec1) → V32 m ρ c b = V31 m ρ c b :=
  fun b hb => W32_of_ne m ρ c b fun w e => hb (Finset.mem_image.mpr ⟨w, Finset.mem_univ _, e⟩)

/-- After the last stretch hostOps2: the contents @main returns with. -/
def W33 : Dev nD → Valuation τ sig (Elt F) := fun c => StableHlo.after hostOps2 (W32 m ρ c)

/-! ## What each stretch leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W20_of (c : Dev nD) (r : Ref sig .tc) (h : r ∉ hostOps0_19_W) : W20 m ρ c (Proc.devRef .tc r) = W19 m ρ c (Proc.devRef .tc r) :=
  StableHlo.after_of_writes_sub hostOps0_19 _ hostOps0_19_writes h
theorem W21_of (c : Dev nD) (r : Ref sig .tc) (h : r ∉ hostOps0_20_W) : W21 m ρ c (Proc.devRef .tc r) = W20 m ρ c (Proc.devRef .tc r) :=
  StableHlo.after_of_writes_sub hostOps0_20 _ hostOps0_20_writes h
theorem W22_of (c : Dev nD) (r : Ref sig .tc) (h : r ∉ hostOps0_21_W) : W22 m ρ c (Proc.devRef .tc r) = W21 m ρ c (Proc.devRef .tc r) :=
  StableHlo.after_of_writes_sub hostOps0_21 _ hostOps0_21_writes h
theorem W23_of (c : Dev nD) (r : Ref sig .tc) (h : r ∉ hostOps0_22_W) : W23 m ρ c (Proc.devRef .tc r) = W22 m ρ c (Proc.devRef .tc r) :=
  StableHlo.after_of_writes_sub hostOps0_22 _ hostOps0_22_writes h
theorem W24_of (c : Dev nD) (r : Ref sig .tc) (h : r ∉ hostOps0_23_W) : W24 m ρ c (Proc.devRef .tc r) = W23 m ρ c (Proc.devRef .tc r) :=
  StableHlo.after_of_writes_sub hostOps0_23 _ hostOps0_23_writes h
theorem W25_of (c : Dev nD) (r : Ref sig .tc) (h : r ∉ hostOps0_24_W) : W25 m ρ c (Proc.devRef .tc r) = W24 m ρ c (Proc.devRef .tc r) :=
  StableHlo.after_of_writes_sub hostOps0_24 _ hostOps0_24_writes h
theorem W26_of (c : Dev nD) (r : Ref sig .tc) (h : r ∉ hostOps0_25_W) : W26 m ρ c (Proc.devRef .tc r) = W25 m ρ c (Proc.devRef .tc r) :=
  StableHlo.after_of_writes_sub hostOps0_25 _ hostOps0_25_writes h
theorem W27_of (c : Dev nD) (r : Ref sig .tc) (h : r ∉ hostOps0_26_W) : W27 m ρ c (Proc.devRef .tc r) = W26 m ρ c (Proc.devRef .tc r) :=
  StableHlo.after_of_writes_sub hostOps0_26 _ hostOps0_26_writes h
theorem W28_of (c : Dev nD) (r : Ref sig .tc) (h : r ∉ hostOps0_27_W) : W28 m ρ c (Proc.devRef .tc r) = W27 m ρ c (Proc.devRef .tc r) :=
  StableHlo.after_of_writes_sub hostOps0_27 _ hostOps0_27_writes h
theorem W29_of (c : Dev nD) (r : Ref sig .tc) (h : r ∉ hostOps0_28_W) : W29 m ρ c (Proc.devRef .tc r) = W28 m ρ c (Proc.devRef .tc r) :=
  StableHlo.after_of_writes_sub hostOps0_28 _ hostOps0_28_writes h
theorem W31_of (c : Dev nD) (r : Ref sig .tc) (h : r ∉ hostOps1_W) : W31 m ρ c (Proc.devRef .tc r) = W30 m ρ c (Proc.devRef .tc r) :=
  StableHlo.after_of_writes_sub hostOps1 _ hostOps1_writes h
theorem W33_of (c : Dev nD) (r : Ref sig .tc) (h : r ∉ hostOps2_W) : W33 m ρ c (Proc.devRef .tc r) = W32 m ρ c (Proc.devRef .tc r) :=
  StableHlo.after_of_writes_sub hostOps2 _ hostOps2_writes h

/-- A reference no stretch before region 0 writes holds its launch contents when region 0 is entered, -/
theorem kept_E0 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W) :
    W29 m ρ c (Proc.devRef .tc r) = m ((c : Thread nD τ).loc r) :=
    (W29_of m ρ c r h28).trans <|
    (W28_of m ρ c r h27).trans <|
    (W27_of m ρ c r h26).trans <|
    (W26_of m ρ c r h25).trans <|
    (W25_of m ρ c r h24).trans <|
    (W24_of m ρ c r h23).trans <|
    (W23_of m ρ c r h22).trans <|
    (W22_of m ρ c r h21).trans <|
    (W21_of m ρ c r h20).trans <|
    (W20_of m ρ c r h19).trans <|
    (W19_of m ρ c r h18).trans <|
    (W18_of m ρ c r h17).trans <|
    (W17_of m ρ c r h16).trans <|
    (W16_of m ρ c r h15).trans <|
    (W15_of m ρ c r h14).trans <|
    (W14_of m ρ c r h13).trans <|
    (W13_of m ρ c r h12).trans <|
    (W12_of m ρ c r h11).trans <|
    (W11_of m ρ c r h10).trans <|
    (W10_of m ρ c r h9).trans <|
    (W9_of m ρ c r h8).trans <|
    (W8_of m ρ c r h7).trans <|
    (W7_of m ρ c r h6).trans <|
    (W6_of m ρ c r h5).trans <|
    (W5_of m ρ c r h4).trans <|
    (W4_of m ρ c r h3).trans <|
    (W3_of m ρ c r h2).trans <|
    (W2_of m ρ c r h1).trans <|
    (W1_of m ρ c r h0).trans <|
    rfl
/-- when region 0 is left, if region 0 does not stage it, -/
theorem kept_X0 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (hs0 : ∀ w, Pipeline.arrRef spec0 w ≠ r) :
    W30 m ρ c (Proc.devRef .tc r) = m ((c : Thread nD τ).loc r) :=
  (W30_of_ne m ρ c r hs0).trans (kept_E0 m ρ c r h0 h1 h2 h3 h4 h5 h6 h7 h8 h9 h10 h11 h12 h13 h14 h15 h16 h17 h18 h19 h20 h21 h22 h23 h24 h25 h26 h27 h28)
/-- when region 1 is entered, if the stretch between the regions does not write it either, -/
theorem kept_E1 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (hs0 : ∀ w, Pipeline.arrRef spec0 w ≠ r) (hm : r ∉ hostOps1_W) :
    W31 m ρ c (Proc.devRef .tc r) = m ((c : Thread nD τ).loc r) :=
  (W31_of m ρ c r hm).trans (kept_X0 m ρ c r h0 h1 h2 h3 h4 h5 h6 h7 h8 h9 h10 h11 h12 h13 h14 h15 h16 h17 h18 h19 h20 h21 h22 h23 h24 h25 h26 h27 h28 hs0)
/-- and to the end, if neither region 1 nor the last stretch touches it. -/
theorem kept (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (hm : r ∉ hostOps1_W) (ht : r ∉ hostOps2_W) (hs0 : ∀ w, Pipeline.arrRef spec0 w ≠ r) (hs1 : ∀ w, Pipeline.arrRef spec1 w ≠ r) :
    W33 m ρ c (Proc.devRef .tc r) = m ((c : Thread nD τ).loc r) :=
  (W33_of m ρ c r ht).trans <| (W32_of_ne m ρ c r hs1).trans <|
    kept_E1 m ρ c r h0 h1 h2 h3 h4 h5 h6 h7 h8 h9 h10 h11 h12 h13 h14 h15 h16 h17 h18 h19 h20 h21 h22 h23 h24 h25 h26 h27 h28 hs0 hm

/-! ## The arguments end as launched -/

theorem end_main_arg0 (c : Dev nD) : W33 m ρ c (Proc.devRef .tc main_arg0) = m ((c : Thread nD τ).loc main_arg0) :=
  kept m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg1 (c : Dev nD) : W33 m ρ c (Proc.devRef .tc main_arg1) = m ((c : Thread nD τ).loc main_arg1) :=
  kept m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg2 (c : Dev nD) : W33 m ρ c (Proc.devRef .tc main_arg2) = m ((c : Thread nD τ).loc main_arg2) :=
  kept m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg3 (c : Dev nD) : W33 m ρ c (Proc.devRef .tc main_arg3) = m ((c : Thread nD τ).loc main_arg3) :=
  kept m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg4 (c : Dev nD) : W33 m ρ c (Proc.devRef .tc main_arg4) = m ((c : Thread nD τ).loc main_arg4) :=
  kept m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg5 (c : Dev nD) : W33 m ρ c (Proc.devRef .tc main_arg5) = m ((c : Thread nD τ).loc main_arg5) :=
  kept m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg6 (c : Dev nD) : W33 m ρ c (Proc.devRef .tc main_arg6) = m ((c : Thread nD τ).loc main_arg6) :=
  kept m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg7 (c : Dev nD) : W33 m ρ c (Proc.devRef .tc main_arg7) = m ((c : Thread nD τ).loc main_arg7) :=
  kept m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg8 (c : Dev nD) : W33 m ρ c (Proc.devRef .tc main_arg8) = m ((c : Thread nD τ).loc main_arg8) :=
  kept m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

end Cert.KernelIdeal.Fold

end
-- ==== Proof.KerRun.lean ====
/- The segments and the launch, laid out from a hand-written template over the program's list of stretches. -/
/-
  The program's entry function run as a list of segments: one per stretch of host operations, from the contents
  of the boundary before it, and one per Pallas region, whose record takes the pipeline's layout from the generated
  launch facts and the body obligation from the region's module, enters from "every unscoped buffer at the entry
  contents" and leaves at "every unscoped buffer at the exit contents".  The launch theorem for a list of segments then
  gives: every weakly fair execution terminates without a fault, and the final memory holds every unscoped buffer at
  the last boundary's contents.
-/
import proofs.«142292_g2000406351686535_pallasbulk_564_2_alg».proof.Proof.KerFold

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.Writes Cert.KernelIdeal.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V29 m ρ) c
  | ⟨1, _⟩ => fun c => dat1 (V31 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the boundary contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W33 m ρ c) ∗ ∃ r, prngReg c r)

set_option backward.isDefEq.respectTransparency.types false in
/-- Region 0 over the thread state: entered with every unscoped buffer at the contents of boundary 29, left at
    those of boundary 30.  Its arrays are split out of the unscoped buffers and put back at the exit contents; the
    generator register goes into the pipeline's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V29 m ρ) c).loose
  hwaits := Pipeline.hwaits_of_owed_zero _ _ _ _ L lv 0 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec0 c (V29 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V29 m ρ c) (V30 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of boundary 31, left at
    those of boundary 32.  Its arrays are split out of the unscoped buffers and put back at the exit contents; the
    generator register goes into the pipeline's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V31 m ρ) c).loose
  hwaits := Pipeline.hwaits_of_owed_zero _ _ _ _ L lv 1 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec1 c (V31 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V31 m ρ c) (V32 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The entry function's 33 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .host (hseg hostOps0_25 hostOps0_25_sub hostOps0_25_fresh (W25 m ρ)),
    .host (hseg hostOps0_26 hostOps0_26_sub hostOps0_26_fresh (W26 m ρ)),
    .host (hseg hostOps0_27 hostOps0_27_sub hostOps0_27_fresh (W27 m ρ)),
    .host (hseg hostOps0_28 hostOps0_28_sub hostOps0_28_fresh (W28 m ρ)),
    .region (reg0 m ρ),
    .host (hseg hostOps1 hostOps1_sub hostOps1_fresh (W30 m ρ)),
    .region (reg1 m ρ),
    .host (hseg hostOps2 hostOps2_sub hostOps2_fresh (W32 m ρ)) ]

set_option maxHeartbeats 4000000 in
/-- The entry function is the run of the segments. -/
theorem main_run (c : Dev nD) : main (F := F) c = Pipeline.Seg.run (segs m ρ) := by
  rw [main_chain c, Pipeline.Seg.run_eq_chain,
    show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          Prog.lift (.customCall (Pipeline.entry 0) ()),
          StableHlo.seq hostOps1,
          Prog.lift (.customCall (Pipeline.entry 1) ()),
          StableHlo.seq hostOps2 ] from rfl]

set_option backward.isDefEq.respectTransparency.types false in
set_option maxHeartbeats 4000000 in
/-- THE RUN: from any memory with zero counters every weakly fair execution of the entry function terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W33 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c => h c)

end Cert.KernelIdeal.Run

end
-- ==== Proof.RefBody0.lean ====
/-
  Region 0 of the reference program (the fused temporal-convolution pass), at any float instance and at a
  parameter V, the contents of the core's buffers when the region is entered.  The grid has 32 points.  A
  point reads one block of 8 batches of the f32 input (8 x 128 x 256, flattened to 1024 rows) and six arrays
  whole, the same block at every point: the 1024 x 1024 block-diagonal mixing matrix, the first convolution's
  banded weight (256 x 1536) and bias (1 x 1536), the projection (512 x 224), and the second convolution's
  banded weight (224 x 1152) and bias (1 x 1152).  It computes the first gated convolution as one matmul plus
  bias, gate and rectification, projects, mixes the 1024 rows by the block-diagonal matrix and rectifies,
  applies the second gated convolution and rectifies, all in f32; and it writes three blocks: the activation
  (8 x 128 x 384), its sum along the feature axis and the sum of its squares (8 x 128 x 1 each).  This module
  says what every window's staging buffer holds once the body has run (an input window still its block; an
  output window the canonical form of its single whole-block store of the body's arithmetic on the seven
  loaded blocks), proves the body's triple by symbolic execution through the part that does the loads, and
  assembles the pipeline's proof data together with its body obligation.
-/
import proofs.«142292_g2000406351686535_pallasbulk_564_2_alg».proof.Proof.Gen.ReferenceIdeal.Launch
import proofs.«142292_g2000406351686535_pallasbulk_564_2_alg».proof.Proof.Gen.ReferenceIdeal.Skeleton
import proofs.«142292_g2000406351686535_pallasbulk_564_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev q0_x : Rect S8x128x256 := Rect.unit (s := S8x128x256) ![0, 0, 0] S8x128x256.size inb_S8x128x256_S8x128x256_0_0_0
abbrev q0_ak : Rect S1024x1024 := Rect.unit (s := S1024x1024) ![0, 0] S1024x1024.size inb_S1024x1024_S1024x1024_0_0
abbrev q0_w1 : Rect S256x1536 := Rect.unit (s := S256x1536) ![0, 0] S256x1536.size inb_S256x1536_S256x1536_0_0
abbrev q0_b1 : Rect S1x1536 := Rect.unit (s := S1x1536) ![0, 0] S1x1536.size inb_S1x1536_S1x1536_0_0
abbrev q0_th : Rect S512x224 := Rect.unit (s := S512x224) ![0, 0] S512x224.size inb_S512x224_S512x224_0_0
abbrev q0_w2 : Rect S224x1152 := Rect.unit (s := S224x1152) ![0, 0] S224x1152.size inb_S224x1152_S224x1152_0_0
abbrev q0_b2 : Rect S1x1152 := Rect.unit (s := S1x1152) ![0, 0] S1x1152.size inb_S1x1152_S1x1152_0_0
abbrev q0_o : Rect S8x128x384 := Rect.unit (s := S8x128x384) ![0, 0, 0] S8x128x384.size inb_S8x128x384_S8x128x384_0_0_0
abbrev q0_s : Rect S8x128x1 := Rect.unit (s := S8x128x1) ![0, 0, 0] S8x128x1.size inb_S8x128x1_S8x128x1_0_0_0

/-- The activation block after the body: one store over the whole block.  The two values the loading part
    hands on (the residual slice and the gated product of the second convolution) are each a function of the
    seven loaded blocks, taken in the order input, first weight, first bias, projection, mixing matrix,
    second weight, second bias. -/
def out0_7 (x0 : Vec F S8x128x256 .f32) (x1 : Vec F S1024x1024 .f32) (x2 : Vec F S256x1536 .f32) (x3 : Vec F S1x1536 .f32) (x4 : Vec F S512x224 .f32) (x5 : Vec F S224x1152 .f32) (x6 : Vec F S1x1152 .f32) : Vec F S8x128x384 .f32 :=
  View.canon [⟨q0_o, k0_pay2 (k0_pay6 (View.ld x0 q0_x) (View.ld x2 q0_w1) (View.ld x3 q0_b1) (View.ld x4 q0_th) (View.ld x1 q0_ak) (View.ld x5 q0_w2) (View.ld x6 q0_b2)) (k0_pay7 (View.ld x0 q0_x) (View.ld x2 q0_w1) (View.ld x3 q0_b1) (View.ld x4 q0_th) (View.ld x1 q0_ak) (View.ld x5 q0_w2) (View.ld x6 q0_b2))⟩]
/-- The block of sums along the feature axis after the body. -/
def out0_8 (x0 : Vec F S8x128x256 .f32) (x1 : Vec F S1024x1024 .f32) (x2 : Vec F S256x1536 .f32) (x3 : Vec F S1x1536 .f32) (x4 : Vec F S512x224 .f32) (x5 : Vec F S224x1152 .f32) (x6 : Vec F S1x1152 .f32) : Vec F S8x128x1 .f32 :=
  View.canon [⟨q0_s, k0_pay3 (k0_pay6 (View.ld x0 q0_x) (View.ld x2 q0_w1) (View.ld x3 q0_b1) (View.ld x4 q0_th) (View.ld x1 q0_ak) (View.ld x5 q0_w2) (View.ld x6 q0_b2)) (k0_pay7 (View.ld x0 q0_x) (View.ld x2 q0_w1) (View.ld x3 q0_b1) (View.ld x4 q0_th) (View.ld x1 q0_ak) (View.ld x5 q0_w2) (View.ld x6 q0_b2))⟩]
/-- The block of sums of squares along the feature axis after the body. -/
def out0_9 (x0 : Vec F S8x128x256 .f32) (x1 : Vec F S1024x1024 .f32) (x2 : Vec F S256x1536 .f32) (x3 : Vec F S1x1536 .f32) (x4 : Vec F S512x224 .f32) (x5 : Vec F S224x1152 .f32) (x6 : Vec F S1x1152 .f32) : Vec F S8x128x1 .f32 :=
  View.canon [⟨q0_s, k0_pay4 (k0_pay6 (View.ld x0 q0_x) (View.ld x2 q0_w1) (View.ld x3 q0_b1) (View.ld x4 q0_th) (View.ld x1 q0_ak) (View.ld x5 q0_w2) (View.ld x6 q0_b2)) (k0_pay7 (View.ld x0 q0_x) (View.ld x2 q0_w1) (View.ld x3 q0_b1) (View.ld x4 q0_th) (View.ld x1 q0_ak) (View.ld x5 q0_w2) (View.ld x6 q0_b2))⟩]

theorem cover0_7 (p0 : Vec F S8x128x384 .f32) (y : S8x128x384.Idx) :
    ∃ pc ∈ ([⟨q0_o, p0⟩] : List (View.Piece (Elt F) S8x128x384 .f32)), y ∈ pc.1.set :=
  View.cover_of_tiled [⟨q0_o, p0⟩] S8x128x384.size (by rfl) y
theorem cover0_8 (p0 : Vec F S8x128x1 .f32) (y : S8x128x1.Idx) :
    ∃ pc ∈ ([⟨q0_s, p0⟩] : List (View.Piece (Elt F) S8x128x1 .f32)), y ∈ pc.1.set :=
  View.cover_of_tiled [⟨q0_s, p0⟩] S8x128x1.size (by rfl) y

set_option maxHeartbeats 8000000 in
/-- The body on whole staging memrefs: the inputs keep their contents, each output ends at out0_W of them. -/
theorem sound_kernel0 (c : Dev nD) (E : Set ℕ) (i : grid0.Coords) (arg1 : Memref sig .tc .vmem S8x128x256 .f32) (harg1 : arg1.IsWhole) (arg2 : Memref sig .tc .vmem S1024x1024 .f32) (harg2 : arg2.IsWhole) (arg3 : Memref sig .tc .vmem S256x1536 .f32) (harg3 : arg3.IsWhole) (arg4 : Memref sig .tc .vmem S1x1536 .f32) (harg4 : arg4.IsWhole) (arg5 : Memref sig .tc .vmem S512x224 .f32) (harg5 : arg5.IsWhole) (arg6 : Memref sig .tc .vmem S224x1152 .f32) (harg6 : arg6.IsWhole) (arg7 : Memref sig .tc .vmem S1x1152 .f32) (harg7 : arg7.IsWhole) (arg8 : Memref sig .tc .vmem S8x128x384 .f32) (harg8 : arg8.IsWhole) (arg9 : Memref sig .tc .vmem S8x128x1 .f32) (harg9 : arg9.IsWhole) (arg10 : Memref sig .tc .vmem S8x128x1 .f32) (harg10 : arg10.IsWhole)
    (x0 : Vec F S8x128x256 .f32) (x1 : Vec F S1024x1024 .f32) (x2 : Vec F S256x1536 .f32) (x3 : Vec F S1x1536 .f32) (x4 : Vec F S512x224 .f32) (x5 : Vec F S224x1152 .f32) (x6 : Vec F S1x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)
            ∗ owns (c : Thread nD τ) arg9 fullShare (out0_8 x0 x1 x2 x3 x4 x5 x6)
            ∗ owns (c : Thread nD τ) arg10 fullShare (out0_9 x0 x1 x2 x3 x4 x5 x6)) -∗ K ⟨⟩))
      ⊢ wp frame (wpE (defs₀ (F := F)) Variants.none c none) E (cc0__tcn_fused_kernel i arg1 harg1 arg2 harg2 arg3 harg3 arg4 harg4 arg5 harg5 arg6 harg6 arg7 harg7 arg8 harg8 arg9 harg9 arg10 harg10) K := by
  simp only [cc0__tcn_fused_kernel_eq_skeleton]; unfold cc0__tcn_fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_8 _)

/-- The proof data of pipeline 0 on core c: the arrays as the region finds them; after the body every input
    window's buffer is its block, each output window's is out0_W of the seven input blocks; no share is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Body

end
-- ==== Proof.RefBody1.lean ====
/-
  Region 1 of the reference program (the per-node affine map that applies the batch normalisation), at any
  float instance and at a parameter V, the contents of the core's buffers when the region is entered.  The
  grid is 32 x 1; each point reads one block of 8 batches of the f32 activation (8 x 128 x 384) and the two
  per-node columns (scale and shift, 128 x 1 each, the same block at every point), and writes the block
  x * scale + shift with the columns broadcast along the batch and feature axes.  This module says what
  every window's staging buffer holds once the body has run (an input window still its block; the output
  window the canonical form of the single whole-block store), proves the body's triple by symbolic
  execution, and assembles the pipeline's proof data together with its body obligation.
-/
import proofs.«142292_g2000406351686535_pallasbulk_564_2_alg».proof.Proof.Gen.ReferenceIdeal.Launch
import proofs.«142292_g2000406351686535_pallasbulk_564_2_alg».proof.Proof.Gen.ReferenceIdeal.Skeleton
import proofs.«142292_g2000406351686535_pallasbulk_564_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev q1_t : Rect S8x128x384 := Rect.unit (s := S8x128x384) ![0, 0, 0] S8x128x384.size inb_S8x128x384_S8x128x384_0_0_0
abbrev q1_c : Rect S128x1 := Rect.unit (s := S128x1) ![0, 0] S128x1.size inb_S128x1_S128x1_0_0

/-- The output block after the body: its one store, over the whole block, of the affine map of the loaded
    blocks (the payload takes the scale column, the shift column, then the activation block). -/
def out1_3 (x0 : Vec F S8x128x384 .f32) (x1 : Vec F S128x1 .f32) (x2 : Vec F S128x1 .f32) : Vec F S8x128x384 .f32 :=
  View.canon [⟨q1_t, k1_pay1 (View.ld x1 q1_c) (View.ld x2 q1_c) (View.ld x0 q1_t)⟩]

theorem cover1_3 (p0 : Vec F S8x128x384 .f32) (y : S8x128x384.Idx) :
    ∃ pc ∈ ([⟨q1_t, p0⟩] : List (View.Piece (Elt F) S8x128x384 .f32)), y ∈ pc.1.set :=
  View.cover_of_tiled [⟨q1_t, p0⟩] S8x128x384.size (by rfl) y

set_option maxHeartbeats 4000000 in
/-- The body on whole staging memrefs: the inputs keep their contents, the output ends at out1_3 of them. -/
theorem sound_kernel1 (c : Dev nD) (E : Set ℕ) (i : grid1.Coords)
    (arg2 : Memref sig .tc .vmem S8x128x384 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S8x128x384 .f32) (harg5 : arg5.IsWhole)
    (x0 : Vec F S8x128x384 .f32) (x1 : Vec F S128x1 .f32) (x2 : Vec F S128x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__bn_apply_kernel i arg2 harg2 arg3 harg3 arg4 harg4 arg5 harg5) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of pipeline 1 on core c: the arrays as the region finds them; after the body every input
    window's buffer is its block, the output window's is out1_3 of the three input blocks; no share is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Body

end
-- ==== Proof.RefWrites.lean ====
/- A table: for every stretch of host operations of the program's entry function, the references its operations write,
   that none of them allocates, and that each writes only a listed reference. -/
import proofs.«142292_g2000406351686535_pallasbulk_564_2_alg».proof.Proof.Gen.ReferenceIdeal.Launch
import Idealize.ShloMosaic.Lib.StableHlo.Run

set_option maxRecDepth 16384

noncomputable section

namespace Cert.ReferenceIdeal.Writes

open Idealize.ShloMosaic Idealize.ShloMosaic.TcCoe Idealize.SL.Sem
open Cert.ReferenceIdeal Cert.ReferenceIdeal.Gen

variable {F : FTy → Type} [FloatOps F]

abbrev hostOps0_W : List (Ref sig .tc) := [main_v0, main_v1, main_v2, main_v3, main_cst, main_v4, main_c, main_v5, main_v6, main_v7, main_cst_0, main_v8, main_c_1, main_v9, main_v10, main_v11, main_cst_2, main_v12, main_c_3, main_v13, main_v14, main_v15, main_cst_4, main_v16, main_c_5, main_v17, main_v18, main_v19, main_cst_6, main_v20, main_c_7, main_v21, main_v22, main_v23, main_cst_8, main_v24, main_c_9, main_v25, main_v26, main_v27, main_cst_10, main_v28, main_c_11, main_v29, main_v30, main_v31, main_cst_12, main_v32, main_c_13, main_v33, main_v34, main_v35, main_cst_14, main_v36, main_c_15, main_v37, main_v38, main_v39, main_cst_16, main_v40, main_c_17, main_v41, main_v42, main_v43, main_cst_18, main_v44, main_c_19, main_v45, main_v46, main_v47, main_cst_20, main_v48, main_c_21, main_v49, main_v50, main_v51, main_cst_22, main_v52, main_c_23, main_v53, main_v54, main_v55, main_cst_24, main_v56, main_c_25, main_v57, main_v58, main_v59, main_v60, main_v61, main_v62, main_v63, main_c_26]
set_option maxHeartbeats 40000000 in
theorem hostOps0_fresh : (hostOps0 : List (HloOp τ sig (Elt F))).Forall fun op => op.fresh = ∅ := by
  simp only [List.Forall]; repeat' constructor
set_option maxHeartbeats 40000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_1_W : List (Ref sig .tc) := [main_call0_v0, main_v64]
set_option maxHeartbeats 40000000 in
theorem hostOps0_1_fresh : (hostOps0_1 : List (HloOp τ sig (Elt F))).Forall fun op => op.fresh = ∅ := by
  simp only [List.Forall]; repeat' constructor
set_option maxHeartbeats 40000000 in
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_2_W : List (Ref sig .tc) := [main_c_27]
set_option maxHeartbeats 40000000 in
theorem hostOps0_2_fresh : (hostOps0_2 : List (HloOp τ sig (Elt F))).Forall fun op => op.fresh = ∅ := by
  simp only [List.Forall]; repeat' constructor
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_3_W : List (Ref sig .tc) := [main_call1_v0, main_v65]
set_option maxHeartbeats 40000000 in
theorem hostOps0_3_fresh : (hostOps0_3 : List (HloOp τ sig (Elt F))).Forall fun op => op.fresh = ∅ := by
  simp only [List.Forall]; repeat' constructor
set_option maxHeartbeats 40000000 in
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_4_W : List (Ref sig .tc) := [main_v66, main_v67, main_v68, main_v69, main_cst_28, main_v70, main_c_29, main_v71, main_v72, main_v73, main_cst_30, main_v74, main_c_31, main_v75, main_v76, main_v77, main_cst_32, main_v78, main_c_33, main_v79, main_v80, main_v81, main_cst_34, main_v82, main_c_35, main_v83, main_v84, main_v85, main_cst_36, main_v86, main_c_37, main_v87, main_v88, main_v89, main_cst_38, main_v90, main_c_39, main_v91, main_v92, main_v93, main_cst_40, main_v94, main_c_41, main_v95, main_v96, main_v97, main_cst_42, main_v98, main_c_43, main_v99, main_v100, main_v101, main_cst_44, main_v102, main_c_45, main_v103, main_v104, main_v105, main_cst_46, main_v106, main_c_47, main_v107, main_v108, main_v109, main_cst_48, main_v110, main_c_49, main_v111, main_v112, main_v113, main_cst_50, main_v114, main_c_51, main_v115, main_v116, main_v117, main_cst_52, main_v118, main_c_53, main_v119, main_v120, main_v121, main_cst_54, main_v122, main_c_55, main_v123, main_v124, main_v125, main_v126, main_v127, main_v128, main_v129, main_c_56]
set_option maxHeartbeats 40000000 in
theorem hostOps0_4_fresh : (hostOps0_4 : List (HloOp τ sig (Elt F))).Forall fun op => op.fresh = ∅ := by
  simp only [List.Forall]; repeat' constructor
set_option maxHeartbeats 40000000 in
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_5_W : List (Ref sig .tc) := [main_call2_v0, main_v130]
set_option maxHeartbeats 40000000 in
theorem hostOps0_5_fresh : (hostOps0_5 : List (HloOp τ sig (Elt F))).Forall fun op => op.fresh = ∅ := by
  simp only [List.Forall]; repeat' constructor
set_option maxHeartbeats 40000000 in
theorem hostOps0_5_writes : (hostOps0_5 : List (HloOp τ sig (Elt F))).Forall fun op => op.writes ⊆ (hostOps0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_6_W : List (Ref sig .tc) := [main_c_57]
set_option maxHeartbeats 40000000 in
theorem hostOps0_6_fresh : (hostOps0_6 : List (HloOp τ sig (Elt F))).Forall fun op => op.fresh = ∅ := by
  simp only [List.Forall]; repeat' constructor
set_option maxHeartbeats 40000000 in
theorem hostOps0_6_writes : (hostOps0_6 : List (HloOp τ sig (Elt F))).Forall fun op => op.writes ⊆ (hostOps0_6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_7_W : List (Ref sig .tc) := [main_call3_v0, main_v131]
set_option maxHeartbeats 40000000 in
theorem hostOps0_7_fresh : (hostOps0_7 : List (HloOp τ sig (Elt F))).Forall fun op => op.fresh = ∅ := by
  simp only [List.Forall]; repeat' constructor
set_option maxHeartbeats 40000000 in
theorem hostOps0_7_writes : (hostOps0_7 : List (HloOp τ sig (Elt F))).Forall fun op => op.writes ⊆ (hostOps0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_8_W : List (Ref sig .tc) := [main_v132, main_v133, main_v134, main_v135, main_cst_58, main_v136, main_c_59, main_v137, main_v138, main_v139, main_cst_60, main_v140, main_c_61, main_v141, main_v142, main_v143, main_cst_62, main_v144, main_c_63, main_v145, main_v146, main_v147, main_cst_64, main_v148, main_c_65, main_v149, main_v150, main_v151, main_cst_66, main_v152, main_c_67, main_v153, main_v154, main_v155, main_cst_68, main_v156, main_c_69, main_v157, main_v158, main_v159, main_cst_70, main_v160, main_c_71, main_v161, main_v162, main_v163, main_cst_72, main_v164, main_c_73, main_v165, main_v166, main_v167, main_cst_74, main_v168, main_c_75, main_v169, main_v170, main_v171, main_cst_76, main_v172, main_c_77, main_v173, main_v174, main_v175, main_cst_78, main_v176, main_c_79, main_v177, main_v178, main_v179, main_cst_80, main_v180, main_c_81, main_v181, main_v182, main_v183, main_cst_82, main_v184, main_c_83, main_v185, main_v186, main_v187, main_cst_84, main_v188, main_c_85, main_v189, main_v190, main_v191, main_v192, main_v193, main_v194, main_v195, main_c_86]
set_option maxHeartbeats 40000000 in
theorem hostOps0_8_fresh : (hostOps0_8 : List (HloOp τ sig (Elt F))).Forall fun op => op.fresh = ∅ := by
  simp only [List.Forall]; repeat' constructor
set_option maxHeartbeats 40000000 in
theorem hostOps0_8_writes : (hostOps0_8 : List (HloOp τ sig (Elt F))).Forall fun op => op.writes ⊆ (hostOps0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_9_W : List (Ref sig .tc) := [main_call4_v0, main_v196]
set_option maxHeartbeats 40000000 in
theorem hostOps0_9_fresh : (hostOps0_9 : List (HloOp τ sig (Elt F))).Forall fun op => op.fresh = ∅ := by
  simp only [List.Forall]; repeat' constructor
set_option maxHeartbeats 40000000 in
theorem hostOps0_9_writes : (hostOps0_9 : List (HloOp τ sig (Elt F))).Forall fun op => op.writes ⊆ (hostOps0_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_10_W : List (Ref sig .tc) := [main_c_87]
set_option maxHeartbeats 40000000 in
theorem hostOps0_10_fresh : (hostOps0_10 : List (HloOp τ sig (Elt F))).Forall fun op => op.fresh = ∅ := by
  simp only [List.Forall]; repeat' constructor
set_option maxHeartbeats 40000000 in
theorem hostOps0_10_writes : (hostOps0_10 : List (HloOp τ sig (Elt F))).Forall fun op => op.writes ⊆ (hostOps0_10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_11_W : List (Ref sig .tc) := [main_call5_v0, main_v197]
set_option maxHeartbeats 40000000 in
theorem hostOps0_11_fresh : (hostOps0_11 : List (HloOp τ sig (Elt F))).Forall fun op => op.fresh = ∅ := by
  simp only [List.Forall]; repeat' constructor
set_option maxHeartbeats 40000000 in
theorem hostOps0_11_writes : (hostOps0_11 : List (HloOp τ sig (Elt F))).Forall fun op => op.writes ⊆ (hostOps0_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_12_W : List (Ref sig .tc) := [main_v198, main_v199, main_v200, main_v201, main_v202, main_v203, main_v204, main_cst_88, main_v205, main_c_89, main_v206, main_v207, main_v208, main_cst_90, main_v209, main_c_91, main_v210, main_v211, main_v212, main_cst_92, main_v213, main_c_93, main_v214, main_v215, main_v216, main_cst_94, main_v217, main_c_95, main_v218, main_v219, main_v220, main_cst_96, main_v221, main_c_97, main_v222, main_v223, main_v224, main_cst_98, main_v225, main_c_99, main_v226, main_v227, main_v228, main_cst_100, main_v229, main_c_101, main_v230, main_v231, main_v232, main_cst_102, main_v233, main_c_103, main_v234, main_v235, main_v236, main_cst_104, main_v237, main_c_105, main_v238, main_v239, main_v240, main_cst_106, main_v241, main_c_107, main_v242, main_v243, main_v244, main_cst_108, main_v245, main_c_109, main_v246, main_v247, main_v248, main_cst_110, main_v249, main_c_111, main_v250, main_v251, main_v252, main_v253, main_v254, main_v255, main_v256, main_c_112]
set_option maxHeartbeats 40000000 in
theorem hostOps0_12_fresh : (hostOps0_12 : List (HloOp τ sig (Elt F))).Forall fun op => op.fresh = ∅ := by
  simp only [List.Forall]; repeat' constructor
set_option maxHeartbeats 40000000 in
theorem hostOps0_12_writes : (hostOps0_12 : List (HloOp τ sig (Elt F))).Forall fun op => op.writes ⊆ (hostOps0_12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_13_W : List (Ref sig .tc) := [main_call6_v0, main_v257]
set_option maxHeartbeats 40000000 in
theorem hostOps0_13_fresh : (hostOps0_13 : List (HloOp τ sig (Elt F))).Forall fun op => op.fresh = ∅ := by
  simp only [List.Forall]; repeat' constructor
set_option maxHeartbeats 40000000 in
theorem hostOps0_13_writes : (hostOps0_13 : List (HloOp τ sig (Elt F))).Forall fun op => op.writes ⊆ (hostOps0_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_14_W : List (Ref sig .tc) := [main_c_113]
set_option maxHeartbeats 40000000 in
theorem hostOps0_14_fresh : (hostOps0_14 : List (HloOp τ sig (Elt F))).Forall fun op => op.fresh = ∅ := by
  simp only [List.Forall]; repeat' constructor
set_option maxHeartbeats 40000000 in
theorem hostOps0_14_writes : (hostOps0_14 : List (HloOp τ sig (Elt F))).Forall fun op => op.writes ⊆ (hostOps0_14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_15_W : List (Ref sig .tc) := [main_call7_v0, main_v258]
set_option maxHeartbeats 40000000 in
theorem hostOps0_15_fresh : (hostOps0_15 : List (HloOp τ sig (Elt F))).Forall fun op => op.fresh = ∅ := by
  simp only [List.Forall]; repeat' constructor
set_option maxHeartbeats 40000000 in
theorem hostOps0_15_writes : (hostOps0_15 : List (HloOp τ sig (Elt F))).Forall fun op => op.writes ⊆ (hostOps0_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_16_W : List (Ref sig .tc) := [main_v259, main_v260, main_v261, main_v262, main_cst_114, main_v263, main_c_115, main_v264, main_v265, main_v266, main_cst_116, main_v267, main_c_117, main_v268, main_v269, main_v270, main_cst_118, main_v271, main_c_119, main_v272, main_v273, main_v274, main_cst_120, main_v275, main_c_121, main_v276, main_v277, main_v278, main_cst_122, main_v279, main_c_123, main_v280, main_v281, main_v282, main_cst_124, main_v283, main_c_125, main_v284, main_v285, main_v286, main_cst_126, main_v287, main_c_127, main_v288, main_v289, main_v290, main_cst_128, main_v291, main_c_129, main_v292, main_v293, main_v294, main_cst_130, main_v295, main_c_131, main_v296, main_v297, main_v298, main_cst_132, main_v299, main_c_133, main_v300, main_v301, main_v302, main_cst_134, main_v303, main_c_135, main_v304, main_v305, main_v306, main_cst_136, main_v307, main_c_137, main_v308, main_v309, main_v310, main_v311, main_v312, main_v313, main_v314, main_c_138]
set_option maxHeartbeats 40000000 in
theorem hostOps0_16_fresh : (hostOps0_16 : List (HloOp τ sig (Elt F))).Forall fun op => op.fresh = ∅ := by
  simp only [List.Forall]; repeat' constructor
set_option maxHeartbeats 40000000 in
theorem hostOps0_16_writes : (hostOps0_16 : List (HloOp τ sig (Elt F))).Forall fun op => op.writes ⊆ (hostOps0_16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_17_W : List (Ref sig .tc) := [main_call8_v0, main_v315]
set_option maxHeartbeats 40000000 in
theorem hostOps0_17_fresh : (hostOps0_17 : List (HloOp τ sig (Elt F))).Forall fun op => op.fresh = ∅ := by
  simp only [List.Forall]; repeat' constructor
set_option maxHeartbeats 40000000 in
theorem hostOps0_17_writes : (hostOps0_17 : List (HloOp τ sig (Elt F))).Forall fun op => op.writes ⊆ (hostOps0_17_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_18_W : List (Ref sig .tc) := [main_c_139]
set_option maxHeartbeats 40000000 in
theorem hostOps0_18_fresh : (hostOps0_18 : List (HloOp τ sig (Elt F))).Forall fun op => op.fresh = ∅ := by
  simp only [List.Forall]; repeat' constructor
set_option maxHeartbeats 40000000 in
theorem hostOps0_18_writes : (hostOps0_18 : List (HloOp τ sig (Elt F))).Forall fun op => op.writes ⊆ (hostOps0_18_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_19_W : List (Ref sig .tc) := [main_call9_v0, main_v316]
set_option maxHeartbeats 40000000 in
theorem hostOps0_19_fresh : (hostOps0_19 : List (HloOp τ sig (Elt F))).Forall fun op => op.fresh = ∅ := by
  simp only [List.Forall]; repeat' constructor
set_option maxHeartbeats 40000000 in
theorem hostOps0_19_writes : (hostOps0_19 : List (HloOp τ sig (Elt F))).Forall fun op => op.writes ⊆ (hostOps0_19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_20_W : List (Ref sig .tc) := [main_v317, main_v318, main_v319, main_v320, main_cst_140, main_v321, main_c_141, main_v322, main_v323, main_v324, main_cst_142, main_v325, main_c_143, main_v326, main_v327, main_v328, main_cst_144, main_v329, main_c_145, main_v330, main_v331, main_v332, main_cst_146, main_v333, main_c_147, main_v334, main_v335, main_v336, main_cst_148, main_v337, main_c_149, main_v338, main_v339, main_v340, main_cst_150, main_v341, main_c_151, main_v342, main_v343, main_v344, main_cst_152, main_v345, main_c_153, main_v346, main_v347, main_v348, main_cst_154, main_v349, main_c_155, main_v350, main_v351, main_v352, main_cst_156, main_v353, main_c_157, main_v354, main_v355, main_v356, main_cst_158, main_v357, main_c_159, main_v358, main_v359, main_v360, main_cst_160, main_v361, main_c_161, main_v362, main_v363, main_v364, main_cst_162, main_v365, main_c_163, main_v366, main_v367, main_v368, main_v369, main_v370, main_v371, main_v372, main_c_164]
set_option maxHeartbeats 40000000 in
theorem hostOps0_20_fresh : (hostOps0_20 : List (HloOp τ sig (Elt F))).Forall fun op => op.fresh = ∅ := by
  simp only [List.Forall]; repeat' constructor
set_option maxHeartbeats 40000000 in
theorem hostOps0_20_writes : (hostOps0_20 : List (HloOp τ sig (Elt F))).Forall fun op => op.writes ⊆ (hostOps0_20_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_21_W : List (Ref sig .tc) := [main_call10_v0, main_v373]
set_option maxHeartbeats 40000000 in
theorem hostOps0_21_fresh : (hostOps0_21 : List (HloOp τ sig (Elt F))).Forall fun op => op.fresh = ∅ := by
  simp only [List.Forall]; repeat' constructor
set_option maxHeartbeats 40000000 in
theorem hostOps0_21_writes : (hostOps0_21 : List (HloOp τ sig (Elt F))).Forall fun op => op.writes ⊆ (hostOps0_21_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_22_W : List (Ref sig .tc) := [main_c_165]
set_option maxHeartbeats 40000000 in
theorem hostOps0_22_fresh : (hostOps0_22 : List (HloOp τ sig (Elt F))).Forall fun op => op.fresh = ∅ := by
  simp only [List.Forall]; repeat' constructor
set_option maxHeartbeats 40000000 in
theorem hostOps0_22_writes : (hostOps0_22 : List (HloOp τ sig (Elt F))).Forall fun op => op.writes ⊆ (hostOps0_22_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_23_W : List (Ref sig .tc) := [main_call11_v0, main_v374]
set_option maxHeartbeats 40000000 in
theorem hostOps0_23_fresh : (hostOps0_23 : List (HloOp τ sig (Elt F))).Forall fun op => op.fresh = ∅ := by
  simp only [List.Forall]; repeat' constructor
set_option maxHeartbeats 40000000 in
theorem hostOps0_23_writes : (hostOps0_23 : List (HloOp τ sig (Elt F))).Forall fun op => op.writes ⊆ (hostOps0_23_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_24_W : List (Ref sig .tc) := [main_v375, main_v376, main_v377, main_v378, main_v379, main_c_166, main_v380, main_v381, main_v382, main_v383]
set_option maxHeartbeats 40000000 in
theorem hostOps0_24_fresh : (hostOps0_24 : List (HloOp τ sig (Elt F))).Forall fun op => op.fresh = ∅ := by
  simp only [List.Forall]; repeat' constructor
set_option maxHeartbeats 40000000 in
theorem hostOps0_24_writes : (hostOps0_24 : List (HloOp τ sig (Elt F))).Forall fun op => op.writes ⊆ (hostOps0_24_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_25_W : List (Ref sig .tc) := [main_call12_v0, main_call12_v1, main_call12_v2, main_call12_v3, main_call12_v4, main_v384]
set_option maxHeartbeats 40000000 in
theorem hostOps0_25_fresh : (hostOps0_25 : List (HloOp τ sig (Elt F))).Forall fun op => op.fresh = ∅ := by
  simp only [List.Forall]; repeat' constructor
set_option maxHeartbeats 40000000 in
theorem hostOps0_25_writes : (hostOps0_25 : List (HloOp τ sig (Elt F))).Forall fun op => op.writes ⊆ (hostOps0_25_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_26_W : List (Ref sig .tc) := [main_c_167]
set_option maxHeartbeats 40000000 in
theorem hostOps0_26_fresh : (hostOps0_26 : List (HloOp τ sig (Elt F))).Forall fun op => op.fresh = ∅ := by
  simp only [List.Forall]; repeat' constructor
set_option maxHeartbeats 40000000 in
theorem hostOps0_26_writes : (hostOps0_26 : List (HloOp τ sig (Elt F))).Forall fun op => op.writes ⊆ (hostOps0_26_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps0_27_W : List (Ref sig .tc) := [main_call13_v0, main_v385]
set_option maxHeartbeats 40000000 in
theorem hostOps0_27_fresh : (hostOps0_27 : List (HloOp τ sig (Elt F))).Forall fun op => op.fresh = ∅ := by
  simp only [List.Forall]; repeat' constructor
set_option maxHeartbeats 40000000 in
theorem hostOps0_27_writes : (hostOps0_27 : List (HloOp τ sig (Elt F))).Forall fun op => op.writes ⊆ (hostOps0_27_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_28_W : List (Ref sig .tc) := [main_v386, main_v387, main_c_168, main_v388, main_v389, main_v390, main_v391]
set_option maxHeartbeats 40000000 in
theorem hostOps0_28_fresh : (hostOps0_28 : List (HloOp τ sig (Elt F))).Forall fun op => op.fresh = ∅ := by
  simp only [List.Forall]; repeat' constructor
set_option maxHeartbeats 40000000 in
theorem hostOps0_28_writes : (hostOps0_28 : List (HloOp τ sig (Elt F))).Forall fun op => op.writes ⊆ (hostOps0_28_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_29_W : List (Ref sig .tc) := [main_call14_v0, main_call14_v1, main_call14_v2, main_call14_v3, main_call14_v4, main_v392]
set_option maxHeartbeats 40000000 in
theorem hostOps0_29_fresh : (hostOps0_29 : List (HloOp τ sig (Elt F))).Forall fun op => op.fresh = ∅ := by
  simp only [List.Forall]; repeat' constructor
set_option maxHeartbeats 40000000 in
theorem hostOps0_29_writes : (hostOps0_29 : List (HloOp τ sig (Elt F))).Forall fun op => op.writes ⊆ (hostOps0_29_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps0_30_W : List (Ref sig .tc) := [main_v393]
set_option maxHeartbeats 40000000 in
theorem hostOps0_30_fresh : (hostOps0_30 : List (HloOp τ sig (Elt F))).Forall fun op => op.fresh = ∅ := by
  simp only [List.Forall]; repeat' constructor
set_option maxHeartbeats 40000000 in
theorem hostOps0_30_writes : (hostOps0_30 : List (HloOp τ sig (Elt F))).Forall fun op => op.writes ⊆ (hostOps0_30_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev hostOps1_W : List (Ref sig .tc) := [main_v395, main_cst_169, main_v396, main_cst_170, main_v397, main_v398, main_v399, main_cst_171, main_v400, main_cst_172, main_v401, main_v402, main_v403, main_v404, main_cst_173, main_v405, main_v406, main_cst_174, main_v407, main_v408, main_v409, main_v410, main_v411, main_v412, main_v413, main_v414, main_v415, main_v416, main_v417]
set_option maxHeartbeats 40000000 in
theorem hostOps1_fresh : (hostOps1 : List (HloOp τ sig (Elt F))).Forall fun op => op.fresh = ∅ := by
  simp only [List.Forall]; repeat' constructor
set_option maxHeartbeats 40000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev hostOps2_W : List (Ref sig .tc) := [main_v419]
set_option maxHeartbeats 40000000 in
theorem hostOps2_fresh : (hostOps2 : List (HloOp τ sig (Elt F))).Forall fun op => op.fresh = ∅ := by
  simp only [List.Forall]; repeat' constructor
set_option maxHeartbeats 40000000 in
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.Writes

end
-- ==== Proof.RefFold.lean ====
/- The boundaries' contents, laid out from a hand-written template over the program's list of stretches. -/
/-
  The contents of the core's buffers at every boundary between two items of the program's entry function:
  the launch memory, then the result of each stretch of host operations in turn, then what region 0 leaves — its
  output arrays at the fold of the blocks its grid points write back, everything else as entered —, the stretch
  between the regions, what region 1 leaves, and the last stretch.  Then: a reference no stretch writes and no region
  stages holds its launch contents at the end; in particular every argument array does.
-/
import proofs.«142292_g2000406351686535_pallasbulk_564_2_alg».proof.Proof.RefBody0
import proofs.«142292_g2000406351686535_pallasbulk_564_2_alg».proof.Proof.RefBody1
import proofs.«142292_g2000406351686535_pallasbulk_564_2_alg».proof.Proof.RefWrites

set_option maxRecDepth 16384

noncomputable section

namespace Cert.ReferenceIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Body Cert.ReferenceIdeal.Writes

variable {F : FTy → Type} [FloatOps F]

variable (m : (ℓ : Loc nD τ sig) → Buf (Elt F) ℓ) (ρ : Dev nD → PrngReg)

/-- Core c's buffers at launch. -/
def W0 : Dev nD → Valuation τ sig (Elt F) := fun c b => (s₀ m ρ).mem ((c : Dev nD), b)
/-- After the stretch hostOps0. -/
def W1 : Dev nD → Valuation τ sig (Elt F) := fun c => StableHlo.after hostOps0 (W0 m ρ c)
/-- After the stretch hostOps0_1. -/
def W2 : Dev nD → Valuation τ sig (Elt F) := fun c => StableHlo.after hostOps0_1 (W1 m ρ c)
/-- After the stretch hostOps0_2. -/
def W3 : Dev nD → Valuation τ sig (Elt F) := fun c => StableHlo.after hostOps0_2 (W2 m ρ c)
/-- After the stretch hostOps0_3. -/
def W4 : Dev nD → Valuation τ sig (Elt F) := fun c => StableHlo.after hostOps0_3 (W3 m ρ c)
/-- After the stretch hostOps0_4. -/
def W5 : Dev nD → Valuation τ sig (Elt F) := fun c => StableHlo.after hostOps0_4 (W4 m ρ c)
/-- After the stretch hostOps0_5. -/
def W6 : Dev nD → Valuation τ sig (Elt F) := fun c => StableHlo.after hostOps0_5 (W5 m ρ c)
/-- After the stretch hostOps0_6. -/
def W7 : Dev nD → Valuation τ sig (Elt F) := fun c => StableHlo.after hostOps0_6 (W6 m ρ c)
/-- After the stretch hostOps0_7. -/
def W8 : Dev nD → Valuation τ sig (Elt F) := fun c => StableHlo.after hostOps0_7 (W7 m ρ c)
/-- After the stretch hostOps0_8. -/
def W9 : Dev nD → Valuation τ sig (Elt F) := fun c => StableHlo.after hostOps0_8 (W8 m ρ c)
/-- After the stretch hostOps0_9. -/
def W10 : Dev nD → Valuation τ sig (Elt F) := fun c => StableHlo.after hostOps0_9 (W9 m ρ c)
/-- After the stretch hostOps0_10. -/
def W11 : Dev nD → Valuation τ sig (Elt F) := fun c => StableHlo.after hostOps0_10 (W10 m ρ c)
/-- After the stretch hostOps0_11. -/
def W12 : Dev nD → Valuation τ sig (Elt F) := fun c => StableHlo.after hostOps0_11 (W11 m ρ c)
/-- After the stretch hostOps0_12. -/
def W13 : Dev nD → Valuation τ sig (Elt F) := fun c => StableHlo.after hostOps0_12 (W12 m ρ c)
/-- After the stretch hostOps0_13. -/
def W14 : Dev nD → Valuation τ sig (Elt F) := fun c => StableHlo.after hostOps0_13 (W13 m ρ c)
/-- After the stretch hostOps0_14. -/
def W15 : Dev nD → Valuation τ sig (Elt F) := fun c => StableHlo.after hostOps0_14 (W14 m ρ c)
/-- After the stretch hostOps0_15. -/
def W16 : Dev nD → Valuation τ sig (Elt F) := fun c => StableHlo.after hostOps0_15 (W15 m ρ c)
/-- After the stretch hostOps0_16. -/
def W17 : Dev nD → Valuation τ sig (Elt F) := fun c => StableHlo.after hostOps0_16 (W16 m ρ c)
/-- After the stretch hostOps0_17. -/
def W18 : Dev nD → Valuation τ sig (Elt F) := fun c => StableHlo.after hostOps0_17 (W17 m ρ c)
/-- After the stretch hostOps0_18. -/
def W19 : Dev nD → Valuation τ sig (Elt F) := fun c => StableHlo.after hostOps0_18 (W18 m ρ c)
/-- After the stretch hostOps0_19. -/
def W20 : Dev nD → Valuation τ sig (Elt F) := fun c => StableHlo.after hostOps0_19 (W19 m ρ c)
/-- After the stretch hostOps0_20. -/
def W21 : Dev nD → Valuation τ sig (Elt F) := fun c => StableHlo.after hostOps0_20 (W20 m ρ c)
/-- After the stretch hostOps0_21. -/
def W22 : Dev nD → Valuation τ sig (Elt F) := fun c => StableHlo.after hostOps0_21 (W21 m ρ c)
/-- After the stretch hostOps0_22. -/
def W23 : Dev nD → Valuation τ sig (Elt F) := fun c => StableHlo.after hostOps0_22 (W22 m ρ c)
/-- After the stretch hostOps0_23. -/
def W24 : Dev nD → Valuation τ sig (Elt F) := fun c => StableHlo.after hostOps0_23 (W23 m ρ c)
/-- After the stretch hostOps0_24. -/
def W25 : Dev nD → Valuation τ sig (Elt F) := fun c => StableHlo.after hostOps0_24 (W24 m ρ c)
/-- After the stretch hostOps0_25. -/
def W26 : Dev nD → Valuation τ sig (Elt F) := fun c => StableHlo.after hostOps0_25 (W25 m ρ c)
/-- After the stretch hostOps0_26. -/
def W27 : Dev nD → Valuation τ sig (Elt F) := fun c => StableHlo.after hostOps0_26 (W26 m ρ c)
/-- After the stretch hostOps0_27. -/
def W28 : Dev nD → Valuation τ sig (Elt F) := fun c => StableHlo.after hostOps0_27 (W27 m ρ c)
/-- After the stretch hostOps0_28. -/
def W29 : Dev nD → Valuation τ sig (Elt F) := fun c => StableHlo.after hostOps0_28 (W28 m ρ c)
/-- After the stretch hostOps0_29. -/
def W30 : Dev nD → Valuation τ sig (Elt F) := fun c => StableHlo.after hostOps0_29 (W29 m ρ c)
/-- After the stretch hostOps0_30. -/
def W31 : Dev nD → Valuation τ sig (Elt F) := fun c => StableHlo.after hostOps0_30 (W30 m ρ c)
/-- The contents region 0 is entered with, read at the TensorCore's references. -/
abbrev V31 : (c : Dev nD) → (b : Ref sig .tc) → Buf (Elt F) ((c : Thread nD τ).loc b) := fun c b => W31 m ρ c b
/-- At region 0's exit: its arrays at what the pipeline leaves (each output's write-backs folded), every other buffer as entered. -/
def W32 (c : Dev nD) : Valuation τ sig (Elt F) :=
  Pipeline.withArrays spec0 c (W31 m ρ c) fun w => (dat0 (V31 m ρ) c).arrAt w cfg0.N
theorem W32_arr (c : Dev nD) (w : Fin cfg0.W) :
    W32 m ρ c (Proc.devRef .tc (Pipeline.arrRef spec0 w)) = (dat0 (V31 m ρ) c).arrAt w cfg0.N := by
  unfold W32; exact Pipeline.withArrays_arr spec0 launch0.win.arr_inj c _ _ w
theorem W32_of_ne (c : Dev nD) (b : Ref sig .tc) (hb : ∀ w, Pipeline.arrRef spec0 w ≠ b) :
    W32 m ρ c (Proc.devRef .tc b) = W31 m ρ c (Proc.devRef .tc b) := by
  unfold W32; exact Pipeline.withArrays_of_ne spec0 c _ _ b hb
abbrev V32 : (c : Dev nD) → (b : Ref sig .tc) → Buf (Elt F) ((c : Thread nD τ).loc b) := fun c b => W32 m ρ c b
theorem hF0 (c : Dev nD) (w : Fin cfg0.W) : (dat0 (V31 m ρ) c).arrAt w cfg0.N = V32 m ρ c (Pipeline.arrRef spec0 w) :=
  (W32_arr m ρ c w).symm
theorem hrest0 (c : Dev nD) : ∀ b, b ∉ Finset.univ.image (Pipeline.arrRef spec0) → V32 m ρ c b = V31 m ρ c b :=
  fun b hb => W32_of_ne m ρ c b fun w e => hb (Finset.mem_image.mpr ⟨w, Finset.mem_univ _, e⟩)

/-- After the stretch hostOps1 (region 1's entry). -/
def W33 : Dev nD → Valuation τ sig (Elt F) := fun c => StableHlo.after hostOps1 (W32 m ρ c)
abbrev V33 : (c : Dev nD) → (b : Ref sig .tc) → Buf (Elt F) ((c : Thread nD τ).loc b) := fun c b => W33 m ρ c b
/-- At region 1's exit. -/
def W34 (c : Dev nD) : Valuation τ sig (Elt F) :=
  Pipeline.withArrays spec1 c (W33 m ρ c) fun w => (dat1 (V33 m ρ) c).arrAt w cfg1.N
theorem W34_arr (c : Dev nD) (w : Fin cfg1.W) :
    W34 m ρ c (Proc.devRef .tc (Pipeline.arrRef spec1 w)) = (dat1 (V33 m ρ) c).arrAt w cfg1.N := by
  unfold W34; exact Pipeline.withArrays_arr spec1 launch1.win.arr_inj c _ _ w
theorem W34_of_ne (c : Dev nD) (b : Ref sig .tc) (hb : ∀ w, Pipeline.arrRef spec1 w ≠ b) :
    W34 m ρ c (Proc.devRef .tc b) = W33 m ρ c (Proc.devRef .tc b) := by
  unfold W34; exact Pipeline.withArrays_of_ne spec1 c _ _ b hb
abbrev V34 : (c : Dev nD) → (b : Ref sig .tc) → Buf (Elt F) ((c : Thread nD τ).loc b) := fun c b => W34 m ρ c b
theorem hF1 (c : Dev nD) (w : Fin cfg1.W) : (dat1 (V33 m ρ) c).arrAt w cfg1.N = V34 m ρ c (Pipeline.arrRef spec1 w) :=
  (W34_arr m ρ c w).symm
theorem hrest1 (c : Dev nD) : ∀ b, b ∉ Finset.univ.image (Pipeline.arrRef spec1) → V34 m ρ c b = V33 m ρ c b :=
  fun b hb => W34_of_ne m ρ c b fun w e => hb (Finset.mem_image.mpr ⟨w, Finset.mem_univ _, e⟩)

/-- After the last stretch hostOps2: the contents @main returns with. -/
def W35 : Dev nD → Valuation τ sig (Elt F) := fun c => StableHlo.after hostOps2 (W34 m ρ c)

/-! ## What each stretch leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W20_of (c : Dev nD) (r : Ref sig .tc) (h : r ∉ hostOps0_19_W) : W20 m ρ c (Proc.devRef .tc r) = W19 m ρ c (Proc.devRef .tc r) :=
  StableHlo.after_of_writes_sub hostOps0_19 _ hostOps0_19_writes h
theorem W21_of (c : Dev nD) (r : Ref sig .tc) (h : r ∉ hostOps0_20_W) : W21 m ρ c (Proc.devRef .tc r) = W20 m ρ c (Proc.devRef .tc r) :=
  StableHlo.after_of_writes_sub hostOps0_20 _ hostOps0_20_writes h
theorem W22_of (c : Dev nD) (r : Ref sig .tc) (h : r ∉ hostOps0_21_W) : W22 m ρ c (Proc.devRef .tc r) = W21 m ρ c (Proc.devRef .tc r) :=
  StableHlo.after_of_writes_sub hostOps0_21 _ hostOps0_21_writes h
theorem W23_of (c : Dev nD) (r : Ref sig .tc) (h : r ∉ hostOps0_22_W) : W23 m ρ c (Proc.devRef .tc r) = W22 m ρ c (Proc.devRef .tc r) :=
  StableHlo.after_of_writes_sub hostOps0_22 _ hostOps0_22_writes h
theorem W24_of (c : Dev nD) (r : Ref sig .tc) (h : r ∉ hostOps0_23_W) : W24 m ρ c (Proc.devRef .tc r) = W23 m ρ c (Proc.devRef .tc r) :=
  StableHlo.after_of_writes_sub hostOps0_23 _ hostOps0_23_writes h
theorem W25_of (c : Dev nD) (r : Ref sig .tc) (h : r ∉ hostOps0_24_W) : W25 m ρ c (Proc.devRef .tc r) = W24 m ρ c (Proc.devRef .tc r) :=
  StableHlo.after_of_writes_sub hostOps0_24 _ hostOps0_24_writes h
theorem W26_of (c : Dev nD) (r : Ref sig .tc) (h : r ∉ hostOps0_25_W) : W26 m ρ c (Proc.devRef .tc r) = W25 m ρ c (Proc.devRef .tc r) :=
  StableHlo.after_of_writes_sub hostOps0_25 _ hostOps0_25_writes h
theorem W27_of (c : Dev nD) (r : Ref sig .tc) (h : r ∉ hostOps0_26_W) : W27 m ρ c (Proc.devRef .tc r) = W26 m ρ c (Proc.devRef .tc r) :=
  StableHlo.after_of_writes_sub hostOps0_26 _ hostOps0_26_writes h
theorem W28_of (c : Dev nD) (r : Ref sig .tc) (h : r ∉ hostOps0_27_W) : W28 m ρ c (Proc.devRef .tc r) = W27 m ρ c (Proc.devRef .tc r) :=
  StableHlo.after_of_writes_sub hostOps0_27 _ hostOps0_27_writes h
theorem W29_of (c : Dev nD) (r : Ref sig .tc) (h : r ∉ hostOps0_28_W) : W29 m ρ c (Proc.devRef .tc r) = W28 m ρ c (Proc.devRef .tc r) :=
  StableHlo.after_of_writes_sub hostOps0_28 _ hostOps0_28_writes h
theorem W30_of (c : Dev nD) (r : Ref sig .tc) (h : r ∉ hostOps0_29_W) : W30 m ρ c (Proc.devRef .tc r) = W29 m ρ c (Proc.devRef .tc r) :=
  StableHlo.after_of_writes_sub hostOps0_29 _ hostOps0_29_writes h
theorem W31_of (c : Dev nD) (r : Ref sig .tc) (h : r ∉ hostOps0_30_W) : W31 m ρ c (Proc.devRef .tc r) = W30 m ρ c (Proc.devRef .tc r) :=
  StableHlo.after_of_writes_sub hostOps0_30 _ hostOps0_30_writes h
theorem W33_of (c : Dev nD) (r : Ref sig .tc) (h : r ∉ hostOps1_W) : W33 m ρ c (Proc.devRef .tc r) = W32 m ρ c (Proc.devRef .tc r) :=
  StableHlo.after_of_writes_sub hostOps1 _ hostOps1_writes h
theorem W35_of (c : Dev nD) (r : Ref sig .tc) (h : r ∉ hostOps2_W) : W35 m ρ c (Proc.devRef .tc r) = W34 m ρ c (Proc.devRef .tc r) :=
  StableHlo.after_of_writes_sub hostOps2 _ hostOps2_writes h

/-- A reference no stretch before region 0 writes holds its launch contents when region 0 is entered, -/
theorem kept_E0 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (h29 : r ∉ hostOps0_29_W)
    (h30 : r ∉ hostOps0_30_W) :
    W31 m ρ c (Proc.devRef .tc r) = m ((c : Thread nD τ).loc r) :=
    (W31_of m ρ c r h30).trans <|
    (W30_of m ρ c r h29).trans <|
    (W29_of m ρ c r h28).trans <|
    (W28_of m ρ c r h27).trans <|
    (W27_of m ρ c r h26).trans <|
    (W26_of m ρ c r h25).trans <|
    (W25_of m ρ c r h24).trans <|
    (W24_of m ρ c r h23).trans <|
    (W23_of m ρ c r h22).trans <|
    (W22_of m ρ c r h21).trans <|
    (W21_of m ρ c r h20).trans <|
    (W20_of m ρ c r h19).trans <|
    (W19_of m ρ c r h18).trans <|
    (W18_of m ρ c r h17).trans <|
    (W17_of m ρ c r h16).trans <|
    (W16_of m ρ c r h15).trans <|
    (W15_of m ρ c r h14).trans <|
    (W14_of m ρ c r h13).trans <|
    (W13_of m ρ c r h12).trans <|
    (W12_of m ρ c r h11).trans <|
    (W11_of m ρ c r h10).trans <|
    (W10_of m ρ c r h9).trans <|
    (W9_of m ρ c r h8).trans <|
    (W8_of m ρ c r h7).trans <|
    (W7_of m ρ c r h6).trans <|
    (W6_of m ρ c r h5).trans <|
    (W5_of m ρ c r h4).trans <|
    (W4_of m ρ c r h3).trans <|
    (W3_of m ρ c r h2).trans <|
    (W2_of m ρ c r h1).trans <|
    (W1_of m ρ c r h0).trans <|
    rfl
/-- when region 0 is left, if region 0 does not stage it, -/
theorem kept_X0 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (h29 : r ∉ hostOps0_29_W)
    (h30 : r ∉ hostOps0_30_W)
    (hs0 : ∀ w, Pipeline.arrRef spec0 w ≠ r) :
    W32 m ρ c (Proc.devRef .tc r) = m ((c : Thread nD τ).loc r) :=
  (W32_of_ne m ρ c r hs0).trans (kept_E0 m ρ c r h0 h1 h2 h3 h4 h5 h6 h7 h8 h9 h10 h11 h12 h13 h14 h15 h16 h17 h18 h19 h20 h21 h22 h23 h24 h25 h26 h27 h28 h29 h30)
/-- when region 1 is entered, if the stretch between the regions does not write it either, -/
theorem kept_E1 (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (h29 : r ∉ hostOps0_29_W)
    (h30 : r ∉ hostOps0_30_W)
    (hs0 : ∀ w, Pipeline.arrRef spec0 w ≠ r) (hm : r ∉ hostOps1_W) :
    W33 m ρ c (Proc.devRef .tc r) = m ((c : Thread nD τ).loc r) :=
  (W33_of m ρ c r hm).trans (kept_X0 m ρ c r h0 h1 h2 h3 h4 h5 h6 h7 h8 h9 h10 h11 h12 h13 h14 h15 h16 h17 h18 h19 h20 h21 h22 h23 h24 h25 h26 h27 h28 h29 h30 hs0)
/-- and to the end, if neither region 1 nor the last stretch touches it. -/
theorem kept (c : Dev nD) (r : Ref sig .tc)
    (h0 : r ∉ hostOps0_W)
    (h1 : r ∉ hostOps0_1_W)
    (h2 : r ∉ hostOps0_2_W)
    (h3 : r ∉ hostOps0_3_W)
    (h4 : r ∉ hostOps0_4_W)
    (h5 : r ∉ hostOps0_5_W)
    (h6 : r ∉ hostOps0_6_W)
    (h7 : r ∉ hostOps0_7_W)
    (h8 : r ∉ hostOps0_8_W)
    (h9 : r ∉ hostOps0_9_W)
    (h10 : r ∉ hostOps0_10_W)
    (h11 : r ∉ hostOps0_11_W)
    (h12 : r ∉ hostOps0_12_W)
    (h13 : r ∉ hostOps0_13_W)
    (h14 : r ∉ hostOps0_14_W)
    (h15 : r ∉ hostOps0_15_W)
    (h16 : r ∉ hostOps0_16_W)
    (h17 : r ∉ hostOps0_17_W)
    (h18 : r ∉ hostOps0_18_W)
    (h19 : r ∉ hostOps0_19_W)
    (h20 : r ∉ hostOps0_20_W)
    (h21 : r ∉ hostOps0_21_W)
    (h22 : r ∉ hostOps0_22_W)
    (h23 : r ∉ hostOps0_23_W)
    (h24 : r ∉ hostOps0_24_W)
    (h25 : r ∉ hostOps0_25_W)
    (h26 : r ∉ hostOps0_26_W)
    (h27 : r ∉ hostOps0_27_W)
    (h28 : r ∉ hostOps0_28_W)
    (h29 : r ∉ hostOps0_29_W)
    (h30 : r ∉ hostOps0_30_W)
    (hm : r ∉ hostOps1_W) (ht : r ∉ hostOps2_W) (hs0 : ∀ w, Pipeline.arrRef spec0 w ≠ r) (hs1 : ∀ w, Pipeline.arrRef spec1 w ≠ r) :
    W35 m ρ c (Proc.devRef .tc r) = m ((c : Thread nD τ).loc r) :=
  (W35_of m ρ c r ht).trans <| (W34_of_ne m ρ c r hs1).trans <|
    kept_E1 m ρ c r h0 h1 h2 h3 h4 h5 h6 h7 h8 h9 h10 h11 h12 h13 h14 h15 h16 h17 h18 h19 h20 h21 h22 h23 h24 h25 h26 h27 h28 h29 h30 hs0 hm

/-! ## The arguments end as launched -/

theorem end_main_arg0 (c : Dev nD) : W35 m ρ c (Proc.devRef .tc main_arg0) = m ((c : Thread nD τ).loc main_arg0) :=
  kept m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg1 (c : Dev nD) : W35 m ρ c (Proc.devRef .tc main_arg1) = m ((c : Thread nD τ).loc main_arg1) :=
  kept m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg2 (c : Dev nD) : W35 m ρ c (Proc.devRef .tc main_arg2) = m ((c : Thread nD τ).loc main_arg2) :=
  kept m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg3 (c : Dev nD) : W35 m ρ c (Proc.devRef .tc main_arg3) = m ((c : Thread nD τ).loc main_arg3) :=
  kept m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg4 (c : Dev nD) : W35 m ρ c (Proc.devRef .tc main_arg4) = m ((c : Thread nD τ).loc main_arg4) :=
  kept m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg5 (c : Dev nD) : W35 m ρ c (Proc.devRef .tc main_arg5) = m ((c : Thread nD τ).loc main_arg5) :=
  kept m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg6 (c : Dev nD) : W35 m ρ c (Proc.devRef .tc main_arg6) = m ((c : Thread nD τ).loc main_arg6) :=
  kept m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg7 (c : Dev nD) : W35 m ρ c (Proc.devRef .tc main_arg7) = m ((c : Thread nD τ).loc main_arg7) :=
  kept m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem end_main_arg8 (c : Dev nD) : W35 m ρ c (Proc.devRef .tc main_arg8) = m ((c : Thread nD τ).loc main_arg8) :=
  kept m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

end Cert.ReferenceIdeal.Fold

end
-- ==== Proof.RefRun.lean ====
/- The segments and the launch, laid out from a hand-written template over the program's list of stretches. -/
/-
  The program's entry function run as a list of segments: one per stretch of host operations, from the contents
  of the boundary before it, and one per Pallas region, whose record takes the pipeline's layout from the generated
  launch facts and the body obligation from the region's module, enters from "every unscoped buffer at the entry
  contents" and leaves at "every unscoped buffer at the exit contents".  The launch theorem for a list of segments then
  gives: every weakly fair execution terminates without a fault, and the final memory holds every unscoped buffer at
  the last boundary's contents.
-/
import proofs.«142292_g2000406351686535_pallasbulk_564_2_alg».proof.Proof.RefFold

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Body Cert.ReferenceIdeal.Writes Cert.ReferenceIdeal.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V31 m ρ) c
  | ⟨1, _⟩ => fun c => dat1 (V33 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the boundary contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W35 m ρ c) ∗ ∃ r, prngReg c r)

set_option backward.isDefEq.respectTransparency.types false in
/-- Region 0 over the thread state: entered with every unscoped buffer at the contents of boundary 31, left at
    those of boundary 32.  Its arrays are split out of the unscoped buffers and put back at the exit contents; the
    generator register goes into the pipeline's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V31 m ρ) c).loose
  hwaits := Pipeline.hwaits_of_owed_zero _ _ _ _ L lv 0 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec0 c (V31 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V31 m ρ c) (V32 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of boundary 33, left at
    those of boundary 34.  Its arrays are split out of the unscoped buffers and put back at the exit contents; the
    generator register goes into the pipeline's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V33 m ρ) c).loose
  hwaits := Pipeline.hwaits_of_owed_zero _ _ _ _ L lv 1 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec1 c (V33 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V33 m ρ c) (V34 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The entry function's 35 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .host (hseg hostOps0_25 hostOps0_25_sub hostOps0_25_fresh (W25 m ρ)),
    .host (hseg hostOps0_26 hostOps0_26_sub hostOps0_26_fresh (W26 m ρ)),
    .host (hseg hostOps0_27 hostOps0_27_sub hostOps0_27_fresh (W27 m ρ)),
    .host (hseg hostOps0_28 hostOps0_28_sub hostOps0_28_fresh (W28 m ρ)),
    .host (hseg hostOps0_29 hostOps0_29_sub hostOps0_29_fresh (W29 m ρ)),
    .host (hseg hostOps0_30 hostOps0_30_sub hostOps0_30_fresh (W30 m ρ)),
    .region (reg0 m ρ),
    .host (hseg hostOps1 hostOps1_sub hostOps1_fresh (W32 m ρ)),
    .region (reg1 m ρ),
    .host (hseg hostOps2 hostOps2_sub hostOps2_fresh (W34 m ρ)) ]

set_option maxHeartbeats 4000000 in
/-- The entry function is the run of the segments. -/
theorem main_run (c : Dev nD) : main (F := F) c = Pipeline.Seg.run (segs m ρ) := by
  rw [main_chain c, Pipeline.Seg.run_eq_chain,
    show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          StableHlo.seq hostOps0_29,
          StableHlo.seq hostOps0_30,
          Prog.lift (.customCall (Pipeline.entry 0) ()),
          StableHlo.seq hostOps1,
          Prog.lift (.customCall (Pipeline.entry 1) ()),
          StableHlo.seq hostOps2 ] from rfl]

set_option backward.isDefEq.respectTransparency.types false in
set_option maxHeartbeats 4000000 in
/-- THE RUN: from any memory with zero counters every weakly fair execution of the entry function terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W35 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h c => h c)

end Cert.ReferenceIdeal.Run

end
-- ==== Proof.KerVal0.lean ====
/-
  Region 0 of the kernel program, from blocks to arrays.  The region's three output arrays (the activation,
  256 x 128 x 384, and the sum and the sum of squares along the feature axis, 256 x 128 x 1 each) are written
  block by block: point t of the 32 writes batches 8t … 8t + 7 of each, and what it writes is the body's output
  on batches 8t … 8t + 7 of the input array and on the six other input arrays whole.  So each output array
  after the region is one function of the seven input arrays as the region finds them: at batch n, the body's
  output block computed from the eight batches that hold n, read at n's place among them.  This module defines
  those three functions over the body's output blocks (kept folded), proves that every input window's block at
  a point is the stated part of its array, that a point's write-back is its block of the function, that the
  blocks cover the array, and so that the array after the last point is the function.
-/
import proofs.«142292_g2000406351686535_pallasbulk_564_2_alg».proof.Proof.KerBody0
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Body

/- The body's output blocks stay folded throughout: nothing below depends on what they compute. -/
attribute [local irreducible] out0_7 out0_8 out0_9

variable {F : FTy → Type} [FloatOps F]

variable (V : (c : Dev nD) → (b : Ref sig .tc) → Buf (Elt F) ((c : Thread nD τ).loc b))

/-! ## The index maps over the grid -/

/-- The grid has 32 points. -/
theorem pt_lt (t : Fin cfg0.N) : t.val < 32 := by
  have h := t.isLt
  have e : cfg0.N = 32 := N_0
  omega

/-- The input's block index at point t is (t, 0, 0); -/
theorem index0_0 : ∀ t : Fin cfg0.N, win0_0.index t (0 : Fin 3) = t.val ∧ win0_0.index t (1 : Fin 3) = 0 ∧ win0_0.index t (2 : Fin 3) = 0 :=
  (by decide +kernel : ∀ t : Fin grid0.N, _)
/-- each of the six whole-array windows sits at block (0, 0) at every point; -/
theorem index0_1 : ∀ t : Fin cfg0.N, win0_1.index t (0 : Fin 2) = 0 ∧ win0_1.index t (1 : Fin 2) = 0 :=
  (by decide +kernel : ∀ t : Fin grid0.N, _)
theorem index0_2 : ∀ t : Fin cfg0.N, win0_2.index t (0 : Fin 2) = 0 ∧ win0_2.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 2) = 0 ∧ win0_6.index t (1 : Fin 2) = 0 :=
  (by decide +kernel : ∀ t : Fin grid0.N, _)
/-- and each output's block index at point t is (t, 0, 0). -/
theorem index0_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem index0_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem index0_9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## The arrays the region leaves, as functions of the arrays it finds -/

/-- Batches 8q … 8q + 7 of an array of 256 batches. -/
def batches (x : Vec F S256x128x256 .f32) (q : Fin 32) : Vec F S8x128x256 .f32 :=
  fun y => x (ix3 (⟨q.val * 8 + (y 0).val, by have h : (y 0).val < 8 := (y 0).isLt; have := q.isLt; omega⟩ : Fin 256) (y 1) (y 2))

/-- The block of eight batches that holds batch n, -/
abbrev blockOf (n : Fin 256) : Fin 32 := ⟨n.val / 8, by have := n.isLt; omega⟩
/-- and batch n's place in it. -/
abbrev placeIn (n : Fin 256) : Fin 8 := ⟨n.val % 8, Nat.mod_lt _ (by decide)⟩

/-- The activation array after the region: at batch n, the body's activation block computed from the eight
    batches of the input that hold n (and the six whole arrays), read at n's place in the block. -/
def actArr (x : Vec F S256x128x256 .f32) (a : Vec F S128x128 .bf16) (w1 : Vec F S256x1536 .bf16) (b1 : Vec F S1x1536 .f32) (th : Vec F S512x224 .bf16) (w2 : Vec F S224x1152 .bf16) (b2 : Vec F S1x1152 .f32) : Vec F S256x128x384 .bf16 :=
  fun i => out0_7 (batches x (blockOf (i 0))) a w1 b1 th w2 b2 (ix3 (placeIn (i 0)) (i 1) (i 2))
/-- The array of sums along the feature axis after the region, likewise. -/
def sumArr (x : Vec F S256x128x256 .f32) (a : Vec F S128x128 .bf16) (w1 : Vec F S256x1536 .bf16) (b1 : Vec F S1x1536 .f32) (th : Vec F S512x224 .bf16) (w2 : Vec F S224x1152 .bf16) (b2 : Vec F S1x1152 .f32) : Vec F S256x128x1 .f32 :=
  fun i => out0_8 (batches x (blockOf (i 0))) a w1 b1 th w2 b2 (ix3 (placeIn (i 0)) (i 1) (i 2))
/-- The array of sums of squares along the feature axis after the region, likewise. -/
def sqArr (x : Vec F S256x128x256 .f32) (a : Vec F S128x128 .bf16) (w1 : Vec F S256x1536 .bf16) (b1 : Vec F S1x1536 .f32) (th : Vec F S512x224 .bf16) (w2 : Vec F S224x1152 .bf16) (b2 : Vec F S1x1152 .f32) : Vec F S256x128x1 .f32 :=
  fun i => out0_9 (batches x (blockOf (i 0))) a w1 b1 th w2 b2 (ix3 (placeIn (i 0)) (i 1) (i 2))

/-- At an index of block q the array function is the body's output on the blocks, whenever the first block is
    batches 8q … 8q + 7 of x and the six others are the whole arrays. -/
theorem actArr_at (x : Vec F S256x128x256 .f32) (a : Vec F S128x128 .bf16) (w1 : Vec F S256x1536 .bf16) (b1 : Vec F S1x1536 .f32) (th : Vec F S512x224 .bf16) (w2 : Vec F S224x1152 .bf16) (b2 : Vec F S1x1152 .f32) (X0 : Vec F S8x128x256 .f32) (X1 : Vec F S128x128 .bf16) (X2 : Vec F S256x1536 .bf16) (X3 : Vec F S1x1536 .f32) (X4 : Vec F S512x224 .bf16) (X5 : Vec F S224x1152 .bf16) (X6 : Vec F S1x1152 .f32) (q : Fin 32)
    (hX0 : X0 = batches x q) (hX1 : X1 = a) (hX2 : X2 = w1) (hX3 : X3 = b1) (hX4 : X4 = th) (hX5 : X5 = w2) (hX6 : X6 = b2)
    (y : S8x128x384.Idx) (i : S256x128x384.Idx)
    (h0 : (i 0).val = q.val * 8 + (y 0).val) (h1 : (i 1).val = (y 1).val) (h2 : (i 2).val = (y 2).val) :
    actArr x a w1 b1 th w2 b2 i = out0_7 X0 X1 X2 X3 X4 X5 X6 y := by
  subst hX0 hX1 hX2 hX3 hX4 hX5 hX6
  have hy0 : (y 0).val < 8 := (y 0).isLt
  have hq : blockOf (i 0) = q := Fin.ext (by show (i 0).val / 8 = q.val; omega)
  have hy : (ix3 (placeIn (i 0)) (i 1) (i 2) : S8x128x384.Idx) = y := by
    funext a; apply Fin.ext
    match a with
    | ⟨0, _⟩ => show (i 0).val % 8 = (y 0).val; omega
    | ⟨1, _⟩ => exact h1
    | ⟨2, _⟩ => exact h2
  unfold actArr
  rw [hq, hy]
/-- At an index of block q the array function is the body's output on the blocks, whenever the first block is
    batches 8q … 8q + 7 of x and the six others are the whole arrays. -/
theorem sumArr_at (x : Vec F S256x128x256 .f32) (a : Vec F S128x128 .bf16) (w1 : Vec F S256x1536 .bf16) (b1 : Vec F S1x1536 .f32) (th : Vec F S512x224 .bf16) (w2 : Vec F S224x1152 .bf16) (b2 : Vec F S1x1152 .f32) (X0 : Vec F S8x128x256 .f32) (X1 : Vec F S128x128 .bf16) (X2 : Vec F S256x1536 .bf16) (X3 : Vec F S1x1536 .f32) (X4 : Vec F S512x224 .bf16) (X5 : Vec F S224x1152 .bf16) (X6 : Vec F S1x1152 .f32) (q : Fin 32)
    (hX0 : X0 = batches x q) (hX1 : X1 = a) (hX2 : X2 = w1) (hX3 : X3 = b1) (hX4 : X4 = th) (hX5 : X5 = w2) (hX6 : X6 = b2)
    (y : S8x128x1.Idx) (i : S256x128x1.Idx)
    (h0 : (i 0).val = q.val * 8 + (y 0).val) (h1 : (i 1).val = (y 1).val) (h2 : (i 2).val = (y 2).val) :
    sumArr x a w1 b1 th w2 b2 i = out0_8 X0 X1 X2 X3 X4 X5 X6 y := by
  subst hX0 hX1 hX2 hX3 hX4 hX5 hX6
  have hy0 : (y 0).val < 8 := (y 0).isLt
  have hq : blockOf (i 0) = q := Fin.ext (by show (i 0).val / 8 = q.val; omega)
  have hy : (ix3 (placeIn (i 0)) (i 1) (i 2) : S8x128x1.Idx) = y := by
    funext a; apply Fin.ext
    match a with
    | ⟨0, _⟩ => show (i 0).val % 8 = (y 0).val; omega
    | ⟨1, _⟩ => exact h1
    | ⟨2, _⟩ => exact h2
  unfold sumArr
  rw [hq, hy]
/-- At an index of block q the array function is the body's output on the blocks, whenever the first block is
    batches 8q … 8q + 7 of x and the six others are the whole arrays. -/
theorem sqArr_at (x : Vec F S256x128x256 .f32) (a : Vec F S128x128 .bf16) (w1 : Vec F S256x1536 .bf16) (b1 : Vec F S1x1536 .f32) (th : Vec F S512x224 .bf16) (w2 : Vec F S224x1152 .bf16) (b2 : Vec F S1x1152 .f32) (X0 : Vec F S8x128x256 .f32) (X1 : Vec F S128x128 .bf16) (X2 : Vec F S256x1536 .bf16) (X3 : Vec F S1x1536 .f32) (X4 : Vec F S512x224 .bf16) (X5 : Vec F S224x1152 .bf16) (X6 : Vec F S1x1152 .f32) (q : Fin 32)
    (hX0 : X0 = batches x q) (hX1 : X1 = a) (hX2 : X2 = w1) (hX3 : X3 = b1) (hX4 : X4 = th) (hX5 : X5 = w2) (hX6 : X6 = b2)
    (y : S8x128x1.Idx) (i : S256x128x1.Idx)
    (h0 : (i 0).val = q.val * 8 + (y 0).val) (h1 : (i 1).val = (y 1).val) (h2 : (i 2).val = (y 2).val) :
    sqArr x a w1 b1 th w2 b2 i = out0_9 X0 X1 X2 X3 X4 X5 X6 y := by
  subst hX0 hX1 hX2 hX3 hX4 hX5 hX6
  have hy0 : (y 0).val < 8 := (y 0).isLt
  have hq : blockOf (i 0) = q := Fin.ext (by show (i 0).val / 8 = q.val; omega)
  have hy : (ix3 (placeIn (i 0)) (i 1) (i 2) : S8x128x1.Idx) = y := by
    funext a; apply Fin.ext
    match a with
    | ⟨0, _⟩ => show (i 0).val % 8 = (y 0).val; omega
    | ⟨1, _⟩ => exact h1
    | ⟨2, _⟩ => exact h2
  unfold sqArr
  rw [hq, hy]

/-! ## The input blocks at a point -/

/-- The input window's block at point t is batches 8t … 8t + 7 of its array. -/
theorem iblk0_0_eq (c : Dev nD) (t : Fin cfg0.N) :
    (iblk0 V c 0 t : Vec F S8x128x256 .f32) = batches (V c (Pipeline.arrRef spec0 0)) ⟨t.val, pt_lt t⟩ := by
  obtain ⟨e0, e1, e2⟩ := index0_0 t
  funext y
  unfold iblk0 batches
  show V c (Pipeline.arrRef spec0 0) (((cfg0.win 0).blk t).view.emb y) = V c (Pipeline.arrRef spec0 0) _
  congr 1
  funext a; apply Fin.ext
  match a with
  | ⟨0, _⟩ => show win0_0.index t (0 : Fin 3) * 8 + 1 * (y 0).val = t.val * 8 + (y 0).val; rw [e0]; omega
  | ⟨1, _⟩ => show win0_0.index t (1 : Fin 3) * 128 + 1 * (y 1).val = (y 1).val; rw [e1]; omega
  | ⟨2, _⟩ => show win0_0.index t (2 : Fin 3) * 256 + 1 * (y 2).val = (y 2).val; rw [e2]; omega
/-- Each of the six other input windows' block, at every point, is its whole array. -/
theorem iblk0_1_eq (c : Dev nD) (t : Fin cfg0.N) :
    (iblk0 V c 1 t : Vec F S128x128 .bf16) = V c (Pipeline.arrRef spec0 1) := by
  obtain ⟨e0, e1⟩ := index0_1 t
  funext y
  unfold iblk0
  show V c (Pipeline.arrRef spec0 1) (((cfg0.win 1).blk t).view.emb y) = V c (Pipeline.arrRef spec0 1) y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega
theorem iblk0_2_eq (c : Dev nD) (t : Fin cfg0.N) :
    (iblk0 V c 2 t : Vec F S256x1536 .bf16) = V c (Pipeline.arrRef spec0 2) := by
  obtain ⟨e0, e1⟩ := index0_2 t
  funext y
  unfold iblk0
  show V c (Pipeline.arrRef spec0 2) (((cfg0.win 2).blk t).view.emb y) = V c (Pipeline.arrRef spec0 2) y
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 1536 + 1 * (y 1).val = (y 1).val; rw [e1]; omega
theorem iblk0_3_eq (c : Dev nD) (t : Fin cfg0.N) :
    (iblk0 V c 3 t : Vec F S1x1536 .f32) = V c (Pipeline.arrRef spec0 3) := by
  obtain ⟨e0, e1⟩ := index0_3 t
  funext y
  unfold iblk0
  show V c (Pipeline.arrRef spec0 3) (((cfg0.win 3).blk t).view.emb y) = V c (Pipeline.arrRef spec0 3) y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 1536 + 1 * (y 1).val = (y 1).val; rw [e1]; omega
theorem iblk0_4_eq (c : Dev nD) (t : Fin cfg0.N) :
    (iblk0 V c 4 t : Vec F S512x224 .bf16) = V c (Pipeline.arrRef spec0 4) := by
  obtain ⟨e0, e1⟩ := index0_4 t
  funext y
  unfold iblk0
  show V c (Pipeline.arrRef spec0 4) (((cfg0.win 4).blk t).view.emb y) = V c (Pipeline.arrRef spec0 4) y
  congr 1
  funext a; apply Fin.ext
  match a with
  | ⟨0, _⟩ => show win0_4.index t (0 : Fin 2) * 512 + 1 * (y 0).val = (y 0).val; rw [e0]; omega
  | ⟨1, _⟩ => show win0_4.index t (1 : Fin 2) * 224 + 1 * (y 1).val = (y 1).val; rw [e1]; omega
theorem iblk0_5_eq (c : Dev nD) (t : Fin cfg0.N) :
    (iblk0 V c 5 t : Vec F S224x1152 .bf16) = V c (Pipeline.arrRef spec0 5) := by
  obtain ⟨e0, e1⟩ := index0_5 t
  funext y
  unfold iblk0
  show V c (Pipeline.arrRef spec0 5) (((cfg0.win 5).blk t).view.emb y) = V c (Pipeline.arrRef spec0 5) y
  congr 1
  funext a; apply Fin.ext
  match a with
  | ⟨0, _⟩ => show win0_5.index t (0 : Fin 2) * 224 + 1 * (y 0).val = (y 0).val; rw [e0]; omega
  | ⟨1, _⟩ => show win0_5.index t (1 : Fin 2) * 1152 + 1 * (y 1).val = (y 1).val; rw [e1]; omega
theorem iblk0_6_eq (c : Dev nD) (t : Fin cfg0.N) :
    (iblk0 V c 6 t : Vec F S1x1152 .f32) = V c (Pipeline.arrRef spec0 6) := by
  obtain ⟨e0, e1⟩ := index0_6 t
  funext y
  unfold iblk0
  show V c (Pipeline.arrRef spec0 6) (((cfg0.win 6).blk t).view.emb y) = V c (Pipeline.arrRef spec0 6) y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 1152 + 1 * (y 1).val = (y 1).val; rw [e1]; omega

/-! ## What a point writes back, and the arrays after the last point -/

/-- Contents X of output window 7's block are point t's block of an array G as soon as X agrees with G entry by
    entry: entry y of the block is entry (8t + y 0, y 1, y 2) of the array. -/
theorem blk7_read (t : Fin cfg0.N) (X : Vec F S8x128x384 .bf16) (G : Vec F S256x128x384 .bf16)
    (h : ∀ (y : S8x128x384.Idx) (i : S256x128x384.Idx), (i 0).val = t.val * 8 + (y 0).val → (i 1).val = (y 1).val → (i 2).val = (y 2).val → X y = G i) :
    (cfg0.win 7).cut (grid0.coords t) X = ((cfg0.win 7).blk t).view.read (Elt F) G := by
  obtain ⟨e0, e1, e2⟩ := index0_7 t
  funext y
  show X y = G (((cfg0.win 7).blk t).view.emb y)
  refine h y _ ?_ ?_ ?_
  · show win0_7.index t (0 : Fin 3) * 8 + 1 * (y 0).val = t.val * 8 + (y 0).val; rw [e0]; omega
  · show win0_7.index t (1 : Fin 3) * 128 + 1 * (y 1).val = (y 1).val; rw [e1]; omega
  · show win0_7.index t (2 : Fin 3) * 384 + 1 * (y 2).val = (y 2).val; rw [e2]; omega

/-- What point t writes back into output array 7 is block t of actArr of the arrays the region finds. -/
theorem flushed7_eq (c : Dev nD) (t : Fin cfg0.N) :
    (dat0 V c).flushed 7 t = ((cfg0.win 7).blk t).view.read (Elt F) (actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((dat0 V c).after 7 t) = _
  rw [after0_7]
  refine blk7_read t (out0_7 (iblk0 V c 0 t) (iblk0 V c 1 t) (iblk0 V c 2 t) (iblk0 V c 3 t) (iblk0 V c 4 t) (iblk0 V c 5 t) (iblk0 V c 6 t)) (actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun y i h0 h1 h2 => ?_)
  exact (actArr_at (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (iblk0 V c 0 t) (iblk0 V c 1 t) (iblk0 V c 2 t) (iblk0 V c 3 t) (iblk0 V c 4 t) (iblk0 V c 5 t) (iblk0 V c 6 t) ⟨t.val, pt_lt t⟩
    (iblk0_0_eq V c t) (iblk0_1_eq V c t) (iblk0_2_eq V c t) (iblk0_3_eq V c t) (iblk0_4_eq V c t) (iblk0_5_eq V c t) (iblk0_6_eq V c t) y i h0 h1 h2).symm

/-- An index of output array 7 is in point t's block iff each coordinate is in the block's range on its axis. -/
theorem mem_blk7 (t : Fin cfg0.N) (i : S256x128x384.Idx) :
    i ∈ ((cfg0.win 7).blk t).view.set ↔ ∀ a : Fin 3, win0_7.index t a * S8x128x384.size a ≤ (i a).val ∧ (i a).val < win0_7.index t a * S8x128x384.size a + S8x128x384.size a := by
  show i ∈ ((View.whole main_v451_0).slice (win0_7.rect t)).set ↔ _
  rw [View.set_slice_whole, Rect.mem_set_unit]
  exact Iff.rfl

/-- Every index of output array 7 is in the block of the point that holds its batch. -/
theorem cover7 (i : S256x128x384.Idx) : ∃ t : Fin cfg0.N, (cfg0.win 7).flush t = true ∧ i ∈ ((cfg0.win 7).blk t).view.set := by
  have hi0 : (i 0).val < 256 := (i 0).isLt
  have hi1 : (i 1).val < 128 := (i 1).isLt
  have hi2 : (i 2).val < 384 := (i 2).isLt
  have hN : cfg0.N = 32 := N_0
  refine ⟨⟨(i 0).val / 8, by omega⟩, flush0_7 _, ?_⟩
  obtain ⟨e0, e1, e2⟩ := index0_7 ⟨(i 0).val / 8, by omega⟩
  rw [mem_blk7]
  intro a
  match a with
  | ⟨0, _⟩ => show win0_7.index _ (0 : Fin 3) * 8 ≤ (i 0).val ∧ (i 0).val < win0_7.index _ (0 : Fin 3) * 8 + 8; rw [e0]; show (i 0).val / 8 * 8 ≤ (i 0).val ∧ (i 0).val < (i 0).val / 8 * 8 + 8; omega
  | ⟨1, _⟩ => show win0_7.index _ (1 : Fin 3) * 128 ≤ (i 1).val ∧ (i 1).val < win0_7.index _ (1 : Fin 3) * 128 + 128; rw [e1]; omega
  | ⟨2, _⟩ => show win0_7.index _ (2 : Fin 3) * 384 ≤ (i 2).val ∧ (i 2).val < win0_7.index _ (2 : Fin 3) * 384 + 384; rw [e2]; omega

/-- The activation array after the region is actArr of the arrays the region finds. -/
theorem exit_act (c : Dev nD) : (dat0 V c).arrAt 7 cfg0.N = actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 7 (actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed7_eq V c t) cover7

/-- Contents X of output window 8's block are point t's block of an array G as soon as X agrees with G entry by
    entry: entry y of the block is entry (8t + y 0, y 1, y 2) of the array. -/
theorem blk8_read (t : Fin cfg0.N) (X : Vec F S8x128x1 .f32) (G : Vec F S256x128x1 .f32)
    (h : ∀ (y : S8x128x1.Idx) (i : S256x128x1.Idx), (i 0).val = t.val * 8 + (y 0).val → (i 1).val = (y 1).val → (i 2).val = (y 2).val → X y = G i) :
    (cfg0.win 8).cut (grid0.coords t) X = ((cfg0.win 8).blk t).view.read (Elt F) G := by
  obtain ⟨e0, e1, e2⟩ := index0_8 t
  funext y
  show X y = G (((cfg0.win 8).blk t).view.emb y)
  refine h y _ ?_ ?_ ?_
  · show win0_8.index t (0 : Fin 3) * 8 + 1 * (y 0).val = t.val * 8 + (y 0).val; rw [e0]; omega
  · show win0_8.index t (1 : Fin 3) * 128 + 1 * (y 1).val = (y 1).val; rw [e1]; omega
  · show win0_8.index t (2 : Fin 3) * 1 + 1 * (y 2).val = (y 2).val; rw [e2]; omega

/-- What point t writes back into output array 8 is block t of sumArr of the arrays the region finds. -/
theorem flushed8_eq (c : Dev nD) (t : Fin cfg0.N) :
    (dat0 V c).flushed 8 t = ((cfg0.win 8).blk t).view.read (Elt F) (sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 8).cut (grid0.coords t) ((dat0 V c).after 8 t) = _
  rw [after0_8]
  refine blk8_read t (out0_8 (iblk0 V c 0 t) (iblk0 V c 1 t) (iblk0 V c 2 t) (iblk0 V c 3 t) (iblk0 V c 4 t) (iblk0 V c 5 t) (iblk0 V c 6 t)) (sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun y i h0 h1 h2 => ?_)
  exact (sumArr_at (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (iblk0 V c 0 t) (iblk0 V c 1 t) (iblk0 V c 2 t) (iblk0 V c 3 t) (iblk0 V c 4 t) (iblk0 V c 5 t) (iblk0 V c 6 t) ⟨t.val, pt_lt t⟩
    (iblk0_0_eq V c t) (iblk0_1_eq V c t) (iblk0_2_eq V c t) (iblk0_3_eq V c t) (iblk0_4_eq V c t) (iblk0_5_eq V c t) (iblk0_6_eq V c t) y i h0 h1 h2).symm

/-- An index of output array 8 is in point t's block iff each coordinate is in the block's range on its axis. -/
theorem mem_blk8 (t : Fin cfg0.N) (i : S256x128x1.Idx) :
    i ∈ ((cfg0.win 8).blk t).view.set ↔ ∀ a : Fin 3, win0_8.index t a * S8x128x1.size a ≤ (i a).val ∧ (i a).val < win0_8.index t a * S8x128x1.size a + S8x128x1.size a := by
  show i ∈ ((View.whole main_v451_1).slice (win0_8.rect t)).set ↔ _
  rw [View.set_slice_whole, Rect.mem_set_unit]
  exact Iff.rfl

/-- Every index of output array 8 is in the block of the point that holds its batch. -/
theorem cover8 (i : S256x128x1.Idx) : ∃ t : Fin cfg0.N, (cfg0.win 8).flush t = true ∧ i ∈ ((cfg0.win 8).blk t).view.set := by
  have hi0 : (i 0).val < 256 := (i 0).isLt
  have hi1 : (i 1).val < 128 := (i 1).isLt
  have hi2 : (i 2).val < 1 := (i 2).isLt
  have hN : cfg0.N = 32 := N_0
  refine ⟨⟨(i 0).val / 8, by omega⟩, flush0_8 _, ?_⟩
  obtain ⟨e0, e1, e2⟩ := index0_8 ⟨(i 0).val / 8, by omega⟩
  rw [mem_blk8]
  intro a
  match a with
  | ⟨0, _⟩ => show win0_8.index _ (0 : Fin 3) * 8 ≤ (i 0).val ∧ (i 0).val < win0_8.index _ (0 : Fin 3) * 8 + 8; rw [e0]; show (i 0).val / 8 * 8 ≤ (i 0).val ∧ (i 0).val < (i 0).val / 8 * 8 + 8; omega
  | ⟨1, _⟩ => show win0_8.index _ (1 : Fin 3) * 128 ≤ (i 1).val ∧ (i 1).val < win0_8.index _ (1 : Fin 3) * 128 + 128; rw [e1]; omega
  | ⟨2, _⟩ => show win0_8.index _ (2 : Fin 3) * 1 ≤ (i 2).val ∧ (i 2).val < win0_8.index _ (2 : Fin 3) * 1 + 1; rw [e2]; omega

/-- The array of sums along the feature axis after the region is sumArr of the arrays the region finds. -/
theorem exit_sum (c : Dev nD) : (dat0 V c).arrAt 8 cfg0.N = sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 8 (sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed8_eq V c t) cover8

/-- Contents X of output window 9's block are point t's block of an array G as soon as X agrees with G entry by
    entry: entry y of the block is entry (8t + y 0, y 1, y 2) of the array. -/
theorem blk9_read (t : Fin cfg0.N) (X : Vec F S8x128x1 .f32) (G : Vec F S256x128x1 .f32)
    (h : ∀ (y : S8x128x1.Idx) (i : S256x128x1.Idx), (i 0).val = t.val * 8 + (y 0).val → (i 1).val = (y 1).val → (i 2).val = (y 2).val → X y = G i) :
    (cfg0.win 9).cut (grid0.coords t) X = ((cfg0.win 9).blk t).view.read (Elt F) G := by
  obtain ⟨e0, e1, e2⟩ := index0_9 t
  funext y
  show X y = G (((cfg0.win 9).blk t).view.emb y)
  refine h y _ ?_ ?_ ?_
  · show win0_9.index t (0 : Fin 3) * 8 + 1 * (y 0).val = t.val * 8 + (y 0).val; rw [e0]; omega
  · show win0_9.index t (1 : Fin 3) * 128 + 1 * (y 1).val = (y 1).val; rw [e1]; omega
  · show win0_9.index t (2 : Fin 3) * 1 + 1 * (y 2).val = (y 2).val; rw [e2]; omega

/-- What point t writes back into output array 9 is block t of sqArr of the arrays the region finds. -/
theorem flushed9_eq (c : Dev nD) (t : Fin cfg0.N) :
    (dat0 V c).flushed 9 t = ((cfg0.win 9).blk t).view.read (Elt F) (sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 9).cut (grid0.coords t) ((dat0 V c).after 9 t) = _
  rw [after0_9]
  refine blk9_read t (out0_9 (iblk0 V c 0 t) (iblk0 V c 1 t) (iblk0 V c 2 t) (iblk0 V c 3 t) (iblk0 V c 4 t) (iblk0 V c 5 t) (iblk0 V c 6 t)) (sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun y i h0 h1 h2 => ?_)
  exact (sqArr_at (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (iblk0 V c 0 t) (iblk0 V c 1 t) (iblk0 V c 2 t) (iblk0 V c 3 t) (iblk0 V c 4 t) (iblk0 V c 5 t) (iblk0 V c 6 t) ⟨t.val, pt_lt t⟩
    (iblk0_0_eq V c t) (iblk0_1_eq V c t) (iblk0_2_eq V c t) (iblk0_3_eq V c t) (iblk0_4_eq V c t) (iblk0_5_eq V c t) (iblk0_6_eq V c t) y i h0 h1 h2).symm

/-- An index of output array 9 is in point t's block iff each coordinate is in the block's range on its axis. -/
theorem mem_blk9 (t : Fin cfg0.N) (i : S256x128x1.Idx) :
    i ∈ ((cfg0.win 9).blk t).view.set ↔ ∀ a : Fin 3, win0_9.index t a * S8x128x1.size a ≤ (i a).val ∧ (i a).val < win0_9.index t a * S8x128x1.size a + S8x128x1.size a := by
  show i ∈ ((View.whole main_v451_2).slice (win0_9.rect t)).set ↔ _
  rw [View.set_slice_whole, Rect.mem_set_unit]
  exact Iff.rfl

/-- Every index of output array 9 is in the block of the point that holds its batch. -/
theorem cover9 (i : S256x128x1.Idx) : ∃ t : Fin cfg0.N, (cfg0.win 9).flush t = true ∧ i ∈ ((cfg0.win 9).blk t).view.set := by
  have hi0 : (i 0).val < 256 := (i 0).isLt
  have hi1 : (i 1).val < 128 := (i 1).isLt
  have hi2 : (i 2).val < 1 := (i 2).isLt
  have hN : cfg0.N = 32 := N_0
  refine ⟨⟨(i 0).val / 8, by omega⟩, flush0_9 _, ?_⟩
  obtain ⟨e0, e1, e2⟩ := index0_9 ⟨(i 0).val / 8, by omega⟩
  rw [mem_blk9]
  intro a
  match a with
  | ⟨0, _⟩ => show win0_9.index _ (0 : Fin 3) * 8 ≤ (i 0).val ∧ (i 0).val < win0_9.index _ (0 : Fin 3) * 8 + 8; rw [e0]; show (i 0).val / 8 * 8 ≤ (i 0).val ∧ (i 0).val < (i 0).val / 8 * 8 + 8; omega
  | ⟨1, _⟩ => show win0_9.index _ (1 : Fin 3) * 128 ≤ (i 1).val ∧ (i 1).val < win0_9.index _ (1 : Fin 3) * 128 + 128; rw [e1]; omega
  | ⟨2, _⟩ => show win0_9.index _ (2 : Fin 3) * 1 ≤ (i 2).val ∧ (i 2).val < win0_9.index _ (2 : Fin 3) * 1 + 1; rw [e2]; omega

/-- The array of sums of squares along the feature axis after the region is sqArr of the arrays the region finds. -/
theorem exit_sq (c : Dev nD) : (dat0 V c).arrAt 9 cfg0.N = sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 9 (sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed9_eq V c t) cover9

end Cert.KernelIdeal.Val0

end
-- ==== Proof.BnPoint.lean ====
import proofs.«142292_g2000406351686535_pallasbulk_564_2_alg».proof.Proof.Gen.KernelIdeal.Skeleton
import proofs.«142292_g2000406351686535_pallasbulk_564_2_alg».proof.Proof.Gen.ReferenceIdeal.Skeleton
import Idealize.ShloMosaic.PureOps.Ideal
import Idealize.ShloMosaic.Lib.ValueIdx
import Idealize.ShloMosaic.Lib.Pipeline.Value
import Idealize.ShloMosaic.Lib.ValueLayout

/-!
The per-node affine map of the second body, read at one element.

Both programs compute, on a block `t` of shape `[B, 128, 384]` and two columns `scale`, `shift` of shape
`[128, 1]`, the block `y[b, n, j] = t[b, n, j] * scale[n, 0] + shift[n, 0]`: each column is viewed as `[1, 128, 1]`
(a leading unit axis added) and then broadcast over the batch axis and the lane axis. At the ideal instance the
arithmetic is the extended reals' and a change of float format is the identity, so the value at `(b, n, j)` is
exactly that expression.
-/

noncomputable section

namespace Cert.BnPoint

open Idealize.ShloMosaic Idealize.ShloMosaic.ValueIdx

/-- A `[1, a, 1]` array broadcast to `[b, a, c]` reads, at `(p, n, j)`, the operand at `(0, n, 0)`: the two unit
axes are stretched, the middle axis is kept. -/
theorem broadcastTo_1a1_bac_apply {α : Type} {a b c : ℕ} (v : (⟨3, ![1, a, 1]⟩ : Shape).Idx → α)
    (h : (⟨3, ![1, a, 1]⟩ : Shape).Broadcasts ⟨3, ![b, a, c]⟩) (p : Fin b) (n : Fin a) (j : Fin c) :
    broadcastTo ⟨3, ![b, a, c]⟩ v h (ix3 p n j) = v (ix3 (0 : Fin 1) n (0 : Fin 1)) := by
  refine broadcastTo_apply v h (ix3 p n j) (ix3 (0 : Fin 1) n (0 : Fin 1)) fun ax => ?_
  match ax with
  | ⟨0, _⟩ => rfl
  | ⟨1, _⟩ =>
    show n.val = if a = 1 then 0 else n.val
    split
    · have := n.isLt; omega
    · rfl
  | ⟨2, _⟩ => rfl

/-- A column `[a, 1]` viewed as `[1, a, 1]` and broadcast to `[b, a, c]` reads, at `(p, n, j)`, the column at
`(n, 0)`. -/
theorem column_apply {α : Type} {a b c : ℕ} (x : (⟨2, ![a, 1]⟩ : Shape).Idx → α)
    (h1 : (⟨2, ![a, 1]⟩ : Shape).ShapeCasts ⟨3, ![1, a, 1]⟩)
    (h2 : (⟨3, ![1, a, 1]⟩ : Shape).Broadcasts ⟨3, ![b, a, c]⟩) (p : Fin b) (n : Fin a) (j : Fin c) :
    broadcastTo ⟨3, ![b, a, c]⟩ (shapeCast ⟨3, ![1, a, 1]⟩ x h1) h2 (ix3 p n j) = x (ix2 n (0 : Fin 1)) := by
  rw [broadcastTo_1a1_bac_apply, shapeCast_ab_1ab_apply]

/-- The kernel's second body at `(b, n, j)`: the block's element times the node's scale plus the node's shift. -/
theorem ker_apply (t : Vec Ideal Cert.KernelIdeal.S16x128x384 .bf16) (sc sh : Vec Ideal Cert.KernelIdeal.S128x1 .f32)
    (b : Fin 16) (n : Fin 128) (j : Fin 384) :
    Cert.KernelIdeal.Gen.k1_pay1 (F := Ideal) t sc sh (ix3 b n j)
      = (t (ix3 b n j) : EReal) * sc (ix2 n ⟨0, by decide⟩) + sh (ix2 n ⟨0, by decide⟩) := by
  unfold Cert.KernelIdeal.Gen.k1_pay1
  simp only [shapeCast_self]
  rw [addf_apply, mulf_apply, extf_apply, column_apply, column_apply]
  rfl

/-- The reference's second body at `(b, n, j)`: the same expression on a block of eight batches. -/
theorem ref_apply (sc sh : Vec Ideal Cert.ReferenceIdeal.S128x1 .f32) (t : Vec Ideal Cert.ReferenceIdeal.S8x128x384 .f32)
    (b : Fin 8) (n : Fin 128) (j : Fin 384) :
    Cert.ReferenceIdeal.Gen.k1_pay1 (F := Ideal) sc sh t (ix3 b n j)
      = (t (ix3 b n j) : EReal) * sc (ix2 n ⟨0, by decide⟩) + sh (ix2 n ⟨0, by decide⟩) := by
  unfold Cert.ReferenceIdeal.Gen.k1_pay1
  simp only [shapeCast_self]
  rw [addf_apply, mulf_apply, column_apply, column_apply]
  rfl

/-- The per-node affine map of a whole array of 256 batches: the entry at `(b, n, j)` times node `n`'s scale plus node
`n`'s shift. Both programs' second pass computes this one function of the activation and the two columns. -/
def affine (t3 : (⟨3, ![256, 128, 384]⟩ : Shape).Idx → EReal) (sc sh : (⟨2, ![128, 1]⟩ : Shape).Idx → EReal) :
    (⟨3, ![256, 128, 384]⟩ : Shape).Idx → EReal :=
  fun idx => t3 idx * sc (ix2 (idx 1 : Fin 128) (0 : Fin 1)) + sh (ix2 (idx 1 : Fin 128) (0 : Fin 1))

end Cert.BnPoint

end
-- ==== Proof.KerVal1.lean ====
/-
  Region 1 of the kernel program, from blocks to the array.  Point t of the 16 writes batches 16 t … 16 t + 15 of
  the output, and what it writes there is the per-node affine map of batches 16 t … 16 t + 15 of the activation and
  of the two whole columns.  So the output array after the region is one pointwise function of the three input
  arrays as the region finds them: entry (b, n, j) of the activation times scale n plus shift n.  This module proves
  that each input window's block at a point is the stated part of its array, that a point's write-back is its block
  of that function, that the blocks cover the array, and so that the array after the last point is the function.
-/
import proofs.«142292_g2000406351686535_pallasbulk_564_2_alg».proof.Proof.KerBody1
import proofs.«142292_g2000406351686535_pallasbulk_564_2_alg».proof.Proof.BnPoint
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Body Cert.BnPoint

variable (V : (c : Dev nD) → (b : Ref sig .tc) → Buf (Elt Ideal) ((c : Thread nD τ).loc b))

/-! ## The index maps over the grid -/

/-- The grid has 16 points. -/
theorem pt_lt (t : Fin cfg1.N) : t.val < 16 := by
  have h := t.isLt
  have e : cfg1.N = 16 := N_1
  omega

/-- The activation's block at point `t` is block `(t, 0, 0)`; -/
theorem index1_0 : ∀ t : Fin cfg1.N, win1_0.index t (0 : Fin 3) = t.val ∧ win1_0.index t (1 : Fin 3) = 0 ∧ win1_0.index t (2 : Fin 3) = 0 :=
  (by decide +kernel : ∀ t : Fin grid1.N, _)
/-- the two columns sit at block `(0, 0)` at every point; -/
theorem index1_1 : ∀ t : Fin cfg1.N, win1_1.index t (0 : Fin 2) = 0 ∧ win1_1.index t (1 : Fin 2) = 0 :=
  (by decide +kernel : ∀ t : Fin grid1.N, _)
theorem index1_2 : ∀ t : Fin cfg1.N, win1_2.index t (0 : Fin 2) = 0 ∧ win1_2.index t (1 : Fin 2) = 0 :=
  (by decide +kernel : ∀ t : Fin grid1.N, _)
/-- and the output's block at point `t` is block `(t, 0, 0)`. -/
theorem index1_3 : ∀ t : Fin cfg1.N, win1_3.index t (0 : Fin 3) = t.val ∧ win1_3.index t (1 : Fin 3) = 0 ∧ win1_3.index t (2 : Fin 3) = 0 :=
  (by decide +kernel : ∀ t : Fin grid1.N, _)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## One element of one block -/

/-- If a block of 16 batches agrees with the whole activation at the places the output block covers, and the two
columns are the whole columns, then the body's value at a block index is the affine map of the whole arrays at the
array index under it (the node coordinate is the same in the block and in the array). -/
theorem point_eq (x0 : Vec Ideal S16x128x384 .bf16) (x1 x2 : Vec Ideal S128x1 .f32)
    (A0 : S256x128x384.Idx → EReal) (A1 A2 : S128x1.Idx → EReal) (y : S16x128x384.Idx) (i : S256x128x384.Idx)
    (h0 : x0 y = A0 i) (h1 : x1 = A1) (h2 : x2 = A2) (hi : (i 1).val = (y 1).val) :
    k1_pay1 (F := Ideal) x0 x1 x2 y = affine A0 A1 A2 i := by
  obtain ⟨b, n, j, rfl⟩ : ∃ (b : Fin 16) (n : Fin 128) (j : Fin 384), y = ix3 b n j := ⟨y 0, y 1, y 2, eq_ix3 y⟩
  have hn : (i 1 : Fin 128) = n := Fin.ext hi
  subst h1 h2
  rw [ker_apply, h0]
  show A0 i * x1 (ix2 n (0 : Fin 1)) + x2 (ix2 n (0 : Fin 1))
    = A0 i * x1 (ix2 (i 1 : Fin 128) (0 : Fin 1)) + x2 (ix2 (i 1 : Fin 128) (0 : Fin 1))
  rw [hn]

/-! ## The input blocks at a point -/

/-- The activation's block at point `t` is batches `16 t … 16 t + 15` of its array. -/
theorem iblk1_0_at (c : Dev nD) (t : Fin cfg1.N) (y : S16x128x384.Idx) (i : S256x128x384.Idx)
    (h0 : (i 0).val = t.val * 16 + (y 0).val) (h1 : (i 1).val = (y 1).val) (h2 : (i 2).val = (y 2).val) :
    (iblk1 V c 0 t : Vec Ideal S16x128x384 .bf16) y = V c (Pipeline.arrRef spec1 0) i := by
  obtain ⟨e0, e1, e2⟩ := index1_0 t
  unfold iblk1
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 3) * 16 + 1 * (y 0).val = (i 0).val; omega
  | ⟨1, _⟩ => show win1_0.index t (1 : Fin 3) * 128 + 1 * (y 1).val = (i 1).val; omega
  | ⟨2, _⟩ => show win1_0.index t (2 : Fin 3) * 384 + 1 * (y 2).val = (i 2).val; omega

/-- Each column's block, at every point, is the whole column. -/
theorem iblk1_1_eq (c : Dev nD) (t : Fin cfg1.N) :
    (iblk1 V c 1 t : Vec Ideal S128x1 .f32) = V c (Pipeline.arrRef spec1 1) := by
  obtain ⟨e0, e1⟩ := index1_1 t
  funext y
  unfold iblk1
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 1 + 1 * (y 1).val = (y 1).val; omega
theorem iblk1_2_eq (c : Dev nD) (t : Fin cfg1.N) :
    (iblk1 V c 2 t : Vec Ideal S128x1 .f32) = V c (Pipeline.arrRef spec1 2) := by
  obtain ⟨e0, e1⟩ := index1_2 t
  funext y
  unfold iblk1
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 1 + 1 * (y 1).val = (y 1).val; omega

/-! ## A point's write-back is its block of the affine map -/

theorem flushed3_eq (c : Dev nD) (t : Fin cfg1.N) :
    (dat1 V c).flushed 3 t = ((cfg1.win 3).blk t).view.read (Elt Ideal)
      (affine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros3]
  simp only [View.ld_unit_zero (S := S16x128x384) zeros3, View.ld_unit_zero (S := S128x1) zeros2]
  obtain ⟨d0, d1, d2⟩ := index1_3 t
  funext j
  refine point_eq _ _ _ _ _ _ ((cfg1.win 3).xinj (grid1.coords t) j) (((cfg1.win 3).blk t).view.emb j)
    (iblk1_0_at V c t _ _ ?_ ?_ ?_) (iblk1_1_eq V c t) (iblk1_2_eq V c t) ?_
  · show win1_3.index t (0 : Fin 3) * 16 + 1 * (j 0).val = t.val * 16 + (j 0).val; omega
  · show win1_3.index t (1 : Fin 3) * 128 + 1 * (j 1).val = (j 1).val; omega
  · show win1_3.index t (2 : Fin 3) * 384 + 1 * (j 2).val = (j 2).val; omega
  · show win1_3.index t (1 : Fin 3) * 128 + 1 * (j 1).val = (j 1).val; omega

/-! ## The blocks cover the array -/

/-- An index of the array is in point `t`'s block iff each coordinate is in the block's range on its axis. -/
theorem mem_blk3 (t : Fin cfg1.N) (i : S256x128x384.Idx) :
    i ∈ ((cfg1.win 3).blk t).view.set ↔ ∀ a : Fin 3, win1_3.index t a * S16x128x384.size a ≤ (i a).val
      ∧ (i a).val < win1_3.index t a * S16x128x384.size a + S16x128x384.size a := by
  show i ∈ ((View.whole main_v475).slice (win1_3.rect t)).set ↔ _
  rw [View.set_slice_whole, Rect.mem_set_unit]
  exact Iff.rfl

/-- Batch `b` lies in the block of point `b / 16`. -/
theorem cover3 (i : S256x128x384.Idx) :
    ∃ t : Fin cfg1.N, (cfg1.win 3).flush t = true ∧ i ∈ ((cfg1.win 3).blk t).view.set := by
  have hi0 : (i 0).val < 256 := (i 0).isLt
  have hi1 : (i 1).val < 128 := (i 1).isLt
  have hi2 : (i 2).val < 384 := (i 2).isLt
  have hN : cfg1.N = 16 := N_1
  let t : Fin cfg1.N := ⟨(i 0).val / 16, by rw [hN]; omega⟩
  obtain ⟨d0, d1, d2⟩ := index1_3 t
  have ht : t.val = (i 0).val / 16 := rfl
  refine ⟨t, flush1_3 t, ?_⟩
  rw [mem_blk3]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 128 ≤ (i 1).val ∧ (i 1).val < win1_3.index t (1 : Fin 3) * 128 + 128; omega
  | ⟨2, _⟩ => show win1_3.index t (2 : Fin 3) * 384 ≤ (i 2).val ∧ (i 2).val < win1_3.index t (2 : Fin 3) * 384 + 384; omega

/-! ## The array after the region -/

/-- After the last point the output array is the affine map of the activation and the two columns as the region
found them. -/
theorem exit_out (c : Dev nD) :
    (dat1 V c).arrAt 3 cfg1.N
      = affine (V c (Pipeline.arrRef spec1 0)) (V c (Pipeline.arrRef spec1 1)) (V c (Pipeline.arrRef spec1 2)) :=
  (dat1 V c).arrAt_eq_of_cover 3 _ (fun t _ => flushed3_eq V c t) cover3

end Cert.KernelIdeal.Val1

end
-- ==== Proof.MidHost.lean ====
import proofs.«142292_g2000406351686535_pallasbulk_564_2_alg».proof.Proof.Gen.KernelIdeal.Launch
import proofs.«142292_g2000406351686535_pallasbulk_564_2_alg».proof.Proof.Gen.ReferenceIdeal.Launch
import Idealize.ShloMosaic.Lib.StableHlo.Run
import Idealize.ShloMosaic.PureOps.Ideal

/-!
# The host stretches between and after the two regions

Between the two regions both programs compute the batch-norm statistics from the two arrays of
per-(batch, node) partial sums `s1` (of `x`) and `s2` (of `x²`), each `256 × 128 × 1`:

* `mean  = (Σ_b s1[b, n]) / 98304`,  `msq = (Σ_b s2[b, n]) / 98304`,
* `var   = max (msq - mean · mean) 0`,  `inv = rsqrt (var + 1e-5)`,
* `scale = gamma · inv`,  `shift = beta - (mean · gamma) · inv`,

each of the last two laid out as a `128 × 1` column. Both programs do this by the same sequence of
operations, so ONE pair of functions `scaleOf` / `shiftOf` of the inputs describes both: the two programs'
scale and shift agree as soon as their partial sums and parameters do. After the second region each program
reshapes the `256 × 128 × 384` result to `256 × 128 × 12 × 32`.
-/

noncomputable section

namespace Cert.MidHost

open Idealize.ShloMosaic Idealize.ShloMosaic.TcCoe Idealize.SL.Sem Idealize.ShloMosaic.StableHlo

variable {F : FTy → Type} [FloatOps F]

/-! ## The statistics as functions of the partial sums and the parameters -/

section Terms

open Cert.KernelIdeal Cert.KernelIdeal.Gen

/-- The per-node average of an array of per-(batch, node) partial sums: the sum over the batch axis (from
    zero) divided by the element count `98304 = 256 · 384`. -/
def avgOf (s : S256x128x1.Idx → Elt F .f32) : S128.Idx → Elt F .f32 :=
  Host.divf
    (Host.reduceAdd (shapeCast S256x128 s shapeCasts_S256x128x1_S256x128) (constant S_ .f32 0x00000000#32)
      reducesTo_S256x128_S128_d0 h_S_)
    (broadcastInDim S128 ![] bcast_S_S128 (constant S_ .f32 0x47C00000#32))

/-- The inverse standard deviation per node: `rsqrt (max (E[x²] - E[x]²) 0 + 1e-5)`. -/
def invStdOf (s1 s2 : S256x128x1.Idx → Elt F .f32) : S128.Idx → Elt F .f32 :=
  Host.rsqrt
    (addf
      (maximumf (subf (avgOf s2) (mulf (avgOf s1) (avgOf s1)))
        (broadcastInDim S128 ![] bcast_S_S128 (constant S_ .f32 0x00000000#32)))
      (broadcastInDim S128 ![] bcast_S_S128 (constant S_ .f32 0x3727C5AC#32)))

/-- The batch-norm scale `gamma · inv`, as a `128 × 1` column. -/
def scaleOf (s1 s2 : S256x128x1.Idx → Elt F .f32) (g : S128x1.Idx → Elt F .f32) : S128x1.Idx → Elt F .f32 :=
  broadcastInDim S128x1 ![0] bcast_S128_S128x1_0
    (mulf (shapeCast S128 g shapeCasts_S128x1_S128) (invStdOf s1 s2))

/-- The batch-norm shift `beta - (mean · gamma) · inv`, as a `128 × 1` column. -/
def shiftOf (s1 s2 : S256x128x1.Idx → Elt F .f32) (g b : S128x1.Idx → Elt F .f32) : S128x1.Idx → Elt F .f32 :=
  broadcastInDim S128x1 ![0] bcast_S128_S128x1_0
    (subf (shapeCast S128 b shapeCasts_S128x1_S128)
      (mulf (mulf (avgOf s1) (shapeCast S128 g shapeCasts_S128x1_S128)) (invStdOf s1 s2)))

end Terms

/-! ## The kernel program -/

section Kernel

open Cert.KernelIdeal Cert.KernelIdeal.Gen

/-- The stretch between the regions leaves the scale column at `scaleOf` of the two partial-sum arrays and `gamma`. -/
theorem ker_scale (V : Valuation τ sig (Elt F)) :
    after (hostOps1 (F := F)) V (Proc.devRef .tc main_v469)
      = scaleOf (V (Proc.devRef .tc main_v451_1)) (V (Proc.devRef .tc main_v451_2)) (V (Proc.devRef .tc main_arg5)) := by
  after_results_simp
  rfl

/-- The stretch between the regions leaves the shift column at `shiftOf` of the partial sums, `gamma` and `beta`. -/
theorem ker_shift (V : Valuation τ sig (Elt F)) :
    after (hostOps1 (F := F)) V (Proc.devRef .tc main_v474)
      = shiftOf (V (Proc.devRef .tc main_v451_1)) (V (Proc.devRef .tc main_v451_2)) (V (Proc.devRef .tc main_arg5))
          (V (Proc.devRef .tc main_arg6)) := by
  after_results_simp
  rfl

/-- The last stretch reshapes the second region's `256 × 128 × 384` result to `256 × 128 × 12 × 32`. -/
theorem ker_out (V : Valuation τ sig (Elt F)) :
    after (hostOps2 (F := F)) V (Proc.devRef .tc main_v476)
      = shapeCast S256x128x12x32 (V (Proc.devRef .tc main_v475)) shapeCasts_S256x128x384_S256x128x12x32 := by
  after_results_simp
  rfl

/-- The stretch between the regions writes nothing into the first region's activation array `256 × 128 × 384`
    (which the second region reads as its first window). -/
theorem ker_keep_act (V : Valuation τ sig (Elt F)) :
    after (hostOps1 (F := F)) V (Proc.devRef .tc main_v451_0) = V (Proc.devRef .tc main_v451_0) := by
  after_results_simp

end Kernel

/-! ## The reference program: the same functions -/

section Reference

open Cert.ReferenceIdeal Cert.ReferenceIdeal.Gen

/-- The reference's stretch between the regions leaves its scale column at the SAME `scaleOf`. -/
theorem ref_scale (V : Valuation τ sig (Elt F)) :
    after (hostOps1 (F := F)) V (Proc.devRef .tc main_v412)
      = scaleOf (V (Proc.devRef .tc main_v394_1)) (V (Proc.devRef .tc main_v394_2)) (V (Proc.devRef .tc main_arg5)) := by
  after_results_simp
  rfl

/-- The reference's stretch between the regions leaves its shift column at the SAME `shiftOf`. -/
theorem ref_shift (V : Valuation τ sig (Elt F)) :
    after (hostOps1 (F := F)) V (Proc.devRef .tc main_v417)
      = shiftOf (V (Proc.devRef .tc main_v394_1)) (V (Proc.devRef .tc main_v394_2)) (V (Proc.devRef .tc main_arg5))
          (V (Proc.devRef .tc main_arg6)) := by
  after_results_simp
  rfl

/-- The reference's last stretch is the same reshape. -/
theorem ref_out (V : Valuation τ sig (Elt F)) :
    after (hostOps2 (F := F)) V (Proc.devRef .tc main_v419)
      = shapeCast S256x128x12x32 (V (Proc.devRef .tc main_v418)) shapeCasts_S256x128x384_S256x128x12x32 := by
  after_results_simp
  rfl

/-- The reference's stretch between the regions writes nothing into its activation array either. -/
theorem ref_keep_act (V : Valuation τ sig (Elt F)) :
    after (hostOps1 (F := F)) V (Proc.devRef .tc main_v394_0) = V (Proc.devRef .tc main_v394_0) := by
  after_results_simp

end Reference

end Cert.MidHost

end
-- ==== Proof.KerResult.lean ====
/-
  The result of the kernel program as one function of what its first pass finds and of the two normalisation
  parameters.  The last host operation reshapes the second pass's output; the second pass's output is the per-node
  affine map of the first pass's activation array with the scale and shift columns; the host operations between the
  passes leave the activation array alone and compute the two columns from the first pass's two arrays of partial
  sums and from the parameters, which nothing before has written; and the first pass's three arrays are the stated
  functions of the seven arrays it finds.  Composing these equalities gives the result.
-/
import proofs.«142292_g2000406351686535_pallasbulk_564_2_alg».proof.Proof.KerFold
import proofs.«142292_g2000406351686535_pallasbulk_564_2_alg».proof.Proof.KerVal0
import proofs.«142292_g2000406351686535_pallasbulk_564_2_alg».proof.Proof.KerVal1
import proofs.«142292_g2000406351686535_pallasbulk_564_2_alg».proof.Proof.MidHost
import proofs.«142292_g2000406351686535_pallasbulk_564_2_alg».proof.Proof.BnPoint

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Body Cert.KernelIdeal.Fold Cert.KernelIdeal.Val0 Cert.BnPoint

variable (m : (ℓ : Loc nD τ sig) → Buf (Elt Ideal) ℓ) (ρ : Dev nD → PrngReg)

/-- The program's result as a function of the seven arrays its first pass finds and of the two parameters: the
affine map of the activation array with the scale and shift computed from the partial sums, reshaped. -/
def resOf (x : Vec Ideal S256x128x256 .f32) (a : Vec Ideal S128x128 .bf16) (w1 : Vec Ideal S256x1536 .bf16)
    (b1 : Vec Ideal S1x1536 .f32) (th : Vec Ideal S512x224 .bf16) (w2 : Vec Ideal S224x1152 .bf16) (b2 : Vec Ideal S1x1152 .f32)
    (g b : S128x1.Idx → EReal) : S256x128x12x32.Idx → EReal :=
  shapeCast S256x128x12x32
    (affine (actArr x a w1 b1 th w2 b2)
      (Cert.MidHost.scaleOf (F := Ideal) (sumArr x a w1 b1 th w2 b2) (sqArr x a w1 b1 th w2 b2) g)
      (Cert.MidHost.shiftOf (F := Ideal) (sumArr x a w1 b1 th w2 b2) (sqArr x a w1 b1 th w2 b2) g b))
    shapeCasts_S256x128x384_S256x128x12x32

/-- The last host operation reshapes the second pass's output array. -/
theorem out_step (c : Dev nD) :
    W33 m ρ c (Proc.devRef .tc main_v476)
      = shapeCast S256x128x12x32 (W32 m ρ c (Proc.devRef .tc main_v475)) shapeCasts_S256x128x384_S256x128x12x32 :=
  Cert.MidHost.ker_out (F := Ideal) (W32 m ρ c)

/-- The second pass's output array is the affine map of the three arrays the pass finds. -/
theorem arr_step (c : Dev nD) :
    W32 m ρ c (Proc.devRef .tc main_v475)
      = affine (V31 m ρ c (Pipeline.arrRef spec1 0)) (V31 m ρ c (Pipeline.arrRef spec1 1))
          (V31 m ρ c (Pipeline.arrRef spec1 2)) :=
  (W32_arr m ρ c 3).trans (Cert.KernelIdeal.Val1.exit_out (V31 m ρ) c)

/-- The activation array the second pass finds is the one the first pass left. -/
theorem act_step (c : Dev nD) :
    V31 m ρ c (Pipeline.arrRef spec1 0) = actArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6)) :=
  ((Cert.MidHost.ker_keep_act (F := Ideal) (W30 m ρ c)).trans (W30_arr m ρ c 7)).trans (exit_act (V29 m ρ) c)

/-- The two arrays of partial sums the first pass left. -/
theorem sum_step (c : Dev nD) :
    W30 m ρ c (Proc.devRef .tc main_v451_1) = sumArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6)) :=
  (W30_arr m ρ c 8).trans (exit_sum (V29 m ρ) c)
theorem sq_step (c : Dev nD) :
    W30 m ρ c (Proc.devRef .tc main_v451_2) = sqArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6)) :=
  (W30_arr m ρ c 9).trans (exit_sq (V29 m ρ) c)

/-- The two parameters still hold their launch contents when the first pass is left: no host operation before it
writes them and the pass stages neither. -/
theorem gamma_step (c : Dev nD) :
    W30 m ρ c (Proc.devRef .tc main_arg5) = m ((c : Thread nD τ).loc main_arg5) :=
  kept_X0 m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem beta_step (c : Dev nD) :
    W30 m ρ c (Proc.devRef .tc main_arg6) = m ((c : Thread nD τ).loc main_arg6) :=
  kept_X0 m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

set_option maxHeartbeats 4000000 in
/-- The scale column the second pass finds. -/
theorem scale_step (c : Dev nD) :
    V31 m ρ c (Pipeline.arrRef spec1 1)
      = Cert.MidHost.scaleOf (F := Ideal) (sumArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6))) (sqArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6)))
          (m ((c : Thread nD τ).loc main_arg5)) := by
  refine (Cert.MidHost.ker_scale (F := Ideal) (W30 m ρ c)).trans ?_
  rw [sum_step m ρ c, sq_step m ρ c, gamma_step m ρ c]

set_option maxHeartbeats 4000000 in
/-- The shift column the second pass finds. -/
theorem shift_step (c : Dev nD) :
    V31 m ρ c (Pipeline.arrRef spec1 2)
      = Cert.MidHost.shiftOf (F := Ideal) (sumArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6))) (sqArr (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6)))
          (m ((c : Thread nD τ).loc main_arg5)) (m ((c : Thread nD τ).loc main_arg6)) := by
  refine (Cert.MidHost.ker_shift (F := Ideal) (W30 m ρ c)).trans ?_
  rw [sum_step m ρ c, sq_step m ρ c, gamma_step m ρ c, beta_step m ρ c]

set_option maxHeartbeats 4000000 in
/-- The program's result buffer at the end, as `resOf` of the seven arrays the first pass finds and of the launch
contents of the two parameters. -/
theorem result (c : Dev nD) :
    W33 m ρ c (Proc.devRef .tc main_v476)
      = resOf (V29 m ρ c (Pipeline.arrRef spec0 0)) (V29 m ρ c (Pipeline.arrRef spec0 1)) (V29 m ρ c (Pipeline.arrRef spec0 2)) (V29 m ρ c (Pipeline.arrRef spec0 3)) (V29 m ρ c (Pipeline.arrRef spec0 4)) (V29 m ρ c (Pipeline.arrRef spec0 5)) (V29 m ρ c (Pipeline.arrRef spec0 6))
          (m ((c : Thread nD τ).loc main_arg5)) (m ((c : Thread nD τ).loc main_arg6)) := by
  unfold resOf
  rw [out_step m ρ c, arr_step m ρ c, act_step m ρ c, scale_step m ρ c, shift_step m ρ c]

end Cert.KernelIdeal.Result

end
-- ==== Proof.RefVal0.lean ====
/-
  Region 0 of the reference program, from blocks to arrays.  The region's three output arrays (the f32
  activation, 256 x 128 x 384, and its sum and sum of squares along the feature axis, 256 x 128 x 1 each) are
  written block by block: point t of the 32 writes batches 8t … 8t + 7 of each, and what it writes is the
  body's output on batches 8t … 8t + 7 of the input array and on the six other input arrays whole (the
  1024 x 1024 block-diagonal mixing matrix, the two convolutions' weights and biases, the projection).  So each
  output array after the region is one function of the seven input arrays as the region finds them: at batch
  n, the body's output block computed from the eight batches that hold n, read at n's place among them.  This
  module defines those three functions over the body's output blocks (kept folded), proves that every input
  window's block at a point is the stated part of its array, that a point's write-back is its block of the
  function, that the blocks cover the array, and so that the array after the last point is the function.
-/
import proofs.«142292_g2000406351686535_pallasbulk_564_2_alg».proof.Proof.RefBody0
import Idealize.ShloMosaic.Lib.Pipeline.Value
import Idealize.ShloMosaic.Lib.ValueIdx

set_option maxRecDepth 16384

noncomputable section

namespace Cert.ReferenceIdeal.Val0

open Idealize.ShloMosaic Idealize.ShloMosaic.TcCoe Idealize.ShloMosaic.ValueIdx
open Idealize.SL Idealize.SL.Sem
open Idealize.ShloMosaic.Pipeline (Dat)
open Cert.ReferenceIdeal Cert.ReferenceIdeal.Gen Cert.ReferenceIdeal.Body

/- The body's output blocks stay folded throughout: nothing below depends on what they compute. -/
attribute [local irreducible] out0_7 out0_8 out0_9

variable {F : FTy → Type} [FloatOps F]

variable (V : (c : Dev nD) → (b : Ref sig .tc) → Buf (Elt F) ((c : Thread nD τ).loc b))

/-! ## The index maps over the grid -/

/-- The grid has 32 points. -/
theorem pt_lt (t : Fin cfg0.N) : t.val < 32 := by
  have h := t.isLt
  have e : cfg0.N = 32 := N_0
  omega

/-- The input's block index at point t is (t, 0, 0); -/
theorem index0_0 : ∀ t : Fin cfg0.N, win0_0.index t (0 : Fin 3) = t.val ∧ win0_0.index t (1 : Fin 3) = 0 ∧ win0_0.index t (2 : Fin 3) = 0 :=
  (by decide +kernel : ∀ t : Fin grid0.N, _)
/-- each of the six whole-array windows sits at block (0, 0) at every point; -/
theorem index0_1 : ∀ t : Fin cfg0.N, win0_1.index t (0 : Fin 2) = 0 ∧ win0_1.index t (1 : Fin 2) = 0 :=
  (by decide +kernel : ∀ t : Fin grid0.N, _)
theorem index0_2 : ∀ t : Fin cfg0.N, win0_2.index t (0 : Fin 2) = 0 ∧ win0_2.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 2) = 0 ∧ win0_6.index t (1 : Fin 2) = 0 :=
  (by decide +kernel : ∀ t : Fin grid0.N, _)
/-- and each output's block index at point t is (t, 0, 0). -/
theorem index0_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem index0_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem index0_9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## The arrays the region leaves, as functions of the arrays it finds -/

/-- Batches 8q … 8q + 7 of an array of 256 batches. -/
def batches (x : Vec F S256x128x256 .f32) (q : Fin 32) : Vec F S8x128x256 .f32 :=
  fun y => x (ix3 (⟨q.val * 8 + (y 0).val, by have h : (y 0).val < 8 := (y 0).isLt; have := q.isLt; omega⟩ : Fin 256) (y 1) (y 2))

/-- The block of eight batches that holds batch n, -/
abbrev blockOf (n : Fin 256) : Fin 32 := ⟨n.val / 8, by have := n.isLt; omega⟩
/-- and batch n's place in it. -/
abbrev placeIn (n : Fin 256) : Fin 8 := ⟨n.val % 8, Nat.mod_lt _ (by decide)⟩

/-- The activation array after the region: at batch n, the body's activation block computed from the eight
    batches of the input that hold n (and the six whole arrays), read at n's place in the block. -/
def actArr (x : Vec F S256x128x256 .f32) (ak : Vec F S1024x1024 .f32) (w1 : Vec F S256x1536 .f32) (b1 : Vec F S1x1536 .f32) (th : Vec F S512x224 .f32) (w2 : Vec F S224x1152 .f32) (b2 : Vec F S1x1152 .f32) : Vec F S256x128x384 .f32 :=
  fun i => out0_7 (batches x (blockOf (i 0))) ak w1 b1 th w2 b2 (ix3 (placeIn (i 0)) (i 1) (i 2))
/-- The array of sums along the feature axis after the region, likewise. -/
def sumArr (x : Vec F S256x128x256 .f32) (ak : Vec F S1024x1024 .f32) (w1 : Vec F S256x1536 .f32) (b1 : Vec F S1x1536 .f32) (th : Vec F S512x224 .f32) (w2 : Vec F S224x1152 .f32) (b2 : Vec F S1x1152 .f32) : Vec F S256x128x1 .f32 :=
  fun i => out0_8 (batches x (blockOf (i 0))) ak w1 b1 th w2 b2 (ix3 (placeIn (i 0)) (i 1) (i 2))
/-- The array of sums of squares along the feature axis after the region, likewise. -/
def sqArr (x : Vec F S256x128x256 .f32) (ak : Vec F S1024x1024 .f32) (w1 : Vec F S256x1536 .f32) (b1 : Vec F S1x1536 .f32) (th : Vec F S512x224 .f32) (w2 : Vec F S224x1152 .f32) (b2 : Vec F S1x1152 .f32) : Vec F S256x128x1 .f32 :=
  fun i => out0_9 (batches x (blockOf (i 0))) ak w1 b1 th w2 b2 (ix3 (placeIn (i 0)) (i 1) (i 2))

/-- At an index of block q the array function is the body's output on the blocks, whenever the first block is
    batches 8q … 8q + 7 of x and the six others are the whole arrays. -/
theorem actArr_at (x : Vec F S256x128x256 .f32) (ak : Vec F S1024x1024 .f32) (w1 : Vec F S256x1536 .f32) (b1 : Vec F S1x1536 .f32) (th : Vec F S512x224 .f32) (w2 : Vec F S224x1152 .f32) (b2 : Vec F S1x1152 .f32) (X0 : Vec F S8x128x256 .f32) (X1 : Vec F S1024x1024 .f32) (X2 : Vec F S256x1536 .f32) (X3 : Vec F S1x1536 .f32) (X4 : Vec F S512x224 .f32) (X5 : Vec F S224x1152 .f32) (X6 : Vec F S1x1152 .f32) (q : Fin 32)
    (hX0 : X0 = batches x q) (hX1 : X1 = ak) (hX2 : X2 = w1) (hX3 : X3 = b1) (hX4 : X4 = th) (hX5 : X5 = w2) (hX6 : X6 = b2)
    (y : S8x128x384.Idx) (i : S256x128x384.Idx)
    (h0 : (i 0).val = q.val * 8 + (y 0).val) (h1 : (i 1).val = (y 1).val) (h2 : (i 2).val = (y 2).val) :
    actArr x ak w1 b1 th w2 b2 i = out0_7 X0 X1 X2 X3 X4 X5 X6 y := by
  subst hX0 hX1 hX2 hX3 hX4 hX5 hX6
  have hy0 : (y 0).val < 8 := (y 0).isLt
  have hq : blockOf (i 0) = q := Fin.ext (by show (i 0).val / 8 = q.val; omega)
  have hy : (ix3 (placeIn (i 0)) (i 1) (i 2) : S8x128x384.Idx) = y := by
    funext a; apply Fin.ext
    match a with
    | ⟨0, _⟩ => show (i 0).val % 8 = (y 0).val; omega
    | ⟨1, _⟩ => exact h1
    | ⟨2, _⟩ => exact h2
  unfold actArr
  rw [hq, hy]
/-- At an index of block q the array function is the body's output on the blocks, whenever the first block is
    batches 8q … 8q + 7 of x and the six others are the whole arrays. -/
theorem sumArr_at (x : Vec F S256x128x256 .f32) (ak : Vec F S1024x1024 .f32) (w1 : Vec F S256x1536 .f32) (b1 : Vec F S1x1536 .f32) (th : Vec F S512x224 .f32) (w2 : Vec F S224x1152 .f32) (b2 : Vec F S1x1152 .f32) (X0 : Vec F S8x128x256 .f32) (X1 : Vec F S1024x1024 .f32) (X2 : Vec F S256x1536 .f32) (X3 : Vec F S1x1536 .f32) (X4 : Vec F S512x224 .f32) (X5 : Vec F S224x1152 .f32) (X6 : Vec F S1x1152 .f32) (q : Fin 32)
    (hX0 : X0 = batches x q) (hX1 : X1 = ak) (hX2 : X2 = w1) (hX3 : X3 = b1) (hX4 : X4 = th) (hX5 : X5 = w2) (hX6 : X6 = b2)
    (y : S8x128x1.Idx) (i : S256x128x1.Idx)
    (h0 : (i 0).val = q.val * 8 + (y 0).val) (h1 : (i 1).val = (y 1).val) (h2 : (i 2).val = (y 2).val) :
    sumArr x ak w1 b1 th w2 b2 i = out0_8 X0 X1 X2 X3 X4 X5 X6 y := by
  subst hX0 hX1 hX2 hX3 hX4 hX5 hX6
  have hy0 : (y 0).val < 8 := (y 0).isLt
  have hq : blockOf (i 0) = q := Fin.ext (by show (i 0).val / 8 = q.val; omega)
  have hy : (ix3 (placeIn (i 0)) (i 1) (i 2) : S8x128x1.Idx) = y := by
    funext a; apply Fin.ext
    match a with
    | ⟨0, _⟩ => show (i 0).val % 8 = (y 0).val; omega
    | ⟨1, _⟩ => exact h1
    | ⟨2, _⟩ => exact h2
  unfold sumArr
  rw [hq, hy]
/-- At an index of block q the array function is the body's output on the blocks, whenever the first block is
    batches 8q … 8q + 7 of x and the six others are the whole arrays. -/
theorem sqArr_at (x : Vec F S256x128x256 .f32) (ak : Vec F S1024x1024 .f32) (w1 : Vec F S256x1536 .f32) (b1 : Vec F S1x1536 .f32) (th : Vec F S512x224 .f32) (w2 : Vec F S224x1152 .f32) (b2 : Vec F S1x1152 .f32) (X0 : Vec F S8x128x256 .f32) (X1 : Vec F S1024x1024 .f32) (X2 : Vec F S256x1536 .f32) (X3 : Vec F S1x1536 .f32) (X4 : Vec F S512x224 .f32) (X5 : Vec F S224x1152 .f32) (X6 : Vec F S1x1152 .f32) (q : Fin 32)
    (hX0 : X0 = batches x q) (hX1 : X1 = ak) (hX2 : X2 = w1) (hX3 : X3 = b1) (hX4 : X4 = th) (hX5 : X5 = w2) (hX6 : X6 = b2)
    (y : S8x128x1.Idx) (i : S256x128x1.Idx)
    (h0 : (i 0).val = q.val * 8 + (y 0).val) (h1 : (i 1).val = (y 1).val) (h2 : (i 2).val = (y 2).val) :
    sqArr x ak w1 b1 th w2 b2 i = out0_9 X0 X1 X2 X3 X4 X5 X6 y := by
  subst hX0 hX1 hX2 hX3 hX4 hX5 hX6
  have hy0 : (y 0).val < 8 := (y 0).isLt
  have hq : blockOf (i 0) = q := Fin.ext (by show (i 0).val / 8 = q.val; omega)
  have hy : (ix3 (placeIn (i 0)) (i 1) (i 2) : S8x128x1.Idx) = y := by
    funext a; apply Fin.ext
    match a with
    | ⟨0, _⟩ => show (i 0).val % 8 = (y 0).val; omega
    | ⟨1, _⟩ => exact h1
    | ⟨2, _⟩ => exact h2
  unfold sqArr
  rw [hq, hy]

/-! ## The input blocks at a point -/

/-- The input window's block at point t is batches 8t … 8t + 7 of its array. -/
theorem iblk0_0_eq (c : Dev nD) (t : Fin cfg0.N) :
    (iblk0 V c 0 t : Vec F S8x128x256 .f32) = batches (V c (Pipeline.arrRef spec0 0)) ⟨t.val, pt_lt t⟩ := by
  obtain ⟨e0, e1, e2⟩ := index0_0 t
  funext y
  unfold iblk0 batches
  show V c (Pipeline.arrRef spec0 0) (((cfg0.win 0).blk t).view.emb y) = V c (Pipeline.arrRef spec0 0) _
  congr 1
  funext a; apply Fin.ext
  match a with
  | ⟨0, _⟩ => show win0_0.index t (0 : Fin 3) * 8 + 1 * (y 0).val = t.val * 8 + (y 0).val; rw [e0]; omega
  | ⟨1, _⟩ => show win0_0.index t (1 : Fin 3) * 128 + 1 * (y 1).val = (y 1).val; rw [e1]; omega
  | ⟨2, _⟩ => show win0_0.index t (2 : Fin 3) * 256 + 1 * (y 2).val = (y 2).val; rw [e2]; omega
/-- Each of the six other input windows' block, at every point, is its whole array. -/
theorem iblk0_1_eq (c : Dev nD) (t : Fin cfg0.N) :
    (iblk0 V c 1 t : Vec F S1024x1024 .f32) = V c (Pipeline.arrRef spec0 1) := by
  obtain ⟨e0, e1⟩ := index0_1 t
  funext y
  unfold iblk0
  show V c (Pipeline.arrRef spec0 1) (((cfg0.win 1).blk t).view.emb y) = V c (Pipeline.arrRef spec0 1) y
  congr 1
  funext a; apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem iblk0_2_eq (c : Dev nD) (t : Fin cfg0.N) :
    (iblk0 V c 2 t : Vec F S256x1536 .f32) = V c (Pipeline.arrRef spec0 2) := by
  obtain ⟨e0, e1⟩ := index0_2 t
  funext y
  unfold iblk0
  show V c (Pipeline.arrRef spec0 2) (((cfg0.win 2).blk t).view.emb y) = V c (Pipeline.arrRef spec0 2) y
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 1536 + 1 * (y 1).val = (y 1).val; rw [e1]; omega
theorem iblk0_3_eq (c : Dev nD) (t : Fin cfg0.N) :
    (iblk0 V c 3 t : Vec F S1x1536 .f32) = V c (Pipeline.arrRef spec0 3) := by
  obtain ⟨e0, e1⟩ := index0_3 t
  funext y
  unfold iblk0
  show V c (Pipeline.arrRef spec0 3) (((cfg0.win 3).blk t).view.emb y) = V c (Pipeline.arrRef spec0 3) y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 1536 + 1 * (y 1).val = (y 1).val; rw [e1]; omega
theorem iblk0_4_eq (c : Dev nD) (t : Fin cfg0.N) :
    (iblk0 V c 4 t : Vec F S512x224 .f32) = V c (Pipeline.arrRef spec0 4) := by
  obtain ⟨e0, e1⟩ := index0_4 t
  funext y
  unfold iblk0
  show V c (Pipeline.arrRef spec0 4) (((cfg0.win 4).blk t).view.emb y) = V c (Pipeline.arrRef spec0 4) y
  congr 1
  funext a; apply Fin.ext
  match a with
  | ⟨0, _⟩ => show win0_4.index t (0 : Fin 2) * 512 + 1 * (y 0).val = (y 0).val; rw [e0]; omega
  | ⟨1, _⟩ => show win0_4.index t (1 : Fin 2) * 224 + 1 * (y 1).val = (y 1).val; rw [e1]; omega
theorem iblk0_5_eq (c : Dev nD) (t : Fin cfg0.N) :
    (iblk0 V c 5 t : Vec F S224x1152 .f32) = V c (Pipeline.arrRef spec0 5) := by
  obtain ⟨e0, e1⟩ := index0_5 t
  funext y
  unfold iblk0
  show V c (Pipeline.arrRef spec0 5) (((cfg0.win 5).blk t).view.emb y) = V c (Pipeline.arrRef spec0 5) y
  congr 1
  funext a; apply Fin.ext
  match a with
  | ⟨0, _⟩ => show win0_5.index t (0 : Fin 2) * 224 + 1 * (y 0).val = (y 0).val; rw [e0]; omega
  | ⟨1, _⟩ => show win0_5.index t (1 : Fin 2) * 1152 + 1 * (y 1).val = (y 1).val; rw [e1]; omega
theorem iblk0_6_eq (c : Dev nD) (t : Fin cfg0.N) :
    (iblk0 V c 6 t : Vec F S1x1152 .f32) = V c (Pipeline.arrRef spec0 6) := by
  obtain ⟨e0, e1⟩ := index0_6 t
  funext y
  unfold iblk0
  show V c (Pipeline.arrRef spec0 6) (((cfg0.win 6).blk t).view.emb y) = V c (Pipeline.arrRef spec0 6) y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 1152 + 1 * (y 1).val = (y 1).val; rw [e1]; omega

/-! ## What a point writes back, and the arrays after the last point -/

/-- Contents X of output window 7's block are point t's block of an array G as soon as X agrees with G entry by
    entry: entry y of the block is entry (8t + y 0, y 1, y 2) of the array. -/
theorem blk7_read (t : Fin cfg0.N) (X : Vec F S8x128x384 .f32) (G : Vec F S256x128x384 .f32)
    (h : ∀ (y : S8x128x384.Idx) (i : S256x128x384.Idx), (i 0).val = t.val * 8 + (y 0).val → (i 1).val = (y 1).val → (i 2).val = (y 2).val → X y = G i) :
    (cfg0.win 7).cut (grid0.coords t) X = ((cfg0.win 7).blk t).view.read (Elt F) G := by
  obtain ⟨e0, e1, e2⟩ := index0_7 t
  funext y
  show X y = G (((cfg0.win 7).blk t).view.emb y)
  refine h y _ ?_ ?_ ?_
  · show win0_7.index t (0 : Fin 3) * 8 + 1 * (y 0).val = t.val * 8 + (y 0).val; rw [e0]; omega
  · show win0_7.index t (1 : Fin 3) * 128 + 1 * (y 1).val = (y 1).val; rw [e1]; omega
  · show win0_7.index t (2 : Fin 3) * 384 + 1 * (y 2).val = (y 2).val; rw [e2]; omega

/-- What point t writes back into output array 7 is block t of actArr of the arrays the region finds. -/
theorem flushed7_eq (c : Dev nD) (t : Fin cfg0.N) :
    (dat0 V c).flushed 7 t = ((cfg0.win 7).blk t).view.read (Elt F) (actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((dat0 V c).after 7 t) = _
  rw [after0_7]
  refine blk7_read t (out0_7 (iblk0 V c 0 t) (iblk0 V c 1 t) (iblk0 V c 2 t) (iblk0 V c 3 t) (iblk0 V c 4 t) (iblk0 V c 5 t) (iblk0 V c 6 t)) (actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun y i h0 h1 h2 => ?_)
  exact (actArr_at (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (iblk0 V c 0 t) (iblk0 V c 1 t) (iblk0 V c 2 t) (iblk0 V c 3 t) (iblk0 V c 4 t) (iblk0 V c 5 t) (iblk0 V c 6 t) ⟨t.val, pt_lt t⟩
    (iblk0_0_eq V c t) (iblk0_1_eq V c t) (iblk0_2_eq V c t) (iblk0_3_eq V c t) (iblk0_4_eq V c t) (iblk0_5_eq V c t) (iblk0_6_eq V c t) y i h0 h1 h2).symm

/-- An index of output array 7 is in point t's block iff each coordinate is in the block's range on its axis. -/
theorem mem_blk7 (t : Fin cfg0.N) (i : S256x128x384.Idx) :
    i ∈ ((cfg0.win 7).blk t).view.set ↔ ∀ a : Fin 3, win0_7.index t a * S8x128x384.size a ≤ (i a).val ∧ (i a).val < win0_7.index t a * S8x128x384.size a + S8x128x384.size a := by
  show i ∈ ((View.whole main_v394_0).slice (win0_7.rect t)).set ↔ _
  rw [View.set_slice_whole, Rect.mem_set_unit]
  exact Iff.rfl

/-- Every index of output array 7 is in the block of the point that holds its batch. -/
theorem cover7 (i : S256x128x384.Idx) : ∃ t : Fin cfg0.N, (cfg0.win 7).flush t = true ∧ i ∈ ((cfg0.win 7).blk t).view.set := by
  have hi0 : (i 0).val < 256 := (i 0).isLt
  have hi1 : (i 1).val < 128 := (i 1).isLt
  have hi2 : (i 2).val < 384 := (i 2).isLt
  have hN : cfg0.N = 32 := N_0
  refine ⟨⟨(i 0).val / 8, by omega⟩, flush0_7 _, ?_⟩
  obtain ⟨e0, e1, e2⟩ := index0_7 ⟨(i 0).val / 8, by omega⟩
  rw [mem_blk7]
  intro a
  match a with
  | ⟨0, _⟩ => show win0_7.index _ (0 : Fin 3) * 8 ≤ (i 0).val ∧ (i 0).val < win0_7.index _ (0 : Fin 3) * 8 + 8; rw [e0]; show (i 0).val / 8 * 8 ≤ (i 0).val ∧ (i 0).val < (i 0).val / 8 * 8 + 8; omega
  | ⟨1, _⟩ => show win0_7.index _ (1 : Fin 3) * 128 ≤ (i 1).val ∧ (i 1).val < win0_7.index _ (1 : Fin 3) * 128 + 128; rw [e1]; omega
  | ⟨2, _⟩ => show win0_7.index _ (2 : Fin 3) * 384 ≤ (i 2).val ∧ (i 2).val < win0_7.index _ (2 : Fin 3) * 384 + 384; rw [e2]; omega

/-- The activation array after the region is actArr of the arrays the region finds. -/
theorem exit_act (c : Dev nD) : (dat0 V c).arrAt 7 cfg0.N = actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 7 (actArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed7_eq V c t) cover7

/-- Contents X of output window 8's block are point t's block of an array G as soon as X agrees with G entry by
    entry: entry y of the block is entry (8t + y 0, y 1, y 2) of the array. -/
theorem blk8_read (t : Fin cfg0.N) (X : Vec F S8x128x1 .f32) (G : Vec F S256x128x1 .f32)
    (h : ∀ (y : S8x128x1.Idx) (i : S256x128x1.Idx), (i 0).val = t.val * 8 + (y 0).val → (i 1).val = (y 1).val → (i 2).val = (y 2).val → X y = G i) :
    (cfg0.win 8).cut (grid0.coords t) X = ((cfg0.win 8).blk t).view.read (Elt F) G := by
  obtain ⟨e0, e1, e2⟩ := index0_8 t
  funext y
  show X y = G (((cfg0.win 8).blk t).view.emb y)
  refine h y _ ?_ ?_ ?_
  · show win0_8.index t (0 : Fin 3) * 8 + 1 * (y 0).val = t.val * 8 + (y 0).val; rw [e0]; omega
  · show win0_8.index t (1 : Fin 3) * 128 + 1 * (y 1).val = (y 1).val; rw [e1]; omega
  · show win0_8.index t (2 : Fin 3) * 1 + 1 * (y 2).val = (y 2).val; rw [e2]; omega

/-- What point t writes back into output array 8 is block t of sumArr of the arrays the region finds. -/
theorem flushed8_eq (c : Dev nD) (t : Fin cfg0.N) :
    (dat0 V c).flushed 8 t = ((cfg0.win 8).blk t).view.read (Elt F) (sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 8).cut (grid0.coords t) ((dat0 V c).after 8 t) = _
  rw [after0_8]
  refine blk8_read t (out0_8 (iblk0 V c 0 t) (iblk0 V c 1 t) (iblk0 V c 2 t) (iblk0 V c 3 t) (iblk0 V c 4 t) (iblk0 V c 5 t) (iblk0 V c 6 t)) (sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun y i h0 h1 h2 => ?_)
  exact (sumArr_at (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (iblk0 V c 0 t) (iblk0 V c 1 t) (iblk0 V c 2 t) (iblk0 V c 3 t) (iblk0 V c 4 t) (iblk0 V c 5 t) (iblk0 V c 6 t) ⟨t.val, pt_lt t⟩
    (iblk0_0_eq V c t) (iblk0_1_eq V c t) (iblk0_2_eq V c t) (iblk0_3_eq V c t) (iblk0_4_eq V c t) (iblk0_5_eq V c t) (iblk0_6_eq V c t) y i h0 h1 h2).symm

/-- An index of output array 8 is in point t's block iff each coordinate is in the block's range on its axis. -/
theorem mem_blk8 (t : Fin cfg0.N) (i : S256x128x1.Idx) :
    i ∈ ((cfg0.win 8).blk t).view.set ↔ ∀ a : Fin 3, win0_8.index t a * S8x128x1.size a ≤ (i a).val ∧ (i a).val < win0_8.index t a * S8x128x1.size a + S8x128x1.size a := by
  show i ∈ ((View.whole main_v394_1).slice (win0_8.rect t)).set ↔ _
  rw [View.set_slice_whole, Rect.mem_set_unit]
  exact Iff.rfl

/-- Every index of output array 8 is in the block of the point that holds its batch. -/
theorem cover8 (i : S256x128x1.Idx) : ∃ t : Fin cfg0.N, (cfg0.win 8).flush t = true ∧ i ∈ ((cfg0.win 8).blk t).view.set := by
  have hi0 : (i 0).val < 256 := (i 0).isLt
  have hi1 : (i 1).val < 128 := (i 1).isLt
  have hi2 : (i 2).val < 1 := (i 2).isLt
  have hN : cfg0.N = 32 := N_0
  refine ⟨⟨(i 0).val / 8, by omega⟩, flush0_8 _, ?_⟩
  obtain ⟨e0, e1, e2⟩ := index0_8 ⟨(i 0).val / 8, by omega⟩
  rw [mem_blk8]
  intro a
  match a with
  | ⟨0, _⟩ => show win0_8.index _ (0 : Fin 3) * 8 ≤ (i 0).val ∧ (i 0).val < win0_8.index _ (0 : Fin 3) * 8 + 8; rw [e0]; show (i 0).val / 8 * 8 ≤ (i 0).val ∧ (i 0).val < (i 0).val / 8 * 8 + 8; omega
  | ⟨1, _⟩ => show win0_8.index _ (1 : Fin 3) * 128 ≤ (i 1).val ∧ (i 1).val < win0_8.index _ (1 : Fin 3) * 128 + 128; rw [e1]; omega
  | ⟨2, _⟩ => show win0_8.index _ (2 : Fin 3) * 1 ≤ (i 2).val ∧ (i 2).val < win0_8.index _ (2 : Fin 3) * 1 + 1; rw [e2]; omega

/-- The array of sums along the feature axis after the region is sumArr of the arrays the region finds. -/
theorem exit_sum (c : Dev nD) : (dat0 V c).arrAt 8 cfg0.N = sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 8 (sumArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed8_eq V c t) cover8

/-- Contents X of output window 9's block are point t's block of an array G as soon as X agrees with G entry by
    entry: entry y of the block is entry (8t + y 0, y 1, y 2) of the array. -/
theorem blk9_read (t : Fin cfg0.N) (X : Vec F S8x128x1 .f32) (G : Vec F S256x128x1 .f32)
    (h : ∀ (y : S8x128x1.Idx) (i : S256x128x1.Idx), (i 0).val = t.val * 8 + (y 0).val → (i 1).val = (y 1).val → (i 2).val = (y 2).val → X y = G i) :
    (cfg0.win 9).cut (grid0.coords t) X = ((cfg0.win 9).blk t).view.read (Elt F) G := by
  obtain ⟨e0, e1, e2⟩ := index0_9 t
  funext y
  show X y = G (((cfg0.win 9).blk t).view.emb y)
  refine h y _ ?_ ?_ ?_
  · show win0_9.index t (0 : Fin 3) * 8 + 1 * (y 0).val = t.val * 8 + (y 0).val; rw [e0]; omega
  · show win0_9.index t (1 : Fin 3) * 128 + 1 * (y 1).val = (y 1).val; rw [e1]; omega
  · show win0_9.index t (2 : Fin 3) * 1 + 1 * (y 2).val = (y 2).val; rw [e2]; omega

/-- What point t writes back into output array 9 is block t of sqArr of the arrays the region finds. -/
theorem flushed9_eq (c : Dev nD) (t : Fin cfg0.N) :
    (dat0 V c).flushed 9 t = ((cfg0.win 9).blk t).view.read (Elt F) (sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 9).cut (grid0.coords t) ((dat0 V c).after 9 t) = _
  rw [after0_9]
  refine blk9_read t (out0_9 (iblk0 V c 0 t) (iblk0 V c 1 t) (iblk0 V c 2 t) (iblk0 V c 3 t) (iblk0 V c 4 t) (iblk0 V c 5 t) (iblk0 V c 6 t)) (sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun y i h0 h1 h2 => ?_)
  exact (sqArr_at (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (iblk0 V c 0 t) (iblk0 V c 1 t) (iblk0 V c 2 t) (iblk0 V c 3 t) (iblk0 V c 4 t) (iblk0 V c 5 t) (iblk0 V c 6 t) ⟨t.val, pt_lt t⟩
    (iblk0_0_eq V c t) (iblk0_1_eq V c t) (iblk0_2_eq V c t) (iblk0_3_eq V c t) (iblk0_4_eq V c t) (iblk0_5_eq V c t) (iblk0_6_eq V c t) y i h0 h1 h2).symm

/-- An index of output array 9 is in point t's block iff each coordinate is in the block's range on its axis. -/
theorem mem_blk9 (t : Fin cfg0.N) (i : S256x128x1.Idx) :
    i ∈ ((cfg0.win 9).blk t).view.set ↔ ∀ a : Fin 3, win0_9.index t a * S8x128x1.size a ≤ (i a).val ∧ (i a).val < win0_9.index t a * S8x128x1.size a + S8x128x1.size a := by
  show i ∈ ((View.whole main_v394_2).slice (win0_9.rect t)).set ↔ _
  rw [View.set_slice_whole, Rect.mem_set_unit]
  exact Iff.rfl

/-- Every index of output array 9 is in the block of the point that holds its batch. -/
theorem cover9 (i : S256x128x1.Idx) : ∃ t : Fin cfg0.N, (cfg0.win 9).flush t = true ∧ i ∈ ((cfg0.win 9).blk t).view.set := by
  have hi0 : (i 0).val < 256 := (i 0).isLt
  have hi1 : (i 1).val < 128 := (i 1).isLt
  have hi2 : (i 2).val < 1 := (i 2).isLt
  have hN : cfg0.N = 32 := N_0
  refine ⟨⟨(i 0).val / 8, by omega⟩, flush0_9 _, ?_⟩
  obtain ⟨e0, e1, e2⟩ := index0_9 ⟨(i 0).val / 8, by omega⟩
  rw [mem_blk9]
  intro a
  match a with
  | ⟨0, _⟩ => show win0_9.index _ (0 : Fin 3) * 8 ≤ (i 0).val ∧ (i 0).val < win0_9.index _ (0 : Fin 3) * 8 + 8; rw [e0]; show (i 0).val / 8 * 8 ≤ (i 0).val ∧ (i 0).val < (i 0).val / 8 * 8 + 8; omega
  | ⟨1, _⟩ => show win0_9.index _ (1 : Fin 3) * 128 ≤ (i 1).val ∧ (i 1).val < win0_9.index _ (1 : Fin 3) * 128 + 128; rw [e1]; omega
  | ⟨2, _⟩ => show win0_9.index _ (2 : Fin 3) * 1 ≤ (i 2).val ∧ (i 2).val < win0_9.index _ (2 : Fin 3) * 1 + 1; rw [e2]; omega

/-- The array of sums of squares along the feature axis after the region is sqArr of the arrays the region finds. -/
theorem exit_sq (c : Dev nD) : (dat0 V c).arrAt 9 cfg0.N = sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 9 (sqArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed9_eq V c t) cover9

end Cert.ReferenceIdeal.Val0

end
-- ==== Proof.RefVal1.lean ====
/-
  Region 1 of the reference program, from blocks to the array.  The grid is 32 by 1; point t writes batches
  8 t … 8 t + 7 of the output, and what it writes there is the per-node affine map of batches 8 t … 8 t + 7 of the
  activation and of the two whole columns.  So the output array after the region is one pointwise function of the
  three input arrays as the region finds them: entry (b, n, j) of the activation times scale n plus shift n, the
  same function the other program's second pass computes.  This module proves that each input window's block at a
  point is the stated part of its array, that a point's write-back is its block of that function, that the blocks
  cover the array, and so that the array after the last point is the function.
-/
import proofs.«142292_g2000406351686535_pallasbulk_564_2_alg».proof.Proof.RefBody1
import proofs.«142292_g2000406351686535_pallasbulk_564_2_alg».proof.Proof.BnPoint
import Idealize.ShloMosaic.Lib.Pipeline.Value
import Idealize.ShloMosaic.Lib.ValueIdx

set_option maxRecDepth 16384

noncomputable section

namespace Cert.ReferenceIdeal.Val1

open Idealize.ShloMosaic Idealize.ShloMosaic.TcCoe Idealize.ShloMosaic.ValueIdx
open Idealize.SL Idealize.SL.Sem
open Idealize.ShloMosaic.Pipeline (Dat)
open Cert.ReferenceIdeal Cert.ReferenceIdeal.Gen Cert.ReferenceIdeal.Body Cert.BnPoint

variable (V : (c : Dev nD) → (b : Ref sig .tc) → Buf (Elt Ideal) ((c : Thread nD τ).loc b))

/-! ## The index maps over the grid -/

/-- The grid has 32 points (32 by 1). -/
theorem pt_lt (t : Fin cfg1.N) : t.val < 32 := by
  have h := t.isLt
  have e : cfg1.N = 32 := N_1
  omega

/-- The activation's block at point `t` is block `(t, 0, 0)`; -/
theorem index1_0 : ∀ t : Fin cfg1.N, win1_0.index t (0 : Fin 3) = t.val ∧ win1_0.index t (1 : Fin 3) = 0 ∧ win1_0.index t (2 : Fin 3) = 0 :=
  (by decide +kernel : ∀ t : Fin grid1.N, _)
/-- the two columns sit at block `(0, 0)` at every point; -/
theorem index1_1 : ∀ t : Fin cfg1.N, win1_1.index t (0 : Fin 2) = 0 ∧ win1_1.index t (1 : Fin 2) = 0 :=
  (by decide +kernel : ∀ t : Fin grid1.N, _)
theorem index1_2 : ∀ t : Fin cfg1.N, win1_2.index t (0 : Fin 2) = 0 ∧ win1_2.index t (1 : Fin 2) = 0 :=
  (by decide +kernel : ∀ t : Fin grid1.N, _)
/-- and the output's block at point `t` is block `(t, 0, 0)`. -/
theorem index1_3 : ∀ t : Fin cfg1.N, win1_3.index t (0 : Fin 3) = t.val ∧ win1_3.index t (1 : Fin 3) = 0 ∧ win1_3.index t (2 : Fin 3) = 0 :=
  (by decide +kernel : ∀ t : Fin grid1.N, _)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## One element of one block -/

/-- If a block of 8 batches agrees with the whole activation at the places the output block covers, and the two
columns are the whole columns, then the body's value at a block index is the affine map of the whole arrays at the
array index under it (the node coordinate is the same in the block and in the array). -/
theorem point_eq (x0 : Vec Ideal S8x128x384 .f32) (x1 x2 : Vec Ideal S128x1 .f32)
    (A0 : S256x128x384.Idx → EReal) (A1 A2 : S128x1.Idx → EReal) (y : S8x128x384.Idx) (i : S256x128x384.Idx)
    (h0 : x0 y = A0 i) (h1 : x1 = A1) (h2 : x2 = A2) (hi : (i 1).val = (y 1).val) :
    k1_pay1 (F := Ideal) x1 x2 x0 y = affine A0 A1 A2 i := by
  obtain ⟨b, n, j, rfl⟩ : ∃ (b : Fin 8) (n : Fin 128) (j : Fin 384), y = ix3 b n j := ⟨y 0, y 1, y 2, eq_ix3 y⟩
  have hn : (i 1 : Fin 128) = n := Fin.ext hi
  subst h1 h2
  rw [ref_apply, h0]
  show A0 i * x1 (ix2 n (0 : Fin 1)) + x2 (ix2 n (0 : Fin 1))
    = A0 i * x1 (ix2 (i 1 : Fin 128) (0 : Fin 1)) + x2 (ix2 (i 1 : Fin 128) (0 : Fin 1))
  rw [hn]

/-! ## The input blocks at a point -/

/-- The activation's block at point `t` is batches `8 t … 8 t + 7` of its array. -/
theorem iblk1_0_at (c : Dev nD) (t : Fin cfg1.N) (y : S8x128x384.Idx) (i : S256x128x384.Idx)
    (h0 : (i 0).val = t.val * 8 + (y 0).val) (h1 : (i 1).val = (y 1).val) (h2 : (i 2).val = (y 2).val) :
    (iblk1 V c 0 t : Vec Ideal S8x128x384 .f32) y = V c (Pipeline.arrRef spec1 0) i := by
  obtain ⟨e0, e1, e2⟩ := index1_0 t
  unfold iblk1
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 3) * 8 + 1 * (y 0).val = (i 0).val; omega
  | ⟨1, _⟩ => show win1_0.index t (1 : Fin 3) * 128 + 1 * (y 1).val = (i 1).val; omega
  | ⟨2, _⟩ => show win1_0.index t (2 : Fin 3) * 384 + 1 * (y 2).val = (i 2).val; omega

/-- Each column's block, at every point, is the whole column. -/
theorem iblk1_1_eq (c : Dev nD) (t : Fin cfg1.N) :
    (iblk1 V c 1 t : Vec Ideal S128x1 .f32) = V c (Pipeline.arrRef spec1 1) := by
  obtain ⟨e0, e1⟩ := index1_1 t
  funext y
  unfold iblk1
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 1 + 1 * (y 1).val = (y 1).val; omega
theorem iblk1_2_eq (c : Dev nD) (t : Fin cfg1.N) :
    (iblk1 V c 2 t : Vec Ideal S128x1 .f32) = V c (Pipeline.arrRef spec1 2) := by
  obtain ⟨e0, e1⟩ := index1_2 t
  funext y
  unfold iblk1
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 1 + 1 * (y 1).val = (y 1).val; omega

/-! ## A point's write-back is its block of the affine map -/

theorem flushed3_eq (c : Dev nD) (t : Fin cfg1.N) :
    (dat1 V c).flushed 3 t = ((cfg1.win 3).blk t).view.read (Elt Ideal)
      (affine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros3]
  simp only [View.ld_unit_zero (S := S8x128x384) zeros3, View.ld_unit_zero (S := S128x1) zeros2]
  obtain ⟨d0, d1, d2⟩ := index1_3 t
  funext j
  refine point_eq _ _ _ _ _ _ ((cfg1.win 3).xinj (grid1.coords t) j) (((cfg1.win 3).blk t).view.emb j)
    (iblk1_0_at V c t _ _ ?_ ?_ ?_) (iblk1_1_eq V c t) (iblk1_2_eq V c t) ?_
  · show win1_3.index t (0 : Fin 3) * 8 + 1 * (j 0).val = t.val * 8 + (j 0).val; omega
  · show win1_3.index t (1 : Fin 3) * 128 + 1 * (j 1).val = (j 1).val; omega
  · show win1_3.index t (2 : Fin 3) * 384 + 1 * (j 2).val = (j 2).val; omega
  · show win1_3.index t (1 : Fin 3) * 128 + 1 * (j 1).val = (j 1).val; omega

/-! ## The blocks cover the array -/

/-- An index of the array is in point `t`'s block iff each coordinate is in the block's range on its axis. -/
theorem mem_blk3 (t : Fin cfg1.N) (i : S256x128x384.Idx) :
    i ∈ ((cfg1.win 3).blk t).view.set ↔ ∀ a : Fin 3, win1_3.index t a * S8x128x384.size a ≤ (i a).val
      ∧ (i a).val < win1_3.index t a * S8x128x384.size a + S8x128x384.size a := by
  show i ∈ ((View.whole main_v418).slice (win1_3.rect t)).set ↔ _
  rw [View.set_slice_whole, Rect.mem_set_unit]
  exact Iff.rfl

/-- Batch `b` lies in the block of point `b / 8`. -/
theorem cover3 (i : S256x128x384.Idx) :
    ∃ t : Fin cfg1.N, (cfg1.win 3).flush t = true ∧ i ∈ ((cfg1.win 3).blk t).view.set := by
  have hi0 : (i 0).val < 256 := (i 0).isLt
  have hi1 : (i 1).val < 128 := (i 1).isLt
  have hi2 : (i 2).val < 384 := (i 2).isLt
  have hN : cfg1.N = 32 := N_1
  let t : Fin cfg1.N := ⟨(i 0).val / 8, by rw [hN]; omega⟩
  obtain ⟨d0, d1, d2⟩ := index1_3 t
  have ht : t.val = (i 0).val / 8 := rfl
  refine ⟨t, flush1_3 t, ?_⟩
  rw [mem_blk3]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 128 ≤ (i 1).val ∧ (i 1).val < win1_3.index t (1 : Fin 3) * 128 + 128; omega
  | ⟨2, _⟩ => show win1_3.index t (2 : Fin 3) * 384 ≤ (i 2).val ∧ (i 2).val < win1_3.index t (2 : Fin 3) * 384 + 384; omega

/-! ## The array after the region -/

/-- After the last point the output array is the affine map of the activation and the two columns as the region
found them. -/
theorem exit_out (c : Dev nD) :
    (dat1 V c).arrAt 3 cfg1.N
      = affine (V c (Pipeline.arrRef spec1 0)) (V c (Pipeline.arrRef spec1 1)) (V c (Pipeline.arrRef spec1 2)) :=
  (dat1 V c).arrAt_eq_of_cover 3 _ (fun t _ => flushed3_eq V c t) cover3

end Cert.ReferenceIdeal.Val1

end
-- ==== Proof.RefResult.lean ====
/-
  The result of the reference program as one function of what its first pass finds and of the two normalisation
  parameters.  The last host operation reshapes the second pass's output; the second pass's output is the per-node
  affine map of the first pass's activation array with the scale and shift columns; the host operations between the
  passes leave the activation array alone and compute the two columns from the first pass's two arrays of partial
  sums and from the parameters, which nothing before has written; and the first pass's three arrays are the stated
  functions of the seven arrays it finds.  Composing these equalities gives the result.
-/
import proofs.«142292_g2000406351686535_pallasbulk_564_2_alg».proof.Proof.RefFold
import proofs.«142292_g2000406351686535_pallasbulk_564_2_alg».proof.Proof.RefVal0
import proofs.«142292_g2000406351686535_pallasbulk_564_2_alg».proof.Proof.RefVal1
import proofs.«142292_g2000406351686535_pallasbulk_564_2_alg».proof.Proof.MidHost
import proofs.«142292_g2000406351686535_pallasbulk_564_2_alg».proof.Proof.BnPoint

set_option maxRecDepth 16384

noncomputable section

namespace Cert.ReferenceIdeal.Result

open Idealize.ShloMosaic Idealize.ShloMosaic.TcCoe Idealize.ShloMosaic.ValueIdx
open Idealize.SL Idealize.SL.Sem
open Cert.ReferenceIdeal Cert.ReferenceIdeal.Gen Cert.ReferenceIdeal.Body Cert.ReferenceIdeal.Fold Cert.ReferenceIdeal.Val0 Cert.BnPoint

variable (m : (ℓ : Loc nD τ sig) → Buf (Elt Ideal) ℓ) (ρ : Dev nD → PrngReg)

/-- The program's result as a function of the seven arrays its first pass finds and of the two parameters: the
affine map of the activation array with the scale and shift computed from the partial sums, reshaped. -/
def resOf (x : Vec Ideal S256x128x256 .f32) (ak : Vec Ideal S1024x1024 .f32) (w1 : Vec Ideal S256x1536 .f32)
    (b1 : Vec Ideal S1x1536 .f32) (th : Vec Ideal S512x224 .f32) (w2 : Vec Ideal S224x1152 .f32) (b2 : Vec Ideal S1x1152 .f32)
    (g b : S128x1.Idx → EReal) : S256x128x12x32.Idx → EReal :=
  shapeCast S256x128x12x32
    (affine (actArr x ak w1 b1 th w2 b2)
      (Cert.MidHost.scaleOf (F := Ideal) (sumArr x ak w1 b1 th w2 b2) (sqArr x ak w1 b1 th w2 b2) g)
      (Cert.MidHost.shiftOf (F := Ideal) (sumArr x ak w1 b1 th w2 b2) (sqArr x ak w1 b1 th w2 b2) g b))
    shapeCasts_S256x128x384_S256x128x12x32

/-- The last host operation reshapes the second pass's output array. -/
theorem out_step (c : Dev nD) :
    W35 m ρ c (Proc.devRef .tc main_v419)
      = shapeCast S256x128x12x32 (W34 m ρ c (Proc.devRef .tc main_v418)) shapeCasts_S256x128x384_S256x128x12x32 :=
  Cert.MidHost.ref_out (F := Ideal) (W34 m ρ c)

/-- The second pass's output array is the affine map of the three arrays the pass finds. -/
theorem arr_step (c : Dev nD) :
    W34 m ρ c (Proc.devRef .tc main_v418)
      = affine (V33 m ρ c (Pipeline.arrRef spec1 0)) (V33 m ρ c (Pipeline.arrRef spec1 1))
          (V33 m ρ c (Pipeline.arrRef spec1 2)) :=
  (W34_arr m ρ c 3).trans (Cert.ReferenceIdeal.Val1.exit_out (V33 m ρ) c)

/-- The activation array the second pass finds is the one the first pass left. -/
theorem act_step (c : Dev nD) :
    V33 m ρ c (Pipeline.arrRef spec1 0) = actArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6)) :=
  ((Cert.MidHost.ref_keep_act (F := Ideal) (W32 m ρ c)).trans (W32_arr m ρ c 7)).trans (exit_act (V31 m ρ) c)

/-- The two arrays of partial sums the first pass left. -/
theorem sum_step (c : Dev nD) :
    W32 m ρ c (Proc.devRef .tc main_v394_1) = sumArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6)) :=
  (W32_arr m ρ c 8).trans (exit_sum (V31 m ρ) c)
theorem sq_step (c : Dev nD) :
    W32 m ρ c (Proc.devRef .tc main_v394_2) = sqArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6)) :=
  (W32_arr m ρ c 9).trans (exit_sq (V31 m ρ) c)

/-- The two parameters still hold their launch contents when the first pass is left: no host operation before it
writes them and the pass stages neither. -/
theorem gamma_step (c : Dev nD) :
    W32 m ρ c (Proc.devRef .tc main_arg5) = m ((c : Thread nD τ).loc main_arg5) :=
  kept_X0 m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem beta_step (c : Dev nD) :
    W32 m ρ c (Proc.devRef .tc main_arg6) = m ((c : Thread nD τ).loc main_arg6) :=
  kept_X0 m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

set_option maxHeartbeats 4000000 in
/-- The scale column the second pass finds. -/
theorem scale_step (c : Dev nD) :
    V33 m ρ c (Pipeline.arrRef spec1 1)
      = Cert.MidHost.scaleOf (F := Ideal) (sumArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6))) (sqArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6)))
          (m ((c : Thread nD τ).loc main_arg5)) := by
  refine (Cert.MidHost.ref_scale (F := Ideal) (W32 m ρ c)).trans ?_
  rw [sum_step m ρ c, sq_step m ρ c, gamma_step m ρ c]

set_option maxHeartbeats 4000000 in
/-- The shift column the second pass finds. -/
theorem shift_step (c : Dev nD) :
    V33 m ρ c (Pipeline.arrRef spec1 2)
      = Cert.MidHost.shiftOf (F := Ideal) (sumArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6))) (sqArr (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6)))
          (m ((c : Thread nD τ).loc main_arg5)) (m ((c : Thread nD τ).loc main_arg6)) := by
  refine (Cert.MidHost.ref_shift (F := Ideal) (W32 m ρ c)).trans ?_
  rw [sum_step m ρ c, sq_step m ρ c, gamma_step m ρ c, beta_step m ρ c]

set_option maxHeartbeats 4000000 in
/-- The program's result buffer at the end, as `resOf` of the seven arrays the first pass finds and of the launch
contents of the two parameters. -/
theorem result (c : Dev nD) :
    W35 m ρ c (Proc.devRef .tc main_v419)
      = resOf (V31 m ρ c (Pipeline.arrRef spec0 0)) (V31 m ρ c (Pipeline.arrRef spec0 1)) (V31 m ρ c (Pipeline.arrRef spec0 2)) (V31 m ρ c (Pipeline.arrRef spec0 3)) (V31 m ρ c (Pipeline.arrRef spec0 4)) (V31 m ρ c (Pipeline.arrRef spec0 5)) (V31 m ρ c (Pipeline.arrRef spec0 6))
          (m ((c : Thread nD τ).loc main_arg5)) (m ((c : Thread nD τ).loc main_arg6)) := by
  unfold resOf
  rw [out_step m ρ c, arr_step m ρ c, act_step m ρ c, scale_step m ρ c, shift_step m ρ c]

end Cert.ReferenceIdeal.Result

end
-- ==== Proof.LibScatterSet.lean ====
import Idealize.ShloMosaic.PureOps.ShapeOps
import Mathlib.Data.List.Basic
import Mathlib.Data.List.FinRange
import Mathlib.Logic.Equiv.Defs

/-!
Reading a scatter whose body returns the update ("set") at one operand index.

The scatter is a left fold over the update numbers in row-major order; each step overwrites
the operand element the update lands at.  When the landing indices of distinct updates are
distinct, the result at an index that some update lands at is that update's value; at an
index that no update lands at it is the operand's value.
-/

namespace Cert.LibScatter

open Idealize.ShloMosaic

variable {α : Type} {s si u : Shape} {w : Nat}

/-- One step of the fold: update number `n` overwrites the element it lands at. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_fold (d : ScatterDims s si u) (x : s.Idx → α) (idx : IVec si w) (upd : u.Idx → α) :
    Host.scatter d (fun _ b => b) x idx upd = (List.finRange u.numel).foldl (step d idx upd) x := rfl

theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases h' : d.resultIdx? (u.rowMajor.symm n) idx with
  | none => rfl
  | some i' =>
    have hne : i ≠ i' := fun e => h (by rw [h', e])
    exact if_neg hne

/-- No update of the list lands at `i`: the fold leaves the start value there. -/
theorem fold_miss (d : ScatterDims s si u) (idx : IVec si w) (upd : u.Idx → α) (L : List (Fin u.numel))
    (x : s.Idx → α) (i : s.Idx) (h : ∀ n ∈ L, d.resultIdx? (u.rowMajor.symm n) idx ≠ some i) :
    (L.foldl (step d idx upd) x) i = x i := by
  induction L generalizing x with
  | nil => rfl
  | cons n L ih =>
    rw [List.foldl_cons, ih _ (fun m hm => h m (List.mem_cons_of_mem _ hm)),
      step_miss d idx upd x n i (h n List.mem_cons_self)]

/-- Update `j` is in the list and lands at `i`, and landing indices of distinct updates are
    distinct: the fold holds `upd j` there. -/
theorem fold_hit (d : ScatterDims s si u) (idx : IVec si w) (upd : u.Idx → α)
    (hinj : ∀ j j' i, d.resultIdx? j idx = some i → d.resultIdx? j' idx = some i → j = j')
    (L : List (Fin u.numel)) (x : s.Idx → α) (i : s.Idx) (j : u.Idx)
    (hj : d.resultIdx? j idx = some i) (hmem : u.rowMajor j ∈ L) :
    (L.foldl (step d idx upd) x) i = upd j := by
  induction L using List.reverseRecOn with
  | nil => exact absurd hmem List.not_mem_nil
  | append_singleton L n ih =>
    rw [List.foldl_append, List.foldl_cons, List.foldl_nil]
    by_cases hn : d.resultIdx? (u.rowMajor.symm n) idx = some i
    · rw [step_hit d idx upd _ n i hn, hinj _ _ _ hn hj]
    · rw [step_miss d idx upd _ n i hn]
      apply ih
      rcases List.mem_append.1 hmem with h | h
      · exact h
      · exfalso
        apply hn
        have hnj : n = u.rowMajor j := (List.mem_singleton.1 h).symm
        rw [hnj, Equiv.symm_apply_apply]
        exact hj

theorem scatter_set_hit {α : Type} {s si u : Shape} {w : Nat} (d : ScatterDims s si u) (x : s.Idx → α) (idx : IVec si w) (upd : u.Idx → α)
    (hinj : ∀ j j' i, d.resultIdx? j idx = some i → d.resultIdx? j' idx = some i → j = j')
    (i : s.Idx) (j : u.Idx) (hj : d.resultIdx? j idx = some i) :
    Host.scatter d (fun _ b => b) x idx upd i = upd j := by
  rw [scatter_eq_fold]
  exact fold_hit d idx upd hinj _ x i j hj (List.mem_finRange _)

theorem scatter_set_miss {α : Type} {s si u : Shape} {w : Nat} (d : ScatterDims s si u) (x : s.Idx → α) (idx : IVec si w) (upd : u.Idx → α)
    (i : s.Idx) (hi : ∀ j, d.resultIdx? j idx ≠ some i) :
    Host.scatter d (fun _ b => b) x idx upd i = x i := by
  rw [scatter_eq_fold]
  exact fold_miss d idx upd _ x i (fun n _ => hi _)

end Cert.LibScatter
-- ==== Proof.ToepKer.lean ====
import proofs.«142292_g2000406351686535_pallasbulk_564_2_alg».proof.KernelIdeal
import proofs.«142292_g2000406351686535_pallasbulk_564_2_alg».proof.Proof.LibScatterSet
import Idealize.ShloMosaic.Lib.ValueIdx
import Idealize.ShloMosaic.Lib.WordArith

/-!
The banded (Toeplitz) weight array built by scatters, read at one element.

One scatter with body "return the update" writes, for every row number `t`, the slab
`u[t, ·, ·]` into the operand at `[t + k, ·, t, ·]`: the index vector of update row `t` is
`(t + k, t)`, naming operand axes 0 and 2, and the update's two window axes go to operand axes
1 and 3.  Distinct update elements land at distinct operand elements, so the result at
`[τ, ci, t, co]` is `u[t, ci, co]` when `τ = t + k` and the operand's element otherwise.
Three such scatters with `k = 0, 1, 2` over a constant array give the band
`W[t + k, ci, t, co] = u_k[t, ci, co]`, constant off the band.

Everything is first proved for arbitrary extents `n0, n1, m, n3` (operand `[n0, n1, m, n3]`,
indices `[m, 2]`, update `[m, n1, n3]`) and then read at the two sets of extents of the program.
-/

namespace Cert.ToepKer

open Idealize.ShloMosaic Idealize.ShloMosaic.ValueIdx Cert.KernelIdeal

/-- The scatter's dimension numbers at arbitrary extents: update window axes `[1, 2]`, inserted
    operand axes `[0, 2]`, the index vector's two components naming operand axes `[0, 2]`, the
    index vector along axis 1 of the indices. -/
abbrev bandDims (n0 n1 m n3 : ℕ)
    (wf : ScatterDims.WF ⟨4, ![n0, n1, m, n3]⟩ ⟨2, ![m, 2]⟩ ⟨3, ![m, n1, n3]⟩ [1, 2] [0, 2] [0, 2] 1) :
    ScatterDims ⟨4, ![n0, n1, m, n3]⟩ ⟨2, ![m, 2]⟩ ⟨3, ![m, n1, n3]⟩ where
  updateWindowDims := [1, 2]
  insertedWindowDims := [0, 2]
  scatterDimsToOperandDims := [0, 2]
  indexVectorDim := 1
  wf := wf

section General

variable {n0 n1 m n3 : ℕ}
  (wf : ScatterDims.WF ⟨4, ![n0, n1, m, n3]⟩ ⟨2, ![m, 2]⟩ ⟨3, ![m, n1, n3]⟩ [1, 2] [0, 2] [0, 2] 1)

/-- On operand axis 0 the window of update element `(t, ci, co)` starts at the first component
    of row `t`'s index vector. -/
theorem start0 (idx : IVec ⟨2, ![m, 2]⟩ 32) (t : Fin m) (ci : Fin n1) (co : Fin n3) :
    (bandDims n0 n1 m n3 wf).start (ix3 t ci co) idx ⟨0, (by decide : 0 < 4)⟩
      = (idx (ix2 t ⟨0, by decide⟩)).toInt := by
  unfold ScatterDims.start
  rw [dif_pos]
  · congr 2
    funext b; refine Fin.ext ?_
    match b with
    | ⟨0, _⟩ => rfl
    | ⟨1, _⟩ => rfl
  · exact List.mem_cons_self

/-- On operand axis 2 it starts at the second component. -/
theorem start2 (idx : IVec ⟨2, ![m, 2]⟩ 32) (t : Fin m) (ci : Fin n1) (co : Fin n3) :
    (bandDims n0 n1 m n3 wf).start (ix3 t ci co) idx ⟨2, (by decide : 2 < 4)⟩
      = (idx (ix2 t ⟨1, by decide⟩)).toInt := by
  unfold ScatterDims.start
  rw [dif_pos]
  · congr 2
    funext b; refine Fin.ext ?_
    match b with
    | ⟨0, _⟩ => rfl
    | ⟨1, _⟩ => rfl
  · exact List.mem_cons_of_mem _ List.mem_cons_self

/-- Operand axes 1 and 3 are not named by the index vector: the window starts at 0 there. -/
theorem start1 (idx : IVec ⟨2, ![m, 2]⟩ 32) (t : Fin m) (ci : Fin n1) (co : Fin n3) :
    (bandDims n0 n1 m n3 wf).start (ix3 t ci co) idx ⟨1, (by decide : 1 < 4)⟩ = 0 := rfl
theorem start3 (idx : IVec ⟨2, ![m, 2]⟩ 32) (t : Fin m) (ci : Fin n1) (co : Fin n3) :
    (bandDims n0 n1 m n3 wf).start (ix3 t ci co) idx ⟨3, (by decide : 3 < 4)⟩ = 0 := rfl

/-- The window coordinates: 0 on the inserted axes 0 and 2, the update's `ci` on axis 1 and its
    `co` on axis 3. -/
theorem window0 (t : Fin m) (ci : Fin n1) (co : Fin n3) :
    (bandDims n0 n1 m n3 wf).window (ix3 t ci co) ⟨0, (by decide : 0 < 4)⟩ = 0 := rfl
theorem window1 (t : Fin m) (ci : Fin n1) (co : Fin n3) :
    (bandDims n0 n1 m n3 wf).window (ix3 t ci co) ⟨1, (by decide : 1 < 4)⟩ = ci.val := rfl
theorem window2 (t : Fin m) (ci : Fin n1) (co : Fin n3) :
    (bandDims n0 n1 m n3 wf).window (ix3 t ci co) ⟨2, (by decide : 2 < 4)⟩ = 0 := rfl
theorem window3 (t : Fin m) (ci : Fin n1) (co : Fin n3) :
    (bandDims n0 n1 m n3 wf).window (ix3 t ci co) ⟨3, (by decide : 3 < 4)⟩ = co.val := rfl

/-- WHERE AN UPDATE ELEMENT LANDS: with row `t`'s index vector `(t + k, t)`, update element
    `(t, ci, co)` lands at operand element `(t + k, ci, t, co)`. -/
theorem landing (k : ℕ) (hk : k + m ≤ n0) (hn0 : n0 ≤ 2 ^ 31) (idx : IVec ⟨2, ![m, 2]⟩ 32)
    (h0 : ∀ t : Fin m, idx (ix2 t ⟨0, by decide⟩) = BitVec.ofNat 32 (t.val + k))
    (h1 : ∀ t : Fin m, idx (ix2 t ⟨1, by decide⟩) = BitVec.ofNat 32 t.val)
    (t : Fin m) (ci : Fin n1) (co : Fin n3) :
    (bandDims n0 n1 m n3 wf).resultIdx? (ix3 t ci co) idx
      = some (ix4 (⟨t.val + k, by omega⟩ : Fin n0) ci t co) := by
  have key : ∀ a, (bandDims n0 n1 m n3 wf).start (ix3 t ci co) idx a
        + ((bandDims n0 n1 m n3 wf).window (ix3 t ci co) a : ℤ)
      = (((ix4 (⟨t.val + k, by omega⟩ : Fin n0) ci t co) a).val : ℤ) := by
    intro a
    match a with
    | ⟨0, _⟩ =>
      rw [start0, window0, h0, WordArith.toInt_ofNat_small _ (by omega)]
      simp
    | ⟨1, _⟩ =>
      rw [start1, window1]
      simp
    | ⟨2, _⟩ =>
      rw [start2, window2, h1, WordArith.toInt_ofNat_small _ (by omega)]
      simp
    | ⟨3, _⟩ =>
      rw [start3, window3]
      simp
  unfold ScatterDims.resultIdx?
  rw [dif_pos (fun a => by rw [key a]; exact ⟨Int.natCast_nonneg _, Int.ofNat_lt.2 (Fin.isLt _)⟩)]
  congr 1
  funext a
  refine Fin.ext ?_
  show (_ + _ : ℤ).toNat = _
  rw [key a]
  exact Int.toNat_natCast _

/-- ONE TAP: the scatter of the slabs `u[t, ·, ·]` to `[t + k, ·, t, ·]`, read at an element. -/
theorem tapGen {α : Type} (k : ℕ) (hk : k + m ≤ n0) (hn0 : n0 ≤ 2 ^ 31)
    (x : (⟨4, ![n0, n1, m, n3]⟩ : Shape).Idx → α) (idx : IVec ⟨2, ![m, 2]⟩ 32)
    (h0 : ∀ t : Fin m, idx (ix2 t ⟨0, by decide⟩) = BitVec.ofNat 32 (t.val + k))
    (h1 : ∀ t : Fin m, idx (ix2 t ⟨1, by decide⟩) = BitVec.ofNat 32 t.val)
    (u : (⟨3, ![m, n1, n3]⟩ : Shape).Idx → α) (τ : Fin n0) (ci : Fin n1) (t : Fin m) (co : Fin n3) :
    Host.scatter (bandDims n0 n1 m n3 wf) (fun _ b => b) x idx u (ix4 τ ci t co)
      = if τ.val = t.val + k then u (ix3 t ci co) else x (ix4 τ ci t co) := by
  have L := landing wf k hk hn0 idx h0 h1
  have p0 : 0 < 4 := by decide
  have p1 : 1 < 4 := by decide
  have p2 : 2 < 4 := by decide
  have p3 : 3 < 4 := by decide
  split_ifs with hτ
  · -- the element is on the band: update element (t, ci, co) lands here, and only it
    have hland : (bandDims n0 n1 m n3 wf).resultIdx? (ix3 t ci co) idx = some (ix4 τ ci t co) :=
      (L t ci co).trans (congrArg (fun τ' => some (ix4 τ' ci t co)) (Fin.ext hτ.symm))
    refine Cert.LibScatter.scatter_set_hit _ x idx u ?_ _ (ix3 t ci co) hland
    intro j j' i hj hj'
    obtain ⟨a, b, c, rfl⟩ : ∃ a b c, j = ix3 a b c := ⟨_, _, _, eq_ix3 j⟩
    obtain ⟨a', b', c', rfl⟩ : ∃ a b c, j' = ix3 a b c := ⟨_, _, _, eq_ix3 j'⟩
    rw [L] at hj hj'
    have e := Option.some.inj (hj.trans hj'.symm)
    have e1 : b = b' := congrFun e ⟨1, p1⟩
    have e2 : a = a' := congrFun e ⟨2, p2⟩
    have e3 : c = c' := congrFun e ⟨3, p3⟩
    rw [e1, e2, e3]
  · -- off the band: no update element lands here
    refine Cert.LibScatter.scatter_set_miss _ x idx u _ ?_
    intro j hj
    obtain ⟨a, b, c, rfl⟩ : ∃ a b c, j = ix3 a b c := ⟨_, _, _, eq_ix3 j⟩
    rw [L] at hj
    have e := Option.some.inj hj
    have e2 : a = t := congrFun e ⟨2, p2⟩
    have e0 : a.val + k = τ.val := congrArg Fin.val (congrFun e ⟨0, p0⟩)
    apply hτ
    rw [← e0, e2]

/-- THE BAND: taps `k = 0, 1, 2` scattered in turn into an array that is constantly `z`. -/
theorem bandGen {α : Type} (h2 : 2 + m ≤ n0) (hn0 : n0 ≤ 2 ^ 31) (z : α)
    (x : (⟨4, ![n0, n1, m, n3]⟩ : Shape).Idx → α) (hx : ∀ i, x i = z) (i0 i1 i2 : IVec ⟨2, ![m, 2]⟩ 32)
    (h00 : ∀ t : Fin m, i0 (ix2 t ⟨0, by decide⟩) = BitVec.ofNat 32 t.val)
    (h01 : ∀ t : Fin m, i0 (ix2 t ⟨1, by decide⟩) = BitVec.ofNat 32 t.val)
    (h10 : ∀ t : Fin m, i1 (ix2 t ⟨0, by decide⟩) = BitVec.ofNat 32 (t.val + 1))
    (h11 : ∀ t : Fin m, i1 (ix2 t ⟨1, by decide⟩) = BitVec.ofNat 32 t.val)
    (h20 : ∀ t : Fin m, i2 (ix2 t ⟨0, by decide⟩) = BitVec.ofNat 32 (t.val + 2))
    (h21 : ∀ t : Fin m, i2 (ix2 t ⟨1, by decide⟩) = BitVec.ofNat 32 t.val)
    (u0 u1 u2 : (⟨3, ![m, n1, n3]⟩ : Shape).Idx → α) (τ : Fin n0) (ci : Fin n1) (t : Fin m) (co : Fin n3) :
    Host.scatter (bandDims n0 n1 m n3 wf) (fun _ b => b)
        (Host.scatter (bandDims n0 n1 m n3 wf) (fun _ b => b)
          (Host.scatter (bandDims n0 n1 m n3 wf) (fun _ b => b) x i0 u0) i1 u1) i2 u2 (ix4 τ ci t co)
      = if τ.val = t.val then u0 (ix3 t ci co)
        else if τ.val = t.val + 1 then u1 (ix3 t ci co)
        else if τ.val = t.val + 2 then u2 (ix3 t ci co) else z := by
  rw [tapGen wf 2 (by omega) hn0 _ i2 h20 h21, tapGen wf 1 (by omega) hn0 _ i1 h10 h11,
    tapGen wf 0 (by omega) hn0 _ i0 h00 h01, hx]
  split_ifs <;> first | rfl | omega

end General

section Program

variable [Facts₀]

/-- One tap of the first convolution's band: operand `[16, 16, 14, 32]`, update `[14, 16, 32]`. -/
theorem tap16 (k : ℕ) (hk : k + 14 ≤ 16) (x : S16x16x14x32.Idx → EReal) (idx : IVec S14x2 32)
    (h0 : ∀ t : Fin 14, idx (ix2 t ⟨0, by decide⟩) = BitVec.ofNat 32 (t.val + k))
    (h1 : ∀ t : Fin 14, idx (ix2 t ⟨1, by decide⟩) = BitVec.ofNat 32 t.val)
    (u : S14x16x32.Idx → EReal) (τ : Fin 16) (ci : Fin 16) (t : Fin 14) (co : Fin 32) :
    Host.scatter scatter_S16x16x14x32_S14x2_S14x16x32_12_02_02_1 (fun _ b => b) x idx u (ix4 τ ci t co)
      = if τ.val = t.val + k then u (ix3 t ci co) else x (ix4 τ ci t co) :=
  tapGen Facts₀.scatter_S16x16x14x32_S14x2_S14x16x32_12_02_02_1_wf k hk (by norm_num) x idx h0 h1 u τ ci t co

/-- One tap of the second convolution's band: operand `[14, 16, 12, 32]`, update `[12, 16, 32]`. -/
theorem tap14 (k : ℕ) (hk : k + 12 ≤ 14) (x : S14x16x12x32.Idx → EReal) (idx : IVec S12x2 32)
    (h0 : ∀ t : Fin 12, idx (ix2 t ⟨0, by decide⟩) = BitVec.ofNat 32 (t.val + k))
    (h1 : ∀ t : Fin 12, idx (ix2 t ⟨1, by decide⟩) = BitVec.ofNat 32 t.val)
    (u : S12x16x32.Idx → EReal) (τ : Fin 14) (ci : Fin 16) (t : Fin 12) (co : Fin 32) :
    Host.scatter scatter_S14x16x12x32_S12x2_S12x16x32_12_02_02_1 (fun _ b => b) x idx u (ix4 τ ci t co)
      = if τ.val = t.val + k then u (ix3 t ci co) else x (ix4 τ ci t co) :=
  tapGen Facts₀.scatter_S14x16x12x32_S12x2_S12x16x32_12_02_02_1_wf k hk (by norm_num) x idx h0 h1 u τ ci t co

/-- The first convolution's band: three taps over a constant array. -/
theorem band16 (z : EReal) (x : S16x16x14x32.Idx → EReal) (hx : ∀ i, x i = z) (i0 i1 i2 : IVec S14x2 32)
    (h00 : ∀ t : Fin 14, i0 (ix2 t ⟨0, by decide⟩) = BitVec.ofNat 32 t.val)
    (h01 : ∀ t : Fin 14, i0 (ix2 t ⟨1, by decide⟩) = BitVec.ofNat 32 t.val)
    (h10 : ∀ t : Fin 14, i1 (ix2 t ⟨0, by decide⟩) = BitVec.ofNat 32 (t.val + 1))
    (h11 : ∀ t : Fin 14, i1 (ix2 t ⟨1, by decide⟩) = BitVec.ofNat 32 t.val)
    (h20 : ∀ t : Fin 14, i2 (ix2 t ⟨0, by decide⟩) = BitVec.ofNat 32 (t.val + 2))
    (h21 : ∀ t : Fin 14, i2 (ix2 t ⟨1, by decide⟩) = BitVec.ofNat 32 t.val)
    (u0 u1 u2 : S14x16x32.Idx → EReal) (τ : Fin 16) (ci : Fin 16) (t : Fin 14) (co : Fin 32) :
    Host.scatter scatter_S16x16x14x32_S14x2_S14x16x32_12_02_02_1 (fun _ b => b)
        (Host.scatter scatter_S16x16x14x32_S14x2_S14x16x32_12_02_02_1 (fun _ b => b)
          (Host.scatter scatter_S16x16x14x32_S14x2_S14x16x32_12_02_02_1 (fun _ b => b) x i0 u0) i1 u1) i2 u2
        (ix4 τ ci t co)
      = if τ.val = t.val then u0 (ix3 t ci co)
        else if τ.val = t.val + 1 then u1 (ix3 t ci co)
        else if τ.val = t.val + 2 then u2 (ix3 t ci co) else z :=
  bandGen Facts₀.scatter_S16x16x14x32_S14x2_S14x16x32_12_02_02_1_wf (by norm_num) (by norm_num) z x hx i0 i1 i2
    h00 h01 h10 h11 h20 h21 u0 u1 u2 τ ci t co

/-- The second convolution's band. -/
theorem band14 (z : EReal) (x : S14x16x12x32.Idx → EReal) (hx : ∀ i, x i = z) (i0 i1 i2 : IVec S12x2 32)
    (h00 : ∀ t : Fin 12, i0 (ix2 t ⟨0, by decide⟩) = BitVec.ofNat 32 t.val)
    (h01 : ∀ t : Fin 12, i0 (ix2 t ⟨1, by decide⟩) = BitVec.ofNat 32 t.val)
    (h10 : ∀ t : Fin 12, i1 (ix2 t ⟨0, by decide⟩) = BitVec.ofNat 32 (t.val + 1))
    (h11 : ∀ t : Fin 12, i1 (ix2 t ⟨1, by decide⟩) = BitVec.ofNat 32 t.val)
    (h20 : ∀ t : Fin 12, i2 (ix2 t ⟨0, by decide⟩) = BitVec.ofNat 32 (t.val + 2))
    (h21 : ∀ t : Fin 12, i2 (ix2 t ⟨1, by decide⟩) = BitVec.ofNat 32 t.val)
    (u0 u1 u2 : S12x16x32.Idx → EReal) (τ : Fin 14) (ci : Fin 16) (t : Fin 12) (co : Fin 32) :
    Host.scatter scatter_S14x16x12x32_S12x2_S12x16x32_12_02_02_1 (fun _ b => b)
        (Host.scatter scatter_S14x16x12x32_S12x2_S12x16x32_12_02_02_1 (fun _ b => b)
          (Host.scatter scatter_S14x16x12x32_S12x2_S12x16x32_12_02_02_1 (fun _ b => b) x i0 u0) i1 u1) i2 u2
        (ix4 τ ci t co)
      = if τ.val = t.val then u0 (ix3 t ci co)
        else if τ.val = t.val + 1 then u1 (ix3 t ci co)
        else if τ.val = t.val + 2 then u2 (ix3 t ci co) else z :=
  bandGen Facts₀.scatter_S14x16x12x32_S12x2_S12x16x32_12_02_02_1_wf (by norm_num) (by norm_num) z x hx i0 i1 i2
    h00 h01 h10 h11 h20 h21 u0 u1 u2 τ ci t co

end Program

end Cert.ToepKer
-- ==== Proof.KerHostToep.lean ====
import proofs.«142292_g2000406351686535_pallasbulk_564_2_alg».proof.Proof.Gen.KernelIdeal.Launch
import proofs.«142292_g2000406351686535_pallasbulk_564_2_alg».proof.Proof.ToepKer
import Idealize.ShloMosaic.Lib.StableHlo.Run
import Idealize.ShloMosaic.Lib.ValueIdx
import Idealize.ShloMosaic.PureOps.Ideal
import Idealize.ShloMosaic.Lib.IdealHost
import Idealize.ShloMosaic.Lib.ValueLayout
import Idealize.ShloMosaic.Lib.Pipeline.Value

set_option maxRecDepth 16384
-- one declaration at a time: the long stretches' terms are large
set_option Elab.async false

/-!
The host stretches that build the banded (Toeplitz) weights, read as values.

Each of six stretches of host operations cuts one role's 3x16x32 filter `w` out of a 3x3x16x32 weight
array and scatters its three 16x32 taps into an all-zero array along a band: element `[τ, ci, t, co]` of the
result is `w[τ - t, ci, co]` when `0 ≤ τ - t < 3` and 0 otherwise.  The stretch then flattens the band to a
matrix, and also repeats the role's bias row.  Here: the operations' terms as definitions over the filter,
the band read at an element, and, per stretch, what its two result buffers hold afterwards.
-/

noncomputable section

namespace Cert.KernelIdeal.HostToep

open Idealize.ShloMosaic Idealize.ShloMosaic.ValueIdx Cert.KernelIdeal Cert.KernelIdeal.Gen

/-- Role `r`'s 3x16x32 filter, cut out of the 3x3x16x32 weight array. -/
def wOf (r : Fin 3) (a : S3x3x16x32.Idx → EReal) : S3x16x32.Idx → EReal :=
  match r with
  | 0 => shapeCast S3x16x32 (extractStridedSlice S1x3x16x32 ![0, 0, 0, 0] a slices_S3x3x16x32_S1x3x16x32_0_0_0_0) shapeCasts_S1x3x16x32_S3x16x32
  | 1 => shapeCast S3x16x32 (extractStridedSlice S1x3x16x32 ![1, 0, 0, 0] a slices_S3x3x16x32_S1x3x16x32_1_0_0_0) shapeCasts_S1x3x16x32_S3x16x32
  | 2 => shapeCast S3x16x32 (extractStridedSlice S1x3x16x32 ![2, 0, 0, 0] a slices_S3x3x16x32_S1x3x16x32_2_0_0_0) shapeCasts_S1x3x16x32_S3x16x32

/-- The row numbers `0 … 13`. -/
def iota14 : IVec S14 32 := iotaInDim S14 32 0
/-- A word at every row. -/
def splat14 (c : BitVec 32) : IVec S14 32 := broadcastInDim S14 ![] bcast_S_S14 (constantI S_ 32 c)
/-- Row number plus `k`, as the program normalises a possibly negative index: add 16 when negative. -/
def rowIdx14 (k : BitVec 32) : IVec S14 32 :=
  select (cmpi .slt (addi iota14 (splat14 k)) (splat14 0#32)) (addi (addi iota14 (splat14 k)) (splat14 16#32)) (addi iota14 (splat14 k))
/-- The row number itself, normalised the same way (add 14 when negative). -/
def colIdx14 : IVec S14 32 :=
  select (cmpi .slt iota14 (splat14 0#32)) (addi iota14 (splat14 14#32)) iota14
/-- Tap `k`'s 14 index vectors `(t + k, t)`. -/
def tapIdx14 (k : BitVec 32) : IVec S14x2 32 :=
  concatenate S14x2 1
    [⟨S14x1, broadcastInDim S14x1 ![0] bcast_S14_S14x1_0 (rowIdx14 k)⟩,
     ⟨S14x1, broadcastInDim S14x1 ![0] bcast_S14_S14x1_0 colIdx14⟩]
    concatenates_S14x1_S14x1_S14x2_d1
/-- Tap `k`'s 16x32 matrix of the filter, repeated over the 14 rows. -/
def tapUpd14 (k : Fin 3) (w : S3x16x32.Idx → EReal) : S14x16x32.Idx → EReal :=
  broadcastInDim S14x16x32 ![0, 1, 2] bcast_S1x16x32_S14x16x32_0_1_2
    (broadcastInDim S1x16x32 ![1, 2] bcast_S16x32_S1x16x32_1_2
      (shapeCast S16x32
        (match k with
          | 0 => extractStridedSlice S1x16x32 ![0, 0, 0] w slices_S3x16x32_S1x16x32_0_0_0
          | 1 => extractStridedSlice S1x16x32 ![1, 0, 0] w slices_S3x16x32_S1x16x32_1_0_0
          | 2 => extractStridedSlice S1x16x32 ![2, 0, 0] w slices_S3x16x32_S1x16x32_2_0_0)
        shapeCasts_S1x16x32_S16x32))
/-- The all-zero 16x16x14x32 array the taps are scattered into. -/
def zeros16 : S16x16x14x32.Idx → EReal :=
  broadcastInDim S16x16x14x32 ![] bcast_S_S16x16x14x32 (constant (F := Ideal) S_ .f32 0x00000000#32)
/-- The banded array of the first convolution: the three taps scattered in turn. -/
def band16Of (w : S3x16x32.Idx → EReal) : S16x16x14x32.Idx → EReal :=
  Host.scatter scatter_S16x16x14x32_S14x2_S14x16x32_12_02_02_1 (fun _ b => b)
    (Host.scatter scatter_S16x16x14x32_S14x2_S14x16x32_12_02_02_1 (fun _ b => b)
      (Host.scatter scatter_S16x16x14x32_S14x2_S14x16x32_12_02_02_1 (fun _ b => b) zeros16 (tapIdx14 0#32) (tapUpd14 0 w))
      (tapIdx14 1#32) (tapUpd14 1 w))
    (tapIdx14 2#32) (tapUpd14 2 w)
/-- Role `r`'s bias row, cut out of the 3x32 bias array. -/
def bOf (r : Fin 3) (b : S3x32.Idx → EReal) : S32.Idx → EReal :=
  match r with
  | 0 => shapeCast S32 (extractStridedSlice S1x32 ![0, 0] b slices_S3x32_S1x32_0_0) shapeCasts_S1x32_S32
  | 1 => shapeCast S32 (extractStridedSlice S1x32 ![1, 0] b slices_S3x32_S1x32_1_0) shapeCasts_S1x32_S32
  | 2 => shapeCast S32 (extractStridedSlice S1x32 ![2, 0] b slices_S3x32_S1x32_2_0) shapeCasts_S1x32_S32
/-- The bias row repeated 14 times, flat. -/
def bias448Of (b : S32.Idx → EReal) : S448.Idx → EReal :=
  shapeCast S448 (broadcastInDim S14x32 ![0, 1] bcast_S1x32_S14x32_0_1 (shapeCast S1x32 b shapeCasts_S32_S1x32)) shapeCasts_S14x32_S448

/-- The row numbers `0 … 11`. -/
def iota12 : IVec S12 32 := iotaInDim S12 32 0
/-- A word at every row. -/
def splat12 (c : BitVec 32) : IVec S12 32 := broadcastInDim S12 ![] bcast_S_S12 (constantI S_ 32 c)
/-- Row number plus `k`, normalised (add 14 when negative). -/
def rowIdx12 (k : BitVec 32) : IVec S12 32 :=
  select (cmpi .slt (addi iota12 (splat12 k)) (splat12 0#32)) (addi (addi iota12 (splat12 k)) (splat12 14#32)) (addi iota12 (splat12 k))
/-- The row number itself, normalised (add 12 when negative). -/
def colIdx12 : IVec S12 32 :=
  select (cmpi .slt iota12 (splat12 0#32)) (addi iota12 (splat12 12#32)) iota12
/-- Tap `k`'s 12 index vectors `(t + k, t)`. -/
def tapIdx12 (k : BitVec 32) : IVec S12x2 32 :=
  concatenate S12x2 1
    [⟨S12x1, broadcastInDim S12x1 ![0] bcast_S12_S12x1_0 (rowIdx12 k)⟩,
     ⟨S12x1, broadcastInDim S12x1 ![0] bcast_S12_S12x1_0 colIdx12⟩]
    concatenates_S12x1_S12x1_S12x2_d1
/-- Tap `k`'s 16x32 matrix of the filter, repeated over the 12 rows. -/
def tapUpd12 (k : Fin 3) (w : S3x16x32.Idx → EReal) : S12x16x32.Idx → EReal :=
  broadcastInDim S12x16x32 ![0, 1, 2] bcast_S1x16x32_S12x16x32_0_1_2
    (broadcastInDim S1x16x32 ![1, 2] bcast_S16x32_S1x16x32_1_2
      (shapeCast S16x32
        (match k with
          | 0 => extractStridedSlice S1x16x32 ![0, 0, 0] w slices_S3x16x32_S1x16x32_0_0_0
          | 1 => extractStridedSlice S1x16x32 ![1, 0, 0] w slices_S3x16x32_S1x16x32_1_0_0
          | 2 => extractStridedSlice S1x16x32 ![2, 0, 0] w slices_S3x16x32_S1x16x32_2_0_0)
        shapeCasts_S1x16x32_S16x32))
/-- The all-zero 14x16x12x32 array the taps are scattered into. -/
def zeros14 : S14x16x12x32.Idx → EReal :=
  broadcastInDim S14x16x12x32 ![] bcast_S_S14x16x12x32 (constant (F := Ideal) S_ .f32 0x00000000#32)
/-- The banded array of the second convolution. -/
def band14Of (w : S3x16x32.Idx → EReal) : S14x16x12x32.Idx → EReal :=
  Host.scatter scatter_S14x16x12x32_S12x2_S12x16x32_12_02_02_1 (fun _ b => b)
    (Host.scatter scatter_S14x16x12x32_S12x2_S12x16x32_12_02_02_1 (fun _ b => b)
      (Host.scatter scatter_S14x16x12x32_S12x2_S12x16x32_12_02_02_1 (fun _ b => b) zeros14 (tapIdx12 0#32) (tapUpd12 0 w))
      (tapIdx12 1#32) (tapUpd12 1 w))
    (tapIdx12 2#32) (tapUpd12 2 w)
/-- The bias row repeated 12 times, flat. -/
def bias384Of (b : S32.Idx → EReal) : S384.Idx → EReal :=
  shapeCast S384 (broadcastInDim S12x32 ![0, 1] bcast_S1x32_S12x32_0_1 (shapeCast S1x32 b shapeCasts_S32_S1x32)) shapeCasts_S12x32_S384

/-! ## The pieces read at an index -/

theorem zeros16_apply (i : S16x16x14x32.Idx) : zeros16 i = 0 := by
  unfold zeros16
  rw [broadcastInDim_scalar_apply, constant_apply]
  exact Ideal.ofBits_zero_f32

theorem zeros14_apply (i : S14x16x12x32.Idx) : zeros14 i = 0 := by
  unfold zeros14
  rw [broadcastInDim_scalar_apply, constant_apply]
  exact Ideal.ofBits_zero_f32

/-- A tap's update read at `(t, ci, co)`: row `t` is a copy of the filter's matrix `k`. -/
theorem upd_read {m : ℕ} (o : ℕ) (w : S3x16x32.Idx → EReal) (hs : S3x16x32.Slices ![o, 0, 0] S1x16x32)
    (hb : S1x16x32.BroadcastsInDim ⟨3, ![m, 16, 32]⟩ ![0, 1, 2]) (k : Fin 3) (hk : k.val = o)
    (t : Fin m) (ci : Fin 16) (co : Fin 32) :
    broadcastInDim ⟨3, ![m, 16, 32]⟩ ![0, 1, 2] hb
        (broadcastInDim S1x16x32 ![1, 2] bcast_S16x32_S1x16x32_1_2
          (shapeCast S16x32 (extractStridedSlice S1x16x32 ![o, 0, 0] w hs) shapeCasts_S1x16x32_S16x32))
        (ix3 t ci co)
      = w (ix3 k ci co) := by
  rw [broadcastInDim_apply _ _ _ _ (ix3 (0 : Fin 1) ci co) (fun a => by
    match a with
    | ⟨0, _⟩ => rfl
    | ⟨1, _⟩ => rfl
    | ⟨2, _⟩ => rfl)]
  rw [broadcastInDim_apply _ _ _ _ (ix2 ci co) (fun a => by
    match a with
    | ⟨0, _⟩ => rfl
    | ⟨1, _⟩ => rfl)]
  rw [shapeCast_1ab_ab_apply]
  exact extractStridedSlice_apply _ _ _ _ (ix3 k ci co) (fun a => by
    match a with
    | ⟨0, _⟩ => show k.val = o + 0; omega
    | ⟨1, _⟩ => show ci.val = 0 + ci.val; omega
    | ⟨2, _⟩ => show co.val = 0 + co.val; omega)

theorem tapUpd14_apply (k : Fin 3) (w : S3x16x32.Idx → EReal) (t : Fin 14) (ci : Fin 16) (co : Fin 32) :
    tapUpd14 k w (ix3 t ci co) = w (ix3 k ci co) := by
  match k with
  | 0 => exact upd_read 0 w _ _ 0 rfl t ci co
  | 1 => exact upd_read 1 w _ _ 1 rfl t ci co
  | 2 => exact upd_read 2 w _ _ 2 rfl t ci co

theorem tapUpd12_apply (k : Fin 3) (w : S3x16x32.Idx → EReal) (t : Fin 12) (ci : Fin 16) (co : Fin 32) :
    tapUpd12 k w (ix3 t ci co) = w (ix3 k ci co) := by
  match k with
  | 0 => exact upd_read 0 w _ _ 0 rfl t ci co
  | 1 => exact upd_read 1 w _ _ 1 rfl t ci co
  | 2 => exact upd_read 2 w _ _ 2 rfl t ci co

/-- The index vectors' first component is the normalised row number plus `k`, the second the normalised row number. -/
theorem tapIdx14_row (c : BitVec 32) (t : Fin 14) : tapIdx14 c (ix2 t ⟨0, by decide⟩) = rowIdx14 c (ix1 t) := by
  unfold tapIdx14
  rw [concatenate_pair_apply_left (t := S14x2) (s₁ := S14x1) (s₂ := S14x1) 1 _ _ _ _ rfl (ix2 t (0 : Fin 1)) (fun b => by
    match b with
    | ⟨0, _⟩ => rfl
    | ⟨1, _⟩ => rfl)]
  exact broadcastInDim_apply _ _ _ _ (ix1 t) (fun a => by
    match a with
    | ⟨0, _⟩ => rfl)
theorem tapIdx14_col (c : BitVec 32) (t : Fin 14) : tapIdx14 c (ix2 t ⟨1, by decide⟩) = colIdx14 (ix1 t) := by
  unfold tapIdx14
  rw [concatenate_pair_apply_right (t := S14x2) (s₁ := S14x1) (s₂ := S14x1) 1 _ _ _ _ rfl rfl (ix2 t (0 : Fin 1)) (fun b hb => by
    match b with
    | ⟨0, _⟩ => rfl
    | ⟨1, _⟩ => exact absurd rfl hb) rfl]
  exact broadcastInDim_apply _ _ _ _ (ix1 t) (fun a => by
    match a with
    | ⟨0, _⟩ => rfl)

theorem tapIdx12_row (c : BitVec 32) (t : Fin 12) : tapIdx12 c (ix2 t ⟨0, by decide⟩) = rowIdx12 c (ix1 t) := by
  unfold tapIdx12
  rw [concatenate_pair_apply_left (t := S12x2) (s₁ := S12x1) (s₂ := S12x1) 1 _ _ _ _ rfl (ix2 t (0 : Fin 1)) (fun b => by
    match b with
    | ⟨0, _⟩ => rfl
    | ⟨1, _⟩ => rfl)]
  exact broadcastInDim_apply _ _ _ _ (ix1 t) (fun a => by
    match a with
    | ⟨0, _⟩ => rfl)
theorem tapIdx12_col (c : BitVec 32) (t : Fin 12) : tapIdx12 c (ix2 t ⟨1, by decide⟩) = colIdx12 (ix1 t) := by
  unfold tapIdx12
  rw [concatenate_pair_apply_right (t := S12x2) (s₁ := S12x1) (s₂ := S12x1) 1 _ _ _ _ rfl rfl (ix2 t (0 : Fin 1)) (fun b hb => by
    match b with
    | ⟨0, _⟩ => rfl
    | ⟨1, _⟩ => exact absurd rfl hb) rfl]
  exact broadcastInDim_apply _ _ _ _ (ix1 t) (fun a => by
    match a with
    | ⟨0, _⟩ => rfl)

/-- No row number is negative: the normalisation does nothing, and the words are the numbers. -/
theorem rowIdx14_0 : ∀ t : Fin 14, rowIdx14 0#32 (ix1 t) = BitVec.ofNat 32 t.val := by decide
theorem rowIdx14_1 : ∀ t : Fin 14, rowIdx14 1#32 (ix1 t) = BitVec.ofNat 32 (t.val + 1) := by decide
theorem rowIdx14_2 : ∀ t : Fin 14, rowIdx14 2#32 (ix1 t) = BitVec.ofNat 32 (t.val + 2) := by decide
theorem colIdx14_eq : ∀ t : Fin 14, colIdx14 (ix1 t) = BitVec.ofNat 32 t.val := by decide
theorem rowIdx12_0 : ∀ t : Fin 12, rowIdx12 0#32 (ix1 t) = BitVec.ofNat 32 t.val := by decide
theorem rowIdx12_1 : ∀ t : Fin 12, rowIdx12 1#32 (ix1 t) = BitVec.ofNat 32 (t.val + 1) := by decide
theorem rowIdx12_2 : ∀ t : Fin 12, rowIdx12 2#32 (ix1 t) = BitVec.ofNat 32 (t.val + 2) := by decide
theorem colIdx12_eq : ∀ t : Fin 12, colIdx12 (ix1 t) = BitVec.ofNat 32 t.val := by decide

/-- THE BAND AT AN ELEMENT: `[τ, ci, t, co]` holds the filter's `[τ - t, ci, co]` when `0 ≤ τ - t < 3`, else 0. -/
theorem band16Of_apply (w : S3x16x32.Idx → EReal) (τ : Fin 16) (ci : Fin 16) (t : Fin 14) (co : Fin 32) :
    band16Of w (ix4 τ ci t co)
      = if h : t.val ≤ τ.val ∧ τ.val - t.val < 3 then w (ix3 ⟨τ.val - t.val, h.2⟩ ci co) else 0 := by
  unfold band16Of
  rw [Cert.ToepKer.band16 0 zeros16 zeros16_apply (tapIdx14 0#32) (tapIdx14 1#32) (tapIdx14 2#32)
      (fun t => (tapIdx14_row _ t).trans (rowIdx14_0 t)) (fun t => (tapIdx14_col _ t).trans (colIdx14_eq t))
      (fun t => (tapIdx14_row _ t).trans (rowIdx14_1 t)) (fun t => (tapIdx14_col _ t).trans (colIdx14_eq t))
      (fun t => (tapIdx14_row _ t).trans (rowIdx14_2 t)) (fun t => (tapIdx14_col _ t).trans (colIdx14_eq t)),
    tapUpd14_apply, tapUpd14_apply, tapUpd14_apply]
  by_cases h : t.val ≤ τ.val ∧ τ.val - t.val < 3
  · rw [dif_pos h]
    have h1 := h.1
    have h2 := h.2
    have hc : τ.val = t.val ∨ τ.val = t.val + 1 ∨ τ.val = t.val + 2 := by omega
    rcases hc with e | e | e
    · rw [if_pos e]
      exact congrArg (fun k => w (ix3 k ci co)) (Fin.ext (show (0 : ℕ) = τ.val - t.val by omega))
    · rw [if_neg (by omega), if_pos e]
      exact congrArg (fun k => w (ix3 k ci co)) (Fin.ext (show (1 : ℕ) = τ.val - t.val by omega))
    · rw [if_neg (by omega), if_neg (by omega), if_pos e]
      exact congrArg (fun k => w (ix3 k ci co)) (Fin.ext (show (2 : ℕ) = τ.val - t.val by omega))
  · rw [dif_neg h, if_neg (by omega), if_neg (by omega), if_neg (by omega)]

/-- THE BAND AT AN ELEMENT: `[τ, ci, t, co]` holds the filter's `[τ - t, ci, co]` when `0 ≤ τ - t < 3`, else 0. -/
theorem band14Of_apply (w : S3x16x32.Idx → EReal) (τ : Fin 14) (ci : Fin 16) (t : Fin 12) (co : Fin 32) :
    band14Of w (ix4 τ ci t co)
      = if h : t.val ≤ τ.val ∧ τ.val - t.val < 3 then w (ix3 ⟨τ.val - t.val, h.2⟩ ci co) else 0 := by
  unfold band14Of
  rw [Cert.ToepKer.band14 0 zeros14 zeros14_apply (tapIdx12 0#32) (tapIdx12 1#32) (tapIdx12 2#32)
      (fun t => (tapIdx12_row _ t).trans (rowIdx12_0 t)) (fun t => (tapIdx12_col _ t).trans (colIdx12_eq t))
      (fun t => (tapIdx12_row _ t).trans (rowIdx12_1 t)) (fun t => (tapIdx12_col _ t).trans (colIdx12_eq t))
      (fun t => (tapIdx12_row _ t).trans (rowIdx12_2 t)) (fun t => (tapIdx12_col _ t).trans (colIdx12_eq t)),
    tapUpd12_apply, tapUpd12_apply, tapUpd12_apply]
  by_cases h : t.val ≤ τ.val ∧ τ.val - t.val < 3
  · rw [dif_pos h]
    have h1 := h.1
    have h2 := h.2
    have hc : τ.val = t.val ∨ τ.val = t.val + 1 ∨ τ.val = t.val + 2 := by omega
    rcases hc with e | e | e
    · rw [if_pos e]
      exact congrArg (fun k => w (ix3 k ci co)) (Fin.ext (show (0 : ℕ) = τ.val - t.val by omega))
    · rw [if_neg (by omega), if_pos e]
      exact congrArg (fun k => w (ix3 k ci co)) (Fin.ext (show (1 : ℕ) = τ.val - t.val by omega))
    · rw [if_neg (by omega), if_neg (by omega), if_pos e]
      exact congrArg (fun k => w (ix3 k ci co)) (Fin.ext (show (2 : ℕ) = τ.val - t.val by omega))
  · rw [dif_neg h, if_neg (by omega), if_neg (by omega), if_neg (by omega)]

/-! ## The six stretches: what the banded-weight buffer and the bias buffer hold afterwards

For an arbitrary valuation `V` before the stretch; the weight buffer is the band (as 256x448, resp. 224x384) of
the role's filter read off the weight argument at `V`, the bias buffer the role's bias row repeated. -/

set_option maxHeartbeats 8000000 in
/-- Stretch `hostOps0` (role 0 of `main_arg0`): the banded weight in `main_v66`. -/
theorem toep_hostOps0 (V : Valuation τ sig (Elt Ideal)) :
    StableHlo.after (hostOps0 (F := Ideal)) V (Proc.devRef .tc main_v66)
      = shapeCast S256x448 (band16Of (wOf 0 (V (Proc.devRef .tc main_arg0)))) shapeCasts_S16x16x14x32_S256x448 := by
  after_results_simp
  rfl

set_option maxHeartbeats 8000000 in
/-- Stretch `hostOps0` (role 0 of `main_arg1`): the repeated bias row in `main_v69`. -/
theorem bias_hostOps0 (V : Valuation τ sig (Elt Ideal)) :
    StableHlo.after (hostOps0 (F := Ideal)) V (Proc.devRef .tc main_v69)
      = bias448Of (bOf 0 (V (Proc.devRef .tc main_arg1))) := by
  after_results_simp
  rfl

set_option maxHeartbeats 8000000 in
/-- Stretch `hostOps0_4` (role 1 of `main_arg0`): the banded weight in `main_v138`. -/
theorem toep_hostOps0_4 (V : Valuation τ sig (Elt Ideal)) :
    StableHlo.after (hostOps0_4 (F := Ideal)) V (Proc.devRef .tc main_v138)
      = shapeCast S256x448 (band16Of (wOf 1 (V (Proc.devRef .tc main_arg0)))) shapeCasts_S16x16x14x32_S256x448 := by
  after_results_simp
  rfl

set_option maxHeartbeats 8000000 in
/-- Stretch `hostOps0_4` (role 1 of `main_arg1`): the repeated bias row in `main_v141`. -/
theorem bias_hostOps0_4 (V : Valuation τ sig (Elt Ideal)) :
    StableHlo.after (hostOps0_4 (F := Ideal)) V (Proc.devRef .tc main_v141)
      = bias448Of (bOf 1 (V (Proc.devRef .tc main_arg1))) := by
  after_results_simp
  rfl

set_option maxHeartbeats 8000000 in
/-- Stretch `hostOps0_8` (role 2 of `main_arg0`): the banded weight in `main_v210`. -/
theorem toep_hostOps0_8 (V : Valuation τ sig (Elt Ideal)) :
    StableHlo.after (hostOps0_8 (F := Ideal)) V (Proc.devRef .tc main_v210)
      = shapeCast S256x448 (band16Of (wOf 2 (V (Proc.devRef .tc main_arg0)))) shapeCasts_S16x16x14x32_S256x448 := by
  after_results_simp
  rfl

set_option maxHeartbeats 8000000 in
/-- Stretch `hostOps0_8` (role 2 of `main_arg1`): the repeated bias row in `main_v213`. -/
theorem bias_hostOps0_8 (V : Valuation τ sig (Elt Ideal)) :
    StableHlo.after (hostOps0_8 (F := Ideal)) V (Proc.devRef .tc main_v213)
      = bias448Of (bOf 2 (V (Proc.devRef .tc main_arg1))) := by
  after_results_simp
  rfl

set_option maxHeartbeats 8000000 in
/-- Stretch `hostOps0_12` (role 0 of `main_arg3`): the banded weight in `main_v282`. -/
theorem toep_hostOps0_12 (V : Valuation τ sig (Elt Ideal)) :
    StableHlo.after (hostOps0_12 (F := Ideal)) V (Proc.devRef .tc main_v282)
      = shapeCast S224x384 (band14Of (wOf 0 (V (Proc.devRef .tc main_arg3)))) shapeCasts_S14x16x12x32_S224x384 := by
  after_results_simp
  rfl

set_option maxHeartbeats 8000000 in
/-- Stretch `hostOps0_12` (role 0 of `main_arg4`): the repeated bias row in `main_v285`. -/
theorem bias_hostOps0_12 (V : Valuation τ sig (Elt Ideal)) :
    StableHlo.after (hostOps0_12 (F := Ideal)) V (Proc.devRef .tc main_v285)
      = bias384Of (bOf 0 (V (Proc.devRef .tc main_arg4))) := by
  after_results_simp
  rfl

set_option maxHeartbeats 8000000 in
/-- Stretch `hostOps0_16` (role 1 of `main_arg3`): the banded weight in `main_v354`. -/
theorem toep_hostOps0_16 (V : Valuation τ sig (Elt Ideal)) :
    StableHlo.after (hostOps0_16 (F := Ideal)) V (Proc.devRef .tc main_v354)
      = shapeCast S224x384 (band14Of (wOf 1 (V (Proc.devRef .tc main_arg3)))) shapeCasts_S14x16x12x32_S224x384 := by
  after_results_simp
  rfl

set_option maxHeartbeats 8000000 in
/-- Stretch `hostOps0_16` (role 1 of `main_arg4`): the repeated bias row in `main_v357`. -/
theorem bias_hostOps0_16 (V : Valuation τ sig (Elt Ideal)) :
    StableHlo.after (hostOps0_16 (F := Ideal)) V (Proc.devRef .tc main_v357)
      = bias384Of (bOf 1 (V (Proc.devRef .tc main_arg4))) := by
  after_results_simp
  rfl

set_option maxHeartbeats 8000000 in
/-- Stretch `hostOps0_20` (role 2 of `main_arg3`): the banded weight in `main_v426`. -/
theorem toep_hostOps0_20 (V : Valuation τ sig (Elt Ideal)) :
    StableHlo.after (hostOps0_20 (F := Ideal)) V (Proc.devRef .tc main_v426)
      = shapeCast S224x384 (band14Of (wOf 2 (V (Proc.devRef .tc main_arg3)))) shapeCasts_S14x16x12x32_S224x384 := by
  after_results_simp
  rfl

set_option maxHeartbeats 8000000 in
/-- Stretch `hostOps0_20` (role 2 of `main_arg4`): the repeated bias row in `main_v429`. -/
theorem bias_hostOps0_20 (V : Valuation τ sig (Elt Ideal)) :
    StableHlo.after (hostOps0_20 (F := Ideal)) V (Proc.devRef .tc main_v429)
      = bias384Of (bOf 2 (V (Proc.devRef .tc main_arg4))) := by
  after_results_simp
  rfl

end Cert.KernelIdeal.HostToep
-- ==== Proof.KerEntry.lean ====
import proofs.«142292_g2000406351686535_pallasbulk_564_2_alg».proof.Proof.KerFold
import proofs.«142292_g2000406351686535_pallasbulk_564_2_alg».proof.Proof.KerHostToep
import Idealize.ShloMosaic.Lib.StableHlo.Run
import Idealize.ShloMosaic.PureOps.Ideal

/-!
# The arrays the kernel program's first region is entered with

Before its first region the kernel program prepares seven arrays on the host, each from the argument arrays alone:
the input `X` viewed as `256 × 128 × 256`; the mixing matrix `Â` narrowed to bf16; the first convolution's three
banded weight matrices, each widened by zero columns from 448 to 512, laid side by side and narrowed, with their
biases lengthened likewise and laid end to end; `kron(I₁₄, Θ₁)` lengthened by zero rows from 448 to 512 and narrowed;
and the second convolution's three banded matrices side by side, narrowed, with their biases. This file names each as
a function of the arguments, written operation by operation as the program computes it, and proves that the contents
the region is entered with are those functions of the launch contents of the arguments.

The program's entry function is a sequence of stretches of host operations. Each stretch is read on its own, from
arbitrary contents: what it leaves in the buffer of interest, in terms of the contents of the buffers it reads. A
stretch leaves alone every buffer it does not write; so the contents of a buffer at the region's entry are those the
stretch that writes it leaves, and that stretch's operands are followed back the same way, down to the arguments,
which no stretch writes and which therefore hold their launch contents throughout.
-/

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Writes Cert.KernelIdeal.Fold Cert.KernelIdeal.HostToep

/-! ## The terms -/

/-- The padding value every widening uses: the integer `0` converted to a float. -/
def zpad : S_.Idx → EReal := sitofp (F := Ideal) .f32 (constantI S_ 32 0#32)

/-- The input `[256, 128, 16, 16]` viewed as `[256, 128, 256]`. -/
def xlK (a7 : S256x128x16x16.Idx → EReal) : S256x128x256.Idx → EReal :=
  shapeCast S256x128x256 a7 shapeCasts_S256x128x16x16_S256x128x256

/-- The 128 by 128 mixing matrix narrowed to bf16. -/
def adjK (a8 : S128x128.Idx → EReal) : S128x128.Idx → EReal :=
  truncf (F := Ideal) (φ := .f32) .bf16 a8 bitsLt_bf16_f32

/-- The 14 by 14 identity as the program builds it: the truth value of "row index plus zero equals column index",
    converted to a float. -/
def eye14 : S14x14.Idx → EReal :=
  uitofp (F := Ideal) .f32
    (cmpi .eq (addi (iotaInDim S14x14 32 0) (broadcastInDim S14x14 ![] bcast_S_S14x14 (constantI S_ 32 0#32)))
      (iotaInDim S14x14 32 1))

/-- `kron(I₁₄, Θ)` as the program builds it: both factors stretched to `[14, 32, 14, 16]`, multiplied, viewed as
    `[448, 224]`. -/
def kron14 (a2 : S32x16.Idx → EReal) : S448x224.Idx → EReal :=
  shapeCast S448x224
    (mulf (F := Ideal) (φ := .f32)
      (broadcastInDim S14x32x14x16 ![0, 1, 2, 3] bcast_S14x1x14x1_S14x32x14x16_0_1_2_3
        (broadcastInDim S14x1x14x1 ![0, 2] bcast_S14x14_S14x1x14x1_0_2 eye14))
      (broadcastInDim S14x32x14x16 ![0, 1, 2, 3] bcast_S1x32x1x16_S14x32x14x16_0_1_2_3
        (broadcastInDim S1x32x1x16 ![1, 3] bcast_S32x16_S1x32x1x16_1_3 a2)))
    shapeCasts_S14x32x14x16_S448x224

/-- `kron(I₁₄, Θ)` lengthened by 64 zero rows to `[512, 224]`, then narrowed to bf16. -/
def ThK (a2 : S32x16.Idx → EReal) : S512x224.Idx → EReal :=
  truncf (F := Ideal) (φ := .f32) .bf16
    (pad S512x224 ![0, 0] ![64, 0] ![0, 0] (kron14 a2) zpad pads_S448x224_S512x224_0640_000 h_S_)
    bitsLt_bf16_f32

/-- A `[256, 448]` banded weight widened by 64 zero columns. -/
def padW1 (w : S256x448.Idx → EReal) : S256x512.Idx → EReal :=
  pad S256x512 ![0, 0] ![0, 64] ![0, 0] w zpad pads_S256x448_S256x512_000_0640 h_S_
/-- A 448-long bias lengthened by 64 zeros. -/
def padB1 (b : S448.Idx → EReal) : S512.Idx → EReal :=
  pad S512 ![0] ![64] ![0] b zpad pads_S448_S512_0640 h_S_
/-- A `[224, 384]` banded weight through the second convolution's widening, which adds nothing. -/
def padW2 (w : S224x384.Idx → EReal) : S224x384.Idx → EReal :=
  pad S224x384 ![0, 0] ![0, 0] ![0, 0] w zpad pads_S224x384_S224x384_000_000 h_S_
/-- A 384-long bias through the second convolution's lengthening, which adds nothing. -/
def padB2 (b : S384.Idx → EReal) : S384.Idx → EReal :=
  pad S384 ![0] ![0] ![0] b zpad pads_S384_S384_000 h_S_

/-- Three widened banded weights side by side, narrowed to bf16. -/
def W1Kof (t0 t1 t2 : S256x512.Idx → EReal) : S256x1536.Idx → EReal :=
  truncf (F := Ideal) (φ := .f32) .bf16
    (concatenate S256x1536 1 [⟨S256x512, t0⟩, ⟨S256x512, t1⟩, ⟨S256x512, t2⟩] concatenates_S256x512_S256x512_S256x512_S256x1536_d1)
    bitsLt_bf16_f32
/-- Three lengthened biases end to end, as one row. -/
def B1Kof (u0 u1 u2 : S512.Idx → EReal) : S1x1536.Idx → EReal :=
  broadcastInDim S1x1536 ![1] bcast_S1536_S1x1536_1
    (concatenate S1536 0 [⟨S512, u0⟩, ⟨S512, u1⟩, ⟨S512, u2⟩] concatenates_S512_S512_S512_S1536_d0)
/-- The second convolution's three banded weights side by side, narrowed to bf16. -/
def W2Kof (t0 t1 t2 : S224x384.Idx → EReal) : S224x1152.Idx → EReal :=
  truncf (F := Ideal) (φ := .f32) .bf16
    (concatenate S224x1152 1 [⟨S224x384, t0⟩, ⟨S224x384, t1⟩, ⟨S224x384, t2⟩] concatenates_S224x384_S224x384_S224x384_S224x1152_d1)
    bitsLt_bf16_f32
/-- The second convolution's three biases end to end, as one row. -/
def B2Kof (u0 u1 u2 : S384.Idx → EReal) : S1x1152.Idx → EReal :=
  broadcastInDim S1x1152 ![1] bcast_S1152_S1x1152_1
    (concatenate S1152 0 [⟨S384, u0⟩, ⟨S384, u1⟩, ⟨S384, u2⟩] concatenates_S384_S384_S384_S1152_d0)

/-- The first convolution's weights: the banded matrix of each of the three filters of the weight argument, widened,
    the three side by side, narrowed. -/
def W1K (a0 : S3x3x16x32.Idx → EReal) : S256x1536.Idx → EReal :=
  W1Kof (padW1 (shapeCast S256x448 (band16Of (wOf 0 a0)) shapeCasts_S16x16x14x32_S256x448))
    (padW1 (shapeCast S256x448 (band16Of (wOf 1 a0)) shapeCasts_S16x16x14x32_S256x448))
    (padW1 (shapeCast S256x448 (band16Of (wOf 2 a0)) shapeCasts_S16x16x14x32_S256x448))
/-- Its biases: each of the three bias rows repeated 14 times, lengthened, the three end to end. -/
def B1K (a1 : S3x32.Idx → EReal) : S1x1536.Idx → EReal :=
  B1Kof (padB1 (bias448Of (bOf 0 a1))) (padB1 (bias448Of (bOf 1 a1))) (padB1 (bias448Of (bOf 2 a1)))
/-- The second convolution's weights. -/
def W2K (a3 : S3x3x16x32.Idx → EReal) : S224x1152.Idx → EReal :=
  W2Kof (padW2 (shapeCast S224x384 (band14Of (wOf 0 a3)) shapeCasts_S14x16x12x32_S224x384))
    (padW2 (shapeCast S224x384 (band14Of (wOf 1 a3)) shapeCasts_S14x16x12x32_S224x384))
    (padW2 (shapeCast S224x384 (band14Of (wOf 2 a3)) shapeCasts_S14x16x12x32_S224x384))
/-- Its biases: each bias row repeated 12 times, the three end to end. -/
def B2K (a4 : S3x32.Idx → EReal) : S1x1152.Idx → EReal :=
  B2Kof (padB2 (bias384Of (bOf 0 a4))) (padB2 (bias384Of (bOf 1 a4))) (padB2 (bias384Of (bOf 2 a4)))

/-! ## Each stretch on its own, from arbitrary contents -/

section Local

variable (V : Valuation τ sig (Elt Ideal))

/-- The last stretch: the view of `X`, -/
theorem s28_xl : after (hostOps0_28 (F := Ideal)) V (Proc.devRef .tc main_v450) = xlK (V (Proc.devRef .tc main_arg7)) := by
  after_results
  rfl
/-- the mixing matrix narrowed, -/
theorem s28_adj : after (hostOps0_28 (F := Ideal)) V (Proc.devRef .tc main_v449) = adjK (V (Proc.devRef .tc main_arg8)) := by
  after_results
  rfl
/-- and the lengthened Kronecker product narrowed. -/
theorem s28_th : after (hostOps0_28 (F := Ideal)) V (Proc.devRef .tc main_v448)
    = truncf (F := Ideal) (φ := .f32) .bf16 (V (Proc.devRef .tc main_v447)) bitsLt_bf16_f32 := by
  after_results
/-- The lengthening of the Kronecker product by zero rows. -/
theorem s27_pad : after (hostOps0_27 (F := Ideal)) V (Proc.devRef .tc main_v447)
    = pad S512x224 ![0, 0] ![64, 0] ![0, 0] (V (Proc.devRef .tc main_v446))
        (sitofp (F := Ideal) .f32 (V (Proc.devRef .tc main_c_107))) pads_S448x224_S512x224_0640_000 h_S_ := by
  after_results
  rfl
/-- Its padding constant. -/
theorem s26_c : after (hostOps0_26 (F := Ideal)) V (Proc.devRef .tc main_c_107) = constantI S_ 32 0#32 := by
  after_results
/-- The Kronecker product's stretch. -/
theorem s25_kron : after (hostOps0_25 (F := Ideal)) V (Proc.devRef .tc main_v446)
    = shapeCast S448x224
        (mulf (F := Ideal) (φ := .f32)
          (broadcastInDim S14x32x14x16 ![0, 1, 2, 3] bcast_S14x1x14x1_S14x32x14x16_0_1_2_3
            (broadcastInDim S14x1x14x1 ![0, 2] bcast_S14x14_S14x1x14x1_0_2 (V (Proc.devRef .tc main_v445))))
          (broadcastInDim S14x32x14x16 ![0, 1, 2, 3] bcast_S1x32x1x16_S14x32x14x16_0_1_2_3
            (broadcastInDim S1x32x1x16 ![1, 3] bcast_S32x16_S1x32x1x16_1_3 (V (Proc.devRef .tc main_arg2)))))
        shapeCasts_S14x32x14x16_S448x224 := by
  after_results
  rfl
/-- The stretch that joins the weights and biases and ends with the 14 by 14 identity: the identity, -/
theorem s24_eye : after (hostOps0_24 (F := Ideal)) V (Proc.devRef .tc main_v445) = eye14 := by
  after_results
  rfl
/-- the first convolution's weights, -/
theorem s24_W1 : after (hostOps0_24 (F := Ideal)) V (Proc.devRef .tc main_v433)
    = W1Kof (V (Proc.devRef .tc main_v70)) (V (Proc.devRef .tc main_v142)) (V (Proc.devRef .tc main_v214)) := by
  after_results
  rfl
/-- its biases, -/
theorem s24_B1 : after (hostOps0_24 (F := Ideal)) V (Proc.devRef .tc main_v435)
    = B1Kof (V (Proc.devRef .tc main_v71)) (V (Proc.devRef .tc main_v143)) (V (Proc.devRef .tc main_v215)) := by
  after_results
  rfl
/-- the second convolution's weights, -/
theorem s24_W2 : after (hostOps0_24 (F := Ideal)) V (Proc.devRef .tc main_v437)
    = W2Kof (V (Proc.devRef .tc main_v286)) (V (Proc.devRef .tc main_v358)) (V (Proc.devRef .tc main_v430)) := by
  after_results
  rfl
/-- and its biases. -/
theorem s24_B2 : after (hostOps0_24 (F := Ideal)) V (Proc.devRef .tc main_v439)
    = B2Kof (V (Proc.devRef .tc main_v287)) (V (Proc.devRef .tc main_v359)) (V (Proc.devRef .tc main_v431)) := by
  after_results
  rfl

/-! Each widening stretch converts its padding constant to a float and widens its operand with it. When the constant
    is the integer zero this is the widening by `zpad`. -/

theorem s1_pad (hc : V (Proc.devRef .tc main_c_14) = constantI S_ 32 0#32) :
    after (hostOps0_1 (F := Ideal)) V (Proc.devRef .tc main_v70) = padW1 (V (Proc.devRef .tc main_v66)) := by
  after_results
  rw [hc]
  rfl
theorem s3_pad (hc : V (Proc.devRef .tc main_c_15) = constantI S_ 32 0#32) :
    after (hostOps0_3 (F := Ideal)) V (Proc.devRef .tc main_v71) = padB1 (V (Proc.devRef .tc main_v69)) := by
  after_results
  rw [hc]
  rfl
theorem s5_pad (hc : V (Proc.devRef .tc main_c_32) = constantI S_ 32 0#32) :
    after (hostOps0_5 (F := Ideal)) V (Proc.devRef .tc main_v142) = padW1 (V (Proc.devRef .tc main_v138)) := by
  after_results
  rw [hc]
  rfl
theorem s7_pad (hc : V (Proc.devRef .tc main_c_33) = constantI S_ 32 0#32) :
    after (hostOps0_7 (F := Ideal)) V (Proc.devRef .tc main_v143) = padB1 (V (Proc.devRef .tc main_v141)) := by
  after_results
  rw [hc]
  rfl
theorem s9_pad (hc : V (Proc.devRef .tc main_c_50) = constantI S_ 32 0#32) :
    after (hostOps0_9 (F := Ideal)) V (Proc.devRef .tc main_v214) = padW1 (V (Proc.devRef .tc main_v210)) := by
  after_results
  rw [hc]
  rfl
theorem s11_pad (hc : V (Proc.devRef .tc main_c_51) = constantI S_ 32 0#32) :
    after (hostOps0_11 (F := Ideal)) V (Proc.devRef .tc main_v215) = padB1 (V (Proc.devRef .tc main_v213)) := by
  after_results
  rw [hc]
  rfl
theorem s13_pad (hc : V (Proc.devRef .tc main_c_68) = constantI S_ 32 0#32) :
    after (hostOps0_13 (F := Ideal)) V (Proc.devRef .tc main_v286) = padW2 (V (Proc.devRef .tc main_v282)) := by
  after_results
  rw [hc]
  rfl
theorem s15_pad (hc : V (Proc.devRef .tc main_c_69) = constantI S_ 32 0#32) :
    after (hostOps0_15 (F := Ideal)) V (Proc.devRef .tc main_v287) = padB2 (V (Proc.devRef .tc main_v285)) := by
  after_results
  rw [hc]
  rfl
theorem s17_pad (hc : V (Proc.devRef .tc main_c_86) = constantI S_ 32 0#32) :
    after (hostOps0_17 (F := Ideal)) V (Proc.devRef .tc main_v358) = padW2 (V (Proc.devRef .tc main_v354)) := by
  after_results
  rw [hc]
  rfl
theorem s19_pad (hc : V (Proc.devRef .tc main_c_87) = constantI S_ 32 0#32) :
    after (hostOps0_19 (F := Ideal)) V (Proc.devRef .tc main_v359) = padB2 (V (Proc.devRef .tc main_v357)) := by
  after_results
  rw [hc]
  rfl
theorem s21_pad (hc : V (Proc.devRef .tc main_c_104) = constantI S_ 32 0#32) :
    after (hostOps0_21 (F := Ideal)) V (Proc.devRef .tc main_v430) = padW2 (V (Proc.devRef .tc main_v426)) := by
  after_results
  rw [hc]
  rfl
theorem s23_pad (hc : V (Proc.devRef .tc main_c_105) = constantI S_ 32 0#32) :
    after (hostOps0_23 (F := Ideal)) V (Proc.devRef .tc main_v431) = padB2 (V (Proc.devRef .tc main_v429)) := by
  after_results
  rw [hc]
  rfl

/-! The one-operation stretches that write a bias's padding constant. -/

theorem s2_c : after (hostOps0_2 (F := Ideal)) V (Proc.devRef .tc main_c_15) = constantI S_ 32 0#32 := by
  after_results
theorem s6_c : after (hostOps0_6 (F := Ideal)) V (Proc.devRef .tc main_c_33) = constantI S_ 32 0#32 := by
  after_results
theorem s10_c : after (hostOps0_10 (F := Ideal)) V (Proc.devRef .tc main_c_51) = constantI S_ 32 0#32 := by
  after_results
theorem s14_c : after (hostOps0_14 (F := Ideal)) V (Proc.devRef .tc main_c_69) = constantI S_ 32 0#32 := by
  after_results
theorem s18_c : after (hostOps0_18 (F := Ideal)) V (Proc.devRef .tc main_c_87) = constantI S_ 32 0#32 := by
  after_results
theorem s22_c : after (hostOps0_22 (F := Ideal)) V (Proc.devRef .tc main_c_105) = constantI S_ 32 0#32 := by
  after_results

/-! Each long stretch ends by writing its banded weight's padding constant. -/

set_option maxHeartbeats 8000000 in
theorem s0_c : after (hostOps0 (F := Ideal)) V (Proc.devRef .tc main_c_14) = constantI S_ 32 0#32 := by
  after_results
set_option maxHeartbeats 8000000 in
theorem s4_c : after (hostOps0_4 (F := Ideal)) V (Proc.devRef .tc main_c_32) = constantI S_ 32 0#32 := by
  after_results
set_option maxHeartbeats 8000000 in
theorem s8_c : after (hostOps0_8 (F := Ideal)) V (Proc.devRef .tc main_c_50) = constantI S_ 32 0#32 := by
  after_results
set_option maxHeartbeats 8000000 in
theorem s12_c : after (hostOps0_12 (F := Ideal)) V (Proc.devRef .tc main_c_68) = constantI S_ 32 0#32 := by
  after_results
set_option maxHeartbeats 8000000 in
theorem s16_c : after (hostOps0_16 (F := Ideal)) V (Proc.devRef .tc main_c_86) = constantI S_ 32 0#32 := by
  after_results
set_option maxHeartbeats 8000000 in
theorem s20_c : after (hostOps0_20 (F := Ideal)) V (Proc.devRef .tc main_c_104) = constantI S_ 32 0#32 := by
  after_results

end Local

/-! ## From the launch to the region's entry -/

section Entry

variable (m : (ℓ : Loc nD τ sig) → Buf (Elt Ideal) ℓ) (ρ : Dev nD → PrngReg)

/-! A stretch leaves alone what it does not write: stated so that it rewrites the contents at any reference. -/

theorem W1_of' (c : Dev nD) (r : Ref sig .tc) (h : r ∉ hostOps0_W) :
    W1 m ρ c (no_index (Proc.devRef .tc r)) = W0 m ρ c (Proc.devRef .tc r) := W1_of m ρ c r h
theorem W2_of' (c : Dev nD) (r : Ref sig .tc) (h : r ∉ hostOps0_1_W) :
    W2 m ρ c (no_index (Proc.devRef .tc r)) = W1 m ρ c (Proc.devRef .tc r) := W2_of m ρ c r h
theorem W3_of' (c : Dev nD) (r : Ref sig .tc) (h : r ∉ hostOps0_2_W) :
    W3 m ρ c (no_index (Proc.devRef .tc r)) = W2 m ρ c (Proc.devRef .tc r) := W3_of m ρ c r h
theorem W4_of' (c : Dev nD) (r : Ref sig .tc) (h : r ∉ hostOps0_3_W) :
    W4 m ρ c (no_index (Proc.devRef .tc r)) = W3 m ρ c (Proc.devRef .tc r) := W4_of m ρ c r h
theorem W5_of' (c : Dev nD) (r : Ref sig .tc) (h : r ∉ hostOps0_4_W) :
    W5 m ρ c (no_index (Proc.devRef .tc r)) = W4 m ρ c (Proc.devRef .tc r) := W5_of m ρ c r h
theorem W6_of' (c : Dev nD) (r : Ref sig .tc) (h : r ∉ hostOps0_5_W) :
    W6 m ρ c (no_index (Proc.devRef .tc r)) = W5 m ρ c (Proc.devRef .tc r) := W6_of m ρ c r h
theorem W7_of' (c : Dev nD) (r : Ref sig .tc) (h : r ∉ hostOps0_6_W) :
    W7 m ρ c (no_index (Proc.devRef .tc r)) = W6 m ρ c (Proc.devRef .tc r) := W7_of m ρ c r h
theorem W8_of' (c : Dev nD) (r : Ref sig .tc) (h : r ∉ hostOps0_7_W) :
    W8 m ρ c (no_index (Proc.devRef .tc r)) = W7 m ρ c (Proc.devRef .tc r) := W8_of m ρ c r h
theorem W9_of' (c : Dev nD) (r : Ref sig .tc) (h : r ∉ hostOps0_8_W) :
    W9 m ρ c (no_index (Proc.devRef .tc r)) = W8 m ρ c (Proc.devRef .tc r) := W9_of m ρ c r h
theorem W10_of' (c : Dev nD) (r : Ref sig .tc) (h : r ∉ hostOps0_9_W) :
    W10 m ρ c (no_index (Proc.devRef .tc r)) = W9 m ρ c (Proc.devRef .tc r) := W10_of m ρ c r h
theorem W11_of' (c : Dev nD) (r : Ref sig .tc) (h : r ∉ hostOps0_10_W) :
    W11 m ρ c (no_index (Proc.devRef .tc r)) = W10 m ρ c (Proc.devRef .tc r) := W11_of m ρ c r h
theorem W12_of' (c : Dev nD) (r : Ref sig .tc) (h : r ∉ hostOps0_11_W) :
    W12 m ρ c (no_index (Proc.devRef .tc r)) = W11 m ρ c (Proc.devRef .tc r) := W12_of m ρ c r h
theorem W13_of' (c : Dev nD) (r : Ref sig .tc) (h : r ∉ hostOps0_12_W) :
    W13 m ρ c (no_index (Proc.devRef .tc r)) = W12 m ρ c (Proc.devRef .tc r) := W13_of m ρ c r h
theorem W14_of' (c : Dev nD) (r : Ref sig .tc) (h : r ∉ hostOps0_13_W) :
    W14 m ρ c (no_index (Proc.devRef .tc r)) = W13 m ρ c (Proc.devRef .tc r) := W14_of m ρ c r h
theorem W15_of' (c : Dev nD) (r : Ref sig .tc) (h : r ∉ hostOps0_14_W) :
    W15 m ρ c (no_index (Proc.devRef .tc r)) = W14 m ρ c (Proc.devRef .tc r) := W15_of m ρ c r h
theorem W16_of' (c : Dev nD) (r : Ref sig .tc) (h : r ∉ hostOps0_15_W) :
    W16 m ρ c (no_index (Proc.devRef .tc r)) = W15 m ρ c (Proc.devRef .tc r) := W16_of m ρ c r h
theorem W17_of' (c : Dev nD) (r : Ref sig .tc) (h : r ∉ hostOps0_16_W) :
    W17 m ρ c (no_index (Proc.devRef .tc r)) = W16 m ρ c (Proc.devRef .tc r) := W17_of m ρ c r h
theorem W18_of' (c : Dev nD) (r : Ref sig .tc) (h : r ∉ hostOps0_17_W) :
    W18 m ρ c (no_index (Proc.devRef .tc r)) = W17 m ρ c (Proc.devRef .tc r) := W18_of m ρ c r h
theorem W19_of' (c : Dev nD) (r : Ref sig .tc) (h : r ∉ hostOps0_18_W) :
    W19 m ρ c (no_index (Proc.devRef .tc r)) = W18 m ρ c (Proc.devRef .tc r) := W19_of m ρ c r h
theorem W20_of' (c : Dev nD) (r : Ref sig .tc) (h : r ∉ hostOps0_19_W) :
    W20 m ρ c (no_index (Proc.devRef .tc r)) = W19 m ρ c (Proc.devRef .tc r) := W20_of m ρ c r h
theorem W21_of' (c : Dev nD) (r : Ref sig .tc) (h : r ∉ hostOps0_20_W) :
    W21 m ρ c (no_index (Proc.devRef .tc r)) = W20 m ρ c (Proc.devRef .tc r) := W21_of m ρ c r h
theorem W22_of' (c : Dev nD) (r : Ref sig .tc) (h : r ∉ hostOps0_21_W) :
    W22 m ρ c (no_index (Proc.devRef .tc r)) = W21 m ρ c (Proc.devRef .tc r) := W22_of m ρ c r h
theorem W23_of' (c : Dev nD) (r : Ref sig .tc) (h : r ∉ hostOps0_22_W) :
    W23 m ρ c (no_index (Proc.devRef .tc r)) = W22 m ρ c (Proc.devRef .tc r) := W23_of m ρ c r h
theorem W24_of' (c : Dev nD) (r : Ref sig .tc) (h : r ∉ hostOps0_23_W) :
    W24 m ρ c (no_index (Proc.devRef .tc r)) = W23 m ρ c (Proc.devRef .tc r) := W24_of m ρ c r h
theorem W25_of' (c : Dev nD) (r : Ref sig .tc) (h : r ∉ hostOps0_24_W) :
    W25 m ρ c (no_index (Proc.devRef .tc r)) = W24 m ρ c (Proc.devRef .tc r) := W25_of m ρ c r h
theorem W26_of' (c : Dev nD) (r : Ref sig .tc) (h : r ∉ hostOps0_25_W) :
    W26 m ρ c (no_index (Proc.devRef .tc r)) = W25 m ρ c (Proc.devRef .tc r) := W26_of m ρ c r h
theorem W27_of' (c : Dev nD) (r : Ref sig .tc) (h : r ∉ hostOps0_26_W) :
    W27 m ρ c (no_index (Proc.devRef .tc r)) = W26 m ρ c (Proc.devRef .tc r) := W27_of m ρ c r h
theorem W28_of' (c : Dev nD) (r : Ref sig .tc) (h : r ∉ hostOps0_27_W) :
    W28 m ρ c (no_index (Proc.devRef .tc r)) = W27 m ρ c (Proc.devRef .tc r) := W28_of m ρ c r h
theorem W29_of' (c : Dev nD) (r : Ref sig .tc) (h : r ∉ hostOps0_28_W) :
    W29 m ρ c (no_index (Proc.devRef .tc r)) = W28 m ρ c (Proc.devRef .tc r) := W29_of m ρ c r h

/-- Takes every buffer's contents in the goal back through the stretches that do not write it: to the stretch that
    writes it, or, for an argument, to the launch. -/
macro "walk_back" : tactic =>
  `(tactic| simp (disch := decide) only [W29_of', W28_of', W27_of', W26_of', W25_of', W24_of', W23_of', W22_of', W21_of',
      W20_of', W19_of', W18_of', W17_of', W16_of', W15_of', W14_of', W13_of', W12_of', W11_of', W10_of', W9_of', W8_of',
      W7_of', W6_of', W5_of', W4_of', W3_of', W2_of', W1_of'])

/-! ### The three simple windows -/

/-- Region 0's first window: the view of `X`. -/
theorem entry_w0 (c : Dev nD) : V29 m ρ c main_v450 = xlK (m ((c : Thread nD τ).loc main_arg7)) := by
  show W29 m ρ c (Proc.devRef .tc main_v450) = _
  unfold W29
  rw [s28_xl]
  walk_back
  rfl

/-- Its second window: the mixing matrix narrowed. -/
theorem entry_w1 (c : Dev nD) : V29 m ρ c main_v449 = adjK (m ((c : Thread nD τ).loc main_arg8)) := by
  show W29 m ρ c (Proc.devRef .tc main_v449) = _
  unfold W29
  rw [s28_adj]
  walk_back
  rfl

/-- Its fifth window: the lengthened Kronecker product narrowed. -/
theorem entry_w4 (c : Dev nD) : V29 m ρ c main_v448 = ThK (m ((c : Thread nD τ).loc main_arg2)) := by
  show W29 m ρ c (Proc.devRef .tc main_v448) = _
  unfold W29
  rw [s28_th]
  unfold W28
  rw [s27_pad]
  walk_back
  unfold W27
  rw [s26_c]
  unfold W26
  rw [s25_kron]
  walk_back
  unfold W25
  rw [s24_eye]
  rfl

/-! ### The widened weights and biases, as the joining stretch finds them -/

theorem val_v70 (c : Dev nD) : W24 m ρ c (Proc.devRef .tc main_v70)
    = padW1 (shapeCast S256x448 (band16Of (wOf 0 (m ((c : Thread nD τ).loc main_arg0)))) shapeCasts_S16x16x14x32_S256x448) := by
  walk_back
  unfold W2
  rw [s1_pad (W1 m ρ c) (s0_c (W0 m ρ c))]
  unfold W1
  rw [toep_hostOps0]
  rfl
theorem val_v71 (c : Dev nD) : W24 m ρ c (Proc.devRef .tc main_v71)
    = padB1 (bias448Of (bOf 0 (m ((c : Thread nD τ).loc main_arg1)))) := by
  walk_back
  unfold W4
  rw [s3_pad (W3 m ρ c) (s2_c (W2 m ρ c))]
  walk_back
  unfold W1
  rw [bias_hostOps0]
  rfl
theorem val_v142 (c : Dev nD) : W24 m ρ c (Proc.devRef .tc main_v142)
    = padW1 (shapeCast S256x448 (band16Of (wOf 1 (m ((c : Thread nD τ).loc main_arg0)))) shapeCasts_S16x16x14x32_S256x448) := by
  walk_back
  unfold W6
  rw [s5_pad (W5 m ρ c) (s4_c (W4 m ρ c))]
  unfold W5
  rw [toep_hostOps0_4]
  walk_back
  rfl
theorem val_v143 (c : Dev nD) : W24 m ρ c (Proc.devRef .tc main_v143)
    = padB1 (bias448Of (bOf 1 (m ((c : Thread nD τ).loc main_arg1)))) := by
  walk_back
  unfold W8
  rw [s7_pad (W7 m ρ c) (s6_c (W6 m ρ c))]
  walk_back
  unfold W5
  rw [bias_hostOps0_4]
  walk_back
  rfl
theorem val_v214 (c : Dev nD) : W24 m ρ c (Proc.devRef .tc main_v214)
    = padW1 (shapeCast S256x448 (band16Of (wOf 2 (m ((c : Thread nD τ).loc main_arg0)))) shapeCasts_S16x16x14x32_S256x448) := by
  walk_back
  unfold W10
  rw [s9_pad (W9 m ρ c) (s8_c (W8 m ρ c))]
  unfold W9
  rw [toep_hostOps0_8]
  walk_back
  rfl
theorem val_v215 (c : Dev nD) : W24 m ρ c (Proc.devRef .tc main_v215)
    = padB1 (bias448Of (bOf 2 (m ((c : Thread nD τ).loc main_arg1)))) := by
  walk_back
  unfold W12
  rw [s11_pad (W11 m ρ c) (s10_c (W10 m ρ c))]
  walk_back
  unfold W9
  rw [bias_hostOps0_8]
  walk_back
  rfl
theorem val_v286 (c : Dev nD) : W24 m ρ c (Proc.devRef .tc main_v286)
    = padW2 (shapeCast S224x384 (band14Of (wOf 0 (m ((c : Thread nD τ).loc main_arg3)))) shapeCasts_S14x16x12x32_S224x384) := by
  walk_back
  unfold W14
  rw [s13_pad (W13 m ρ c) (s12_c (W12 m ρ c))]
  unfold W13
  rw [toep_hostOps0_12]
  walk_back
  rfl
theorem val_v287 (c : Dev nD) : W24 m ρ c (Proc.devRef .tc main_v287)
    = padB2 (bias384Of (bOf 0 (m ((c : Thread nD τ).loc main_arg4)))) := by
  walk_back
  unfold W16
  rw [s15_pad (W15 m ρ c) (s14_c (W14 m ρ c))]
  walk_back
  unfold W13
  rw [bias_hostOps0_12]
  walk_back
  rfl
theorem val_v358 (c : Dev nD) : W24 m ρ c (Proc.devRef .tc main_v358)
    = padW2 (shapeCast S224x384 (band14Of (wOf 1 (m ((c : Thread nD τ).loc main_arg3)))) shapeCasts_S14x16x12x32_S224x384) := by
  walk_back
  unfold W18
  rw [s17_pad (W17 m ρ c) (s16_c (W16 m ρ c))]
  unfold W17
  rw [toep_hostOps0_16]
  walk_back
  rfl
theorem val_v359 (c : Dev nD) : W24 m ρ c (Proc.devRef .tc main_v359)
    = padB2 (bias384Of (bOf 1 (m ((c : Thread nD τ).loc main_arg4)))) := by
  walk_back
  unfold W20
  rw [s19_pad (W19 m ρ c) (s18_c (W18 m ρ c))]
  walk_back
  unfold W17
  rw [bias_hostOps0_16]
  walk_back
  rfl
theorem val_v430 (c : Dev nD) : W24 m ρ c (Proc.devRef .tc main_v430)
    = padW2 (shapeCast S224x384 (band14Of (wOf 2 (m ((c : Thread nD τ).loc main_arg3)))) shapeCasts_S14x16x12x32_S224x384) := by
  walk_back
  unfold W22
  rw [s21_pad (W21 m ρ c) (s20_c (W20 m ρ c))]
  unfold W21
  rw [toep_hostOps0_20]
  walk_back
  rfl
theorem val_v431 (c : Dev nD) : W24 m ρ c (Proc.devRef .tc main_v431)
    = padB2 (bias384Of (bOf 2 (m ((c : Thread nD τ).loc main_arg4)))) := by
  unfold W24
  rw [s23_pad (W23 m ρ c) (s22_c (W22 m ρ c))]
  walk_back
  unfold W21
  rw [bias_hostOps0_20]
  walk_back
  rfl

/-! ### The four joined windows -/

/-- Region 0's third window: the first convolution's weights. -/
theorem entry_w2 (c : Dev nD) : V29 m ρ c main_v433 = W1K (m ((c : Thread nD τ).loc main_arg0)) := by
  show W29 m ρ c (Proc.devRef .tc main_v433) = _
  walk_back
  unfold W25
  rw [s24_W1, val_v70, val_v142, val_v214]
  rfl

/-- Its fourth window: the first convolution's biases. -/
theorem entry_w3 (c : Dev nD) : V29 m ρ c main_v435 = B1K (m ((c : Thread nD τ).loc main_arg1)) := by
  show W29 m ρ c (Proc.devRef .tc main_v435) = _
  walk_back
  unfold W25
  rw [s24_B1, val_v71, val_v143, val_v215]
  rfl

/-- Its sixth window: the second convolution's weights. -/
theorem entry_w5 (c : Dev nD) : V29 m ρ c main_v437 = W2K (m ((c : Thread nD τ).loc main_arg3)) := by
  show W29 m ρ c (Proc.devRef .tc main_v437) = _
  walk_back
  unfold W25
  rw [s24_W2, val_v286, val_v358, val_v430]
  rfl

/-- Its seventh window: the second convolution's biases. -/
theorem entry_w6 (c : Dev nD) : V29 m ρ c main_v439 = B2K (m ((c : Thread nD τ).loc main_arg4)) := by
  show W29 m ρ c (Proc.devRef .tc main_v439) = _
  walk_back
  unfold W25
  rw [s24_B2, val_v287, val_v359, val_v431]
  rfl

end Entry

end Cert.KernelIdeal.Entry

end
-- ==== Proof.RefHostKron.lean ====
import proofs.«142292_g2000406351686535_pallasbulk_564_2_alg».proof.Proof.Gen.ReferenceIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

/-!
The block-diagonal mixing matrix `kron(I₈, Â)` the reference program builds on the host.

The program first makes the 8 by 8 identity — two index arrays, a zero added to the row index, the comparison
"row = column", the truth value converted to a float — and then forms the Kronecker product with `Â : [128, 128]`:
the identity viewed as `[8, 1, 8, 1]` and `Â` as `[1, 128, 1, 128]`, both stretched to `[8, 128, 8, 128]`,
multiplied, and the product viewed as the matrix `[1024, 1024]`. Over the extended reals the converted comparison is
exactly `1` or `0`, and `1 · a = a`, `0 · a = 0` for every `a`, infinite or not; so the entry at row `128 i + p` and
column `128 j + q` is `Â p q` when `i = j` and `0` otherwise.
-/

noncomputable section

namespace Cert.ReferenceIdeal.HostKron

open Cert.ReferenceIdeal Cert.ReferenceIdeal.Gen Idealize.ShloMosaic Idealize.ShloMosaic.StableHlo Idealize.ShloMosaic.ValueIdx

/-- The 8 by 8 identity as the program builds it: the truth value of "row index plus zero equals column index",
converted to a float. -/
def eye8 : S8x8.Idx → EReal :=
  uitofp (F := Ideal) .f32 (cmpi .eq (addi (iotaInDim S8x8 32 0) (broadcastInDim S8x8 ![] bcast_S_S8x8 (constantI S_ 32 0#32))) (iotaInDim S8x8 32 1))

/-- The Kronecker product of that identity with `A`, as the program builds it: both factors stretched to
`[8, 128, 8, 128]`, multiplied, and the product viewed as `[1024, 1024]`. -/
def AkOf (A : S128x128.Idx → EReal) : S1024x1024.Idx → EReal :=
  shapeCast S1024x1024
    (mulf (F := Ideal) (φ := .f32)
      (broadcastInDim S8x128x8x128 ![0, 1, 2, 3] bcast_S8x1x8x1_S8x128x8x128_0_1_2_3
        (broadcastInDim S8x1x8x1 ![0, 2] bcast_S8x8_S8x1x8x1_0_2 eye8))
      (broadcastInDim S8x128x8x128 ![0, 1, 2, 3] bcast_S1x128x1x128_S8x128x8x128_0_1_2_3
        (broadcastInDim S1x128x1x128 ![1, 3] bcast_S128x128_S1x128x1x128_1_3 A)))
    shapeCasts_S8x128x8x128_S1024x1024

/-- After the identity's seven operations and the product's six, run in order from any contents `V`, the buffer of
the product holds `AkOf` of what `V` holds at `Â`'s buffer. -/
theorem kron_val (V : Valuation τ sig (Elt Ideal)) :
    after (hostOps0_29 (F := Ideal)) (after (hostOps0_28 (F := Ideal)) V) (Proc.devRef .tc main_v392)
      = AkOf (V (Proc.devRef .tc main_arg8)) := by
  after_results
  rfl

/-! ## The product at an entry -/

/-- The comparison word at `(i, j)`: set exactly when `i = j` (both indices are below 8, far below 2³²). -/
theorem cmp_word (i j : Fin 8) :
    IntOp.cmpi .eq (IntOp.addi (BitVec.ofNat 32 i.val) 0#32) (BitVec.ofNat 32 j.val) = if i = j then 1#1 else 0#1 := by
  revert i j
  decide

/-- The identity at `(i, j)` is `1` when `i = j` and `0` otherwise. -/
theorem eye8_apply (i j : Fin 8) : eye8 (ix2 i j) = if i = j then 1 else 0 := by
  show FloatOps.uitofp (F := Ideal) .f32 (IntOp.cmpi .eq (IntOp.addi (BitVec.ofNat 32 i.val) 0#32) (BitVec.ofNat 32 j.val)) = _
  rw [cmp_word]
  by_cases h : i = j
  · rw [if_pos h, if_pos h]
    show (((1#1 : BitVec 1).toNat : ℝ) : EReal) = 1
    simp
  · rw [if_neg h, if_neg h]
    show (((0#1 : BitVec 1).toNat : ℝ) : EReal) = 0
    simp

variable {α : Type}

/-- An `[8, 1, 8, 1]` array stretched to `[8, 128, 8, 128]` reads, at `(i, p, j, q)`, the operand at `(i, 0, j, 0)`. -/
theorem stretch_eye (X : S8x1x8x1.Idx → α) (i : Fin 8) (p : Fin 128) (j : Fin 8) (q : Fin 128) :
    broadcastInDim S8x128x8x128 ![0, 1, 2, 3] bcast_S8x1x8x1_S8x128x8x128_0_1_2_3 X (ix4 i p j q)
      = X (ix4 i (0 : Fin 1) j (0 : Fin 1)) :=
  broadcastInDim_apply _ _ X (ix4 i p j q) (ix4 i (0 : Fin 1) j (0 : Fin 1)) fun a =>
    match a with | ⟨0, _⟩ => rfl | ⟨1, _⟩ => rfl | ⟨2, _⟩ => rfl | ⟨3, _⟩ => rfl

/-- An `[8, 8]` array placed on axes 0 and 2 of `[8, 1, 8, 1]` reads, at `(i, u, j, v)`, the operand at `(i, j)`. -/
theorem place_eye (E : S8x8.Idx → α) (i : Fin 8) (u : Fin 1) (j : Fin 8) (v : Fin 1) :
    broadcastInDim S8x1x8x1 ![0, 2] bcast_S8x8_S8x1x8x1_0_2 E (ix4 i u j v) = E (ix2 i j) :=
  broadcastInDim_apply _ _ E (ix4 i u j v) (ix2 i j) fun a =>
    match a with | ⟨0, _⟩ => rfl | ⟨1, _⟩ => rfl

/-- A `[1, 128, 1, 128]` array stretched to `[8, 128, 8, 128]` reads, at `(i, p, j, q)`, the operand at `(0, p, 0, q)`. -/
theorem stretch_mat (Z : S1x128x1x128.Idx → α) (i : Fin 8) (p : Fin 128) (j : Fin 8) (q : Fin 128) :
    broadcastInDim S8x128x8x128 ![0, 1, 2, 3] bcast_S1x128x1x128_S8x128x8x128_0_1_2_3 Z (ix4 i p j q)
      = Z (ix4 (0 : Fin 1) p (0 : Fin 1) q) :=
  broadcastInDim_apply _ _ Z (ix4 i p j q) (ix4 (0 : Fin 1) p (0 : Fin 1) q) fun a =>
    match a with | ⟨0, _⟩ => rfl | ⟨1, _⟩ => rfl | ⟨2, _⟩ => rfl | ⟨3, _⟩ => rfl

/-- A `[128, 128]` array placed on axes 1 and 3 of `[1, 128, 1, 128]` reads, at `(u, p, v, q)`, the operand at `(p, q)`. -/
theorem place_mat (A : S128x128.Idx → α) (u : Fin 1) (p : Fin 128) (v : Fin 1) (q : Fin 128) :
    broadcastInDim S1x128x1x128 ![1, 3] bcast_S128x128_S1x128x1x128_1_3 A (ix4 u p v q) = A (ix2 p q) :=
  broadcastInDim_apply _ _ A (ix4 u p v q) (ix2 p q) fun a =>
    match a with | ⟨0, _⟩ => rfl | ⟨1, _⟩ => rfl

/-- The product's entry at row `128 i + p`, column `128 j + q`: block `(i, j)` of the matrix is `A` on the diagonal
and zero off it. -/
theorem AkOf_apply (A : S128x128.Idx → EReal) (i j : Fin 8) (p q : Fin 128) :
    AkOf A (ix2 ⟨128 * i.val + p.val, by omega⟩ ⟨128 * j.val + q.val, by omega⟩) = if i = j then A (ix2 p q) else 0 := by
  unfold AkOf
  refine (shapeCast_apply _ shapeCasts_S8x128x8x128_S1024x1024 _ (ix4 i p j q) (by
    rw [Shape.rowMajor_val_four, Shape.rowMajor_val_two]
    show ((i.val * 128 + p.val) * 8 + j.val) * 128 + q.val = (128 * i.val + p.val) * 1024 + (128 * j.val + q.val)
    omega)).trans ?_
  rw [mulf_apply, stretch_eye, place_eye, stretch_mat, place_mat, eye8_apply]
  by_cases h : i = j
  · rw [if_pos h, if_pos h, one_mul]
  · rw [if_neg h, if_neg h, zero_mul]

end Cert.ReferenceIdeal.HostKron

end
-- ==== Proof.ToepRef.lean ====
import proofs.«142292_g2000406351686535_pallasbulk_564_2_alg».proof.ReferenceIdeal
import proofs.«142292_g2000406351686535_pallasbulk_564_2_alg».proof.Proof.LibScatterSet
import Idealize.ShloMosaic.Lib.ValueIdx
import Idealize.ShloMosaic.Lib.WordArith

/-!
The banded weight of the reference: a 3-tap block written into a constant array at one row offset.

A scatter with one start index `t` on the leading axis, the whole update `[3, 16, 32]` as its
window, into an operand `[T, 16, 32]` that is the constant `z`: row `τ` of the result is row
`τ - t` of the update when `t ≤ τ < t + 3`, and `z` otherwise.
-/

namespace Cert.ToepRef

open Idealize.ShloMosaic Cert.ReferenceIdeal Cert.LibScatter

/-- The dimension numbers of that scatter for an operand `[T, 16, 32]`. -/
abbrev bandDims (T : Nat) (wf : ScatterDims.WF ⟨3, ![T, 16, 32]⟩ ⟨1, ![1]⟩ ⟨3, ![3, 16, 32]⟩ [0, 1, 2] [] [0] 0) :
    ScatterDims ⟨3, ![T, 16, 32]⟩ ⟨1, ![1]⟩ ⟨3, ![3, 16, 32]⟩ where
  updateWindowDims := [0, 1, 2]
  insertedWindowDims := []
  scatterDimsToOperandDims := [0]
  indexVectorDim := 0
  wf := wf

section Band
variable {T : Nat} (wf : ScatterDims.WF ⟨3, ![T, 16, 32]⟩ ⟨1, ![1]⟩ ⟨3, ![3, 16, 32]⟩ [0, 1, 2] [] [0] 0)

/-- The index array has one element: every index into it is the same. -/
theorem idx1_eq (b : (⟨1, ![1]⟩ : Shape).Idx) : b = ValueIdx.ix1 ⟨0, Nat.one_pos⟩ := by
  funext a; refine Fin.ext ?_
  match a with
  | ⟨0, _⟩ => exact Nat.lt_one_iff.1 (b 0).isLt

/-- The window's start: the one start index on the leading axis, `0` on the others. -/
theorem start_eq (j : (⟨3, ![3, 16, 32]⟩ : Shape).Idx) (idx : IVec ⟨1, ![1]⟩ 32) (a : Fin 3) :
    (bandDims T wf).start j idx a = if a.val = 0 then (idx (ValueIdx.ix1 ⟨0, Nat.one_pos⟩)).toInt else 0 := by
  unfold ScatterDims.start
  match a with
  | ⟨0, h0⟩ =>
    rw [dif_pos (show (⟨0, h0⟩ : Fin 3) ∈ (bandDims T wf).scatterDimsToOperandDims from List.mem_singleton.mpr rfl),
      idx1_eq ((bandDims T wf).siIdx j _)]
    rfl
  | ⟨1, h1⟩ =>
    rw [dif_neg (show ¬ (⟨1, h1⟩ : Fin 3) ∈ (bandDims T wf).scatterDimsToOperandDims from fun h =>
      absurd (Fin.ext_iff.mp (List.mem_singleton.mp h)) (show (1 : ℕ) ≠ 0 by omega))]
    rfl
  | ⟨2, h2⟩ =>
    rw [dif_neg (show ¬ (⟨2, h2⟩ : Fin 3) ∈ (bandDims T wf).scatterDimsToOperandDims from fun h =>
      absurd (Fin.ext_iff.mp (List.mem_singleton.mp h)) (show (2 : ℕ) ≠ 0 by omega))]
    rfl

theorem mem_sKept (a : Fin 3) : a ∈ (bandDims T wf).sKept := by
  show a ∈ (List.finRange 3).filter (· ∉ ([] : List (Fin 3)))
  simp

/-- The window coordinate: the update index's own coordinate on each axis. -/
theorem window_eq (k : Fin 3) (ci : Fin 16) (co : Fin 32) (a : Fin 3) :
    (bandDims T wf).window (ValueIdx.ix3 k ci co) a
      = match a with | ⟨0, _⟩ => k.val | ⟨1, _⟩ => ci.val | ⟨2, _⟩ => co.val := by
  unfold ScatterDims.window
  rw [dif_pos (mem_sKept wf a)]
  match a with
  | ⟨0, _⟩ => rfl
  | ⟨1, _⟩ => rfl
  | ⟨2, _⟩ => rfl

/-- Where update index `(k, ci, co)` lands: row `t + k`, the same other coordinates. -/
theorem resultIdx_eq (hT : T < 2 ^ 31) (t : ℕ) (ht : t + 3 ≤ T) (idx : IVec ⟨1, ![1]⟩ 32)
    (hidx : idx (ValueIdx.ix1 ⟨0, Nat.one_pos⟩) = BitVec.ofNat 32 t) (k : Fin 3) (ci : Fin 16) (co : Fin 32) :
    (bandDims T wf).resultIdx? (ValueIdx.ix3 k ci co) idx
      = some (ValueIdx.ix3 (⟨t + k.val, by omega⟩ : Fin T) ci co) := by
  have hk := k.isLt
  have hci := ci.isLt
  have hco := co.isLt
  have hs : ∀ a : Fin 3, (bandDims T wf).start (ValueIdx.ix3 k ci co) idx a = if a.val = 0 then (t : Int) else 0 := by
    intro a
    rw [start_eq, hidx, WordArith.toInt_ofNat_small t (by omega)]
  unfold ScatterDims.resultIdx?
  split
  · refine congrArg some ?_
    funext a
    refine Fin.ext ?_
    show ((bandDims T wf).start (ValueIdx.ix3 k ci co) idx a + ((bandDims T wf).window (ValueIdx.ix3 k ci co) a : ℕ)).toNat
      = (ValueIdx.ix3 (⟨t + k.val, by omega⟩ : Fin T) ci co a).val
    rw [hs, window_eq]
    match a with
    | ⟨0, _⟩ =>
      show ((if (0 : ℕ) = 0 then (t : Int) else 0) + ((k.val : ℕ) : Int)).toNat = t + k.val
      rw [if_pos rfl]; omega
    | ⟨1, _⟩ =>
      show ((if (1 : ℕ) = 0 then (t : Int) else 0) + ((ci.val : ℕ) : Int)).toNat = ci.val
      rw [if_neg (by omega)]; omega
    | ⟨2, _⟩ =>
      show ((if (2 : ℕ) = 0 then (t : Int) else 0) + ((co.val : ℕ) : Int)).toNat = co.val
      rw [if_neg (by omega)]; omega
  · rename_i hne
    exfalso
    apply hne
    intro a
    rw [hs, window_eq]
    match a with
    | ⟨0, _⟩ =>
      show 0 ≤ (if (0 : ℕ) = 0 then (t : Int) else 0) + ((k.val : ℕ) : Int)
        ∧ (if (0 : ℕ) = 0 then (t : Int) else 0) + ((k.val : ℕ) : Int) < ((T : ℕ) : Int)
      rw [if_pos rfl]; omega
    | ⟨1, _⟩ =>
      show 0 ≤ (if (1 : ℕ) = 0 then (t : Int) else 0) + ((ci.val : ℕ) : Int)
        ∧ (if (1 : ℕ) = 0 then (t : Int) else 0) + ((ci.val : ℕ) : Int) < ((16 : ℕ) : Int)
      rw [if_neg (by omega)]; omega
    | ⟨2, _⟩ =>
      show 0 ≤ (if (2 : ℕ) = 0 then (t : Int) else 0) + ((co.val : ℕ) : Int)
        ∧ (if (2 : ℕ) = 0 then (t : Int) else 0) + ((co.val : ℕ) : Int) < ((32 : ℕ) : Int)
      rw [if_neg (by omega)]; omega

/-- THE BANDED SCATTER READ AT `(τ, ci, co)`: row `τ - t` of the update inside the band, the constant outside. -/
theorem scatterBand {α : Type} (hT : T < 2 ^ 31) (t : ℕ) (ht : t + 3 ≤ T) (z : α)
    (x : (⟨3, ![T, 16, 32]⟩ : Shape).Idx → α) (hx : ∀ i, x i = z)
    (idx : IVec ⟨1, ![1]⟩ 32) (hidx : idx (ValueIdx.ix1 ⟨0, Nat.one_pos⟩) = BitVec.ofNat 32 t)
    (w : (⟨3, ![3, 16, 32]⟩ : Shape).Idx → α) (τ : Fin T) (ci : Fin 16) (co : Fin 32) :
    Host.scatter (bandDims T wf) (fun _ b => b) x idx w (ValueIdx.ix3 τ ci co)
      = if h : t ≤ τ.val ∧ τ.val - t < 3 then w (ValueIdx.ix3 ⟨τ.val - t, h.2⟩ ci co) else z := by
  have hinj : ∀ j j' i, (bandDims T wf).resultIdx? j idx = some i → (bandDims T wf).resultIdx? j' idx = some i → j = j' := by
    intro j j' i hj hj'
    obtain ⟨k, c, o, rfl⟩ : ∃ (k : Fin 3) (c : Fin 16) (o : Fin 32), j = ValueIdx.ix3 k c o :=
      ⟨j 0, j 1, j 2, ValueIdx.eq_ix3 j⟩
    obtain ⟨k', c', o', rfl⟩ : ∃ (k : Fin 3) (c : Fin 16) (o : Fin 32), j' = ValueIdx.ix3 k c o :=
      ⟨j' 0, j' 1, j' 2, ValueIdx.eq_ix3 j'⟩
    rw [resultIdx_eq wf hT t ht idx hidx] at hj hj'
    have e := (Option.some.inj hj).trans (Option.some.inj hj').symm
    have e0 : t + k.val = t + k'.val := congrArg Fin.val (congrFun e (0 : Fin 3))
    have e1 : c = c' := congrFun e (1 : Fin 3)
    have e2 : o = o' := congrFun e (2 : Fin 3)
    have e0' : k = k' := Fin.ext (by omega)
    rw [e0', e1, e2]
  by_cases h : t ≤ τ.val ∧ τ.val - t < 3
  · rw [dif_pos h]
    refine scatter_set_hit (bandDims T wf) x idx w hinj _ _ ?_
    rw [resultIdx_eq wf hT t ht idx hidx]
    refine congrArg some (congrArg (fun a => ValueIdx.ix3 a ci co) (Fin.ext ?_))
    show t + (τ.val - t) = τ.val
    omega
  · rw [dif_neg h, scatter_set_miss (bandDims T wf) x idx w _ ?_, hx]
    intro j hj
    obtain ⟨k, c, o, rfl⟩ : ∃ (k : Fin 3) (c : Fin 16) (o : Fin 32), j = ValueIdx.ix3 k c o :=
      ⟨j 0, j 1, j 2, ValueIdx.eq_ix3 j⟩
    rw [resultIdx_eq wf hT t ht idx hidx] at hj
    have e0 : t + k.val = τ.val := congrArg Fin.val (congrFun (Option.some.inj hj) (0 : Fin 3))
    have hk := k.isLt
    exact h ⟨by omega, by omega⟩

end Band

section Program
variable [Facts₀]

/-- The reference's scatter into the `[16, 16, 32]` constant array. -/
theorem scatter16 {α : Type} (t : ℕ) (ht : t + 3 ≤ 16) (z : α) (x : S16x16x32.Idx → α) (hx : ∀ i, x i = z)
    (idx : IVec S1 32) (hidx : idx (ValueIdx.ix1 ⟨0, by decide⟩) = BitVec.ofNat 32 t)
    (w : S3x16x32.Idx → α) (τ : Fin 16) (ci : Fin 16) (co : Fin 32) :
    Host.scatter scatter_S16x16x32_S1_S3x16x32_012_n_0_0 (fun _ b => b) x idx w (ValueIdx.ix3 τ ci co)
      = if h : t ≤ τ.val ∧ τ.val - t < 3 then w (ValueIdx.ix3 ⟨τ.val - t, h.2⟩ ci co) else z :=
  scatterBand (T := 16) Facts₀.scatter_S16x16x32_S1_S3x16x32_012_n_0_0_wf (by omega) t ht z x hx idx hidx w τ ci co

/-- The reference's scatter into the `[14, 16, 32]` constant array. -/
theorem scatter14 {α : Type} (t : ℕ) (ht : t + 3 ≤ 14) (z : α) (x : S14x16x32.Idx → α) (hx : ∀ i, x i = z)
    (idx : IVec S1 32) (hidx : idx (ValueIdx.ix1 ⟨0, by decide⟩) = BitVec.ofNat 32 t)
    (w : S3x16x32.Idx → α) (τ : Fin 14) (ci : Fin 16) (co : Fin 32) :
    Host.scatter scatter_S14x16x32_S1_S3x16x32_012_n_0_0 (fun _ b => b) x idx w (ValueIdx.ix3 τ ci co)
      = if h : t ≤ τ.val ∧ τ.val - t < 3 then w (ValueIdx.ix3 ⟨τ.val - t, h.2⟩ ci co) else z :=
  scatterBand (T := 14) Facts₀.scatter_S14x16x32_S1_S3x16x32_012_n_0_0_wf (by omega) t ht z x hx idx hidx w τ ci co

end Program

end Cert.ToepRef
-- ==== Proof.RefHostToep.lean ====
import proofs.«142292_g2000406351686535_pallasbulk_564_2_alg».proof.Proof.Gen.ReferenceIdeal.Launch
import proofs.«142292_g2000406351686535_pallasbulk_564_2_alg».proof.Proof.ToepRef
import Idealize.ShloMosaic.Lib.StableHlo.Run
import Idealize.ShloMosaic.Lib.ValueIdx
import Idealize.ShloMosaic.PureOps.Ideal
import Idealize.ShloMosaic.Lib.IdealHost

set_option maxRecDepth 16384

noncomputable section

namespace Cert.ReferenceIdeal.HostToep

open Idealize.ShloMosaic Cert.ReferenceIdeal Cert.ReferenceIdeal.Gen

/-!
The banded weights and tiled biases the reference's host code builds, read back.

Each of six stretches of host operations slices one role's 3-tap filter out of a `[3, 3, 16, 32]` weight,
writes it at each row offset `t` of a zero array, flattens every written array and lays them side by side;
it also tiles the role's `[32]` bias.  For an arbitrary valuation before the stretch, the buffers it leaves
are these terms of the weight and the bias.
-/

/-- Concatenations of equal lists of pieces are equal (the shape fact is a proposition). -/
theorem concatenate_congr {α : Type} (t : Shape) (a : Fin t.rank) (xs ys : List ((s : Shape) × (s.Idx → α)))
    (h : Shape.Concatenates (xs.map (·.1)) t a) (h' : Shape.Concatenates (ys.map (·.1)) t a) (e : xs = ys) :
    concatenate t a xs h = concatenate t a ys h' := by
  subst e; rfl

/-- The 3-tap filter of role `r`: the slice `[r, :, :, :]` of a `[3, 3, 16, 32]` weight, read as `[3, 16, 32]`. -/
def wOf (r : Fin 3) (a : (⟨S3x3x16x32, .f32⟩ : BufTy).Contents (Elt Ideal)) : (⟨S3x16x32, .f32⟩ : BufTy).Contents (Elt Ideal) :=
  match r with
  | 0 => shapeCast S3x16x32 (extractStridedSlice S1x3x16x32 ![0, 0, 0, 0] a slices_S3x3x16x32_S1x3x16x32_0_0_0_0) shapeCasts_S1x3x16x32_S3x16x32
  | 1 => shapeCast S3x16x32 (extractStridedSlice S1x3x16x32 ![1, 0, 0, 0] a slices_S3x3x16x32_S1x3x16x32_1_0_0_0) shapeCasts_S1x3x16x32_S3x16x32
  | 2 => shapeCast S3x16x32 (extractStridedSlice S1x3x16x32 ![2, 0, 0, 0] a slices_S3x3x16x32_S1x3x16x32_2_0_0_0) shapeCasts_S1x3x16x32_S3x16x32

/-- The bias vector of role `r`: row `r` of a `[3, 32]` array, read as `[32]`. -/
def bOf (r : Fin 3) (a : (⟨S3x32, .f32⟩ : BufTy).Contents (Elt Ideal)) : (⟨S32, .f32⟩ : BufTy).Contents (Elt Ideal) :=
  match r with
  | 0 => shapeCast S32 (extractStridedSlice S1x32 ![0, 0] a slices_S3x32_S1x32_0_0) shapeCasts_S1x32_S32
  | 1 => shapeCast S32 (extractStridedSlice S1x32 ![1, 0] a slices_S3x32_S1x32_1_0) shapeCasts_S1x32_S32
  | 2 => shapeCast S32 (extractStridedSlice S1x32 ![2, 0] a slices_S3x32_S1x32_2_0) shapeCasts_S1x32_S32

/-- The filter `w` written at row `t` of a zero `[16, 16, 32]` array. -/
def band16 (w : (⟨S3x16x32, .f32⟩ : BufTy).Contents (Elt Ideal)) (t : Fin 14) : (⟨S16x16x32, .f32⟩ : BufTy).Contents (Elt Ideal) :=
  Host.scatter scatter_S16x16x32_S1_S3x16x32_012_n_0_0 (fun _ b => b)
    (broadcastInDim S16x16x32 ![] bcast_S_S16x16x32 (constant (F := Ideal) S_ .f32 0x00000000#32))
    (broadcastInDim S1 ![] bcast_S_S1 (constantI S_ 32 (BitVec.ofNat 32 t.val)))
    w

/-- The filter `w` written at row `t` of a zero `[14, 16, 32]` array. -/
def band14 (w : (⟨S3x16x32, .f32⟩ : BufTy).Contents (Elt Ideal)) (t : Fin 12) : (⟨S14x16x32, .f32⟩ : BufTy).Contents (Elt Ideal) :=
  Host.scatter scatter_S14x16x32_S1_S3x16x32_012_n_0_0 (fun _ b => b)
    (broadcastInDim S14x16x32 ![] bcast_S_S14x16x32 (constant (F := Ideal) S_ .f32 0x00000000#32))
    (broadcastInDim S1 ![] bcast_S_S1 (constantI S_ 32 (BitVec.ofNat 32 t.val)))
    w

/-- A `[32]` vector tiled 14 times, as `[448]`. -/
def tile14 (b : (⟨S32, .f32⟩ : BufTy).Contents (Elt Ideal)) : (⟨S448, .f32⟩ : BufTy).Contents (Elt Ideal) :=
  shapeCast S448 (broadcastInDim S14x32 ![0, 1] bcast_S1x32_S14x32_0_1 (shapeCast S1x32 b shapeCasts_S32_S1x32)) shapeCasts_S14x32_S448

/-- A `[32]` vector tiled 12 times, as `[384]`. -/
def tile12 (b : (⟨S32, .f32⟩ : BufTy).Contents (Elt Ideal)) : (⟨S384, .f32⟩ : BufTy).Contents (Elt Ideal) :=
  shapeCast S384 (broadcastInDim S12x32 ![0, 1] bcast_S1x32_S12x32_0_1 (shapeCast S1x32 b shapeCasts_S32_S1x32)) shapeCasts_S12x32_S384

/-- Inside the band the written array holds the filter's row, outside it zero. -/
theorem band16_apply (w : (⟨S3x16x32, .f32⟩ : BufTy).Contents (Elt Ideal)) (t : Fin 14) (τ : Fin 16) (ci : Fin 16) (co : Fin 32) :
    band16 w t (ValueIdx.ix3 τ ci co)
      = if h : t.val ≤ τ.val ∧ τ.val - t.val < 3 then w (ValueIdx.ix3 ⟨τ.val - t.val, h.2⟩ ci co) else 0 :=
  Cert.ToepRef.scatter16 (α := EReal) t.val (by have := t.isLt; omega) 0 _ (fun _ => Ideal.ofBits_zero_f32) _ rfl w τ ci co

theorem band14_apply (w : (⟨S3x16x32, .f32⟩ : BufTy).Contents (Elt Ideal)) (t : Fin 12) (τ : Fin 14) (ci : Fin 16) (co : Fin 32) :
    band14 w t (ValueIdx.ix3 τ ci co)
      = if h : t.val ≤ τ.val ∧ τ.val - t.val < 3 then w (ValueIdx.ix3 ⟨τ.val - t.val, h.2⟩ ci co) else 0 :=
  Cert.ToepRef.scatter14 (α := EReal) t.val (by have := t.isLt; omega) 0 _ (fun _ => Ideal.ofBits_zero_f32) _ rfl w τ ci co

open StableHlo in
set_option maxHeartbeats 40000000 in
/-- The banded weight of conv block 1, role 0: the 14 written arrays, each flattened, side by side. -/
theorem toep1_0 (V : Valuation τ sig (Elt Ideal)) :
    StableHlo.after (hostOps0 (F := Ideal)) V (Proc.devRef .tc main_v60)
      = concatenate S256x448 1
        [⟨S256x32, shapeCast S256x32 (band16 (wOf 0 (V (Proc.devRef .tc main_arg0))) 0) shapeCasts_S16x16x32_S256x32⟩,
        ⟨S256x32, shapeCast S256x32 (band16 (wOf 0 (V (Proc.devRef .tc main_arg0))) 1) shapeCasts_S16x16x32_S256x32⟩,
        ⟨S256x32, shapeCast S256x32 (band16 (wOf 0 (V (Proc.devRef .tc main_arg0))) 2) shapeCasts_S16x16x32_S256x32⟩,
        ⟨S256x32, shapeCast S256x32 (band16 (wOf 0 (V (Proc.devRef .tc main_arg0))) 3) shapeCasts_S16x16x32_S256x32⟩,
        ⟨S256x32, shapeCast S256x32 (band16 (wOf 0 (V (Proc.devRef .tc main_arg0))) 4) shapeCasts_S16x16x32_S256x32⟩,
        ⟨S256x32, shapeCast S256x32 (band16 (wOf 0 (V (Proc.devRef .tc main_arg0))) 5) shapeCasts_S16x16x32_S256x32⟩,
        ⟨S256x32, shapeCast S256x32 (band16 (wOf 0 (V (Proc.devRef .tc main_arg0))) 6) shapeCasts_S16x16x32_S256x32⟩,
        ⟨S256x32, shapeCast S256x32 (band16 (wOf 0 (V (Proc.devRef .tc main_arg0))) 7) shapeCasts_S16x16x32_S256x32⟩,
        ⟨S256x32, shapeCast S256x32 (band16 (wOf 0 (V (Proc.devRef .tc main_arg0))) 8) shapeCasts_S16x16x32_S256x32⟩,
        ⟨S256x32, shapeCast S256x32 (band16 (wOf 0 (V (Proc.devRef .tc main_arg0))) 9) shapeCasts_S16x16x32_S256x32⟩,
        ⟨S256x32, shapeCast S256x32 (band16 (wOf 0 (V (Proc.devRef .tc main_arg0))) 10) shapeCasts_S16x16x32_S256x32⟩,
        ⟨S256x32, shapeCast S256x32 (band16 (wOf 0 (V (Proc.devRef .tc main_arg0))) 11) shapeCasts_S16x16x32_S256x32⟩,
        ⟨S256x32, shapeCast S256x32 (band16 (wOf 0 (V (Proc.devRef .tc main_arg0))) 12) shapeCasts_S16x16x32_S256x32⟩,
        ⟨S256x32, shapeCast S256x32 (band16 (wOf 0 (V (Proc.devRef .tc main_arg0))) 13) shapeCasts_S16x16x32_S256x32⟩]
        concatenates_S256x32_S256x32_S256x32_S256x32_S256x32_S256x32_S256x32_S256x32_S256x32_S256x32_S256x32_S256x32_S256x32_S256x32_S256x448_d1 := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  refine concatenate_congr _ _ _ _ _ _ ?_
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The tiled bias of conv block 1, role 0. -/
theorem bias1_0 (V : Valuation τ sig (Elt Ideal)) :
    StableHlo.after (hostOps0 (F := Ideal)) V (Proc.devRef .tc main_v63) = tile14 (bOf 0 (V (Proc.devRef .tc main_arg1))) := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The banded weight of conv block 1, role 1: the 14 written arrays, each flattened, side by side. -/
theorem toep1_1 (V : Valuation τ sig (Elt Ideal)) :
    StableHlo.after (hostOps0_4 (F := Ideal)) V (Proc.devRef .tc main_v126)
      = concatenate S256x448 1
        [⟨S256x32, shapeCast S256x32 (band16 (wOf 1 (V (Proc.devRef .tc main_arg0))) 0) shapeCasts_S16x16x32_S256x32⟩,
        ⟨S256x32, shapeCast S256x32 (band16 (wOf 1 (V (Proc.devRef .tc main_arg0))) 1) shapeCasts_S16x16x32_S256x32⟩,
        ⟨S256x32, shapeCast S256x32 (band16 (wOf 1 (V (Proc.devRef .tc main_arg0))) 2) shapeCasts_S16x16x32_S256x32⟩,
        ⟨S256x32, shapeCast S256x32 (band16 (wOf 1 (V (Proc.devRef .tc main_arg0))) 3) shapeCasts_S16x16x32_S256x32⟩,
        ⟨S256x32, shapeCast S256x32 (band16 (wOf 1 (V (Proc.devRef .tc main_arg0))) 4) shapeCasts_S16x16x32_S256x32⟩,
        ⟨S256x32, shapeCast S256x32 (band16 (wOf 1 (V (Proc.devRef .tc main_arg0))) 5) shapeCasts_S16x16x32_S256x32⟩,
        ⟨S256x32, shapeCast S256x32 (band16 (wOf 1 (V (Proc.devRef .tc main_arg0))) 6) shapeCasts_S16x16x32_S256x32⟩,
        ⟨S256x32, shapeCast S256x32 (band16 (wOf 1 (V (Proc.devRef .tc main_arg0))) 7) shapeCasts_S16x16x32_S256x32⟩,
        ⟨S256x32, shapeCast S256x32 (band16 (wOf 1 (V (Proc.devRef .tc main_arg0))) 8) shapeCasts_S16x16x32_S256x32⟩,
        ⟨S256x32, shapeCast S256x32 (band16 (wOf 1 (V (Proc.devRef .tc main_arg0))) 9) shapeCasts_S16x16x32_S256x32⟩,
        ⟨S256x32, shapeCast S256x32 (band16 (wOf 1 (V (Proc.devRef .tc main_arg0))) 10) shapeCasts_S16x16x32_S256x32⟩,
        ⟨S256x32, shapeCast S256x32 (band16 (wOf 1 (V (Proc.devRef .tc main_arg0))) 11) shapeCasts_S16x16x32_S256x32⟩,
        ⟨S256x32, shapeCast S256x32 (band16 (wOf 1 (V (Proc.devRef .tc main_arg0))) 12) shapeCasts_S16x16x32_S256x32⟩,
        ⟨S256x32, shapeCast S256x32 (band16 (wOf 1 (V (Proc.devRef .tc main_arg0))) 13) shapeCasts_S16x16x32_S256x32⟩]
        concatenates_S256x32_S256x32_S256x32_S256x32_S256x32_S256x32_S256x32_S256x32_S256x32_S256x32_S256x32_S256x32_S256x32_S256x32_S256x448_d1 := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  refine concatenate_congr _ _ _ _ _ _ ?_
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The tiled bias of conv block 1, role 1. -/
theorem bias1_1 (V : Valuation τ sig (Elt Ideal)) :
    StableHlo.after (hostOps0_4 (F := Ideal)) V (Proc.devRef .tc main_v129) = tile14 (bOf 1 (V (Proc.devRef .tc main_arg1))) := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The banded weight of conv block 1, role 2: the 14 written arrays, each flattened, side by side. -/
theorem toep1_2 (V : Valuation τ sig (Elt Ideal)) :
    StableHlo.after (hostOps0_8 (F := Ideal)) V (Proc.devRef .tc main_v192)
      = concatenate S256x448 1
        [⟨S256x32, shapeCast S256x32 (band16 (wOf 2 (V (Proc.devRef .tc main_arg0))) 0) shapeCasts_S16x16x32_S256x32⟩,
        ⟨S256x32, shapeCast S256x32 (band16 (wOf 2 (V (Proc.devRef .tc main_arg0))) 1) shapeCasts_S16x16x32_S256x32⟩,
        ⟨S256x32, shapeCast S256x32 (band16 (wOf 2 (V (Proc.devRef .tc main_arg0))) 2) shapeCasts_S16x16x32_S256x32⟩,
        ⟨S256x32, shapeCast S256x32 (band16 (wOf 2 (V (Proc.devRef .tc main_arg0))) 3) shapeCasts_S16x16x32_S256x32⟩,
        ⟨S256x32, shapeCast S256x32 (band16 (wOf 2 (V (Proc.devRef .tc main_arg0))) 4) shapeCasts_S16x16x32_S256x32⟩,
        ⟨S256x32, shapeCast S256x32 (band16 (wOf 2 (V (Proc.devRef .tc main_arg0))) 5) shapeCasts_S16x16x32_S256x32⟩,
        ⟨S256x32, shapeCast S256x32 (band16 (wOf 2 (V (Proc.devRef .tc main_arg0))) 6) shapeCasts_S16x16x32_S256x32⟩,
        ⟨S256x32, shapeCast S256x32 (band16 (wOf 2 (V (Proc.devRef .tc main_arg0))) 7) shapeCasts_S16x16x32_S256x32⟩,
        ⟨S256x32, shapeCast S256x32 (band16 (wOf 2 (V (Proc.devRef .tc main_arg0))) 8) shapeCasts_S16x16x32_S256x32⟩,
        ⟨S256x32, shapeCast S256x32 (band16 (wOf 2 (V (Proc.devRef .tc main_arg0))) 9) shapeCasts_S16x16x32_S256x32⟩,
        ⟨S256x32, shapeCast S256x32 (band16 (wOf 2 (V (Proc.devRef .tc main_arg0))) 10) shapeCasts_S16x16x32_S256x32⟩,
        ⟨S256x32, shapeCast S256x32 (band16 (wOf 2 (V (Proc.devRef .tc main_arg0))) 11) shapeCasts_S16x16x32_S256x32⟩,
        ⟨S256x32, shapeCast S256x32 (band16 (wOf 2 (V (Proc.devRef .tc main_arg0))) 12) shapeCasts_S16x16x32_S256x32⟩,
        ⟨S256x32, shapeCast S256x32 (band16 (wOf 2 (V (Proc.devRef .tc main_arg0))) 13) shapeCasts_S16x16x32_S256x32⟩]
        concatenates_S256x32_S256x32_S256x32_S256x32_S256x32_S256x32_S256x32_S256x32_S256x32_S256x32_S256x32_S256x32_S256x32_S256x32_S256x448_d1 := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  refine concatenate_congr _ _ _ _ _ _ ?_
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The tiled bias of conv block 1, role 2. -/
theorem bias1_2 (V : Valuation τ sig (Elt Ideal)) :
    StableHlo.after (hostOps0_8 (F := Ideal)) V (Proc.devRef .tc main_v195) = tile14 (bOf 2 (V (Proc.devRef .tc main_arg1))) := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The banded weight of conv block 2, role 0: the 12 written arrays, each flattened, side by side. -/
theorem toep2_0 (V : Valuation τ sig (Elt Ideal)) :
    StableHlo.after (hostOps0_12 (F := Ideal)) V (Proc.devRef .tc main_v253)
      = concatenate S224x384 1
        [⟨S224x32, shapeCast S224x32 (band14 (wOf 0 (V (Proc.devRef .tc main_arg3))) 0) shapeCasts_S14x16x32_S224x32⟩,
        ⟨S224x32, shapeCast S224x32 (band14 (wOf 0 (V (Proc.devRef .tc main_arg3))) 1) shapeCasts_S14x16x32_S224x32⟩,
        ⟨S224x32, shapeCast S224x32 (band14 (wOf 0 (V (Proc.devRef .tc main_arg3))) 2) shapeCasts_S14x16x32_S224x32⟩,
        ⟨S224x32, shapeCast S224x32 (band14 (wOf 0 (V (Proc.devRef .tc main_arg3))) 3) shapeCasts_S14x16x32_S224x32⟩,
        ⟨S224x32, shapeCast S224x32 (band14 (wOf 0 (V (Proc.devRef .tc main_arg3))) 4) shapeCasts_S14x16x32_S224x32⟩,
        ⟨S224x32, shapeCast S224x32 (band14 (wOf 0 (V (Proc.devRef .tc main_arg3))) 5) shapeCasts_S14x16x32_S224x32⟩,
        ⟨S224x32, shapeCast S224x32 (band14 (wOf 0 (V (Proc.devRef .tc main_arg3))) 6) shapeCasts_S14x16x32_S224x32⟩,
        ⟨S224x32, shapeCast S224x32 (band14 (wOf 0 (V (Proc.devRef .tc main_arg3))) 7) shapeCasts_S14x16x32_S224x32⟩,
        ⟨S224x32, shapeCast S224x32 (band14 (wOf 0 (V (Proc.devRef .tc main_arg3))) 8) shapeCasts_S14x16x32_S224x32⟩,
        ⟨S224x32, shapeCast S224x32 (band14 (wOf 0 (V (Proc.devRef .tc main_arg3))) 9) shapeCasts_S14x16x32_S224x32⟩,
        ⟨S224x32, shapeCast S224x32 (band14 (wOf 0 (V (Proc.devRef .tc main_arg3))) 10) shapeCasts_S14x16x32_S224x32⟩,
        ⟨S224x32, shapeCast S224x32 (band14 (wOf 0 (V (Proc.devRef .tc main_arg3))) 11) shapeCasts_S14x16x32_S224x32⟩]
        concatenates_S224x32_S224x32_S224x32_S224x32_S224x32_S224x32_S224x32_S224x32_S224x32_S224x32_S224x32_S224x32_S224x384_d1 := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  refine concatenate_congr _ _ _ _ _ _ ?_
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The tiled bias of conv block 2, role 0. -/
theorem bias2_0 (V : Valuation τ sig (Elt Ideal)) :
    StableHlo.after (hostOps0_12 (F := Ideal)) V (Proc.devRef .tc main_v256) = tile12 (bOf 0 (V (Proc.devRef .tc main_arg4))) := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The banded weight of conv block 2, role 1: the 12 written arrays, each flattened, side by side. -/
theorem toep2_1 (V : Valuation τ sig (Elt Ideal)) :
    StableHlo.after (hostOps0_16 (F := Ideal)) V (Proc.devRef .tc main_v311)
      = concatenate S224x384 1
        [⟨S224x32, shapeCast S224x32 (band14 (wOf 1 (V (Proc.devRef .tc main_arg3))) 0) shapeCasts_S14x16x32_S224x32⟩,
        ⟨S224x32, shapeCast S224x32 (band14 (wOf 1 (V (Proc.devRef .tc main_arg3))) 1) shapeCasts_S14x16x32_S224x32⟩,
        ⟨S224x32, shapeCast S224x32 (band14 (wOf 1 (V (Proc.devRef .tc main_arg3))) 2) shapeCasts_S14x16x32_S224x32⟩,
        ⟨S224x32, shapeCast S224x32 (band14 (wOf 1 (V (Proc.devRef .tc main_arg3))) 3) shapeCasts_S14x16x32_S224x32⟩,
        ⟨S224x32, shapeCast S224x32 (band14 (wOf 1 (V (Proc.devRef .tc main_arg3))) 4) shapeCasts_S14x16x32_S224x32⟩,
        ⟨S224x32, shapeCast S224x32 (band14 (wOf 1 (V (Proc.devRef .tc main_arg3))) 5) shapeCasts_S14x16x32_S224x32⟩,
        ⟨S224x32, shapeCast S224x32 (band14 (wOf 1 (V (Proc.devRef .tc main_arg3))) 6) shapeCasts_S14x16x32_S224x32⟩,
        ⟨S224x32, shapeCast S224x32 (band14 (wOf 1 (V (Proc.devRef .tc main_arg3))) 7) shapeCasts_S14x16x32_S224x32⟩,
        ⟨S224x32, shapeCast S224x32 (band14 (wOf 1 (V (Proc.devRef .tc main_arg3))) 8) shapeCasts_S14x16x32_S224x32⟩,
        ⟨S224x32, shapeCast S224x32 (band14 (wOf 1 (V (Proc.devRef .tc main_arg3))) 9) shapeCasts_S14x16x32_S224x32⟩,
        ⟨S224x32, shapeCast S224x32 (band14 (wOf 1 (V (Proc.devRef .tc main_arg3))) 10) shapeCasts_S14x16x32_S224x32⟩,
        ⟨S224x32, shapeCast S224x32 (band14 (wOf 1 (V (Proc.devRef .tc main_arg3))) 11) shapeCasts_S14x16x32_S224x32⟩]
        concatenates_S224x32_S224x32_S224x32_S224x32_S224x32_S224x32_S224x32_S224x32_S224x32_S224x32_S224x32_S224x32_S224x384_d1 := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  refine concatenate_congr _ _ _ _ _ _ ?_
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The tiled bias of conv block 2, role 1. -/
theorem bias2_1 (V : Valuation τ sig (Elt Ideal)) :
    StableHlo.after (hostOps0_16 (F := Ideal)) V (Proc.devRef .tc main_v314) = tile12 (bOf 1 (V (Proc.devRef .tc main_arg4))) := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The banded weight of conv block 2, role 2: the 12 written arrays, each flattened, side by side. -/
theorem toep2_2 (V : Valuation τ sig (Elt Ideal)) :
    StableHlo.after (hostOps0_20 (F := Ideal)) V (Proc.devRef .tc main_v369)
      = concatenate S224x384 1
        [⟨S224x32, shapeCast S224x32 (band14 (wOf 2 (V (Proc.devRef .tc main_arg3))) 0) shapeCasts_S14x16x32_S224x32⟩,
        ⟨S224x32, shapeCast S224x32 (band14 (wOf 2 (V (Proc.devRef .tc main_arg3))) 1) shapeCasts_S14x16x32_S224x32⟩,
        ⟨S224x32, shapeCast S224x32 (band14 (wOf 2 (V (Proc.devRef .tc main_arg3))) 2) shapeCasts_S14x16x32_S224x32⟩,
        ⟨S224x32, shapeCast S224x32 (band14 (wOf 2 (V (Proc.devRef .tc main_arg3))) 3) shapeCasts_S14x16x32_S224x32⟩,
        ⟨S224x32, shapeCast S224x32 (band14 (wOf 2 (V (Proc.devRef .tc main_arg3))) 4) shapeCasts_S14x16x32_S224x32⟩,
        ⟨S224x32, shapeCast S224x32 (band14 (wOf 2 (V (Proc.devRef .tc main_arg3))) 5) shapeCasts_S14x16x32_S224x32⟩,
        ⟨S224x32, shapeCast S224x32 (band14 (wOf 2 (V (Proc.devRef .tc main_arg3))) 6) shapeCasts_S14x16x32_S224x32⟩,
        ⟨S224x32, shapeCast S224x32 (band14 (wOf 2 (V (Proc.devRef .tc main_arg3))) 7) shapeCasts_S14x16x32_S224x32⟩,
        ⟨S224x32, shapeCast S224x32 (band14 (wOf 2 (V (Proc.devRef .tc main_arg3))) 8) shapeCasts_S14x16x32_S224x32⟩,
        ⟨S224x32, shapeCast S224x32 (band14 (wOf 2 (V (Proc.devRef .tc main_arg3))) 9) shapeCasts_S14x16x32_S224x32⟩,
        ⟨S224x32, shapeCast S224x32 (band14 (wOf 2 (V (Proc.devRef .tc main_arg3))) 10) shapeCasts_S14x16x32_S224x32⟩,
        ⟨S224x32, shapeCast S224x32 (band14 (wOf 2 (V (Proc.devRef .tc main_arg3))) 11) shapeCasts_S14x16x32_S224x32⟩]
        concatenates_S224x32_S224x32_S224x32_S224x32_S224x32_S224x32_S224x32_S224x32_S224x32_S224x32_S224x32_S224x32_S224x384_d1 := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  refine concatenate_congr _ _ _ _ _ _ ?_
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

open StableHlo in
set_option maxHeartbeats 40000000 in
/-- The tiled bias of conv block 2, role 2. -/
theorem bias2_2 (V : Valuation τ sig (Elt Ideal)) :
    StableHlo.after (hostOps0_20 (F := Ideal)) V (Proc.devRef .tc main_v372) = tile12 (bOf 2 (V (Proc.devRef .tc main_arg4))) := by
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

end Cert.ReferenceIdeal.HostToep
end
-- ==== Proof.RefEntry.lean ====
import proofs.«142292_g2000406351686535_pallasbulk_564_2_alg».proof.Proof.RefFold
import proofs.«142292_g2000406351686535_pallasbulk_564_2_alg».proof.Proof.RefHostKron
import proofs.«142292_g2000406351686535_pallasbulk_564_2_alg».proof.Proof.RefHostToep
import Idealize.ShloMosaic.Lib.StableHlo.Run
import Idealize.ShloMosaic.PureOps.Ideal

/-!
# The arrays the reference program's first region is entered with

Before its first region the reference program prepares seven arrays on the host, each from the argument arrays alone:
the input `X` viewed as `256 × 128 × 256`; the block-diagonal mixing matrix `kron(I₈, Â)`; the first convolution's three
banded weight matrices, each widened by zero columns from 448 to 512 and laid side by side, with their biases likewise;
`kron(I₁₄, Θ₁)` lengthened by zero rows from 448 to 512; and the second convolution's three banded matrices side by
side, with their biases. This file names each as a function of the arguments — written operation by operation as the
program computes it — and proves that the contents the region is entered with are those functions of the launch
contents of the arguments.
-/

set_option maxRecDepth 16384

noncomputable section

namespace Cert.ReferenceIdeal.Entry

open Cert.ReferenceIdeal Cert.ReferenceIdeal.Gen Cert.ReferenceIdeal.Writes
open Idealize.ShloMosaic Idealize.ShloMosaic.TcCoe Idealize.SL.Sem Idealize.ShloMosaic.StableHlo

/-! ## The terms -/

/-- The padding value every widening uses: the integer `0` converted to a float. -/
def zpad : S_.Idx → EReal := sitofp (F := Ideal) .f32 (constantI S_ 32 0#32)

/-- The input `[256, 128, 16, 16]` viewed as `[256, 128, 256]`. -/
def xlR (a7 : S256x128x16x16.Idx → EReal) : S256x128x256.Idx → EReal :=
  shapeCast S256x128x256 a7 shapeCasts_S256x128x16x16_S256x128x256

/-- The 14 by 14 identity as the program builds it: the truth value of "row index plus zero equals column index",
    converted to a float. -/
def eye14 : S14x14.Idx → EReal :=
  uitofp (F := Ideal) .f32
    (cmpi .eq (addi (iotaInDim S14x14 32 0) (broadcastInDim S14x14 ![] bcast_S_S14x14 (constantI S_ 32 0#32)))
      (iotaInDim S14x14 32 1))

/-- `kron(I₁₄, Θ)` as the program builds it — both factors stretched to `[14, 32, 14, 16]`, multiplied, viewed as
    `[448, 224]` — and then lengthened by 64 zero rows to `[512, 224]`. -/
def ThR (a2 : S32x16.Idx → EReal) : S512x224.Idx → EReal :=
  pad S512x224 ![0, 0] ![64, 0] ![0, 0]
    (shapeCast S448x224
      (mulf (F := Ideal) (φ := .f32)
        (broadcastInDim S14x32x14x16 ![0, 1, 2, 3] bcast_S14x1x14x1_S14x32x14x16_0_1_2_3
          (broadcastInDim S14x1x14x1 ![0, 2] bcast_S14x14_S14x1x14x1_0_2 eye14))
        (broadcastInDim S14x32x14x16 ![0, 1, 2, 3] bcast_S1x32x1x16_S14x32x14x16_0_1_2_3
          (broadcastInDim S1x32x1x16 ![1, 3] bcast_S32x16_S1x32x1x16_1_3 a2)))
      shapeCasts_S14x32x14x16_S448x224)
    zpad pads_S448x224_S512x224_0640_000 h_S_

/-! ## Each stretch on its own, from arbitrary contents -/

section Local

variable (V : Valuation τ sig (Elt Ideal))

/-- The last stretch before the region: the view of `X`. -/
theorem xl_val : after (hostOps0_30 (F := Ideal)) V (Proc.devRef .tc main_v393) = xlR (V (Proc.devRef .tc main_arg7)) := by
  after_results
  rfl

/-- The stretch that ends with the 14 by 14 identity. -/
theorem eye14_val : after (hostOps0_24 (F := Ideal)) V (Proc.devRef .tc main_v383) = eye14 := by
  after_results
  rfl

/-- The Kronecker product's stretch, then the constant's, then the widening's: `ThR` of what the first holds at `Θ₁`'s
    buffer, when it holds the identity at the identity's. -/
theorem th_val (h : V (Proc.devRef .tc main_v383) = eye14) :
    after (hostOps0_27 (F := Ideal)) (after (hostOps0_26 (F := Ideal)) (after (hostOps0_25 (F := Ideal)) V))
        (Proc.devRef .tc main_v385) = ThR (V (Proc.devRef .tc main_arg2)) := by
  after_results
  rw [h]
  rfl

end Local

/-! ### The widenings, the constants and the concatenations, each from arbitrary contents -/

section Local2

variable (V : Valuation τ sig (Elt Ideal))

/-- First convolution, tap 0: the banded matrix widened from 448 to 512 columns by the padding value. -/
theorem padW1_0 : after (hostOps0_1 (F := Ideal)) V (Proc.devRef .tc main_v64)
    = pad S256x512 ![0, 0] ![0, 64] ![0, 0] (V (Proc.devRef .tc main_v60)) (sitofp (F := Ideal) .f32 (V (Proc.devRef .tc main_c_26)))
        pads_S256x448_S256x512_000_0640 h_S_ := by
  after_results
  rfl
/-- First convolution, tap 1. -/
theorem padW1_1 : after (hostOps0_5 (F := Ideal)) V (Proc.devRef .tc main_v130)
    = pad S256x512 ![0, 0] ![0, 64] ![0, 0] (V (Proc.devRef .tc main_v126)) (sitofp (F := Ideal) .f32 (V (Proc.devRef .tc main_c_56)))
        pads_S256x448_S256x512_000_0640 h_S_ := by
  after_results
  rfl
/-- First convolution, tap 2. -/
theorem padW1_2 : after (hostOps0_9 (F := Ideal)) V (Proc.devRef .tc main_v196)
    = pad S256x512 ![0, 0] ![0, 64] ![0, 0] (V (Proc.devRef .tc main_v192)) (sitofp (F := Ideal) .f32 (V (Proc.devRef .tc main_c_86)))
        pads_S256x448_S256x512_000_0640 h_S_ := by
  after_results
  rfl

/-- First convolution's bias, tap 0: widened from 448 to 512 entries. -/
theorem padB1_0 : after (hostOps0_3 (F := Ideal)) V (Proc.devRef .tc main_v65)
    = pad S512 ![0] ![64] ![0] (V (Proc.devRef .tc main_v63)) (sitofp (F := Ideal) .f32 (V (Proc.devRef .tc main_c_27)))
        pads_S448_S512_0640 h_S_ := by
  after_results
  rfl
/-- First convolution's bias, tap 1. -/
theorem padB1_1 : after (hostOps0_7 (F := Ideal)) V (Proc.devRef .tc main_v131)
    = pad S512 ![0] ![64] ![0] (V (Proc.devRef .tc main_v129)) (sitofp (F := Ideal) .f32 (V (Proc.devRef .tc main_c_57)))
        pads_S448_S512_0640 h_S_ := by
  after_results
  rfl
/-- First convolution's bias, tap 2. -/
theorem padB1_2 : after (hostOps0_11 (F := Ideal)) V (Proc.devRef .tc main_v197)
    = pad S512 ![0] ![64] ![0] (V (Proc.devRef .tc main_v195)) (sitofp (F := Ideal) .f32 (V (Proc.devRef .tc main_c_87)))
        pads_S448_S512_0640 h_S_ := by
  after_results
  rfl

/-- Second convolution, tap 0: the widening by no columns at all (the program still performs it). -/
theorem padW2_0 : after (hostOps0_13 (F := Ideal)) V (Proc.devRef .tc main_v257)
    = pad S224x384 ![0, 0] ![0, 0] ![0, 0] (V (Proc.devRef .tc main_v253)) (sitofp (F := Ideal) .f32 (V (Proc.devRef .tc main_c_112)))
        pads_S224x384_S224x384_000_000 h_S_ := by
  after_results
  rfl
/-- Second convolution, tap 1. -/
theorem padW2_1 : after (hostOps0_17 (F := Ideal)) V (Proc.devRef .tc main_v315)
    = pad S224x384 ![0, 0] ![0, 0] ![0, 0] (V (Proc.devRef .tc main_v311)) (sitofp (F := Ideal) .f32 (V (Proc.devRef .tc main_c_138)))
        pads_S224x384_S224x384_000_000 h_S_ := by
  after_results
  rfl
/-- Second convolution, tap 2. -/
theorem padW2_2 : after (hostOps0_21 (F := Ideal)) V (Proc.devRef .tc main_v373)
    = pad S224x384 ![0, 0] ![0, 0] ![0, 0] (V (Proc.devRef .tc main_v369)) (sitofp (F := Ideal) .f32 (V (Proc.devRef .tc main_c_164)))
        pads_S224x384_S224x384_000_000 h_S_ := by
  after_results
  rfl

/-- Second convolution's bias, tap 0. -/
theorem padB2_0 : after (hostOps0_15 (F := Ideal)) V (Proc.devRef .tc main_v258)
    = pad S384 ![0] ![0] ![0] (V (Proc.devRef .tc main_v256)) (sitofp (F := Ideal) .f32 (V (Proc.devRef .tc main_c_113)))
        pads_S384_S384_000 h_S_ := by
  after_results
  rfl
/-- Second convolution's bias, tap 1. -/
theorem padB2_1 : after (hostOps0_19 (F := Ideal)) V (Proc.devRef .tc main_v316)
    = pad S384 ![0] ![0] ![0] (V (Proc.devRef .tc main_v314)) (sitofp (F := Ideal) .f32 (V (Proc.devRef .tc main_c_139)))
        pads_S384_S384_000 h_S_ := by
  after_results
  rfl
/-- Second convolution's bias, tap 2. -/
theorem padB2_2 : after (hostOps0_23 (F := Ideal)) V (Proc.devRef .tc main_v374)
    = pad S384 ![0] ![0] ![0] (V (Proc.devRef .tc main_v372)) (sitofp (F := Ideal) .f32 (V (Proc.devRef .tc main_c_165)))
        pads_S384_S384_000 h_S_ := by
  after_results
  rfl

/-- The one-operation stretches: the integer zero each widening converts. -/
theorem c27_val : after (hostOps0_2 (F := Ideal)) V (Proc.devRef .tc main_c_27) = constantI S_ 32 0#32 := by
  after_results
theorem c57_val : after (hostOps0_6 (F := Ideal)) V (Proc.devRef .tc main_c_57) = constantI S_ 32 0#32 := by
  after_results
theorem c87_val : after (hostOps0_10 (F := Ideal)) V (Proc.devRef .tc main_c_87) = constantI S_ 32 0#32 := by
  after_results
theorem c113_val : after (hostOps0_14 (F := Ideal)) V (Proc.devRef .tc main_c_113) = constantI S_ 32 0#32 := by
  after_results
theorem c139_val : after (hostOps0_18 (F := Ideal)) V (Proc.devRef .tc main_c_139) = constantI S_ 32 0#32 := by
  after_results
theorem c165_val : after (hostOps0_22 (F := Ideal)) V (Proc.devRef .tc main_c_165) = constantI S_ 32 0#32 := by
  after_results

/-- The first convolution's three widened matrices side by side. -/
theorem catW1 : after (hostOps0_12 (F := Ideal)) V (Proc.devRef .tc main_v198)
    = concatenate S256x1536 1 [⟨S256x512, V (Proc.devRef .tc main_v64)⟩, ⟨S256x512, V (Proc.devRef .tc main_v130)⟩,
        ⟨S256x512, V (Proc.devRef .tc main_v196)⟩] concatenates_S256x512_S256x512_S256x512_S256x1536_d1 := by
  after_results
  rfl
/-- Their three widened biases end to end, as a row. -/
theorem catB1 : after (hostOps0_12 (F := Ideal)) V (Proc.devRef .tc main_v200)
    = broadcastInDim S1x1536 ![1] bcast_S1536_S1x1536_1
        (concatenate S1536 0 [⟨S512, V (Proc.devRef .tc main_v65)⟩, ⟨S512, V (Proc.devRef .tc main_v131)⟩,
          ⟨S512, V (Proc.devRef .tc main_v197)⟩] concatenates_S512_S512_S512_S1536_d0) := by
  after_results
  rfl
/-- The second convolution's three matrices side by side. -/
theorem catW2 : after (hostOps0_24 (F := Ideal)) V (Proc.devRef .tc main_v375)
    = concatenate S224x1152 1 [⟨S224x384, V (Proc.devRef .tc main_v257)⟩, ⟨S224x384, V (Proc.devRef .tc main_v315)⟩,
        ⟨S224x384, V (Proc.devRef .tc main_v373)⟩] concatenates_S224x384_S224x384_S224x384_S224x1152_d1 := by
  after_results
  rfl
/-- Their three biases end to end, as a row. -/
theorem catB2 : after (hostOps0_24 (F := Ideal)) V (Proc.devRef .tc main_v377)
    = broadcastInDim S1x1152 ![1] bcast_S1152_S1x1152_1
        (concatenate S1152 0 [⟨S384, V (Proc.devRef .tc main_v258)⟩, ⟨S384, V (Proc.devRef .tc main_v316)⟩,
          ⟨S384, V (Proc.devRef .tc main_v374)⟩] concatenates_S384_S384_S384_S1152_d0) := by
  after_results
  rfl

end Local2

/-! ### The integer zero the long stretches end with -/

section Local3

variable (V : Valuation τ sig (Elt Ideal))

set_option maxHeartbeats 4000000 in
theorem c26_val : after (hostOps0 (F := Ideal)) V (Proc.devRef .tc main_c_26) = constantI S_ 32 0#32 := by
  after_results
set_option maxHeartbeats 4000000 in
theorem c56_val : after (hostOps0_4 (F := Ideal)) V (Proc.devRef .tc main_c_56) = constantI S_ 32 0#32 := by
  after_results
set_option maxHeartbeats 4000000 in
theorem c86_val : after (hostOps0_8 (F := Ideal)) V (Proc.devRef .tc main_c_86) = constantI S_ 32 0#32 := by
  after_results
set_option maxHeartbeats 4000000 in
theorem c112_val : after (hostOps0_12 (F := Ideal)) V (Proc.devRef .tc main_c_112) = constantI S_ 32 0#32 := by
  after_results
set_option maxHeartbeats 4000000 in
theorem c138_val : after (hostOps0_16 (F := Ideal)) V (Proc.devRef .tc main_c_138) = constantI S_ 32 0#32 := by
  after_results
set_option maxHeartbeats 4000000 in
theorem c164_val : after (hostOps0_20 (F := Ideal)) V (Proc.devRef .tc main_c_164) = constantI S_ 32 0#32 := by
  after_results

end Local3

/-! ## The banded weights and biases, side by side

The six banded matrices and the six bias rows are built by long stretches of their own; what those leave is stated here
through four families of functions of the weight and bias arguments — `T1 r` and `T2 r` the banded matrix of tap `r` of
the first and second convolution, `b1 r` and `b2 r` the bias row repeated — so that the terms below read as the program
does: each widened by the padding value, the three laid side by side. -/

section Sides

variable (T1 : Fin 3 → (S3x3x16x32.Idx → EReal) → S256x448.Idx → EReal)
  (b1 : Fin 3 → (S3x32.Idx → EReal) → S448.Idx → EReal)
  (T2 : Fin 3 → (S3x3x16x32.Idx → EReal) → S224x384.Idx → EReal)
  (b2 : Fin 3 → (S3x32.Idx → EReal) → S384.Idx → EReal)

/-- The first convolution's three banded matrices, each widened from 448 to 512 columns, side by side. -/
def W1Rof (a0 : S3x3x16x32.Idx → EReal) : S256x1536.Idx → EReal :=
  concatenate S256x1536 1
    [⟨S256x512, pad S256x512 ![0, 0] ![0, 64] ![0, 0] (T1 0 a0) zpad pads_S256x448_S256x512_000_0640 h_S_⟩,
     ⟨S256x512, pad S256x512 ![0, 0] ![0, 64] ![0, 0] (T1 1 a0) zpad pads_S256x448_S256x512_000_0640 h_S_⟩,
     ⟨S256x512, pad S256x512 ![0, 0] ![0, 64] ![0, 0] (T1 2 a0) zpad pads_S256x448_S256x512_000_0640 h_S_⟩]
    concatenates_S256x512_S256x512_S256x512_S256x1536_d1

/-- The first convolution's three bias rows, each widened from 448 to 512 entries, end to end, as a `1 × 1536` row. -/
def B1Rof (a1 : S3x32.Idx → EReal) : S1x1536.Idx → EReal :=
  broadcastInDim S1x1536 ![1] bcast_S1536_S1x1536_1
    (concatenate S1536 0
      [⟨S512, pad S512 ![0] ![64] ![0] (b1 0 a1) zpad pads_S448_S512_0640 h_S_⟩,
       ⟨S512, pad S512 ![0] ![64] ![0] (b1 1 a1) zpad pads_S448_S512_0640 h_S_⟩,
       ⟨S512, pad S512 ![0] ![64] ![0] (b1 2 a1) zpad pads_S448_S512_0640 h_S_⟩]
      concatenates_S512_S512_S512_S1536_d0)

/-- The second convolution's three banded matrices (each "widened" by no columns, as the program does), side by side. -/
def W2Rof (a3 : S3x3x16x32.Idx → EReal) : S224x1152.Idx → EReal :=
  concatenate S224x1152 1
    [⟨S224x384, pad S224x384 ![0, 0] ![0, 0] ![0, 0] (T2 0 a3) zpad pads_S224x384_S224x384_000_000 h_S_⟩,
     ⟨S224x384, pad S224x384 ![0, 0] ![0, 0] ![0, 0] (T2 1 a3) zpad pads_S224x384_S224x384_000_000 h_S_⟩,
     ⟨S224x384, pad S224x384 ![0, 0] ![0, 0] ![0, 0] (T2 2 a3) zpad pads_S224x384_S224x384_000_000 h_S_⟩]
    concatenates_S224x384_S224x384_S224x384_S224x1152_d1

/-- The second convolution's three bias rows end to end, as a `1 × 1152` row. -/
def B2Rof (a4 : S3x32.Idx → EReal) : S1x1152.Idx → EReal :=
  broadcastInDim S1x1152 ![1] bcast_S1152_S1x1152_1
    (concatenate S1152 0
      [⟨S384, pad S384 ![0] ![0] ![0] (b2 0 a4) zpad pads_S384_S384_000 h_S_⟩,
       ⟨S384, pad S384 ![0] ![0] ![0] (b2 1 a4) zpad pads_S384_S384_000 h_S_⟩,
       ⟨S384, pad S384 ![0] ![0] ![0] (b2 2 a4) zpad pads_S384_S384_000 h_S_⟩]
      concatenates_S384_S384_S384_S1152_d0)

end Sides

/-! ## From the launch to the region's entry

`W k` is the core's contents after the first `k` stretches (`W 0` the launch memory). A stretch leaves alone every
reference it does not write, so a buffer's contents at a later boundary are its contents right after the stretch that
wrote it, and an argument's contents are the launch contents at every boundary. -/

section Walk

open Cert.ReferenceIdeal.Fold

variable (m : (ℓ : Loc nD τ sig) → Buf (Elt Ideal) ℓ) (ρ : Dev nD → PrngReg) (c : Dev nD)

/-- The launch memory, read at a reference. -/
theorem W0_launch (r : Ref sig .tc) : W0 m ρ c (Proc.devRef .tc r) = m ((c : Thread nD τ).loc r) := rfl

/-- Steps a buffer's contents back across every stretch that does not write it, as far as that goes (down to the launch
    memory for a buffer no stretch writes). -/
macro "walk" : tactic =>
  `(tactic| repeat (first
    | (rw [Cert.ReferenceIdeal.Fold.W31_of]; rotate_left; decide)
    | (rw [Cert.ReferenceIdeal.Fold.W30_of]; rotate_left; decide)
    | (rw [Cert.ReferenceIdeal.Fold.W29_of]; rotate_left; decide)
    | (rw [Cert.ReferenceIdeal.Fold.W28_of]; rotate_left; decide)
    | (rw [Cert.ReferenceIdeal.Fold.W27_of]; rotate_left; decide)
    | (rw [Cert.ReferenceIdeal.Fold.W26_of]; rotate_left; decide)
    | (rw [Cert.ReferenceIdeal.Fold.W25_of]; rotate_left; decide)
    | (rw [Cert.ReferenceIdeal.Fold.W24_of]; rotate_left; decide)
    | (rw [Cert.ReferenceIdeal.Fold.W23_of]; rotate_left; decide)
    | (rw [Cert.ReferenceIdeal.Fold.W22_of]; rotate_left; decide)
    | (rw [Cert.ReferenceIdeal.Fold.W21_of]; rotate_left; decide)
    | (rw [Cert.ReferenceIdeal.Fold.W20_of]; rotate_left; decide)
    | (rw [Cert.ReferenceIdeal.Fold.W19_of]; rotate_left; decide)
    | (rw [Cert.ReferenceIdeal.Fold.W18_of]; rotate_left; decide)
    | (rw [Cert.ReferenceIdeal.Fold.W17_of]; rotate_left; decide)
    | (rw [Cert.ReferenceIdeal.Fold.W16_of]; rotate_left; decide)
    | (rw [Cert.ReferenceIdeal.Fold.W15_of]; rotate_left; decide)
    | (rw [Cert.ReferenceIdeal.Fold.W14_of]; rotate_left; decide)
    | (rw [Cert.ReferenceIdeal.Fold.W13_of]; rotate_left; decide)
    | (rw [Cert.ReferenceIdeal.Fold.W12_of]; rotate_left; decide)
    | (rw [Cert.ReferenceIdeal.Fold.W11_of]; rotate_left; decide)
    | (rw [Cert.ReferenceIdeal.Fold.W10_of]; rotate_left; decide)
    | (rw [Cert.ReferenceIdeal.Fold.W9_of]; rotate_left; decide)
    | (rw [Cert.ReferenceIdeal.Fold.W8_of]; rotate_left; decide)
    | (rw [Cert.ReferenceIdeal.Fold.W7_of]; rotate_left; decide)
    | (rw [Cert.ReferenceIdeal.Fold.W6_of]; rotate_left; decide)
    | (rw [Cert.ReferenceIdeal.Fold.W5_of]; rotate_left; decide)
    | (rw [Cert.ReferenceIdeal.Fold.W4_of]; rotate_left; decide)
    | (rw [Cert.ReferenceIdeal.Fold.W3_of]; rotate_left; decide)
    | (rw [Cert.ReferenceIdeal.Fold.W2_of]; rotate_left; decide)
    | (rw [Cert.ReferenceIdeal.Fold.W1_of]; rotate_left; decide)
    | rw [Cert.ReferenceIdeal.Entry.W0_launch]))

/-! ### The arguments at the boundaries where a stretch reads them -/

theorem arg7_W30 : W30 m ρ c (Proc.devRef .tc main_arg7) = (m ((c : Thread nD τ).loc main_arg7)) := by walk
theorem arg8_W28 : W28 m ρ c (Proc.devRef .tc main_arg8) = (m ((c : Thread nD τ).loc main_arg8)) := by walk
theorem arg2_W25 : W25 m ρ c (Proc.devRef .tc main_arg2) = (m ((c : Thread nD τ).loc main_arg2)) := by walk
theorem arg0_W4 : W4 m ρ c (Proc.devRef .tc main_arg0) = (m ((c : Thread nD τ).loc main_arg0)) := by walk
theorem arg0_W8 : W8 m ρ c (Proc.devRef .tc main_arg0) = (m ((c : Thread nD τ).loc main_arg0)) := by walk
theorem arg1_W4 : W4 m ρ c (Proc.devRef .tc main_arg1) = (m ((c : Thread nD τ).loc main_arg1)) := by walk
theorem arg1_W8 : W8 m ρ c (Proc.devRef .tc main_arg1) = (m ((c : Thread nD τ).loc main_arg1)) := by walk
theorem arg3_W12 : W12 m ρ c (Proc.devRef .tc main_arg3) = (m ((c : Thread nD τ).loc main_arg3)) := by walk
theorem arg3_W16 : W16 m ρ c (Proc.devRef .tc main_arg3) = (m ((c : Thread nD τ).loc main_arg3)) := by walk
theorem arg3_W20 : W20 m ρ c (Proc.devRef .tc main_arg3) = (m ((c : Thread nD τ).loc main_arg3)) := by walk
theorem arg4_W12 : W12 m ρ c (Proc.devRef .tc main_arg4) = (m ((c : Thread nD τ).loc main_arg4)) := by walk
theorem arg4_W16 : W16 m ρ c (Proc.devRef .tc main_arg4) = (m ((c : Thread nD τ).loc main_arg4)) := by walk
theorem arg4_W20 : W20 m ρ c (Proc.devRef .tc main_arg4) = (m ((c : Thread nD τ).loc main_arg4)) := by walk

/-! ### Window 0: the view of the input -/

theorem entry_w0 : V31 m ρ c main_v393 = xlR (m ((c : Thread nD τ).loc main_arg7)) := by
  show after (hostOps0_30 (F := Ideal)) (W30 m ρ c) (Proc.devRef .tc main_v393) = _
  rw [xl_val, arg7_W30]

/-! ### Window 1: the block-diagonal mixing matrix -/

theorem entry_w1 : V31 m ρ c main_v392 = HostKron.AkOf (m ((c : Thread nD τ).loc main_arg8)) := by
  show W31 m ρ c (Proc.devRef .tc main_v392) = _
  walk
  show after (hostOps0_29 (F := Ideal)) (after (hostOps0_28 (F := Ideal)) (W28 m ρ c)) (Proc.devRef .tc main_v392) = _
  rw [HostKron.kron_val, arg8_W28]

/-! ### Window 4: the lengthened Kronecker product with `Θ₁` -/

theorem entry_w4 : V31 m ρ c main_v385 = ThR (m ((c : Thread nD τ).loc main_arg2)) := by
  show W31 m ρ c (Proc.devRef .tc main_v385) = _
  walk
  show after (hostOps0_27 (F := Ideal)) (after (hostOps0_26 (F := Ideal)) (after (hostOps0_25 (F := Ideal)) (W25 m ρ c)))
    (Proc.devRef .tc main_v385) = _
  rw [th_val (W25 m ρ c) (eye14_val (W24 m ρ c)), arg2_W25]

/-! ### Windows 2, 3, 5, 6: the banded weights and their biases

What the six long stretches leave in the banded matrices' and the bias rows' buffers enters as ONE hypothesis with a
field per buffer, each of the form "from any contents before the stretch, the buffer afterwards holds the family's
function of the argument's contents before it". -/

/-- The six long stretches compute the families `T1`, `b1`, `T2`, `b2`. -/
structure Bands (T1 : Fin 3 → (S3x3x16x32.Idx → EReal) → S256x448.Idx → EReal)
    (b1 : Fin 3 → (S3x32.Idx → EReal) → S448.Idx → EReal)
    (T2 : Fin 3 → (S3x3x16x32.Idx → EReal) → S224x384.Idx → EReal)
    (b2 : Fin 3 → (S3x32.Idx → EReal) → S384.Idx → EReal) : Prop where
  T1_0 : ∀ V : Valuation τ sig (Elt Ideal), after (hostOps0 (F := Ideal)) V (Proc.devRef .tc main_v60) = T1 0 (V (Proc.devRef .tc main_arg0))
  b1_0 : ∀ V : Valuation τ sig (Elt Ideal), after (hostOps0 (F := Ideal)) V (Proc.devRef .tc main_v63) = b1 0 (V (Proc.devRef .tc main_arg1))
  T1_1 : ∀ V : Valuation τ sig (Elt Ideal), after (hostOps0_4 (F := Ideal)) V (Proc.devRef .tc main_v126) = T1 1 (V (Proc.devRef .tc main_arg0))
  b1_1 : ∀ V : Valuation τ sig (Elt Ideal), after (hostOps0_4 (F := Ideal)) V (Proc.devRef .tc main_v129) = b1 1 (V (Proc.devRef .tc main_arg1))
  T1_2 : ∀ V : Valuation τ sig (Elt Ideal), after (hostOps0_8 (F := Ideal)) V (Proc.devRef .tc main_v192) = T1 2 (V (Proc.devRef .tc main_arg0))
  b1_2 : ∀ V : Valuation τ sig (Elt Ideal), after (hostOps0_8 (F := Ideal)) V (Proc.devRef .tc main_v195) = b1 2 (V (Proc.devRef .tc main_arg1))
  T2_0 : ∀ V : Valuation τ sig (Elt Ideal), after (hostOps0_12 (F := Ideal)) V (Proc.devRef .tc main_v253) = T2 0 (V (Proc.devRef .tc main_arg3))
  b2_0 : ∀ V : Valuation τ sig (Elt Ideal), after (hostOps0_12 (F := Ideal)) V (Proc.devRef .tc main_v256) = b2 0 (V (Proc.devRef .tc main_arg4))
  T2_1 : ∀ V : Valuation τ sig (Elt Ideal), after (hostOps0_16 (F := Ideal)) V (Proc.devRef .tc main_v311) = T2 1 (V (Proc.devRef .tc main_arg3))
  b2_1 : ∀ V : Valuation τ sig (Elt Ideal), after (hostOps0_16 (F := Ideal)) V (Proc.devRef .tc main_v314) = b2 1 (V (Proc.devRef .tc main_arg4))
  T2_2 : ∀ V : Valuation τ sig (Elt Ideal), after (hostOps0_20 (F := Ideal)) V (Proc.devRef .tc main_v369) = T2 2 (V (Proc.devRef .tc main_arg3))
  b2_2 : ∀ V : Valuation τ sig (Elt Ideal), after (hostOps0_20 (F := Ideal)) V (Proc.devRef .tc main_v372) = b2 2 (V (Proc.devRef .tc main_arg4))

section Banded

variable {T1 : Fin 3 → (S3x3x16x32.Idx → EReal) → S256x448.Idx → EReal}
  {b1 : Fin 3 → (S3x32.Idx → EReal) → S448.Idx → EReal}
  {T2 : Fin 3 → (S3x3x16x32.Idx → EReal) → S224x384.Idx → EReal}
  {b2 : Fin 3 → (S3x32.Idx → EReal) → S384.Idx → EReal}
  (H : Bands T1 b1 T2 b2)

/-- A widened buffer is not written again before the stretch that lays the three side by side. -/
theorem v64_W12 : W12 m ρ c (Proc.devRef .tc main_v64) = W2 m ρ c (Proc.devRef .tc main_v64) := by walk
theorem v130_W12 : W12 m ρ c (Proc.devRef .tc main_v130) = W6 m ρ c (Proc.devRef .tc main_v130) := by walk
theorem v196_W12 : W12 m ρ c (Proc.devRef .tc main_v196) = W10 m ρ c (Proc.devRef .tc main_v196) := by walk
theorem v65_W12 : W12 m ρ c (Proc.devRef .tc main_v65) = W4 m ρ c (Proc.devRef .tc main_v65) := by walk
theorem v131_W12 : W12 m ρ c (Proc.devRef .tc main_v131) = W8 m ρ c (Proc.devRef .tc main_v131) := by walk
theorem v257_W24 : W24 m ρ c (Proc.devRef .tc main_v257) = W14 m ρ c (Proc.devRef .tc main_v257) := by walk
theorem v315_W24 : W24 m ρ c (Proc.devRef .tc main_v315) = W18 m ρ c (Proc.devRef .tc main_v315) := by walk
theorem v373_W24 : W24 m ρ c (Proc.devRef .tc main_v373) = W22 m ρ c (Proc.devRef .tc main_v373) := by walk
theorem v258_W24 : W24 m ρ c (Proc.devRef .tc main_v258) = W16 m ρ c (Proc.devRef .tc main_v258) := by walk
theorem v316_W24 : W24 m ρ c (Proc.devRef .tc main_v316) = W20 m ρ c (Proc.devRef .tc main_v316) := by walk

include H

/-- Convolution 1, tap 0: the widened banded matrix, right after the stretch that widens it. -/
theorem v64_W2 : W2 m ρ c (Proc.devRef .tc main_v64) = pad S256x512 ![0, 0] ![0, 64] ![0, 0] (T1 0 (m ((c : Thread nD τ).loc main_arg0))) zpad pads_S256x448_S256x512_000_0640 h_S_ := by
  show after (hostOps0_1 (F := Ideal)) (W1 m ρ c) (Proc.devRef .tc main_v64) = _
  rw [padW1_0]
  have e1 : W1 m ρ c (Proc.devRef .tc main_v60) = T1 0 (m ((c : Thread nD τ).loc main_arg0)) := by
    show after (hostOps0 (F := Ideal)) (W0 m ρ c) (Proc.devRef .tc main_v60) = _
    rw [H.T1_0, W0_launch]
  have e2 : sitofp (F := Ideal) .f32 (W1 m ρ c (Proc.devRef .tc main_c_26)) = zpad := by
    show sitofp (F := Ideal) .f32 (after (hostOps0 (F := Ideal)) (W0 m ρ c) (Proc.devRef .tc main_c_26)) = _
    rw [c26_val]; rfl
  rw [e1, e2]
/-- Convolution 1, tap 0: the widened bias row, right after the stretch that widens it. -/
theorem v65_W4 : W4 m ρ c (Proc.devRef .tc main_v65) = pad S512 ![0] ![64] ![0] (b1 0 (m ((c : Thread nD τ).loc main_arg1))) zpad pads_S448_S512_0640 h_S_ := by
  show after (hostOps0_3 (F := Ideal)) (W3 m ρ c) (Proc.devRef .tc main_v65) = _
  rw [padB1_0]
  have e1 : W3 m ρ c (Proc.devRef .tc main_v63) = b1 0 (m ((c : Thread nD τ).loc main_arg1)) := by
    walk
    show after (hostOps0 (F := Ideal)) (W0 m ρ c) (Proc.devRef .tc main_v63) = _
    rw [H.b1_0, W0_launch]
  have e2 : sitofp (F := Ideal) .f32 (W3 m ρ c (Proc.devRef .tc main_c_27)) = zpad := by
    show sitofp (F := Ideal) .f32 (after (hostOps0_2 (F := Ideal)) (W2 m ρ c) (Proc.devRef .tc main_c_27)) = _
    rw [c27_val]; rfl
  rw [e1, e2]

/-- Convolution 1, tap 1: the widened banded matrix, right after the stretch that widens it. -/
theorem v130_W6 : W6 m ρ c (Proc.devRef .tc main_v130) = pad S256x512 ![0, 0] ![0, 64] ![0, 0] (T1 1 (m ((c : Thread nD τ).loc main_arg0))) zpad pads_S256x448_S256x512_000_0640 h_S_ := by
  show after (hostOps0_5 (F := Ideal)) (W5 m ρ c) (Proc.devRef .tc main_v130) = _
  rw [padW1_1]
  have e1 : W5 m ρ c (Proc.devRef .tc main_v126) = T1 1 (m ((c : Thread nD τ).loc main_arg0)) := by
    show after (hostOps0_4 (F := Ideal)) (W4 m ρ c) (Proc.devRef .tc main_v126) = _
    rw [H.T1_1, arg0_W4]
  have e2 : sitofp (F := Ideal) .f32 (W5 m ρ c (Proc.devRef .tc main_c_56)) = zpad := by
    show sitofp (F := Ideal) .f32 (after (hostOps0_4 (F := Ideal)) (W4 m ρ c) (Proc.devRef .tc main_c_56)) = _
    rw [c56_val]; rfl
  rw [e1, e2]
/-- Convolution 1, tap 1: the widened bias row, right after the stretch that widens it. -/
theorem v131_W8 : W8 m ρ c (Proc.devRef .tc main_v131) = pad S512 ![0] ![64] ![0] (b1 1 (m ((c : Thread nD τ).loc main_arg1))) zpad pads_S448_S512_0640 h_S_ := by
  show after (hostOps0_7 (F := Ideal)) (W7 m ρ c) (Proc.devRef .tc main_v131) = _
  rw [padB1_1]
  have e1 : W7 m ρ c (Proc.devRef .tc main_v129) = b1 1 (m ((c : Thread nD τ).loc main_arg1)) := by
    walk
    show after (hostOps0_4 (F := Ideal)) (W4 m ρ c) (Proc.devRef .tc main_v129) = _
    rw [H.b1_1, arg1_W4]
  have e2 : sitofp (F := Ideal) .f32 (W7 m ρ c (Proc.devRef .tc main_c_57)) = zpad := by
    show sitofp (F := Ideal) .f32 (after (hostOps0_6 (F := Ideal)) (W6 m ρ c) (Proc.devRef .tc main_c_57)) = _
    rw [c57_val]; rfl
  rw [e1, e2]

/-- Convolution 1, tap 2: the widened banded matrix, right after the stretch that widens it. -/
theorem v196_W10 : W10 m ρ c (Proc.devRef .tc main_v196) = pad S256x512 ![0, 0] ![0, 64] ![0, 0] (T1 2 (m ((c : Thread nD τ).loc main_arg0))) zpad pads_S256x448_S256x512_000_0640 h_S_ := by
  show after (hostOps0_9 (F := Ideal)) (W9 m ρ c) (Proc.devRef .tc main_v196) = _
  rw [padW1_2]
  have e1 : W9 m ρ c (Proc.devRef .tc main_v192) = T1 2 (m ((c : Thread nD τ).loc main_arg0)) := by
    show after (hostOps0_8 (F := Ideal)) (W8 m ρ c) (Proc.devRef .tc main_v192) = _
    rw [H.T1_2, arg0_W8]
  have e2 : sitofp (F := Ideal) .f32 (W9 m ρ c (Proc.devRef .tc main_c_86)) = zpad := by
    show sitofp (F := Ideal) .f32 (after (hostOps0_8 (F := Ideal)) (W8 m ρ c) (Proc.devRef .tc main_c_86)) = _
    rw [c86_val]; rfl
  rw [e1, e2]
/-- Convolution 1, tap 2: the widened bias row, right after the stretch that widens it. -/
theorem v197_W12 : W12 m ρ c (Proc.devRef .tc main_v197) = pad S512 ![0] ![64] ![0] (b1 2 (m ((c : Thread nD τ).loc main_arg1))) zpad pads_S448_S512_0640 h_S_ := by
  show after (hostOps0_11 (F := Ideal)) (W11 m ρ c) (Proc.devRef .tc main_v197) = _
  rw [padB1_2]
  have e1 : W11 m ρ c (Proc.devRef .tc main_v195) = b1 2 (m ((c : Thread nD τ).loc main_arg1)) := by
    walk
    show after (hostOps0_8 (F := Ideal)) (W8 m ρ c) (Proc.devRef .tc main_v195) = _
    rw [H.b1_2, arg1_W8]
  have e2 : sitofp (F := Ideal) .f32 (W11 m ρ c (Proc.devRef .tc main_c_87)) = zpad := by
    show sitofp (F := Ideal) .f32 (after (hostOps0_10 (F := Ideal)) (W10 m ρ c) (Proc.devRef .tc main_c_87)) = _
    rw [c87_val]; rfl
  rw [e1, e2]

/-- Convolution 2, tap 0: the widened banded matrix, right after the stretch that widens it. -/
theorem v257_W14 : W14 m ρ c (Proc.devRef .tc main_v257) = pad S224x384 ![0, 0] ![0, 0] ![0, 0] (T2 0 (m ((c : Thread nD τ).loc main_arg3))) zpad pads_S224x384_S224x384_000_000 h_S_ := by
  show after (hostOps0_13 (F := Ideal)) (W13 m ρ c) (Proc.devRef .tc main_v257) = _
  rw [padW2_0]
  have e1 : W13 m ρ c (Proc.devRef .tc main_v253) = T2 0 (m ((c : Thread nD τ).loc main_arg3)) := by
    show after (hostOps0_12 (F := Ideal)) (W12 m ρ c) (Proc.devRef .tc main_v253) = _
    rw [H.T2_0, arg3_W12]
  have e2 : sitofp (F := Ideal) .f32 (W13 m ρ c (Proc.devRef .tc main_c_112)) = zpad := by
    show sitofp (F := Ideal) .f32 (after (hostOps0_12 (F := Ideal)) (W12 m ρ c) (Proc.devRef .tc main_c_112)) = _
    rw [c112_val]; rfl
  rw [e1, e2]
/-- Convolution 2, tap 0: the widened bias row, right after the stretch that widens it. -/
theorem v258_W16 : W16 m ρ c (Proc.devRef .tc main_v258) = pad S384 ![0] ![0] ![0] (b2 0 (m ((c : Thread nD τ).loc main_arg4))) zpad pads_S384_S384_000 h_S_ := by
  show after (hostOps0_15 (F := Ideal)) (W15 m ρ c) (Proc.devRef .tc main_v258) = _
  rw [padB2_0]
  have e1 : W15 m ρ c (Proc.devRef .tc main_v256) = b2 0 (m ((c : Thread nD τ).loc main_arg4)) := by
    walk
    show after (hostOps0_12 (F := Ideal)) (W12 m ρ c) (Proc.devRef .tc main_v256) = _
    rw [H.b2_0, arg4_W12]
  have e2 : sitofp (F := Ideal) .f32 (W15 m ρ c (Proc.devRef .tc main_c_113)) = zpad := by
    show sitofp (F := Ideal) .f32 (after (hostOps0_14 (F := Ideal)) (W14 m ρ c) (Proc.devRef .tc main_c_113)) = _
    rw [c113_val]; rfl
  rw [e1, e2]

/-- Convolution 2, tap 1: the widened banded matrix, right after the stretch that widens it. -/
theorem v315_W18 : W18 m ρ c (Proc.devRef .tc main_v315) = pad S224x384 ![0, 0] ![0, 0] ![0, 0] (T2 1 (m ((c : Thread nD τ).loc main_arg3))) zpad pads_S224x384_S224x384_000_000 h_S_ := by
  show after (hostOps0_17 (F := Ideal)) (W17 m ρ c) (Proc.devRef .tc main_v315) = _
  rw [padW2_1]
  have e1 : W17 m ρ c (Proc.devRef .tc main_v311) = T2 1 (m ((c : Thread nD τ).loc main_arg3)) := by
    show after (hostOps0_16 (F := Ideal)) (W16 m ρ c) (Proc.devRef .tc main_v311) = _
    rw [H.T2_1, arg3_W16]
  have e2 : sitofp (F := Ideal) .f32 (W17 m ρ c (Proc.devRef .tc main_c_138)) = zpad := by
    show sitofp (F := Ideal) .f32 (after (hostOps0_16 (F := Ideal)) (W16 m ρ c) (Proc.devRef .tc main_c_138)) = _
    rw [c138_val]; rfl
  rw [e1, e2]
/-- Convolution 2, tap 1: the widened bias row, right after the stretch that widens it. -/
theorem v316_W20 : W20 m ρ c (Proc.devRef .tc main_v316) = pad S384 ![0] ![0] ![0] (b2 1 (m ((c : Thread nD τ).loc main_arg4))) zpad pads_S384_S384_000 h_S_ := by
  show after (hostOps0_19 (F := Ideal)) (W19 m ρ c) (Proc.devRef .tc main_v316) = _
  rw [padB2_1]
  have e1 : W19 m ρ c (Proc.devRef .tc main_v314) = b2 1 (m ((c : Thread nD τ).loc main_arg4)) := by
    walk
    show after (hostOps0_16 (F := Ideal)) (W16 m ρ c) (Proc.devRef .tc main_v314) = _
    rw [H.b2_1, arg4_W16]
  have e2 : sitofp (F := Ideal) .f32 (W19 m ρ c (Proc.devRef .tc main_c_139)) = zpad := by
    show sitofp (F := Ideal) .f32 (after (hostOps0_18 (F := Ideal)) (W18 m ρ c) (Proc.devRef .tc main_c_139)) = _
    rw [c139_val]; rfl
  rw [e1, e2]

/-- Convolution 2, tap 2: the widened banded matrix, right after the stretch that widens it. -/
theorem v373_W22 : W22 m ρ c (Proc.devRef .tc main_v373) = pad S224x384 ![0, 0] ![0, 0] ![0, 0] (T2 2 (m ((c : Thread nD τ).loc main_arg3))) zpad pads_S224x384_S224x384_000_000 h_S_ := by
  show after (hostOps0_21 (F := Ideal)) (W21 m ρ c) (Proc.devRef .tc main_v373) = _
  rw [padW2_2]
  have e1 : W21 m ρ c (Proc.devRef .tc main_v369) = T2 2 (m ((c : Thread nD τ).loc main_arg3)) := by
    show after (hostOps0_20 (F := Ideal)) (W20 m ρ c) (Proc.devRef .tc main_v369) = _
    rw [H.T2_2, arg3_W20]
  have e2 : sitofp (F := Ideal) .f32 (W21 m ρ c (Proc.devRef .tc main_c_164)) = zpad := by
    show sitofp (F := Ideal) .f32 (after (hostOps0_20 (F := Ideal)) (W20 m ρ c) (Proc.devRef .tc main_c_164)) = _
    rw [c164_val]; rfl
  rw [e1, e2]
/-- Convolution 2, tap 2: the widened bias row, right after the stretch that widens it. -/
theorem v374_W24 : W24 m ρ c (Proc.devRef .tc main_v374) = pad S384 ![0] ![0] ![0] (b2 2 (m ((c : Thread nD τ).loc main_arg4))) zpad pads_S384_S384_000 h_S_ := by
  show after (hostOps0_23 (F := Ideal)) (W23 m ρ c) (Proc.devRef .tc main_v374) = _
  rw [padB2_2]
  have e1 : W23 m ρ c (Proc.devRef .tc main_v372) = b2 2 (m ((c : Thread nD τ).loc main_arg4)) := by
    walk
    show after (hostOps0_20 (F := Ideal)) (W20 m ρ c) (Proc.devRef .tc main_v372) = _
    rw [H.b2_2, arg4_W20]
  have e2 : sitofp (F := Ideal) .f32 (W23 m ρ c (Proc.devRef .tc main_c_165)) = zpad := by
    show sitofp (F := Ideal) .f32 (after (hostOps0_22 (F := Ideal)) (W22 m ρ c) (Proc.devRef .tc main_c_165)) = _
    rw [c165_val]; rfl
  rw [e1, e2]

theorem entry_w2_of : V31 m ρ c main_v198 = W1Rof T1 (m ((c : Thread nD τ).loc main_arg0)) := by
  show W31 m ρ c (Proc.devRef .tc main_v198) = _
  walk
  show after (hostOps0_12 (F := Ideal)) (W12 m ρ c) (Proc.devRef .tc main_v198) = _
  rw [catW1, v64_W12, v64_W2 m ρ c H, v130_W12, v130_W6 m ρ c H, v196_W12, v196_W10 m ρ c H]
  rfl

theorem entry_w3_of : V31 m ρ c main_v200 = B1Rof b1 (m ((c : Thread nD τ).loc main_arg1)) := by
  show W31 m ρ c (Proc.devRef .tc main_v200) = _
  walk
  show after (hostOps0_12 (F := Ideal)) (W12 m ρ c) (Proc.devRef .tc main_v200) = _
  rw [catB1, v65_W12, v65_W4 m ρ c H, v131_W12, v131_W8 m ρ c H, v197_W12 m ρ c H]
  rfl

theorem entry_w5_of : V31 m ρ c main_v375 = W2Rof T2 (m ((c : Thread nD τ).loc main_arg3)) := by
  show W31 m ρ c (Proc.devRef .tc main_v375) = _
  walk
  show after (hostOps0_24 (F := Ideal)) (W24 m ρ c) (Proc.devRef .tc main_v375) = _
  rw [catW2, v257_W24, v257_W14 m ρ c H, v315_W24, v315_W18 m ρ c H, v373_W24, v373_W22 m ρ c H]
  rfl

theorem entry_w6_of : V31 m ρ c main_v377 = B2Rof b2 (m ((c : Thread nD τ).loc main_arg4)) := by
  show W31 m ρ c (Proc.devRef .tc main_v377) = _
  walk
  show after (hostOps0_24 (F := Ideal)) (W24 m ρ c) (Proc.devRef .tc main_v377) = _
  rw [catB2, v258_W24, v258_W16 m ρ c H, v316_W24, v316_W20 m ρ c H, v374_W24 m ρ c H]
  rfl

end Banded

end Walk

/-! ## The families, and the seven entry theorems

The banded matrix of a 3-tap filter is the filter written at row `t` of a zero array, for each output position `t` in
turn, each such array flattened and the lot laid side by side; the bias row is the 32 biases repeated once per output
position. -/

section Final

open Cert.ReferenceIdeal.Fold

/-- The first convolution's banded matrix `[256, 448]` of a 3-tap filter: fourteen shifted copies side by side. -/
def toep16 (w : S3x16x32.Idx → EReal) : S256x448.Idx → EReal :=
  concatenate S256x448 1
    [⟨S256x32, shapeCast S256x32 (HostToep.band16 w 0) shapeCasts_S16x16x32_S256x32⟩,
     ⟨S256x32, shapeCast S256x32 (HostToep.band16 w 1) shapeCasts_S16x16x32_S256x32⟩,
     ⟨S256x32, shapeCast S256x32 (HostToep.band16 w 2) shapeCasts_S16x16x32_S256x32⟩,
     ⟨S256x32, shapeCast S256x32 (HostToep.band16 w 3) shapeCasts_S16x16x32_S256x32⟩,
     ⟨S256x32, shapeCast S256x32 (HostToep.band16 w 4) shapeCasts_S16x16x32_S256x32⟩,
     ⟨S256x32, shapeCast S256x32 (HostToep.band16 w 5) shapeCasts_S16x16x32_S256x32⟩,
     ⟨S256x32, shapeCast S256x32 (HostToep.band16 w 6) shapeCasts_S16x16x32_S256x32⟩,
     ⟨S256x32, shapeCast S256x32 (HostToep.band16 w 7) shapeCasts_S16x16x32_S256x32⟩,
     ⟨S256x32, shapeCast S256x32 (HostToep.band16 w 8) shapeCasts_S16x16x32_S256x32⟩,
     ⟨S256x32, shapeCast S256x32 (HostToep.band16 w 9) shapeCasts_S16x16x32_S256x32⟩,
     ⟨S256x32, shapeCast S256x32 (HostToep.band16 w 10) shapeCasts_S16x16x32_S256x32⟩,
     ⟨S256x32, shapeCast S256x32 (HostToep.band16 w 11) shapeCasts_S16x16x32_S256x32⟩,
     ⟨S256x32, shapeCast S256x32 (HostToep.band16 w 12) shapeCasts_S16x16x32_S256x32⟩,
     ⟨S256x32, shapeCast S256x32 (HostToep.band16 w 13) shapeCasts_S16x16x32_S256x32⟩]
    concatenates_S256x32_S256x32_S256x32_S256x32_S256x32_S256x32_S256x32_S256x32_S256x32_S256x32_S256x32_S256x32_S256x32_S256x32_S256x448_d1

/-- The second convolution's banded matrix `[224, 384]` of a 3-tap filter: twelve shifted copies side by side. -/
def toep14 (w : S3x16x32.Idx → EReal) : S224x384.Idx → EReal :=
  concatenate S224x384 1
    [⟨S224x32, shapeCast S224x32 (HostToep.band14 w 0) shapeCasts_S14x16x32_S224x32⟩,
     ⟨S224x32, shapeCast S224x32 (HostToep.band14 w 1) shapeCasts_S14x16x32_S224x32⟩,
     ⟨S224x32, shapeCast S224x32 (HostToep.band14 w 2) shapeCasts_S14x16x32_S224x32⟩,
     ⟨S224x32, shapeCast S224x32 (HostToep.band14 w 3) shapeCasts_S14x16x32_S224x32⟩,
     ⟨S224x32, shapeCast S224x32 (HostToep.band14 w 4) shapeCasts_S14x16x32_S224x32⟩,
     ⟨S224x32, shapeCast S224x32 (HostToep.band14 w 5) shapeCasts_S14x16x32_S224x32⟩,
     ⟨S224x32, shapeCast S224x32 (HostToep.band14 w 6) shapeCasts_S14x16x32_S224x32⟩,
     ⟨S224x32, shapeCast S224x32 (HostToep.band14 w 7) shapeCasts_S14x16x32_S224x32⟩,
     ⟨S224x32, shapeCast S224x32 (HostToep.band14 w 8) shapeCasts_S14x16x32_S224x32⟩,
     ⟨S224x32, shapeCast S224x32 (HostToep.band14 w 9) shapeCasts_S14x16x32_S224x32⟩,
     ⟨S224x32, shapeCast S224x32 (HostToep.band14 w 10) shapeCasts_S14x16x32_S224x32⟩,
     ⟨S224x32, shapeCast S224x32 (HostToep.band14 w 11) shapeCasts_S14x16x32_S224x32⟩]
    concatenates_S224x32_S224x32_S224x32_S224x32_S224x32_S224x32_S224x32_S224x32_S224x32_S224x32_S224x32_S224x32_S224x384_d1

/-- Window 2 as a function of the first convolution's weights. -/
def W1R (a0 : S3x3x16x32.Idx → EReal) : S256x1536.Idx → EReal :=
  W1Rof (fun r a => toep16 (HostToep.wOf r a)) a0
/-- Window 3 as a function of the first convolution's biases. -/
def B1R (a1 : S3x32.Idx → EReal) : S1x1536.Idx → EReal :=
  B1Rof (fun r a => HostToep.tile14 (HostToep.bOf r a)) a1
/-- Window 5 as a function of the second convolution's weights. -/
def W2R (a3 : S3x3x16x32.Idx → EReal) : S224x1152.Idx → EReal :=
  W2Rof (fun r a => toep14 (HostToep.wOf r a)) a3
/-- Window 6 as a function of the second convolution's biases. -/
def B2R (a4 : S3x32.Idx → EReal) : S1x1152.Idx → EReal :=
  B2Rof (fun r a => HostToep.tile12 (HostToep.bOf r a)) a4

/-- The six long stretches compute these families. -/
theorem bands : Bands (fun r a => toep16 (HostToep.wOf r a)) (fun r a => HostToep.tile14 (HostToep.bOf r a))
    (fun r a => toep14 (HostToep.wOf r a)) (fun r a => HostToep.tile12 (HostToep.bOf r a)) where
  T1_0 := HostToep.toep1_0
  b1_0 := HostToep.bias1_0
  T1_1 := HostToep.toep1_1
  b1_1 := HostToep.bias1_1
  T1_2 := HostToep.toep1_2
  b1_2 := HostToep.bias1_2
  T2_0 := HostToep.toep2_0
  b2_0 := HostToep.bias2_0
  T2_1 := HostToep.toep2_1
  b2_1 := HostToep.bias2_1
  T2_2 := HostToep.toep2_2
  b2_2 := HostToep.bias2_2

variable (m : (ℓ : Loc nD τ sig) → Buf (Elt Ideal) ℓ) (ρ : Dev nD → PrngReg) (c : Dev nD)

theorem entry_w2 : V31 m ρ c main_v198 = W1R (m ((c : Thread nD τ).loc main_arg0)) := entry_w2_of m ρ c bands
theorem entry_w3 : V31 m ρ c main_v200 = B1R (m ((c : Thread nD τ).loc main_arg1)) := entry_w3_of m ρ c bands
theorem entry_w5 : V31 m ρ c main_v375 = W2R (m ((c : Thread nD τ).loc main_arg3)) := entry_w5_of m ρ c bands
theorem entry_w6 : V31 m ρ c main_v377 = B2R (m ((c : Thread nD τ).loc main_arg4)) := entry_w6_of m ρ c bands

end Final

end Cert.ReferenceIdeal.Entry

end
-- ==== Proof.ToepJoin.lean ====
import proofs.«142292_g2000406351686535_pallasbulk_564_2_alg».proof.KernelIdeal
import proofs.«142292_g2000406351686535_pallasbulk_564_2_alg».proof.ReferenceIdeal
import Idealize.ShloMosaic.Lib.ValueIdx
import Idealize.ShloMosaic.Lib.Pipeline.Value
import Idealize.ShloMosaic.Lib.ValueLayout

/-!
The banded (Toeplitz) matrix of a three-tap filter, in two layouts.

For a filter `w : [3, 16, 32]` the banded matrix has entry `W[16 τ + ci, 32 t + co] = w[τ - t, ci, co]` when
`0 ≤ τ - t < 3` and a fixed value `z` otherwise. One program lays it out as a four-axis array `[T, 16, N, 32]` (axes
`τ, ci, t, co`) reshaped to `[16 T, 32 N]`; the other as `N` column blocks `[16 T, 32]`, the `t`-th a three-axis array
`[T, 16, 32]` (axes `τ, ci, co`) reshaped, laid side by side. A reshape keeps the row-major position, and a
concatenation of equal-width blocks reads block `c / 32` at column `c % 32`; so both are the same matrix.
-/

noncomputable section

namespace Cert.ToepJoin

open Idealize.ShloMosaic Idealize.ShloMosaic.ValueIdx

/-- The four-axis array `[16, 16, 14, 32]` (axes `τ, ci, t, co`) viewed as the matrix `[256, 448]` reads, at row
`16 τ + ci` and column `32 t + co`, its element `(τ, ci, t, co)`: both have row-major position
`((16 τ + ci) · 14 + t) · 32 + co`. -/
theorem ker16_apply {α : Type} (G4 : KernelIdeal.S16x16x14x32.Idx → α) (hc : KernelIdeal.S16x16x14x32.ShapeCasts KernelIdeal.S256x448)
    (τ : Fin 16) (ci : Fin 16) (t : Fin 14) (co : Fin 32) (r : Fin 256) (c : Fin 448)
    (hrv : r.val = 16 * τ.val + ci.val) (hcv : c.val = 32 * t.val + co.val) :
    shapeCast KernelIdeal.S256x448 G4 hc (ix2 r c) = G4 (ix4 τ ci t co) :=
  shapeCast_apply G4 hc _ _ (by
    rw [Shape.rowMajor_val_four, Shape.rowMajor_val_two]
    show ((τ.val * 16 + ci.val) * 14 + t.val) * 32 + co.val = r.val * 448 + c.val
    omega)

/-- The 14 matrices `[256, 32]`, the `t`-th the three-axis array `B t : [16, 16, 32]` (axes `τ, ci, co`) viewed as a
matrix, laid side by side along the columns, read, at row `16 τ + ci` and column `32 t + co`, piece `t` at column `co`,
which is `B t` at `(τ, ci, co)`. -/
theorem ref16_apply {α : Type} (B : Fin 14 → ReferenceIdeal.S16x16x32.Idx → α) (hr : ReferenceIdeal.S16x16x32.ShapeCasts ReferenceIdeal.S256x32)
    (hcat : Shape.Concatenates [ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32] ReferenceIdeal.S256x448 1)
    (τ : Fin 16) (ci : Fin 16) (t : Fin 14) (co : Fin 32) (r : Fin 256) (c : Fin 448)
    (hrv : r.val = 16 * τ.val + ci.val) (hcv : c.val = 32 * t.val + co.val) :
    concatenate ReferenceIdeal.S256x448 1 [⟨ReferenceIdeal.S256x32, shapeCast ReferenceIdeal.S256x32 (B 0) hr⟩, ⟨ReferenceIdeal.S256x32, shapeCast ReferenceIdeal.S256x32 (B 1) hr⟩, ⟨ReferenceIdeal.S256x32, shapeCast ReferenceIdeal.S256x32 (B 2) hr⟩, ⟨ReferenceIdeal.S256x32, shapeCast ReferenceIdeal.S256x32 (B 3) hr⟩, ⟨ReferenceIdeal.S256x32, shapeCast ReferenceIdeal.S256x32 (B 4) hr⟩, ⟨ReferenceIdeal.S256x32, shapeCast ReferenceIdeal.S256x32 (B 5) hr⟩, ⟨ReferenceIdeal.S256x32, shapeCast ReferenceIdeal.S256x32 (B 6) hr⟩, ⟨ReferenceIdeal.S256x32, shapeCast ReferenceIdeal.S256x32 (B 7) hr⟩, ⟨ReferenceIdeal.S256x32, shapeCast ReferenceIdeal.S256x32 (B 8) hr⟩, ⟨ReferenceIdeal.S256x32, shapeCast ReferenceIdeal.S256x32 (B 9) hr⟩, ⟨ReferenceIdeal.S256x32, shapeCast ReferenceIdeal.S256x32 (B 10) hr⟩, ⟨ReferenceIdeal.S256x32, shapeCast ReferenceIdeal.S256x32 (B 11) hr⟩, ⟨ReferenceIdeal.S256x32, shapeCast ReferenceIdeal.S256x32 (B 12) hr⟩, ⟨ReferenceIdeal.S256x32, shapeCast ReferenceIdeal.S256x32 (B 13) hr⟩] hcat (ix2 r c) = B t (ix3 τ ci co) := by
  refine (concatenate_ofFn_apply (t := ReferenceIdeal.S256x448) (s₁ := ReferenceIdeal.S256x32) (1 : Fin 2)
    (fun n : Fin 14 => shapeCast ReferenceIdeal.S256x32 (B n) hr) hcat rfl 32 rfl (ix2 r c) t ?_ (ix2 r co) ?_ ?_).trans ?_
  · show c.val / 32 = t.val
    have := co.isLt
    omega
  · show co.val = c.val % 32
    have := co.isLt
    omega
  · intro b hb
    match b, hb with
    | ⟨0, _⟩, _ => rfl
    | ⟨1, _⟩, hb => exact absurd rfl hb
  · exact shapeCast_apply (B t) hr _ _ (by
      rw [Shape.rowMajor_val_three, Shape.rowMajor_val_two]
      show (τ.val * 16 + ci.val) * 32 + co.val = r.val * 32 + co.val
      omega)

/-- The banded matrix of the three-tap filter `w`, laid out as one four-axis array viewed as a matrix, and as 14 column
blocks each a three-axis array viewed as a matrix, is the same `[256, 448]` function: at row `16 τ + ci` and column
`32 t + co` both read `w (τ - t, ci, co)` when `0 ≤ τ - t < 3` and `z` otherwise. -/
theorem join16 (z : EReal) (w : KernelIdeal.S3x16x32.Idx → EReal) (G4 : KernelIdeal.S16x16x14x32.Idx → EReal)
    (B : Fin 14 → ReferenceIdeal.S16x16x32.Idx → EReal)
    (hG : ∀ (τ : Fin 16) (ci : Fin 16) (t : Fin 14) (co : Fin 32), G4 (ix4 τ ci t co)
      = if h : t.val ≤ τ.val ∧ τ.val - t.val < 3 then w (ix3 ⟨τ.val - t.val, h.2⟩ ci co) else z)
    (hB : ∀ (t : Fin 14) (τ : Fin 16) (ci : Fin 16) (co : Fin 32), B t (ix3 τ ci co)
      = if h : t.val ≤ τ.val ∧ τ.val - t.val < 3 then w (ix3 ⟨τ.val - t.val, h.2⟩ ci co) else z)
    (hc : KernelIdeal.S16x16x14x32.ShapeCasts KernelIdeal.S256x448) (hr : ReferenceIdeal.S16x16x32.ShapeCasts ReferenceIdeal.S256x32)
    (hcat : Shape.Concatenates [ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32, ReferenceIdeal.S256x32] ReferenceIdeal.S256x448 1) :
    (shapeCast KernelIdeal.S256x448 G4 hc : KernelIdeal.S256x448.Idx → EReal)
      = concatenate ReferenceIdeal.S256x448 1 [⟨ReferenceIdeal.S256x32, shapeCast ReferenceIdeal.S256x32 (B 0) hr⟩, ⟨ReferenceIdeal.S256x32, shapeCast ReferenceIdeal.S256x32 (B 1) hr⟩, ⟨ReferenceIdeal.S256x32, shapeCast ReferenceIdeal.S256x32 (B 2) hr⟩, ⟨ReferenceIdeal.S256x32, shapeCast ReferenceIdeal.S256x32 (B 3) hr⟩, ⟨ReferenceIdeal.S256x32, shapeCast ReferenceIdeal.S256x32 (B 4) hr⟩, ⟨ReferenceIdeal.S256x32, shapeCast ReferenceIdeal.S256x32 (B 5) hr⟩, ⟨ReferenceIdeal.S256x32, shapeCast ReferenceIdeal.S256x32 (B 6) hr⟩, ⟨ReferenceIdeal.S256x32, shapeCast ReferenceIdeal.S256x32 (B 7) hr⟩, ⟨ReferenceIdeal.S256x32, shapeCast ReferenceIdeal.S256x32 (B 8) hr⟩, ⟨ReferenceIdeal.S256x32, shapeCast ReferenceIdeal.S256x32 (B 9) hr⟩, ⟨ReferenceIdeal.S256x32, shapeCast ReferenceIdeal.S256x32 (B 10) hr⟩, ⟨ReferenceIdeal.S256x32, shapeCast ReferenceIdeal.S256x32 (B 11) hr⟩, ⟨ReferenceIdeal.S256x32, shapeCast ReferenceIdeal.S256x32 (B 12) hr⟩, ⟨ReferenceIdeal.S256x32, shapeCast ReferenceIdeal.S256x32 (B 13) hr⟩] hcat := by
  funext j
  obtain ⟨r, c, rfl⟩ : ∃ (r : Fin 256) (c : Fin 448), j = ix2 r c := ⟨j 0, j 1, eq_ix2 j⟩
  have h1 : r.val / 16 < 16 := by have := r.isLt; omega
  have h2 : r.val % 16 < 16 := Nat.mod_lt _ (by decide)
  have h3 : c.val / 32 < 14 := by have := c.isLt; omega
  have h4 : c.val % 32 < 32 := Nat.mod_lt _ (by decide)
  have hrv : r.val = 16 * (r.val / 16) + r.val % 16 := by omega
  have hcv : c.val = 32 * (c.val / 32) + c.val % 32 := by omega
  rw [ker16_apply G4 hc ⟨_, h1⟩ ⟨_, h2⟩ ⟨_, h3⟩ ⟨_, h4⟩ r c hrv hcv,
    ref16_apply B hr hcat ⟨_, h1⟩ ⟨_, h2⟩ ⟨_, h3⟩ ⟨_, h4⟩ r c hrv hcv, hG, hB]

/-- The four-axis array `[14, 16, 12, 32]` (axes `τ, ci, t, co`) viewed as the matrix `[224, 384]` reads, at row
`16 τ + ci` and column `32 t + co`, its element `(τ, ci, t, co)`: both have row-major position
`((16 τ + ci) · 12 + t) · 32 + co`. -/
theorem ker14_apply {α : Type} (G4 : KernelIdeal.S14x16x12x32.Idx → α) (hc : KernelIdeal.S14x16x12x32.ShapeCasts KernelIdeal.S224x384)
    (τ : Fin 14) (ci : Fin 16) (t : Fin 12) (co : Fin 32) (r : Fin 224) (c : Fin 384)
    (hrv : r.val = 16 * τ.val + ci.val) (hcv : c.val = 32 * t.val + co.val) :
    shapeCast KernelIdeal.S224x384 G4 hc (ix2 r c) = G4 (ix4 τ ci t co) :=
  shapeCast_apply G4 hc _ _ (by
    rw [Shape.rowMajor_val_four, Shape.rowMajor_val_two]
    show ((τ.val * 16 + ci.val) * 12 + t.val) * 32 + co.val = r.val * 384 + c.val
    omega)

/-- The 12 matrices `[224, 32]`, the `t`-th the three-axis array `B t : [14, 16, 32]` (axes `τ, ci, co`) viewed as a
matrix, laid side by side along the columns, read, at row `16 τ + ci` and column `32 t + co`, piece `t` at column `co`,
which is `B t` at `(τ, ci, co)`. -/
theorem ref14_apply {α : Type} (B : Fin 12 → ReferenceIdeal.S14x16x32.Idx → α) (hr : ReferenceIdeal.S14x16x32.ShapeCasts ReferenceIdeal.S224x32)
    (hcat : Shape.Concatenates [ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32] ReferenceIdeal.S224x384 1)
    (τ : Fin 14) (ci : Fin 16) (t : Fin 12) (co : Fin 32) (r : Fin 224) (c : Fin 384)
    (hrv : r.val = 16 * τ.val + ci.val) (hcv : c.val = 32 * t.val + co.val) :
    concatenate ReferenceIdeal.S224x384 1 [⟨ReferenceIdeal.S224x32, shapeCast ReferenceIdeal.S224x32 (B 0) hr⟩, ⟨ReferenceIdeal.S224x32, shapeCast ReferenceIdeal.S224x32 (B 1) hr⟩, ⟨ReferenceIdeal.S224x32, shapeCast ReferenceIdeal.S224x32 (B 2) hr⟩, ⟨ReferenceIdeal.S224x32, shapeCast ReferenceIdeal.S224x32 (B 3) hr⟩, ⟨ReferenceIdeal.S224x32, shapeCast ReferenceIdeal.S224x32 (B 4) hr⟩, ⟨ReferenceIdeal.S224x32, shapeCast ReferenceIdeal.S224x32 (B 5) hr⟩, ⟨ReferenceIdeal.S224x32, shapeCast ReferenceIdeal.S224x32 (B 6) hr⟩, ⟨ReferenceIdeal.S224x32, shapeCast ReferenceIdeal.S224x32 (B 7) hr⟩, ⟨ReferenceIdeal.S224x32, shapeCast ReferenceIdeal.S224x32 (B 8) hr⟩, ⟨ReferenceIdeal.S224x32, shapeCast ReferenceIdeal.S224x32 (B 9) hr⟩, ⟨ReferenceIdeal.S224x32, shapeCast ReferenceIdeal.S224x32 (B 10) hr⟩, ⟨ReferenceIdeal.S224x32, shapeCast ReferenceIdeal.S224x32 (B 11) hr⟩] hcat (ix2 r c) = B t (ix3 τ ci co) := by
  refine (concatenate_ofFn_apply (t := ReferenceIdeal.S224x384) (s₁ := ReferenceIdeal.S224x32) (1 : Fin 2)
    (fun n : Fin 12 => shapeCast ReferenceIdeal.S224x32 (B n) hr) hcat rfl 32 rfl (ix2 r c) t ?_ (ix2 r co) ?_ ?_).trans ?_
  · show c.val / 32 = t.val
    have := co.isLt
    omega
  · show co.val = c.val % 32
    have := co.isLt
    omega
  · intro b hb
    match b, hb with
    | ⟨0, _⟩, _ => rfl
    | ⟨1, _⟩, hb => exact absurd rfl hb
  · exact shapeCast_apply (B t) hr _ _ (by
      rw [Shape.rowMajor_val_three, Shape.rowMajor_val_two]
      show (τ.val * 16 + ci.val) * 32 + co.val = r.val * 32 + co.val
      omega)

/-- The banded matrix of the three-tap filter `w`, laid out as one four-axis array viewed as a matrix, and as 12 column
blocks each a three-axis array viewed as a matrix, is the same `[224, 384]` function: at row `16 τ + ci` and column
`32 t + co` both read `w (τ - t, ci, co)` when `0 ≤ τ - t < 3` and `z` otherwise. -/
theorem join14 (z : EReal) (w : KernelIdeal.S3x16x32.Idx → EReal) (G4 : KernelIdeal.S14x16x12x32.Idx → EReal)
    (B : Fin 12 → ReferenceIdeal.S14x16x32.Idx → EReal)
    (hG : ∀ (τ : Fin 14) (ci : Fin 16) (t : Fin 12) (co : Fin 32), G4 (ix4 τ ci t co)
      = if h : t.val ≤ τ.val ∧ τ.val - t.val < 3 then w (ix3 ⟨τ.val - t.val, h.2⟩ ci co) else z)
    (hB : ∀ (t : Fin 12) (τ : Fin 14) (ci : Fin 16) (co : Fin 32), B t (ix3 τ ci co)
      = if h : t.val ≤ τ.val ∧ τ.val - t.val < 3 then w (ix3 ⟨τ.val - t.val, h.2⟩ ci co) else z)
    (hc : KernelIdeal.S14x16x12x32.ShapeCasts KernelIdeal.S224x384) (hr : ReferenceIdeal.S14x16x32.ShapeCasts ReferenceIdeal.S224x32)
    (hcat : Shape.Concatenates [ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32, ReferenceIdeal.S224x32] ReferenceIdeal.S224x384 1) :
    (shapeCast KernelIdeal.S224x384 G4 hc : KernelIdeal.S224x384.Idx → EReal)
      = concatenate ReferenceIdeal.S224x384 1 [⟨ReferenceIdeal.S224x32, shapeCast ReferenceIdeal.S224x32 (B 0) hr⟩, ⟨ReferenceIdeal.S224x32, shapeCast ReferenceIdeal.S224x32 (B 1) hr⟩, ⟨ReferenceIdeal.S224x32, shapeCast ReferenceIdeal.S224x32 (B 2) hr⟩, ⟨ReferenceIdeal.S224x32, shapeCast ReferenceIdeal.S224x32 (B 3) hr⟩, ⟨ReferenceIdeal.S224x32, shapeCast ReferenceIdeal.S224x32 (B 4) hr⟩, ⟨ReferenceIdeal.S224x32, shapeCast ReferenceIdeal.S224x32 (B 5) hr⟩, ⟨ReferenceIdeal.S224x32, shapeCast ReferenceIdeal.S224x32 (B 6) hr⟩, ⟨ReferenceIdeal.S224x32, shapeCast ReferenceIdeal.S224x32 (B 7) hr⟩, ⟨ReferenceIdeal.S224x32, shapeCast ReferenceIdeal.S224x32 (B 8) hr⟩, ⟨ReferenceIdeal.S224x32, shapeCast ReferenceIdeal.S224x32 (B 9) hr⟩, ⟨ReferenceIdeal.S224x32, shapeCast ReferenceIdeal.S224x32 (B 10) hr⟩, ⟨ReferenceIdeal.S224x32, shapeCast ReferenceIdeal.S224x32 (B 11) hr⟩] hcat := by
  funext j
  obtain ⟨r, c, rfl⟩ : ∃ (r : Fin 224) (c : Fin 384), j = ix2 r c := ⟨j 0, j 1, eq_ix2 j⟩
  have h1 : r.val / 16 < 14 := by have := r.isLt; omega
  have h2 : r.val % 16 < 16 := Nat.mod_lt _ (by decide)
  have h3 : c.val / 32 < 12 := by have := c.isLt; omega
  have h4 : c.val % 32 < 32 := Nat.mod_lt _ (by decide)
  have hrv : r.val = 16 * (r.val / 16) + r.val % 16 := by omega
  have hcv : c.val = 32 * (c.val / 32) + c.val % 32 := by omega
  rw [ker14_apply G4 hc ⟨_, h1⟩ ⟨_, h2⟩ ⟨_, h3⟩ ⟨_, h4⟩ r c hrv hcv,
    ref14_apply B hr hcat ⟨_, h1⟩ ⟨_, h2⟩ ⟨_, h3⟩ ⟨_, h4⟩ r c hrv hcv, hG, hB]

end Cert.ToepJoin

end
-- ==== Proof.ToepBridge.lean ====
import proofs.«142292_g2000406351686535_pallasbulk_564_2_alg».proof.Proof.KerHostToep
import proofs.«142292_g2000406351686535_pallasbulk_564_2_alg».proof.Proof.RefHostToep
import proofs.«142292_g2000406351686535_pallasbulk_564_2_alg».proof.Proof.ToepJoin

set_option maxRecDepth 16384

/-!
The banded weights and the repeated biases of the two programs are the same functions.

One program builds a role's banded weight as a four-axis array `[T, 16, n, 32]` viewed as a matrix, the other as
`n` three-axis arrays `[T, 16, 32]`, each viewed as a matrix, side by side.  Both hold the filter's row `τ - t`
at `(τ, ci, t, co)` inside the band and zero outside, so the two matrices are equal; the repeated biases are the
same term.
-/

noncomputable section

namespace Cert.ToepBridge

open Idealize.ShloMosaic

/-- The two programs cut the same filter out of the weight. -/
theorem wOf_eq (r : Fin 3) (a : Cert.KernelIdeal.S3x3x16x32.Idx → EReal) :
    Cert.KernelIdeal.HostToep.wOf r a = Cert.ReferenceIdeal.HostToep.wOf r a := by
  match r with
  | 0 => rfl
  | 1 => rfl
  | 2 => rfl

/-- The two programs cut the same bias row out of the bias array. -/
theorem bOf_eq (r : Fin 3) (b : Cert.KernelIdeal.S3x32.Idx → EReal) :
    Cert.KernelIdeal.HostToep.bOf r b = Cert.ReferenceIdeal.HostToep.bOf r b := by
  match r with
  | 0 => rfl
  | 1 => rfl
  | 2 => rfl

/-- Conv block 1: the `[256, 448]` banded weight, as one four-axis array and as 14 blocks side by side. -/
theorem toep1 (r : Fin 3) (a : Cert.KernelIdeal.S3x3x16x32.Idx → EReal) :
    (shapeCast Cert.KernelIdeal.S256x448 (Cert.KernelIdeal.HostToep.band16Of (Cert.KernelIdeal.HostToep.wOf r a))
        Cert.KernelIdeal.Gen.shapeCasts_S16x16x14x32_S256x448 : Cert.KernelIdeal.S256x448.Idx → EReal)
      = concatenate Cert.ReferenceIdeal.S256x448 1
        [⟨Cert.ReferenceIdeal.S256x32, shapeCast Cert.ReferenceIdeal.S256x32 (Cert.ReferenceIdeal.HostToep.band16 (Cert.ReferenceIdeal.HostToep.wOf r a) 0) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 1) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 2) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 3) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 4) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 5) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 6) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 7) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 8) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 9) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 10) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 11) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 12) Cert.ReferenceIdeal.Gen.shapeCasts_S16x16x32_S256x32⟩,
        ⟨Cert.ReferenceIdeal.S256x32, shapeCast Cert.ReferenceIdeal.S256x32 (Cert.ReferenceIdeal.HostToep.band16 (Cert.ReferenceIdeal.HostToep.wOf r a) 13) Cert.ReferenceIdeal.Gen.shapeCasts_S16x16x32_S256x32⟩]
        Cert.ReferenceIdeal.Gen.concatenates_S256x32_S256x32_S256x32_S256x32_S256x32_S256x32_S256x32_S256x32_S256x32_S256x32_S256x32_S256x32_S256x32_S256x32_S256x448_d1 := by
  rw [wOf_eq r a]
  exact ToepJoin.join16 0 (Cert.ReferenceIdeal.HostToep.wOf r a) _ (Cert.ReferenceIdeal.HostToep.band16 (Cert.ReferenceIdeal.HostToep.wOf r a))
    (Cert.KernelIdeal.HostToep.band16Of_apply _) (Cert.ReferenceIdeal.HostToep.band16_apply _) _ _ _

/-- Conv block 2: the `[224, 384]` banded weight, as one four-axis array and as 12 blocks side by side. -/
theorem toep2 (r : Fin 3) (a : Cert.KernelIdeal.S3x3x16x32.Idx → EReal) :
    (shapeCast Cert.KernelIdeal.S224x384 (Cert.KernelIdeal.HostToep.band14Of (Cert.KernelIdeal.HostToep.wOf r a))
        Cert.KernelIdeal.Gen.shapeCasts_S14x16x12x32_S224x384 : Cert.KernelIdeal.S224x384.Idx → EReal)
      = concatenate Cert.ReferenceIdeal.S224x384 1
        [⟨Cert.ReferenceIdeal.S224x32, shapeCast Cert.ReferenceIdeal.S224x32 (Cert.ReferenceIdeal.HostToep.band14 (Cert.ReferenceIdeal.HostToep.wOf r a) 0) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 1) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 2) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 3) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 4) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 5) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 6) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 7) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 8) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 9) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 10) Cert.ReferenceIdeal.Gen.shapeCasts_S14x16x32_S224x32⟩,
        ⟨Cert.ReferenceIdeal.S224x32, shapeCast Cert.ReferenceIdeal.S224x32 (Cert.ReferenceIdeal.HostToep.band14 (Cert.ReferenceIdeal.HostToep.wOf r a) 11) Cert.ReferenceIdeal.Gen.shapeCasts_S14x16x32_S224x32⟩]
        Cert.ReferenceIdeal.Gen.concatenates_S224x32_S224x32_S224x32_S224x32_S224x32_S224x32_S224x32_S224x32_S224x32_S224x32_S224x32_S224x32_S224x384_d1 := by
  rw [wOf_eq r a]
  exact ToepJoin.join14 0 (Cert.ReferenceIdeal.HostToep.wOf r a) _ (Cert.ReferenceIdeal.HostToep.band14 (Cert.ReferenceIdeal.HostToep.wOf r a))
    (Cert.KernelIdeal.HostToep.band14Of_apply _) (Cert.ReferenceIdeal.HostToep.band14_apply _) _ _ _

/-- Conv block 1: the bias row repeated 14 times. -/
theorem bias1 (r : Fin 3) (b : Cert.KernelIdeal.S3x32.Idx → EReal) :
    Cert.KernelIdeal.HostToep.bias448Of (Cert.KernelIdeal.HostToep.bOf r b) = Cert.ReferenceIdeal.HostToep.tile14 (Cert.ReferenceIdeal.HostToep.bOf r b) := by
  rw [bOf_eq r b]; rfl

/-- Conv block 2: the bias row repeated 12 times. -/
theorem bias2 (r : Fin 3) (b : Cert.KernelIdeal.S3x32.Idx → EReal) :
    Cert.KernelIdeal.HostToep.bias384Of (Cert.KernelIdeal.HostToep.bOf r b) = Cert.ReferenceIdeal.HostToep.tile12 (Cert.ReferenceIdeal.HostToep.bOf r b) := by
  rw [bOf_eq r b]; rfl

end Cert.ToepBridge

end
-- ==== Proof.EntryBridge.lean ====
import proofs.«142292_g2000406351686535_pallasbulk_564_2_alg».proof.Proof.KerEntry
import proofs.«142292_g2000406351686535_pallasbulk_564_2_alg».proof.Proof.RefEntry
import proofs.«142292_g2000406351686535_pallasbulk_564_2_alg».proof.Proof.ToepBridge
import Idealize.ShloMosaic.Lib.ValueIdx

set_option maxRecDepth 16384

/-!
The two programs enter their first region with the same seven arrays.

Each program's host part leaves seven arrays for the first region: the input viewed as `[256, 128, 256]`, the mixing
matrix (one program keeps the 128 by 128 matrix, the other its Kronecker product with the 8 by 8 identity), the first
convolution's banded weights and biases, `kron(I₁₄, Θ)` lengthened, and the second convolution's banded weights and
biases.  Written as terms of the argument arrays, the two programs' arrays are equal: narrowing to a shorter float
format is the identity on extended reals, the banded matrices agree piece by piece, and every other operation is the
same on both sides.
-/

noncomputable section

namespace Cert.EntryBridge

open Idealize.ShloMosaic Idealize.ShloMosaic.ValueIdx

/-! ## The second program's banded matrices and repeated biases, as functions of the arguments -/

/-- Role `r`'s banded matrix of the first convolution: its 14 blocks, each viewed as a matrix, side by side. -/
def T1R (r : Fin 3) (a : Cert.ReferenceIdeal.S3x3x16x32.Idx → EReal) : Cert.ReferenceIdeal.S256x448.Idx → EReal :=
  concatenate Cert.ReferenceIdeal.S256x448 1
    [⟨Cert.ReferenceIdeal.S256x32, shapeCast Cert.ReferenceIdeal.S256x32 (Cert.ReferenceIdeal.HostToep.band16 (Cert.ReferenceIdeal.HostToep.wOf r a) 0) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 1) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 2) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 3) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 4) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 5) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 6) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 7) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 8) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 9) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 10) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 11) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 12) Cert.ReferenceIdeal.Gen.shapeCasts_S16x16x32_S256x32⟩,
     ⟨Cert.ReferenceIdeal.S256x32, shapeCast Cert.ReferenceIdeal.S256x32 (Cert.ReferenceIdeal.HostToep.band16 (Cert.ReferenceIdeal.HostToep.wOf r a) 13) Cert.ReferenceIdeal.Gen.shapeCasts_S16x16x32_S256x32⟩]
    Cert.ReferenceIdeal.Gen.concatenates_S256x32_S256x32_S256x32_S256x32_S256x32_S256x32_S256x32_S256x32_S256x32_S256x32_S256x32_S256x32_S256x32_S256x32_S256x448_d1

/-- Role `r`'s banded matrix of the second convolution: its 12 blocks side by side. -/
def T2R (r : Fin 3) (a : Cert.ReferenceIdeal.S3x3x16x32.Idx → EReal) : Cert.ReferenceIdeal.S224x384.Idx → EReal :=
  concatenate Cert.ReferenceIdeal.S224x384 1
    [⟨Cert.ReferenceIdeal.S224x32, shapeCast Cert.ReferenceIdeal.S224x32 (Cert.ReferenceIdeal.HostToep.band14 (Cert.ReferenceIdeal.HostToep.wOf r a) 0) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 1) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 2) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 3) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 4) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 5) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 6) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 7) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 8) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 9) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 10) Cert.ReferenceIdeal.Gen.shapeCasts_S14x16x32_S224x32⟩,
     ⟨Cert.ReferenceIdeal.S224x32, shapeCast Cert.ReferenceIdeal.S224x32 (Cert.ReferenceIdeal.HostToep.band14 (Cert.ReferenceIdeal.HostToep.wOf r a) 11) Cert.ReferenceIdeal.Gen.shapeCasts_S14x16x32_S224x32⟩]
    Cert.ReferenceIdeal.Gen.concatenates_S224x32_S224x32_S224x32_S224x32_S224x32_S224x32_S224x32_S224x32_S224x32_S224x32_S224x32_S224x32_S224x384_d1

/-- Role `r`'s bias row repeated 14 times. -/
def b1R (r : Fin 3) (b : Cert.ReferenceIdeal.S3x32.Idx → EReal) : Cert.ReferenceIdeal.S448.Idx → EReal :=
  Cert.ReferenceIdeal.HostToep.tile14 (Cert.ReferenceIdeal.HostToep.bOf r b)

/-- Role `r`'s bias row repeated 12 times. -/
def b2R (r : Fin 3) (b : Cert.ReferenceIdeal.S3x32.Idx → EReal) : Cert.ReferenceIdeal.S384.Idx → EReal :=
  Cert.ReferenceIdeal.HostToep.tile12 (Cert.ReferenceIdeal.HostToep.bOf r b)

/-- The six long stretches of the second program compute these four families. -/
theorem bandsR : Cert.ReferenceIdeal.Entry.Bands T1R b1R T2R b2R where
  T1_0 := Cert.ReferenceIdeal.HostToep.toep1_0
  b1_0 := Cert.ReferenceIdeal.HostToep.bias1_0
  T1_1 := Cert.ReferenceIdeal.HostToep.toep1_1
  b1_1 := Cert.ReferenceIdeal.HostToep.bias1_1
  T1_2 := Cert.ReferenceIdeal.HostToep.toep1_2
  b1_2 := Cert.ReferenceIdeal.HostToep.bias1_2
  T2_0 := Cert.ReferenceIdeal.HostToep.toep2_0
  b2_0 := Cert.ReferenceIdeal.HostToep.bias2_0
  T2_1 := Cert.ReferenceIdeal.HostToep.toep2_1
  b2_1 := Cert.ReferenceIdeal.HostToep.bias2_1
  T2_2 := Cert.ReferenceIdeal.HostToep.toep2_2
  b2_2 := Cert.ReferenceIdeal.HostToep.bias2_2

/-! ## The seven arrays -/

/-- The input viewed as `[256, 128, 256]`: the same view. -/
theorem xl_eq (a7 : Cert.KernelIdeal.S256x128x16x16.Idx → EReal) : Cert.KernelIdeal.Entry.xlK a7 = Cert.ReferenceIdeal.Entry.xlR a7 := rfl

/-- `kron(I₁₄, Θ)` lengthened by 64 zero rows: the same term, the narrowing being the identity. -/
theorem th_eq (a2 : Cert.KernelIdeal.S32x16.Idx → EReal) : Cert.KernelIdeal.Entry.ThK a2 = Cert.ReferenceIdeal.Entry.ThR a2 := rfl

/-- The first convolution's weights. -/
theorem w1_eq (a0 : Cert.KernelIdeal.S3x3x16x32.Idx → EReal) : Cert.KernelIdeal.Entry.W1K a0 = Cert.ReferenceIdeal.Entry.W1Rof T1R a0 := by
  unfold Cert.KernelIdeal.Entry.W1K
  rw [Cert.ToepBridge.toep1 0 a0, Cert.ToepBridge.toep1 1 a0, Cert.ToepBridge.toep1 2 a0]
  rfl

/-- The first convolution's biases. -/
theorem b1_eq (a1 : Cert.KernelIdeal.S3x32.Idx → EReal) : Cert.KernelIdeal.Entry.B1K a1 = Cert.ReferenceIdeal.Entry.B1Rof b1R a1 := by
  unfold Cert.KernelIdeal.Entry.B1K
  rw [Cert.ToepBridge.bias1 0 a1, Cert.ToepBridge.bias1 1 a1, Cert.ToepBridge.bias1 2 a1]
  rfl

/-- The second convolution's weights. -/
theorem w2_eq (a3 : Cert.KernelIdeal.S3x3x16x32.Idx → EReal) : Cert.KernelIdeal.Entry.W2K a3 = Cert.ReferenceIdeal.Entry.W2Rof T2R a3 := by
  unfold Cert.KernelIdeal.Entry.W2K
  rw [Cert.ToepBridge.toep2 0 a3, Cert.ToepBridge.toep2 1 a3, Cert.ToepBridge.toep2 2 a3]
  rfl

/-- The second convolution's biases. -/
theorem b2_eq (a4 : Cert.KernelIdeal.S3x32.Idx → EReal) : Cert.KernelIdeal.Entry.B2K a4 = Cert.ReferenceIdeal.Entry.B2Rof b2R a4 := by
  unfold Cert.KernelIdeal.Entry.B2K
  rw [Cert.ToepBridge.bias2 0 a4, Cert.ToepBridge.bias2 1 a4, Cert.ToepBridge.bias2 2 a4]
  rfl

/-- The mixing matrix: block `(i, j)` of the Kronecker product with the identity is the narrowed matrix on the diagonal
    and zero off it. -/
theorem adj_hAk (a8 : Cert.KernelIdeal.S128x128.Idx → EReal) (i j : Fin 8) (p q : Fin 128) :
    Cert.ReferenceIdeal.HostKron.AkOf a8 (ix2 ⟨128 * i.val + p.val, by omega⟩ ⟨128 * j.val + q.val, by omega⟩)
      = if i = j then Cert.KernelIdeal.Entry.adjK a8 (ix2 p q) else 0 :=
  Cert.ReferenceIdeal.HostKron.AkOf_apply a8 i j p q

end Cert.EntryBridge

end
-- ==== Proof.BodyBridge.lean ====
/-
  The first body of the two programs, compared value by value at the ideal instance (floats are extended reals, every
  operation exact, a change of float format the identity).

  On a block `x` of 8 batches × 128 nodes × 256 features, flattened to 1024 rows, both programs compute
    pre1 = x · W1 + b1,   h1 = relu (pre1[:, :512] · sigmoid pre1[:, 512:1024] + pre1[:, 1024:]),   P = h1 · Th,
    M = the mixed activations,   pre2 = relu M · W2 + b2,
    out = relu (pre2[:, :384] · sigmoid pre2[:, 384:768] + pre2[:, 768:]),
  and store `out` reshaped to 8 × 128 × 384, its row sums, and the row sums of its squares. They differ in `M` alone:
  one program lays end to end the eight products `A · P[128 i : 128 (i + 1)]` with a 128 × 128 matrix `A`; the other
  takes the one product `Ak · P` with a 1024 × 1024 matrix `Ak`. When `Ak` is block diagonal with every diagonal
  block `A`, the two agree: `(Ak · P)[128 i + p, c] = ∑ k < 1024, Ak[128 i + p, k] · P[k, c]`; a term with `k` outside
  block `i` is `0 · P[k, c] = 0` on the extended reals whatever `P[k, c]` is (also at `±∞`), so the sum is
  `∑ q < 128, A[p, q] · P[128 i + q, c]`. No finiteness is assumed anywhere.

  `proj`, `tail`, `mixedK`, `mixedR` name the stretches; `mixed_eq` is the equality of the two mixings;
  `pay1_eq`, `out_eq`, `sum_eq`, `sq_eq` are the equalities of the values the two bodies store.
-/
import proofs.«142292_g2000406351686535_pallasbulk_564_2_alg».proof.Proof.Gen.KernelIdeal.Skeleton
import proofs.«142292_g2000406351686535_pallasbulk_564_2_alg».proof.Proof.Gen.ReferenceIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.BodyBridge

open Idealize.ShloMosaic Idealize.ShloMosaic.ValueIdx

/-! ## The two stretches the programs share, as functions of what differs between them -/

section Shared
open Cert.ReferenceIdeal Cert.ReferenceIdeal.Gen

/-- The projected activations: `relu (pre1[:, :512] · sigmoid pre1[:, 512:1024] + pre1[:, 1024:]) · Th` with
    `pre1 = x · W1 + b1`, on the block flattened to 1024 rows. -/
def proj (x : Vec Ideal S8x128x256 .f32) (W1 : Vec Ideal S256x1536 .f32) (b1 : Vec Ideal S1x1536 .f32)
    (Th : Vec Ideal S512x224 .f32) : FVec Ideal S1024x224 .f32 :=
  have v2 : FVec Ideal S1024x256 .f32 := shapeCast S1024x256 (shapeCast S8x128x256 x shapeCasts_S8x128x256_S8x128x256) shapeCasts_S8x128x256_S1024x256
  have v9 : FVec Ideal S1024x1536 .f32 :=
    addf (matmul (φ₁ := .f32) (φ₂ := .f32) dot_S1024x256_S256x1536_S1024x1536_1_0_0_1_n_n none v2 (shapeCast S256x1536 W1 shapeCasts_S256x1536_S256x1536) (constant S1024x1536 .f32 0x00000000#32))
      (broadcastTo S1024x1536 (shapeCast S1x1536 b1 shapeCasts_S1x1536_S1x1536) broadcasts_S1x1536_S1024x1536)
  have v15 : FVec Ideal S1024x512 .f32 :=
    addf (mulf (extractStridedSlice S1024x512 ![0, 0] v9 slices_S1024x1536_o0_0_S1024x512)
        (logistic (extractStridedSlice S1024x512 ![0, 512] v9 slices_S1024x1536_o0_512_S1024x512)))
      (extractStridedSlice S1024x512 ![0, 1024] v9 slices_S1024x1536_o0_1024_S1024x512)
  have v17 : FVec Ideal S1024x512 .f32 := maximumf v15 (broadcast S1024x512 (Scalar.ofBits .f32 0x00000000#32))
  matmul (φ₁ := .f32) (φ₂ := .f32) dot_S1024x512_S512x224_S1024x224_1_0_0_1_n_n none v17 (shapeCast S512x224 Th shapeCasts_S512x224_S512x224) (constant S1024x224 .f32 0x00000000#32)

/-- What both programs compute from the mixed activations `M`: with `pre2 = relu M · W2 + b2`,
    `relu (pre2[:, :384] · sigmoid pre2[:, 384:768] + pre2[:, 768:])`. -/
def tail (M : FVec Ideal S1024x224 .f32) (W2 : Vec Ideal S224x1152 .f32) (b2 : Vec Ideal S1x1152 .f32) :
    FVec Ideal S1024x384 .f32 :=
  have v25 : FVec Ideal S1024x224 .f32 := maximumf M (broadcast S1024x224 (Scalar.ofBits .f32 0x00000000#32))
  have v32 : FVec Ideal S1024x1152 .f32 :=
    addf (matmul (φ₁ := .f32) (φ₂ := .f32) dot_S1024x224_S224x1152_S1024x1152_1_0_0_1_n_n none v25 (shapeCast S224x1152 W2 shapeCasts_S224x1152_S224x1152) (constant S1024x1152 .f32 0x00000000#32))
      (broadcastTo S1024x1152 (shapeCast S1x1152 b2 shapeCasts_S1x1152_S1x1152) broadcasts_S1x1152_S1024x1152)
  maximumf
    (addf (mulf (extractStridedSlice S1024x384 ![0, 0] v32 slices_S1024x1152_o0_0_S1024x384)
        (logistic (extractStridedSlice S1024x384 ![0, 384] v32 slices_S1024x1152_o0_384_S1024x384)))
      (extractStridedSlice S1024x384 ![0, 768] v32 slices_S1024x1152_o0_768_S1024x384))
    (broadcast S1024x384 (Scalar.ofBits .f32 0x00000000#32))

/-- The reference's mixing: one product with the 1024 × 1024 matrix. -/
def mixedR (Ak : Vec Ideal S1024x1024 .f32) (P : FVec Ideal S1024x224 .f32) : FVec Ideal S1024x224 .f32 :=
  matmul (φ₁ := .f32) (φ₂ := .f32) dot_S1024x1024_S1024x224_S1024x224_1_0_0_1_n_n none (shapeCast S1024x1024 Ak shapeCasts_S1024x1024_S1024x1024) P (constant S1024x224 .f32 0x00000000#32)

end Shared

section Kernel
open Cert.KernelIdeal Cert.KernelIdeal.Gen

/-- The kernel's mixing: the eight row blocks of `P`, each multiplied by the 128 × 128 matrix, laid end to end. -/
def mixedK (A : Vec Ideal S128x128 .bf16) (P : FVec Ideal S1024x224 .bf16) : FVec Ideal S1024x224 .f32 :=
  concatenate S1024x224 0
    [⟨S128x224, matmul (φ₁ := .bf16) (φ₂ := .bf16) dot_S128x128_S128x224_S128x224_1_0_0_1_n_n none (shapeCast S128x128 A shapeCasts_S128x128_S128x128) (extractStridedSlice S128x224 ![0, 0] P slices_S1024x224_o0_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![128, 0] P slices_S1024x224_o128_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![256, 0] P slices_S1024x224_o256_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![384, 0] P slices_S1024x224_o384_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![512, 0] P slices_S1024x224_o512_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![640, 0] P slices_S1024x224_o640_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![768, 0] P slices_S1024x224_o768_0_S128x224) (constant S128x224 .f32 0x00000000#32)⟩,
     ⟨S128x224, matmul (φ₁ := .bf16) (φ₂ := .bf16) dot_S128x128_S128x224_S128x224_1_0_0_1_n_n none (shapeCast S128x128 A shapeCasts_S128x128_S128x128) (extractStridedSlice S128x224 ![896, 0] P slices_S1024x224_o896_0_S128x224) (constant S128x224 .f32 0x00000000#32)⟩]
    concatenates_S128x224_S128x224_S128x224_S128x224_S128x224_S128x224_S128x224_S128x224_S1024x224_d0

end Kernel

/-! ## A product into the zero accumulator, and a stack of row blocks, read at an index -/

/-- A matrix product into the zero accumulator, read at an index: the sum over the contracted coordinate. -/
theorem matmul_zero_plain_apply {m k n : Nat} {φ₁ φ₂ : FTy}
    (d : DotDims ⟨2, ![m, k]⟩ ⟨2, ![k, n]⟩ ⟨2, ![m, n]⟩) (hd : d = DotDims.plain m k n)
    (prec : Option ContractPrecision) (X : FVec Ideal ⟨2, ![m, k]⟩ φ₁) (Y : FVec Ideal ⟨2, ![k, n]⟩ φ₂)
    (a : Fin m) (b : Fin n) :
    matmul d prec X Y (constant (F := Ideal) ⟨2, ![m, n]⟩ .f32 0x00000000#32) (ix2 a b)
      = ∑ c : Fin k, X (ix2 a c) * Y (ix2 c b) := by
  subst hd
  rw [matmul_zero_eq_dotGeneral]
  exact StackMember.dotGeneral_plain_apply prec X Y a b

theorem dotK_eq : Cert.KernelIdeal.dot_S128x128_S128x224_S128x224_1_0_0_1_n_n = DotDims.plain 128 128 224 := rfl
theorem dotR_eq : Cert.ReferenceIdeal.dot_S1024x1024_S1024x224_S1024x224_1_0_0_1_n_n = DotDims.plain 1024 1024 224 := rfl

/-- A sum over 1024 positions is the sum over eight blocks of the sums over the 128 positions of each. -/
theorem sum_blocks {M : Type*} [AddCommMonoid M] (g : Fin 1024 → M) :
    ∑ k, g k = ∑ j : Fin 8, ∑ q : Fin 128, g ⟨128 * j.val + q.val, by omega⟩ := by
  have e := Equiv.sum_comp (finProdFinEquiv (m := 8) (n := 128)) (g : Fin (8 * 128) → M)
  rw [Fintype.sum_prod_type] at e
  rw [← e]
  refine Finset.sum_congr rfl fun j _ => Finset.sum_congr rfl fun q _ => congrArg g (Fin.ext ?_)
  show q.val + 128 * j.val = 128 * j.val + q.val
  omega

/-- Row `128 K + p` of a stack of 128-row blocks laid end to end is row `p` of block `K`. -/
theorem concat_rows_piece {n : Nat} {α : Type} (xs : List ((s : Shape) × (s.Idx → α)))
    (h : Shape.Concatenates (xs.map (·.1)) ⟨2, ![1024, n]⟩ 0) (K : Nat) (hK : K < xs.length)
    (xK : (⟨2, ![128, n]⟩ : Shape).Idx → α) (hxK : xs[K] = ⟨⟨2, ![128, n]⟩, xK⟩)
    (hpre : (((xs.take K).map (·.1)).map fun s => if h : s.rank = (⟨2, ![1024, n]⟩ : Shape).rank then s.size ((0 : Fin 2).cast h.symm) else 0).sum = 128 * K)
    (p : Fin 128) (c : Fin n) (hlt : 128 * K + p.val < 1024) :
    concatenate ⟨2, ![1024, n]⟩ 0 xs h (ix2 ⟨128 * K + p.val, hlt⟩ c) = xK (ix2 p c) :=
  concatenate_apply_piece 0 xs h _ K hK _ xK hxK rfl (128 * K) hpre (ix2 p c)
    (fun b hb => by
      match b with
      | ⟨0, _⟩ => exact absurd rfl hb
      | ⟨1, _⟩ => rfl)
    rfl

/-- The kernel's mixing at row `128 K + p`: the 128 × 128 matrix's row `p` against block `K` of `P`. -/
theorem mixedK_apply (A : Vec Ideal Cert.KernelIdeal.S128x128 .bf16) (P : FVec Ideal Cert.KernelIdeal.S1024x224 .bf16)
    (K : Nat) (hK : K < 8) (p : Fin 128) (c : Fin 224) (hlt : 128 * K + p.val < 1024) :
    mixedK A P (ix2 ⟨128 * K + p.val, hlt⟩ c)
      = ∑ q : Fin 128, A (ix2 p q) * P (ix2 ⟨128 * K + q.val, by omega⟩ c) := by
  unfold mixedK
  rw [shapeCast_self]
  interval_cases K
  all_goals
    refine (concat_rows_piece _ _ _ (by show _ < 8; omega) _ rfl rfl p c hlt).trans ?_
    refine (matmul_zero_plain_apply _ dotK_eq none _ _ p c).trans ?_
    refine Finset.sum_congr rfl fun q _ => ?_
    exact congrArg (A (ix2 p q) * ·) (slice2_axis0_apply _ P _ q c _ rfl)

/-- The reference's mixing at a row: that row of the 1024 × 1024 matrix against `P`. -/
theorem mixedR_apply (Ak : Vec Ideal Cert.ReferenceIdeal.S1024x1024 .f32) (P : FVec Ideal Cert.ReferenceIdeal.S1024x224 .f32)
    (r : Fin 1024) (c : Fin 224) :
    mixedR Ak P (ix2 r c) = ∑ k : Fin 1024, Ak (ix2 r k) * P (ix2 k c) := by
  unfold mixedR
  rw [shapeCast_self]
  exact matmul_zero_plain_apply _ dotR_eq none Ak P r c

/-- With the 1024 × 1024 matrix block diagonal, each diagonal block the 128 × 128 matrix, the two mixings agree:
    in a row of block `i` the terms of the other blocks are `0 · y = 0` on the extended reals, whatever `y` is. -/
theorem mixed_eq (A : Vec Ideal Cert.KernelIdeal.S128x128 .bf16) (Ak : Vec Ideal Cert.ReferenceIdeal.S1024x1024 .f32)
    (hAk : ∀ (i j : Fin 8) (p q : Fin 128),
      Ak (ix2 ⟨128 * i.val + p.val, by omega⟩ ⟨128 * j.val + q.val, by omega⟩) = if i = j then A (ix2 p q) else 0)
    (P : FVec Ideal Cert.KernelIdeal.S1024x224 .bf16) :
    mixedK A P = mixedR Ak P := by
  funext j
  obtain ⟨r, c, rfl⟩ : ∃ (r : Fin 1024) (c : Fin 224), j = ix2 r c := ⟨j 0, j 1, eq_ix2 j⟩
  obtain ⟨i, p, rfl⟩ : ∃ (i : Fin 8) (p : Fin 128), r = ⟨128 * i.val + p.val, by omega⟩ :=
    ⟨⟨r.val / 128, by omega⟩, ⟨r.val % 128, by omega⟩, Fin.ext (by show r.val = 128 * (r.val / 128) + r.val % 128; omega)⟩
  rw [mixedK_apply A P i.val i.isLt p c, mixedR_apply, sum_blocks, Finset.sum_eq_single i]
  · refine Finset.sum_congr rfl fun q _ => ?_
    rw [hAk, if_pos rfl]
  · intro j _ hji
    refine Finset.sum_eq_zero fun q _ => ?_
    rw [hAk, if_neg (Ne.symm hji), zero_mul]
  · intro h
    exact absurd (Finset.mem_univ i) h

/-! ## The two bodies, read through the shared stretches -/

variable (x : Vec Ideal Cert.KernelIdeal.S8x128x256 .f32) (A : Vec Ideal Cert.KernelIdeal.S128x128 .bf16)
  (Ak : Vec Ideal Cert.ReferenceIdeal.S1024x1024 .f32) (W1 : Vec Ideal Cert.KernelIdeal.S256x1536 .bf16)
  (b1 : Vec Ideal Cert.KernelIdeal.S1x1536 .f32) (Th : Vec Ideal Cert.KernelIdeal.S512x224 .bf16)
  (W2 : Vec Ideal Cert.KernelIdeal.S224x1152 .bf16) (b2 : Vec Ideal Cert.KernelIdeal.S1x1152 .f32)

/-- The kernel's projected activations are `proj`: its narrowings to bf16 are the identity on the extended reals. -/
theorem ker_proj_eq : Cert.KernelIdeal.Gen.k0_pay5 (F := Ideal) x W1 b1 Th = proj x W1 b1 Th := rfl

/-- The kernel's last value before the stores is `tail` of its mixing of its projected activations. -/
theorem ker_pay1_eq :
    Cert.KernelIdeal.Gen.k0_pay1 (F := Ideal) (Cert.KernelIdeal.Gen.k0_pay5 x W1 b1 Th) (Cert.KernelIdeal.Gen.k0_pay6 A)
        (Cert.KernelIdeal.Gen.k0_pay7 x W1 b1 Th A) (Cert.KernelIdeal.Gen.k0_pay8 x W1 b1 Th A)
        (Cert.KernelIdeal.Gen.k0_pay9 x W1 b1 Th A) (Cert.KernelIdeal.Gen.k0_pay10 x W1 b1 Th A)
        (Cert.KernelIdeal.Gen.k0_pay11 x W1 b1 Th A) (Cert.KernelIdeal.Gen.k0_pay12 x W1 b1 Th A)
        (Cert.KernelIdeal.Gen.k0_pay13 x W1 b1 Th) W2 b2
      = tail (mixedK A (Cert.KernelIdeal.Gen.k0_pay5 x W1 b1 Th)) W2 b2 := rfl

/-- The reference's last value before the stores is `tail` of its mixing of `proj`. -/
theorem ref_pay1_eq :
    Cert.ReferenceIdeal.Gen.k0_pay1 (F := Ideal) (Cert.ReferenceIdeal.Gen.k0_pay6 x W1 b1 Th Ak W2 b2)
        (Cert.ReferenceIdeal.Gen.k0_pay7 x W1 b1 Th Ak W2 b2)
      = tail (mixedR Ak (proj x W1 b1 Th)) W2 b2 := rfl

variable (hAk : ∀ (i j : Fin 8) (p q : Fin 128),
  Ak (ix2 ⟨128 * i.val + p.val, by omega⟩ ⟨128 * j.val + q.val, by omega⟩) = if i = j then A (ix2 p q) else 0)
include hAk

/-- The two bodies compute the same 1024 × 384 value. -/
theorem pay1_eq :
    Cert.KernelIdeal.Gen.k0_pay1 (F := Ideal) (Cert.KernelIdeal.Gen.k0_pay5 x W1 b1 Th) (Cert.KernelIdeal.Gen.k0_pay6 A)
        (Cert.KernelIdeal.Gen.k0_pay7 x W1 b1 Th A) (Cert.KernelIdeal.Gen.k0_pay8 x W1 b1 Th A)
        (Cert.KernelIdeal.Gen.k0_pay9 x W1 b1 Th A) (Cert.KernelIdeal.Gen.k0_pay10 x W1 b1 Th A)
        (Cert.KernelIdeal.Gen.k0_pay11 x W1 b1 Th A) (Cert.KernelIdeal.Gen.k0_pay12 x W1 b1 Th A)
        (Cert.KernelIdeal.Gen.k0_pay13 x W1 b1 Th) W2 b2
      = Cert.ReferenceIdeal.Gen.k0_pay1 (F := Ideal) (Cert.ReferenceIdeal.Gen.k0_pay6 x W1 b1 Th Ak W2 b2)
        (Cert.ReferenceIdeal.Gen.k0_pay7 x W1 b1 Th Ak W2 b2) :=
  (ker_pay1_eq x A W1 b1 Th W2 b2).trans
    ((congrArg (fun M => tail M W2 b2)
        ((mixed_eq A Ak hAk _).trans (congrArg (mixedR Ak) (ker_proj_eq x W1 b1 Th)))).trans
      (ref_pay1_eq x Ak W1 b1 Th W2 b2).symm)

/-- The stored block: the 1024 × 384 value reshaped to 8 × 128 × 384 (the kernel's narrowing is the identity). -/
theorem out_eq :
    Cert.KernelIdeal.Gen.k0_pay2 (F := Ideal) (Cert.KernelIdeal.Gen.k0_pay5 x W1 b1 Th) (Cert.KernelIdeal.Gen.k0_pay6 A)
        (Cert.KernelIdeal.Gen.k0_pay7 x W1 b1 Th A) (Cert.KernelIdeal.Gen.k0_pay8 x W1 b1 Th A)
        (Cert.KernelIdeal.Gen.k0_pay9 x W1 b1 Th A) (Cert.KernelIdeal.Gen.k0_pay10 x W1 b1 Th A)
        (Cert.KernelIdeal.Gen.k0_pay11 x W1 b1 Th A) (Cert.KernelIdeal.Gen.k0_pay12 x W1 b1 Th A)
        (Cert.KernelIdeal.Gen.k0_pay13 x W1 b1 Th) W2 b2
      = Cert.ReferenceIdeal.Gen.k0_pay2 (F := Ideal) (Cert.ReferenceIdeal.Gen.k0_pay6 x W1 b1 Th Ak W2 b2)
        (Cert.ReferenceIdeal.Gen.k0_pay7 x W1 b1 Th Ak W2 b2) := by
  have h := pay1_eq x A Ak W1 b1 Th W2 b2 hAk
  unfold Cert.KernelIdeal.Gen.k0_pay2 Cert.ReferenceIdeal.Gen.k0_pay2
  rw [h] <;> rfl

/-- The stored row sums. -/
theorem sum_eq :
    Cert.KernelIdeal.Gen.k0_pay3 (F := Ideal) (Cert.KernelIdeal.Gen.k0_pay5 x W1 b1 Th) (Cert.KernelIdeal.Gen.k0_pay6 A)
        (Cert.KernelIdeal.Gen.k0_pay7 x W1 b1 Th A) (Cert.KernelIdeal.Gen.k0_pay8 x W1 b1 Th A)
        (Cert.KernelIdeal.Gen.k0_pay9 x W1 b1 Th A) (Cert.KernelIdeal.Gen.k0_pay10 x W1 b1 Th A)
        (Cert.KernelIdeal.Gen.k0_pay11 x W1 b1 Th A) (Cert.KernelIdeal.Gen.k0_pay12 x W1 b1 Th A)
        (Cert.KernelIdeal.Gen.k0_pay13 x W1 b1 Th) W2 b2
      = Cert.ReferenceIdeal.Gen.k0_pay3 (F := Ideal) (Cert.ReferenceIdeal.Gen.k0_pay6 x W1 b1 Th Ak W2 b2)
        (Cert.ReferenceIdeal.Gen.k0_pay7 x W1 b1 Th Ak W2 b2) := by
  have h := pay1_eq x A Ak W1 b1 Th W2 b2 hAk
  unfold Cert.KernelIdeal.Gen.k0_pay3 Cert.ReferenceIdeal.Gen.k0_pay3
  rw [h] <;> rfl

/-- The stored row sums of the squares. -/
theorem sq_eq :
    Cert.KernelIdeal.Gen.k0_pay4 (F := Ideal) (Cert.KernelIdeal.Gen.k0_pay5 x W1 b1 Th) (Cert.KernelIdeal.Gen.k0_pay6 A)
        (Cert.KernelIdeal.Gen.k0_pay7 x W1 b1 Th A) (Cert.KernelIdeal.Gen.k0_pay8 x W1 b1 Th A)
        (Cert.KernelIdeal.Gen.k0_pay9 x W1 b1 Th A) (Cert.KernelIdeal.Gen.k0_pay10 x W1 b1 Th A)
        (Cert.KernelIdeal.Gen.k0_pay11 x W1 b1 Th A) (Cert.KernelIdeal.Gen.k0_pay12 x W1 b1 Th A)
        (Cert.KernelIdeal.Gen.k0_pay13 x W1 b1 Th) W2 b2
      = Cert.ReferenceIdeal.Gen.k0_pay4 (F := Ideal) (Cert.ReferenceIdeal.Gen.k0_pay6 x W1 b1 Th Ak W2 b2)
        (Cert.ReferenceIdeal.Gen.k0_pay7 x W1 b1 Th Ak W2 b2) := by
  have h := pay1_eq x A Ak W1 b1 Th W2 b2 hAk
  unfold Cert.KernelIdeal.Gen.k0_pay4 Cert.ReferenceIdeal.Gen.k0_pay4
  rw [h] <;> rfl

end Cert.BodyBridge

end
-- ==== Proof.Val0Bridge.lean ====
/-
  What the first body of each program leaves in its three output blocks, compared.  Each body stores each output
  once, over the whole block, and loads each input block whole; a single store over the whole block leaves exactly
  the stored value, and a load of the whole block reads the block itself.  So each output block is the stored value
  as a function of the seven input blocks, and these functions agree between the two programs whenever the one
  program's 1024 by 1024 mixing matrix is block diagonal with every diagonal block the other program's 128 by 128
  matrix.
-/
import proofs.«142292_g2000406351686535_pallasbulk_564_2_alg».proof.Proof.KerBody0
import proofs.«142292_g2000406351686535_pallasbulk_564_2_alg».proof.Proof.RefBody0
import proofs.«142292_g2000406351686535_pallasbulk_564_2_alg».proof.Proof.BodyBridge
import Idealize.ShloMosaic.Lib.Pipeline.Value
import Idealize.ShloMosaic.Lib.Pipeline.FrameBody

set_option maxRecDepth 16384

noncomputable section

namespace Cert.Val0Bridge

open Idealize.ShloMosaic Idealize.ShloMosaic.ValueIdx

theorem zeros3 : (![0, 0, 0] : Fin 3 → Nat) = fun _ => 0 := funext fun a => by fin_cases a <;> rfl
theorem zeros2 : (![0, 0] : Fin 2 → Nat) = fun _ => 0 := funext fun a => by fin_cases a <;> rfl

/-- The activation block the two bodies leave is the same. -/
theorem act_eq (x : Vec Ideal Cert.KernelIdeal.S8x128x256 .f32) (A : Vec Ideal Cert.KernelIdeal.S128x128 .bf16)
    (Ak : Vec Ideal Cert.ReferenceIdeal.S1024x1024 .f32) (W1 : Vec Ideal Cert.KernelIdeal.S256x1536 .bf16)
    (b1 : Vec Ideal Cert.KernelIdeal.S1x1536 .f32) (Th : Vec Ideal Cert.KernelIdeal.S512x224 .bf16)
    (W2 : Vec Ideal Cert.KernelIdeal.S224x1152 .bf16) (b2 : Vec Ideal Cert.KernelIdeal.S1x1152 .f32)
    (hAk : ∀ (i j : Fin 8) (p q : Fin 128),
      Ak (ix2 ⟨128 * i.val + p.val, by omega⟩ ⟨128 * j.val + q.val, by omega⟩) = if i = j then A (ix2 p q) else 0) :
    (Cert.KernelIdeal.Body.out0_7 (F := Ideal) x A W1 b1 Th W2 b2 : Cert.KernelIdeal.S8x128x384.Idx → EReal)
      = Cert.ReferenceIdeal.Body.out0_7 (F := Ideal) x Ak W1 b1 Th W2 b2 := by
  unfold Cert.KernelIdeal.Body.out0_7 Cert.ReferenceIdeal.Body.out0_7
  rw [View.canon_unit_zero zeros3, View.canon_unit_zero zeros3]
  simp only [View.ld_unit_zero (S := Cert.KernelIdeal.S8x128x256) zeros3, View.ld_unit_zero (S := Cert.KernelIdeal.S128x128) zeros2,
    View.ld_unit_zero (S := Cert.KernelIdeal.S256x1536) zeros2, View.ld_unit_zero (S := Cert.KernelIdeal.S1x1536) zeros2,
    View.ld_unit_zero (S := Cert.KernelIdeal.S512x224) zeros2, View.ld_unit_zero (S := Cert.KernelIdeal.S224x1152) zeros2,
    View.ld_unit_zero (S := Cert.KernelIdeal.S1x1152) zeros2, View.ld_unit_zero (S := Cert.ReferenceIdeal.S1024x1024) zeros2,
    View.ld_unit_zero (S := Cert.ReferenceIdeal.S8x128x256) zeros3, View.ld_unit_zero (S := Cert.ReferenceIdeal.S256x1536) zeros2,
    View.ld_unit_zero (S := Cert.ReferenceIdeal.S1x1536) zeros2, View.ld_unit_zero (S := Cert.ReferenceIdeal.S512x224) zeros2,
    View.ld_unit_zero (S := Cert.ReferenceIdeal.S224x1152) zeros2, View.ld_unit_zero (S := Cert.ReferenceIdeal.S1x1152) zeros2]
  exact Cert.BodyBridge.out_eq x A Ak W1 b1 Th W2 b2 hAk

/-- The block of sums along the feature axis the two bodies leave is the same. -/
theorem sum_eq' (x : Vec Ideal Cert.KernelIdeal.S8x128x256 .f32) (A : Vec Ideal Cert.KernelIdeal.S128x128 .bf16)
    (Ak : Vec Ideal Cert.ReferenceIdeal.S1024x1024 .f32) (W1 : Vec Ideal Cert.KernelIdeal.S256x1536 .bf16)
    (b1 : Vec Ideal Cert.KernelIdeal.S1x1536 .f32) (Th : Vec Ideal Cert.KernelIdeal.S512x224 .bf16)
    (W2 : Vec Ideal Cert.KernelIdeal.S224x1152 .bf16) (b2 : Vec Ideal Cert.KernelIdeal.S1x1152 .f32)
    (hAk : ∀ (i j : Fin 8) (p q : Fin 128),
      Ak (ix2 ⟨128 * i.val + p.val, by omega⟩ ⟨128 * j.val + q.val, by omega⟩) = if i = j then A (ix2 p q) else 0) :
    (Cert.KernelIdeal.Body.out0_8 (F := Ideal) x A W1 b1 Th W2 b2 : Cert.KernelIdeal.S8x128x1.Idx → EReal)
      = Cert.ReferenceIdeal.Body.out0_8 (F := Ideal) x Ak W1 b1 Th W2 b2 := by
  unfold Cert.KernelIdeal.Body.out0_8 Cert.ReferenceIdeal.Body.out0_8
  rw [View.canon_unit_zero zeros3, View.canon_unit_zero zeros3]
  simp only [View.ld_unit_zero (S := Cert.KernelIdeal.S8x128x256) zeros3, View.ld_unit_zero (S := Cert.KernelIdeal.S128x128) zeros2,
    View.ld_unit_zero (S := Cert.KernelIdeal.S256x1536) zeros2, View.ld_unit_zero (S := Cert.KernelIdeal.S1x1536) zeros2,
    View.ld_unit_zero (S := Cert.KernelIdeal.S512x224) zeros2, View.ld_unit_zero (S := Cert.KernelIdeal.S224x1152) zeros2,
    View.ld_unit_zero (S := Cert.KernelIdeal.S1x1152) zeros2, View.ld_unit_zero (S := Cert.ReferenceIdeal.S1024x1024) zeros2,
    View.ld_unit_zero (S := Cert.ReferenceIdeal.S8x128x256) zeros3, View.ld_unit_zero (S := Cert.ReferenceIdeal.S256x1536) zeros2,
    View.ld_unit_zero (S := Cert.ReferenceIdeal.S1x1536) zeros2, View.ld_unit_zero (S := Cert.ReferenceIdeal.S512x224) zeros2,
    View.ld_unit_zero (S := Cert.ReferenceIdeal.S224x1152) zeros2, View.ld_unit_zero (S := Cert.ReferenceIdeal.S1x1152) zeros2]
  exact Cert.BodyBridge.sum_eq x A Ak W1 b1 Th W2 b2 hAk

/-- The block of sums of squares along the feature axis the two bodies leave is the same. -/
theorem sq_eq' (x : Vec Ideal Cert.KernelIdeal.S8x128x256 .f32) (A : Vec Ideal Cert.KernelIdeal.S128x128 .bf16)
    (Ak : Vec Ideal Cert.ReferenceIdeal.S1024x1024 .f32) (W1 : Vec Ideal Cert.KernelIdeal.S256x1536 .bf16)
    (b1 : Vec Ideal Cert.KernelIdeal.S1x1536 .f32) (Th : Vec Ideal Cert.KernelIdeal.S512x224 .bf16)
    (W2 : Vec Ideal Cert.KernelIdeal.S224x1152 .bf16) (b2 : Vec Ideal Cert.KernelIdeal.S1x1152 .f32)
    (hAk : ∀ (i j : Fin 8) (p q : Fin 128),
      Ak (ix2 ⟨128 * i.val + p.val, by omega⟩ ⟨128 * j.val + q.val, by omega⟩) = if i = j then A (ix2 p q) else 0) :
    (Cert.KernelIdeal.Body.out0_9 (F := Ideal) x A W1 b1 Th W2 b2 : Cert.KernelIdeal.S8x128x1.Idx → EReal)
      = Cert.ReferenceIdeal.Body.out0_9 (F := Ideal) x Ak W1 b1 Th W2 b2 := by
  unfold Cert.KernelIdeal.Body.out0_9 Cert.ReferenceIdeal.Body.out0_9
  rw [View.canon_unit_zero zeros3, View.canon_unit_zero zeros3]
  simp only [View.ld_unit_zero (S := Cert.KernelIdeal.S8x128x256) zeros3, View.ld_unit_zero (S := Cert.KernelIdeal.S128x128) zeros2,
    View.ld_unit_zero (S := Cert.KernelIdeal.S256x1536) zeros2, View.ld_unit_zero (S := Cert.KernelIdeal.S1x1536) zeros2,
    View.ld_unit_zero (S := Cert.KernelIdeal.S512x224) zeros2, View.ld_unit_zero (S := Cert.KernelIdeal.S224x1152) zeros2,
    View.ld_unit_zero (S := Cert.KernelIdeal.S1x1152) zeros2, View.ld_unit_zero (S := Cert.ReferenceIdeal.S1024x1024) zeros2,
    View.ld_unit_zero (S := Cert.ReferenceIdeal.S8x128x256) zeros3, View.ld_unit_zero (S := Cert.ReferenceIdeal.S256x1536) zeros2,
    View.ld_unit_zero (S := Cert.ReferenceIdeal.S1x1536) zeros2, View.ld_unit_zero (S := Cert.ReferenceIdeal.S512x224) zeros2,
    View.ld_unit_zero (S := Cert.ReferenceIdeal.S224x1152) zeros2, View.ld_unit_zero (S := Cert.ReferenceIdeal.S1x1152) zeros2]
  exact Cert.BodyBridge.sq_eq x A Ak W1 b1 Th W2 b2 hAk

end Cert.Val0Bridge

end
-- ==== Proof.ArrBridge.lean ====
/-
  The three arrays the first pass of each program leaves, compared.  Each array is, at batch n, the body's output
  block computed from the eight batches of the input that hold n and from the six whole arrays, read at n's place
  in the block.  The eight batches are the same function of the input in both programs, and the body's output
  blocks agree whenever the one program's 1024 by 1024 mixing matrix is block diagonal with every diagonal block
  the other program's 128 by 128 matrix; so the arrays agree entry by entry.
-/
import proofs.«142292_g2000406351686535_pallasbulk_564_2_alg».proof.Proof.KerVal0
import proofs.«142292_g2000406351686535_pallasbulk_564_2_alg».proof.Proof.RefVal0
import proofs.«142292_g2000406351686535_pallasbulk_564_2_alg».proof.Proof.Val0Bridge

set_option maxRecDepth 16384

noncomputable section

namespace Cert.ArrBridge

open Idealize.ShloMosaic Idealize.ShloMosaic.ValueIdx

/-- The eight batches `8 q … 8 q + 7` of the input are the same function whichever program's name for it is used. -/
theorem batches_eq (x : Vec Ideal Cert.KernelIdeal.S256x128x256 .f32) (q : Fin 32) :
    Cert.KernelIdeal.Val0.batches (F := Ideal) x q = Cert.ReferenceIdeal.Val0.batches (F := Ideal) x q := rfl

/-- The activation array the two programs' first pass leaves is the same function of the arrays it finds. -/
theorem act_eq (x : Vec Ideal Cert.KernelIdeal.S256x128x256 .f32) (A : Vec Ideal Cert.KernelIdeal.S128x128 .bf16)
    (Ak : Vec Ideal Cert.ReferenceIdeal.S1024x1024 .f32) (W1 : Vec Ideal Cert.KernelIdeal.S256x1536 .bf16)
    (b1 : Vec Ideal Cert.KernelIdeal.S1x1536 .f32) (Th : Vec Ideal Cert.KernelIdeal.S512x224 .bf16)
    (W2 : Vec Ideal Cert.KernelIdeal.S224x1152 .bf16) (b2 : Vec Ideal Cert.KernelIdeal.S1x1152 .f32)
    (hAk : ∀ (i j : Fin 8) (p q : Fin 128),
      Ak (ix2 ⟨128 * i.val + p.val, by omega⟩ ⟨128 * j.val + q.val, by omega⟩) = if i = j then A (ix2 p q) else 0) :
    (Cert.KernelIdeal.Val0.actArr (F := Ideal) x A W1 b1 Th W2 b2 : Cert.KernelIdeal.S256x128x384.Idx → EReal)
      = Cert.ReferenceIdeal.Val0.actArr (F := Ideal) x Ak W1 b1 Th W2 b2 := by
  funext i
  unfold Cert.KernelIdeal.Val0.actArr Cert.ReferenceIdeal.Val0.actArr
  rw [← batches_eq]
  exact congrFun (Cert.Val0Bridge.act_eq (Cert.KernelIdeal.Val0.batches x (Cert.KernelIdeal.Val0.blockOf (i 0))) A Ak W1 b1 Th W2 b2 hAk) _

/-- The array of sums along the feature axis is the same. -/
theorem sum_eq (x : Vec Ideal Cert.KernelIdeal.S256x128x256 .f32) (A : Vec Ideal Cert.KernelIdeal.S128x128 .bf16)
    (Ak : Vec Ideal Cert.ReferenceIdeal.S1024x1024 .f32) (W1 : Vec Ideal Cert.KernelIdeal.S256x1536 .bf16)
    (b1 : Vec Ideal Cert.KernelIdeal.S1x1536 .f32) (Th : Vec Ideal Cert.KernelIdeal.S512x224 .bf16)
    (W2 : Vec Ideal Cert.KernelIdeal.S224x1152 .bf16) (b2 : Vec Ideal Cert.KernelIdeal.S1x1152 .f32)
    (hAk : ∀ (i j : Fin 8) (p q : Fin 128),
      Ak (ix2 ⟨128 * i.val + p.val, by omega⟩ ⟨128 * j.val + q.val, by omega⟩) = if i = j then A (ix2 p q) else 0) :
    (Cert.KernelIdeal.Val0.sumArr (F := Ideal) x A W1 b1 Th W2 b2 : Cert.KernelIdeal.S256x128x1.Idx → EReal)
      = Cert.ReferenceIdeal.Val0.sumArr (F := Ideal) x Ak W1 b1 Th W2 b2 := by
  funext i
  unfold Cert.KernelIdeal.Val0.sumArr Cert.ReferenceIdeal.Val0.sumArr
  rw [← batches_eq]
  exact congrFun (Cert.Val0Bridge.sum_eq' (Cert.KernelIdeal.Val0.batches x (Cert.KernelIdeal.Val0.blockOf (i 0))) A Ak W1 b1 Th W2 b2 hAk) _

/-- The array of sums of squares along the feature axis is the same. -/
theorem sq_eq (x : Vec Ideal Cert.KernelIdeal.S256x128x256 .f32) (A : Vec Ideal Cert.KernelIdeal.S128x128 .bf16)
    (Ak : Vec Ideal Cert.ReferenceIdeal.S1024x1024 .f32) (W1 : Vec Ideal Cert.KernelIdeal.S256x1536 .bf16)
    (b1 : Vec Ideal Cert.KernelIdeal.S1x1536 .f32) (Th : Vec Ideal Cert.KernelIdeal.S512x224 .bf16)
    (W2 : Vec Ideal Cert.KernelIdeal.S224x1152 .bf16) (b2 : Vec Ideal Cert.KernelIdeal.S1x1152 .f32)
    (hAk : ∀ (i j : Fin 8) (p q : Fin 128),
      Ak (ix2 ⟨128 * i.val + p.val, by omega⟩ ⟨128 * j.val + q.val, by omega⟩) = if i = j then A (ix2 p q) else 0) :
    (Cert.KernelIdeal.Val0.sqArr (F := Ideal) x A W1 b1 Th W2 b2 : Cert.KernelIdeal.S256x128x1.Idx → EReal)
      = Cert.ReferenceIdeal.Val0.sqArr (F := Ideal) x Ak W1 b1 Th W2 b2 := by
  funext i
  unfold Cert.KernelIdeal.Val0.sqArr Cert.ReferenceIdeal.Val0.sqArr
  rw [← batches_eq]
  exact congrFun (Cert.Val0Bridge.sq_eq' (Cert.KernelIdeal.Val0.batches x (Cert.KernelIdeal.Val0.blockOf (i 0))) A Ak W1 b1 Th W2 b2 hAk) _

end Cert.ArrBridge

end
-- ==== Proof.Bridge.lean ====
import proofs.«142292_g2000406351686535_pallasbulk_564_2_alg».proof.Proof.KerResult
import proofs.«142292_g2000406351686535_pallasbulk_564_2_alg».proof.Proof.RefResult
import proofs.«142292_g2000406351686535_pallasbulk_564_2_alg».proof.Proof.KerEntry
import proofs.«142292_g2000406351686535_pallasbulk_564_2_alg».proof.Proof.RefEntry
import proofs.«142292_g2000406351686535_pallasbulk_564_2_alg».proof.Proof.EntryBridge
import proofs.«142292_g2000406351686535_pallasbulk_564_2_alg».proof.Proof.ArrBridge

/-!
# The two programs' results agree

Each program's result is one function — `resOf` — of the seven arrays its first pass finds and of the two normalisation
parameters; each of the seven arrays is a function of one argument array. When the two programs are launched on equal
arguments, six of the seven arrays are equal outright, and the seventh is the kernel program's `128 × 128` mixing matrix
on one side and, on the other, the block-diagonal `1024 × 1024` matrix with that matrix in every diagonal block; the
three arrays the first pass leaves — activations, sums, sums of squares — do not tell the two apart; and the statistics
and the affine map after them are the same functions. So the results are equal.
-/

set_option maxRecDepth 16384

noncomputable section

namespace Cert.Bridge

open Idealize.ShloMosaic Idealize.ShloMosaic.TcCoe Idealize.SL.Sem

/-- The two result functions at the two programs' own seven arrays of ONE set of arguments. -/
theorem resOf_eq (a0 : Cert.KernelIdeal.S3x3x16x32.Idx → EReal) (a1 : Cert.KernelIdeal.S3x32.Idx → EReal) (a2 : Cert.KernelIdeal.S32x16.Idx → EReal)
    (a3 : Cert.KernelIdeal.S3x3x16x32.Idx → EReal) (a4 : Cert.KernelIdeal.S3x32.Idx → EReal) (a7 : Cert.KernelIdeal.S256x128x16x16.Idx → EReal)
    (a8 : Cert.KernelIdeal.S128x128.Idx → EReal) (g b : Cert.KernelIdeal.S128x1.Idx → EReal) :
    Cert.ReferenceIdeal.Result.resOf (Cert.ReferenceIdeal.Entry.xlR a7) (Cert.ReferenceIdeal.HostKron.AkOf a8) (Cert.ReferenceIdeal.Entry.W1Rof Cert.EntryBridge.T1R a0)
        (Cert.ReferenceIdeal.Entry.B1Rof Cert.EntryBridge.b1R a1) (Cert.ReferenceIdeal.Entry.ThR a2) (Cert.ReferenceIdeal.Entry.W2Rof Cert.EntryBridge.T2R a3)
        (Cert.ReferenceIdeal.Entry.B2Rof Cert.EntryBridge.b2R a4) g b
      = Cert.KernelIdeal.Result.resOf (Cert.KernelIdeal.Entry.xlK a7) (Cert.KernelIdeal.Entry.adjK a8) (Cert.KernelIdeal.Entry.W1K a0) (Cert.KernelIdeal.Entry.B1K a1)
          (Cert.KernelIdeal.Entry.ThK a2) (Cert.KernelIdeal.Entry.W2K a3) (Cert.KernelIdeal.Entry.B2K a4) g b := by
  rw [Cert.EntryBridge.xl_eq, Cert.EntryBridge.th_eq, Cert.EntryBridge.w1_eq, Cert.EntryBridge.b1_eq,
    Cert.EntryBridge.w2_eq, Cert.EntryBridge.b2_eq]
  unfold Cert.ReferenceIdeal.Result.resOf Cert.KernelIdeal.Result.resOf
  rw [Cert.ArrBridge.act_eq _ (Cert.KernelIdeal.Entry.adjK a8) (Cert.ReferenceIdeal.HostKron.AkOf a8) _ _ _ _ _ (Cert.EntryBridge.adj_hAk a8),
    Cert.ArrBridge.sum_eq _ (Cert.KernelIdeal.Entry.adjK a8) (Cert.ReferenceIdeal.HostKron.AkOf a8) _ _ _ _ _ (Cert.EntryBridge.adj_hAk a8),
    Cert.ArrBridge.sq_eq _ (Cert.KernelIdeal.Entry.adjK a8) (Cert.ReferenceIdeal.HostKron.AkOf a8) _ _ _ _ _ (Cert.EntryBridge.adj_hAk a8)] <;> rfl

/-! ## The seven arrays each first pass finds, at the pass's own names for them -/

section Arrays

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (g' : Dev Cert.ReferenceIdeal.nD → PrngReg)

/-- Window 0 of the reference program's first pass: the input viewed as [256, 128, 256]. -/
theorem ref_arr0 (c : Dev Cert.ReferenceIdeal.nD) :
    Cert.ReferenceIdeal.Fold.V31 m' g' c (Pipeline.arrRef Cert.ReferenceIdeal.spec0 0) = Cert.ReferenceIdeal.Entry.xlR (m' ((c : Thread Cert.ReferenceIdeal.nD Cert.ReferenceIdeal.τ).loc Cert.ReferenceIdeal.main_arg7)) :=
  Cert.ReferenceIdeal.Entry.entry_w0 m' g' c
/-- Window 0 of the kernel program's first pass: the input viewed as [256, 128, 256]. -/
theorem ker_arr0 (c : Dev Cert.KernelIdeal.nD) :
    Cert.KernelIdeal.Fold.V29 m g c (Pipeline.arrRef Cert.KernelIdeal.spec0 0) = Cert.KernelIdeal.Entry.xlK (m ((c : Thread Cert.KernelIdeal.nD Cert.KernelIdeal.τ).loc Cert.KernelIdeal.main_arg7)) :=
  Cert.KernelIdeal.Entry.entry_w0 m g c
/-- Window 1 of the reference program's first pass: the mixing matrix. -/
theorem ref_arr1 (c : Dev Cert.ReferenceIdeal.nD) :
    Cert.ReferenceIdeal.Fold.V31 m' g' c (Pipeline.arrRef Cert.ReferenceIdeal.spec0 1) = Cert.ReferenceIdeal.HostKron.AkOf (m' ((c : Thread Cert.ReferenceIdeal.nD Cert.ReferenceIdeal.τ).loc Cert.ReferenceIdeal.main_arg8)) :=
  Cert.ReferenceIdeal.Entry.entry_w1 m' g' c
/-- Window 1 of the kernel program's first pass: the mixing matrix. -/
theorem ker_arr1 (c : Dev Cert.KernelIdeal.nD) :
    Cert.KernelIdeal.Fold.V29 m g c (Pipeline.arrRef Cert.KernelIdeal.spec0 1) = Cert.KernelIdeal.Entry.adjK (m ((c : Thread Cert.KernelIdeal.nD Cert.KernelIdeal.τ).loc Cert.KernelIdeal.main_arg8)) :=
  Cert.KernelIdeal.Entry.entry_w1 m g c
/-- Window 2 of the reference program's first pass: the first convolution's weights. -/
theorem ref_arr2 (c : Dev Cert.ReferenceIdeal.nD) :
    Cert.ReferenceIdeal.Fold.V31 m' g' c (Pipeline.arrRef Cert.ReferenceIdeal.spec0 2) = Cert.ReferenceIdeal.Entry.W1Rof Cert.EntryBridge.T1R (m' ((c : Thread Cert.ReferenceIdeal.nD Cert.ReferenceIdeal.τ).loc Cert.ReferenceIdeal.main_arg0)) :=
  Cert.ReferenceIdeal.Entry.entry_w2_of m' g' c Cert.EntryBridge.bandsR
/-- Window 2 of the kernel program's first pass: the first convolution's weights. -/
theorem ker_arr2 (c : Dev Cert.KernelIdeal.nD) :
    Cert.KernelIdeal.Fold.V29 m g c (Pipeline.arrRef Cert.KernelIdeal.spec0 2) = Cert.KernelIdeal.Entry.W1K (m ((c : Thread Cert.KernelIdeal.nD Cert.KernelIdeal.τ).loc Cert.KernelIdeal.main_arg0)) :=
  Cert.KernelIdeal.Entry.entry_w2 m g c
/-- Window 3 of the reference program's first pass: the first convolution's biases. -/
theorem ref_arr3 (c : Dev Cert.ReferenceIdeal.nD) :
    Cert.ReferenceIdeal.Fold.V31 m' g' c (Pipeline.arrRef Cert.ReferenceIdeal.spec0 3) = Cert.ReferenceIdeal.Entry.B1Rof Cert.EntryBridge.b1R (m' ((c : Thread Cert.ReferenceIdeal.nD Cert.ReferenceIdeal.τ).loc Cert.ReferenceIdeal.main_arg1)) :=
  Cert.ReferenceIdeal.Entry.entry_w3_of m' g' c Cert.EntryBridge.bandsR
/-- Window 3 of the kernel program's first pass: the first convolution's biases. -/
theorem ker_arr3 (c : Dev Cert.KernelIdeal.nD) :
    Cert.KernelIdeal.Fold.V29 m g c (Pipeline.arrRef Cert.KernelIdeal.spec0 3) = Cert.KernelIdeal.Entry.B1K (m ((c : Thread Cert.KernelIdeal.nD Cert.KernelIdeal.τ).loc Cert.KernelIdeal.main_arg1)) :=
  Cert.KernelIdeal.Entry.entry_w3 m g c
/-- Window 4 of the reference program's first pass: the lengthened Kronecker product with Θ₁. -/
theorem ref_arr4 (c : Dev Cert.ReferenceIdeal.nD) :
    Cert.ReferenceIdeal.Fold.V31 m' g' c (Pipeline.arrRef Cert.ReferenceIdeal.spec0 4) = Cert.ReferenceIdeal.Entry.ThR (m' ((c : Thread Cert.ReferenceIdeal.nD Cert.ReferenceIdeal.τ).loc Cert.ReferenceIdeal.main_arg2)) :=
  Cert.ReferenceIdeal.Entry.entry_w4 m' g' c
/-- Window 4 of the kernel program's first pass: the lengthened Kronecker product with Θ₁. -/
theorem ker_arr4 (c : Dev Cert.KernelIdeal.nD) :
    Cert.KernelIdeal.Fold.V29 m g c (Pipeline.arrRef Cert.KernelIdeal.spec0 4) = Cert.KernelIdeal.Entry.ThK (m ((c : Thread Cert.KernelIdeal.nD Cert.KernelIdeal.τ).loc Cert.KernelIdeal.main_arg2)) :=
  Cert.KernelIdeal.Entry.entry_w4 m g c
/-- Window 5 of the reference program's first pass: the second convolution's weights. -/
theorem ref_arr5 (c : Dev Cert.ReferenceIdeal.nD) :
    Cert.ReferenceIdeal.Fold.V31 m' g' c (Pipeline.arrRef Cert.ReferenceIdeal.spec0 5) = Cert.ReferenceIdeal.Entry.W2Rof Cert.EntryBridge.T2R (m' ((c : Thread Cert.ReferenceIdeal.nD Cert.ReferenceIdeal.τ).loc Cert.ReferenceIdeal.main_arg3)) :=
  Cert.ReferenceIdeal.Entry.entry_w5_of m' g' c Cert.EntryBridge.bandsR
/-- Window 5 of the kernel program's first pass: the second convolution's weights. -/
theorem ker_arr5 (c : Dev Cert.KernelIdeal.nD) :
    Cert.KernelIdeal.Fold.V29 m g c (Pipeline.arrRef Cert.KernelIdeal.spec0 5) = Cert.KernelIdeal.Entry.W2K (m ((c : Thread Cert.KernelIdeal.nD Cert.KernelIdeal.τ).loc Cert.KernelIdeal.main_arg3)) :=
  Cert.KernelIdeal.Entry.entry_w5 m g c
/-- Window 6 of the reference program's first pass: the second convolution's biases. -/
theorem ref_arr6 (c : Dev Cert.ReferenceIdeal.nD) :
    Cert.ReferenceIdeal.Fold.V31 m' g' c (Pipeline.arrRef Cert.ReferenceIdeal.spec0 6) = Cert.ReferenceIdeal.Entry.B2Rof Cert.EntryBridge.b2R (m' ((c : Thread Cert.ReferenceIdeal.nD Cert.ReferenceIdeal.τ).loc Cert.ReferenceIdeal.main_arg4)) :=
  Cert.ReferenceIdeal.Entry.entry_w6_of m' g' c Cert.EntryBridge.bandsR
/-- Window 6 of the kernel program's first pass: the second convolution's biases. -/
theorem ker_arr6 (c : Dev Cert.KernelIdeal.nD) :
    Cert.KernelIdeal.Fold.V29 m g c (Pipeline.arrRef Cert.KernelIdeal.spec0 6) = Cert.KernelIdeal.Entry.B2K (m ((c : Thread Cert.KernelIdeal.nD Cert.KernelIdeal.τ).loc Cert.KernelIdeal.main_arg4)) :=
  Cert.KernelIdeal.Entry.entry_w6 m g c

end Arrays

set_option maxHeartbeats 1000000 in
/-- Launched on equal arguments, the reference program's result buffer at the end holds what the kernel program's
    does. -/
theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.ReferenceIdeal.Fold.W35 m' g' c (Proc.devRef .tc Cert.ReferenceIdeal.main_v419) = Cert.KernelIdeal.Fold.W33 m g c (Proc.devRef .tc Cert.KernelIdeal.main_v476) := by
  obtain ⟨h0, h1, h2, h3, h4, h5, h6, h7, h8⟩ := hagree c
  refine (Cert.ReferenceIdeal.Result.result m' g' c).trans ?_
  refine Eq.trans ?_ (Cert.KernelIdeal.Result.result m g c).symm
  rw [ref_arr0 m' g' c, ref_arr1 m' g' c, ref_arr2 m' g' c, ref_arr3 m' g' c, ref_arr4 m' g' c, ref_arr5 m' g' c,
    ref_arr6 m' g' c, ker_arr0 m g c, ker_arr1 m g c, ker_arr2 m g c, ker_arr3 m g c, ker_arr4 m g c, ker_arr5 m g c,
    ker_arr6 m g c, h0, h1, h2, h3, h4, h5, h6, h7, h8]
  exact resOf_eq _ _ _ _ _ _ _ _ _

end Cert.Bridge

end
-- ==== Proof.lean ====
/-
  The certificate of the fused spatio-temporal graph-convolution block: a Pallas kernel program (two regions: the fused
  gated convolution / projection / adjacency mixing / gated convolution pass with its per-(batch, node) sums, and the
  affine normalisation pass) against its reference program (the same two passes with a block-diagonal mixing matrix
  and other tilings).

  The three frames: each program's entry function is run as a list of segments — a host segment per stretch of host
  operations, a region record per Pallas call, each region's body run symbolically at a generic grid point — so that
  every weakly fair execution terminates without a fault with every unscoped buffer at the contents the last boundary
  names; no stretch writes an argument and no region stages one, so the arguments end as launched.

  preserves: the ideal pass rewrote no operation, so the claim is True.

  algebraic: at the Ideal instance (floats are extended reals, operations exact, format changes the identity) both
  programs end with their result buffer at the last boundary's contents; these are equal when the arguments agree
  (Cert.Bridge.result_eq): the banded convolution weights the kernel builds by three scatters of taps and the reference
  by one scatter per output step are one matrix; the reference's product with kron(I_8, A) is the kernel's eight products
  with A on row blocks (0 · x = 0 and x + 0 = x hold on the extended reals, so no finiteness is used); the statistics
  and the affine map are the same operations; the tilings of the two passes cover the same arrays.
-/
import proofs.«142292_g2000406351686535_pallasbulk_564_2_alg».proof.Defs
import proofs.«142292_g2000406351686535_pallasbulk_564_2_alg».proof.Proof.Gen.Kernel
import proofs.«142292_g2000406351686535_pallasbulk_564_2_alg».proof.Proof.Gen.KernelIdeal
import proofs.«142292_g2000406351686535_pallasbulk_564_2_alg».proof.Proof.Gen.ReferenceIdeal
import proofs.«142292_g2000406351686535_pallasbulk_564_2_alg».proof.Proof.Gen.Pre_finite_inputs
import proofs.«142292_g2000406351686535_pallasbulk_564_2_alg».proof.Proof.BitsRun
import proofs.«142292_g2000406351686535_pallasbulk_564_2_alg».proof.Proof.KerRun
import proofs.«142292_g2000406351686535_pallasbulk_564_2_alg».proof.Proof.RefRun
import proofs.«142292_g2000406351686535_pallasbulk_564_2_alg».proof.Proof.Bridge

set_option maxRecDepth 16384

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) := fun m g _ =>
  (θ_run (Cert.Kernel.defs (F := Bits)) _ _).mono (fun r h c =>
    ⟨(h c _ (Cert.Kernel.Run.mem_uc Cert.Kernel.main_arg0 (by decide))).trans (Cert.Kernel.Fold.end_main_arg0 m g c),
      (h c _ (Cert.Kernel.Run.mem_uc Cert.Kernel.main_arg1 (by decide))).trans (Cert.Kernel.Fold.end_main_arg1 m g c),
      (h c _ (Cert.Kernel.Run.mem_uc Cert.Kernel.main_arg2 (by decide))).trans (Cert.Kernel.Fold.end_main_arg2 m g c),
      (h c _ (Cert.Kernel.Run.mem_uc Cert.Kernel.main_arg3 (by decide))).trans (Cert.Kernel.Fold.end_main_arg3 m g c),
      (h c _ (Cert.Kernel.Run.mem_uc Cert.Kernel.main_arg4 (by decide))).trans (Cert.Kernel.Fold.end_main_arg4 m g c),
      (h c _ (Cert.Kernel.Run.mem_uc Cert.Kernel.main_arg5 (by decide))).trans (Cert.Kernel.Fold.end_main_arg5 m g c),
      (h c _ (Cert.Kernel.Run.mem_uc Cert.Kernel.main_arg6 (by decide))).trans (Cert.Kernel.Fold.end_main_arg6 m g c),
      (h c _ (Cert.Kernel.Run.mem_uc Cert.Kernel.main_arg7 (by decide))).trans (Cert.Kernel.Fold.end_main_arg7 m g c),
      (h c _ (Cert.Kernel.Run.mem_uc Cert.Kernel.main_arg8 (by decide))).trans (Cert.Kernel.Fold.end_main_arg8 m g c)⟩)
    (Cert.Kernel.Run.run_all (F := Bits) m g)

/-- The idealized kernel program runs and leaves its arguments as launched. -/
theorem frame_ki : Cert.frame_KernelIdeal (hKernelIdeal := Cert.KernelIdeal.Gen.facts) (hPre_finite_inputs := Cert.Pre_finite_inputs.Gen.facts) := fun m g _ =>
  (θ_run (Cert.KernelIdeal.defs (F := Ideal)) _ _).mono (fun r h c =>
    ⟨(h c _ (Cert.KernelIdeal.Run.mem_uc Cert.KernelIdeal.main_arg0 (by decide))).trans (Cert.KernelIdeal.Fold.end_main_arg0 m g c),
      (h c _ (Cert.KernelIdeal.Run.mem_uc Cert.KernelIdeal.main_arg1 (by decide))).trans (Cert.KernelIdeal.Fold.end_main_arg1 m g c),
      (h c _ (Cert.KernelIdeal.Run.mem_uc Cert.KernelIdeal.main_arg2 (by decide))).trans (Cert.KernelIdeal.Fold.end_main_arg2 m g c),
      (h c _ (Cert.KernelIdeal.Run.mem_uc Cert.KernelIdeal.main_arg3 (by decide))).trans (Cert.KernelIdeal.Fold.end_main_arg3 m g c),
      (h c _ (Cert.KernelIdeal.Run.mem_uc Cert.KernelIdeal.main_arg4 (by decide))).trans (Cert.KernelIdeal.Fold.end_main_arg4 m g c),
      (h c _ (Cert.KernelIdeal.Run.mem_uc Cert.KernelIdeal.main_arg5 (by decide))).trans (Cert.KernelIdeal.Fold.end_main_arg5 m g c),
      (h c _ (Cert.KernelIdeal.Run.mem_uc Cert.KernelIdeal.main_arg6 (by decide))).trans (Cert.KernelIdeal.Fold.end_main_arg6 m g c),
      (h c _ (Cert.KernelIdeal.Run.mem_uc Cert.KernelIdeal.main_arg7 (by decide))).trans (Cert.KernelIdeal.Fold.end_main_arg7 m g c),
      (h c _ (Cert.KernelIdeal.Run.mem_uc Cert.KernelIdeal.main_arg8 (by decide))).trans (Cert.KernelIdeal.Fold.end_main_arg8 m g c)⟩)
    (Cert.KernelIdeal.Run.run_all (F := Ideal) m g)

/-- The idealized reference program runs and leaves its arguments as launched. -/
theorem frame_ri : Cert.frame_ReferenceIdeal (hReferenceIdeal := Cert.ReferenceIdeal.Gen.facts) (hPre_finite_inputs := Cert.Pre_finite_inputs.Gen.facts) := fun m g _ =>
  (θ_run (Cert.ReferenceIdeal.defs (F := Ideal)) _ _).mono (fun r h c =>
    ⟨(h c _ (Cert.ReferenceIdeal.Run.mem_uc Cert.ReferenceIdeal.main_arg0 (by decide))).trans (Cert.ReferenceIdeal.Fold.end_main_arg0 m g c),
      (h c _ (Cert.ReferenceIdeal.Run.mem_uc Cert.ReferenceIdeal.main_arg1 (by decide))).trans (Cert.ReferenceIdeal.Fold.end_main_arg1 m g c),
      (h c _ (Cert.ReferenceIdeal.Run.mem_uc Cert.ReferenceIdeal.main_arg2 (by decide))).trans (Cert.ReferenceIdeal.Fold.end_main_arg2 m g c),
      (h c _ (Cert.ReferenceIdeal.Run.mem_uc Cert.ReferenceIdeal.main_arg3 (by decide))).trans (Cert.ReferenceIdeal.Fold.end_main_arg3 m g c),
      (h c _ (Cert.ReferenceIdeal.Run.mem_uc Cert.ReferenceIdeal.main_arg4 (by decide))).trans (Cert.ReferenceIdeal.Fold.end_main_arg4 m g c),
      (h c _ (Cert.ReferenceIdeal.Run.mem_uc Cert.ReferenceIdeal.main_arg5 (by decide))).trans (Cert.ReferenceIdeal.Fold.end_main_arg5 m g c),
      (h c _ (Cert.ReferenceIdeal.Run.mem_uc Cert.ReferenceIdeal.main_arg6 (by decide))).trans (Cert.ReferenceIdeal.Fold.end_main_arg6 m g c),
      (h c _ (Cert.ReferenceIdeal.Run.mem_uc Cert.ReferenceIdeal.main_arg7 (by decide))).trans (Cert.ReferenceIdeal.Fold.end_main_arg7 m g c),
      (h c _ (Cert.ReferenceIdeal.Run.mem_uc Cert.ReferenceIdeal.main_arg8 (by decide))).trans (Cert.ReferenceIdeal.Fold.end_main_arg8 m g c)⟩)
    (Cert.ReferenceIdeal.Run.run_all (F := Ideal) m g)

/-- Both idealized programs end with equal results: each result buffer is the last boundary's contents, and those agree. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' _ hagree
  refine ⟨fun c => Cert.KernelIdeal.Fold.W33 m g c (Proc.devRef .tc Cert.KernelIdeal.main_v476), ?_, ?_⟩
  · exact (θ_run (Cert.KernelIdeal.defs (F := Ideal)) _ _).mono (fun r h c =>
      ⟨h c _ (Cert.KernelIdeal.Run.mem_uc Cert.KernelIdeal.main_v476 (by decide)),
      (h c _ (Cert.KernelIdeal.Run.mem_uc Cert.KernelIdeal.main_arg0 (by decide))).trans (Cert.KernelIdeal.Fold.end_main_arg0 m g c),
      (h c _ (Cert.KernelIdeal.Run.mem_uc Cert.KernelIdeal.main_arg1 (by decide))).trans (Cert.KernelIdeal.Fold.end_main_arg1 m g c),
      (h c _ (Cert.KernelIdeal.Run.mem_uc Cert.KernelIdeal.main_arg2 (by decide))).trans (Cert.KernelIdeal.Fold.end_main_arg2 m g c),
      (h c _ (Cert.KernelIdeal.Run.mem_uc Cert.KernelIdeal.main_arg3 (by decide))).trans (Cert.KernelIdeal.Fold.end_main_arg3 m g c),
      (h c _ (Cert.KernelIdeal.Run.mem_uc Cert.KernelIdeal.main_arg4 (by decide))).trans (Cert.KernelIdeal.Fold.end_main_arg4 m g c),
      (h c _ (Cert.KernelIdeal.Run.mem_uc Cert.KernelIdeal.main_arg5 (by decide))).trans (Cert.KernelIdeal.Fold.end_main_arg5 m g c),
      (h c _ (Cert.KernelIdeal.Run.mem_uc Cert.KernelIdeal.main_arg6 (by decide))).trans (Cert.KernelIdeal.Fold.end_main_arg6 m g c),
      (h c _ (Cert.KernelIdeal.Run.mem_uc Cert.KernelIdeal.main_arg7 (by decide))).trans (Cert.KernelIdeal.Fold.end_main_arg7 m g c),
      (h c _ (Cert.KernelIdeal.Run.mem_uc Cert.KernelIdeal.main_arg8 (by decide))).trans (Cert.KernelIdeal.Fold.end_main_arg8 m g c)⟩)
      (Cert.KernelIdeal.Run.run_all (F := Ideal) m g)
  · exact (θ_run (Cert.ReferenceIdeal.defs (F := Ideal)) _ _).mono (fun r h c =>
      ⟨(h c _ (Cert.ReferenceIdeal.Run.mem_uc Cert.ReferenceIdeal.main_v419 (by decide))).trans (Cert.Bridge.result_eq m g m' g' hagree c),
      (h c _ (Cert.ReferenceIdeal.Run.mem_uc Cert.ReferenceIdeal.main_arg0 (by decide))).trans (Cert.ReferenceIdeal.Fold.end_main_arg0 m' g' c),
      (h c _ (Cert.ReferenceIdeal.Run.mem_uc Cert.ReferenceIdeal.main_arg1 (by decide))).trans (Cert.ReferenceIdeal.Fold.end_main_arg1 m' g' c),
      (h c _ (Cert.ReferenceIdeal.Run.mem_uc Cert.ReferenceIdeal.main_arg2 (by decide))).trans (Cert.ReferenceIdeal.Fold.end_main_arg2 m' g' c),
      (h c _ (Cert.ReferenceIdeal.Run.mem_uc Cert.ReferenceIdeal.main_arg3 (by decide))).trans (Cert.ReferenceIdeal.Fold.end_main_arg3 m' g' c),
      (h c _ (Cert.ReferenceIdeal.Run.mem_uc Cert.ReferenceIdeal.main_arg4 (by decide))).trans (Cert.ReferenceIdeal.Fold.end_main_arg4 m' g' c),
      (h c _ (Cert.ReferenceIdeal.Run.mem_uc Cert.ReferenceIdeal.main_arg5 (by decide))).trans (Cert.ReferenceIdeal.Fold.end_main_arg5 m' g' c),
      (h c _ (Cert.ReferenceIdeal.Run.mem_uc Cert.ReferenceIdeal.main_arg6 (by decide))).trans (Cert.ReferenceIdeal.Fold.end_main_arg6 m' g' c),
      (h c _ (Cert.ReferenceIdeal.Run.mem_uc Cert.ReferenceIdeal.main_arg7 (by decide))).trans (Cert.ReferenceIdeal.Fold.end_main_arg7 m' g' c),
      (h c _ (Cert.ReferenceIdeal.Run.mem_uc Cert.ReferenceIdeal.main_arg8 (by decide))).trans (Cert.ReferenceIdeal.Fold.end_main_arg8 m' g' c)⟩)
      (Cert.ReferenceIdeal.Run.run_all (F := Ideal) m' g')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
